-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x32 : Shape := ⟨2, ![1600000, 32]⟩
abbrev S3x32x64 : Shape := ⟨3, ![3, 32, 64]⟩
abbrev S3x64 : Shape := ⟨2, ![3, 64]⟩
abbrev S3x64x64 : Shape := ⟨3, ![3, 64, 64]⟩
abbrev S64x64 : Shape := ⟨2, ![64, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S3x32x64 : S_.BroadcastsInDim S3x32x64 (![] : Fin 0 → Fin S3x32x64.rank)
  reducesTo_S3x32x64_S_d0_1_2 : S3x32x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg1 : IVec S2x1600000 32) (main_arg12 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : IVec S1x1600000 32 := (extractStridedSlice S1x1600000 ![0, 0] · slices_S2x1600000_S1x1600000_0_0) main_arg1
  let main_v60 : IVec S1600000 32 := shapeCast S1600000 main_v59 shapeCasts_S1x1600000_S1600000
  let main_c_22 : IVec S_ 32 := constantI S_ 32 0#32
  let main_v61 : IVec S1600000 32 := broadcastInDim S1600000 ![] bcast_S_S1600000 main_c_22
  let main_v62 : IVec S1600000 1 := cmpi .sge main_v60 main_v61
  let main_v63 : IVec S1x1600000 32 := (extractStridedSlice S1x1600000 ![0, 0] · slices_S2x1600000_S1x1600000_0_0) main_arg1
  let main_v64 : IVec S1600000 32 := shapeCast S1600000 main_v63 shapeCasts_S1x1600000_S1600000
  let main_c_23 : IVec S_ 32 := constantI S_ 32 100000#32
  let main_v65 : IVec S1600000 32 := broadcastInDim S1600000 ![] bcast_S_S1600000 main_c_23
  let main_v66 : IVec S1600000 1 := cmpi .slt main_v64 main_v65
  let main_v67 : IVec S1600000 1 := andi main_v62 main_v66
  let main_c_24 : IVec S_ 1 := constantI S_ 1 1#1
  let main_v68 : IVec S_ 1 := (fun x v => Host.reduce IntOp.andi x v reducesTo_S1600000_S_d0 h_S_) main_v67 main_c_24
  fn_part4 (F := F) main_v58 main_v68

def fn_part2 {F : FTy → Type} [FloatOps F] (main_arg1 : IVec S2x1600000 32) (main_arg8 : FVec F S3x64 .f32) (main_arg9 : FVec F S3x64 .f32) (main_arg10 : FVec F S3x64 .f32) (main_arg11 : FVec F S64x64 .f32) (main_arg12 : FVec F S64 .f32) (main_v33 : IVec S_ 1) : IVec S_ 1 :=
  let main_v34 : FVec F S3x64 .f32 := Host.absf main_arg8
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64 .f32 := Host.absf main_arg9
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64 .f32 := Host.absf main_arg10
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg1 main_arg12 main_v48 main_v49 main_v50

def fn_part1 {F : FTy → Type} [FloatOps F] (main_arg1 : IVec S2x1600000 32) (main_arg5 : FVec F S3x64x64 .f32) (main_arg6 : FVec F S3x64 .f32) (main_arg7 : FVec F S3x64x64 .f32) (main_arg8 : FVec F S3x64 .f32) (main_arg9 : FVec F S3x64 .f32) (main_arg10 : FVec F S3x64 .f32) (main_arg11 : FVec F S64x64 .f32) (main_arg12 : FVec F S64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64x64 .f32 := Host.absf main_arg5
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg6
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64x64 .f32 := Host.absf main_arg7
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S100000x64 .f32) (main_arg1 : IVec S2x1600000 32) (main_arg2 : FVec F S1600000x32 .f32) (main_arg3 : FVec F S3x32x64 .f32) (main_arg4 : FVec F S3x64 .f32) (main_arg5 : FVec F S3x64x64 .f32) (main_arg6 : FVec F S3x64 .f32) (main_arg7 : FVec F S3x64x64 .f32) (main_arg8 : FVec F S3x64 .f32) (main_arg9 : FVec F S3x64 .f32) (main_arg10 : FVec F S3x64 .f32) (main_arg11 : FVec F S64x64 .f32) (main_arg12 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S3x32x64 .f32 := Host.absf main_arg3
  let main_cst_2 : FVec F S_ .f32 := constant S_ .f32 0x7F800000#32
  let main_v10 : FVec F S3x32x64 .f32 := broadcastInDim S3x32x64 ![] bcast_S_S3x32x64 main_cst_2
  let main_v11 : IVec S3x32x64 1 := cmpf .olt main_v9 main_v10
  let main_c_3 : IVec S_ 1 := constantI S_ 1 1#1
  let main_v12 : IVec S_ 1 := (fun x v => Host.reduce IntOp.andi x v reducesTo_S3x32x64_S_d0_1_2 h_S_) main_v11 main_c_3
  let main_v13 : IVec S_ 1 := andi main_v8 main_v12
  let main_v14 : FVec F S3x64 .f32 := Host.absf main_arg4
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg1 main_arg5 main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S1600000x32 : Shape := ⟨2, ![1600000, 32]⟩
abbrev S3x32x64 : Shape := ⟨3, ![3, 32, 64]⟩
abbrev S3x64 : Shape := ⟨2, ![3, 64]⟩
abbrev S3x64x64 : Shape := ⟨3, ![3, 64, 64]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S1x32x64 : Shape := ⟨3, ![1, 32, 64]⟩
abbrev S32x64 : Shape := ⟨2, ![32, 64]⟩
abbrev S1x64 : Shape := ⟨2, ![1, 64]⟩
abbrev S12800x64 : Shape := ⟨2, ![12800, 64]⟩
abbrev S12800x32 : Shape := ⟨2, ![12800, 32]⟩
abbrev S1x64x64 : Shape := ⟨3, ![1, 64, 64]⟩
abbrev S5000x64 : Shape := ⟨2, ![5000, 64]⟩

abbrev nBuf : Space → Nat
  | .hbm => 262
  | .vmem => 84
  | .smem => 0
  | _ => 0

abbrev hbmTy0_0 (i : Nat) : BufTy := match i % 128 with
  | 0 => ⟨S100000x64, .f32⟩
  | 1 => ⟨S2x1600000, .i32⟩
  | 2 => ⟨S1600000x32, .f32⟩
  | 3 => ⟨S3x32x64, .f32⟩
  | 4 => ⟨S3x64, .f32⟩
  | 5 => ⟨S3x64x64, .f32⟩
  | 6 => ⟨S3x64, .f32⟩
  | 7 => ⟨S3x64x64, .f32⟩
  | 8 => ⟨S3x64, .f32⟩
  | 9 => ⟨S3x64, .f32⟩
  | 10 => ⟨S3x64, .f32⟩
  | 11 => ⟨S64x64, .f32⟩
  | 12 => ⟨S64, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1, .i32⟩
  | 26 => ⟨S_, .i32⟩
  | 27 => ⟨S1600000x1, .i32⟩
  | 28 => ⟨S1600000x1, .i1⟩
  | 29 => ⟨S1x1, .i32⟩
  | 30 => ⟨S1600000x1, .i32⟩
  | 31 => ⟨S1600000x1, .i1⟩
  | 32 => ⟨S1600000x1, .i1⟩
  | 33 => ⟨S_, .i1⟩
  | 34 => ⟨S1600000, .i1⟩
  | 35 => ⟨S1600000x64, .f32⟩
  | 36 => ⟨S1600000x64, .i1⟩
  | 37 => ⟨S_, .f32⟩
  | 38 => ⟨S1600000x64, .f32⟩
  | 39 => ⟨S1600000x64, .f32⟩
  | 40 => ⟨S1x32x64, .f32⟩
  | 41 => ⟨S32x64, .f32⟩
  | 42 => ⟨S1x64, .f32⟩
  | 43 => ⟨S64, .f32⟩
  | 44 => ⟨S1x64, .f32⟩
  | 45 => ⟨S1600000x64, .f32⟩
  | 46 => ⟨S_, .f32⟩
  | 47 => ⟨S100000x64, .f32⟩
  | 48 => ⟨S1600000x1, .i32⟩
  | 49 => ⟨S100000x64, .f32⟩
  | 50 => ⟨S1x64x64, .f32⟩
  | 51 => ⟨S64x64, .f32⟩
  | 52 => ⟨S1x64, .f32⟩
  | 53 => ⟨S64, .f32⟩
  | 54 => ⟨S1x64x64, .f32⟩
  | 55 => ⟨S64x64, .f32⟩
  | 56 => ⟨S1x64, .f32⟩
  | 57 => ⟨S64, .f32⟩
  | 58 => ⟨S1x64, .f32⟩
  | 59 => ⟨S1x64, .f32⟩
  | 60 => ⟨S100000x64, .f32⟩
  | 61 => ⟨S_, .f32⟩
  | 62 => ⟨S64, .f32⟩
  | 63 => ⟨S_, .f32⟩
  | 64 => ⟨S64, .f32⟩
  | 65 => ⟨S64, .f32⟩
  | 66 => ⟨S_, .i32⟩
  | 67 => ⟨S_, .f32⟩
  | 68 => ⟨S64, .f32⟩
  | 69 => ⟨S1x64, .f32⟩
  | 70 => ⟨S_, .f32⟩
  | 71 => ⟨S1x64, .f32⟩
  | 72 => ⟨S1x64, .f32⟩
  | 73 => ⟨S100000x64, .f32⟩
  | 74 => ⟨S100000x64, .f32⟩
  | 75 => ⟨S100000x64, .f32⟩
  | 76 => ⟨S_, .f32⟩
  | 77 => ⟨S_, .f32⟩
  | 78 => ⟨S_, .f32⟩
  | 79 => ⟨S_, .f32⟩
  | 80 => ⟨S64, .f32⟩
  | 81 => ⟨S64, .f32⟩
  | 82 => ⟨S64, .f32⟩
  | 83 => ⟨S_, .f32⟩
  | 84 => ⟨S_, .i1⟩
  | 85 => ⟨S_, .f32⟩
  | 86 => ⟨S_, .f32⟩
  | 87 => ⟨S64, .f32⟩
  | 88 => ⟨S64, .f32⟩
  | 89 => ⟨S1x64, .f32⟩
  | 90 => ⟨S64, .f32⟩
  | 91 => ⟨S1x64, .f32⟩
  | 92 => ⟨S64, .f32⟩
  | 93 => ⟨S1x64, .f32⟩
  | 94 => ⟨S1x64, .f32⟩
  | 95 => ⟨S1x64, .f32⟩
  | 96 => ⟨S1x64, .f32⟩
  | 97 => ⟨S100000x64, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1, .i32⟩
  | 107 => ⟨S_, .i32⟩
  | 108 => ⟨S1600000x1, .i32⟩
  | 109 => ⟨S1600000x1, .i1⟩
  | 110 => ⟨S1x1, .i32⟩
  | 111 => ⟨S1600000x1, .i32⟩
  | 112 => ⟨S1600000x1, .i1⟩
  | 113 => ⟨S1600000x1, .i1⟩
  | 114 => ⟨S_, .i1⟩
  | 115 => ⟨S1600000, .i1⟩
  | 116 => ⟨S1600000x64, .f32⟩
  | 117 => ⟨S1600000x64, .i1⟩
  | 118 => ⟨S_, .f32⟩
  | 119 => ⟨S1600000x64, .f32⟩
  | 120 => ⟨S1600000x64, .f32⟩
  | 121 => ⟨S1x32x64, .f32⟩
  | 122 => ⟨S32x64, .f32⟩
  | 123 => ⟨S1x64, .f32⟩
  | 124 => ⟨S64, .f32⟩
  | 125 => ⟨S1x64, .f32⟩
  | 126 => ⟨S1600000x64, .f32⟩
  | 127 => ⟨S_, .f32⟩
  | _ => ⟨S100000x64, .f32⟩

abbrev hbmTy0_1 (i : Nat) : BufTy := match i % 128 with
  | 0 => ⟨S100000x64, .f32⟩
  | 1 => ⟨S1600000x1, .i32⟩
  | 2 => ⟨S100000x64, .f32⟩
  | 3 => ⟨S1x64x64, .f32⟩
  | 4 => ⟨S64x64, .f32⟩
  | 5 => ⟨S1x64, .f32⟩
  | 6 => ⟨S64, .f32⟩
  | 7 => ⟨S1x64x64, .f32⟩
  | 8 => ⟨S64x64, .f32⟩
  | 9 => ⟨S1x64, .f32⟩
  | 10 => ⟨S64, .f32⟩
  | 11 => ⟨S1x64, .f32⟩
  | 12 => ⟨S1x64, .f32⟩
  | 13 => ⟨S100000x64, .f32⟩
  | 14 => ⟨S_, .f32⟩
  | 15 => ⟨S64, .f32⟩
  | 16 => ⟨S_, .f32⟩
  | 17 => ⟨S64, .f32⟩
  | 18 => ⟨S64, .f32⟩
  | 19 => ⟨S_, .i32⟩
  | 20 => ⟨S_, .f32⟩
  | 21 => ⟨S64, .f32⟩
  | 22 => ⟨S1x64, .f32⟩
  | 23 => ⟨S_, .f32⟩
  | 24 => ⟨S1x64, .f32⟩
  | 25 => ⟨S1x64, .f32⟩
  | 26 => ⟨S100000x64, .f32⟩
  | 27 => ⟨S100000x64, .f32⟩
  | 28 => ⟨S100000x64, .f32⟩
  | 29 => ⟨S_, .f32⟩
  | 30 => ⟨S_, .f32⟩
  | 31 => ⟨S_, .f32⟩
  | 32 => ⟨S_, .f32⟩
  | 33 => ⟨S64, .f32⟩
  | 34 => ⟨S64, .f32⟩
  | 35 => ⟨S64, .f32⟩
  | 36 => ⟨S_, .f32⟩
  | 37 => ⟨S_, .i1⟩
  | 38 => ⟨S_, .f32⟩
  | 39 => ⟨S_, .f32⟩
  | 40 => ⟨S64, .f32⟩
  | 41 => ⟨S64, .f32⟩
  | 42 => ⟨S1x64, .f32⟩
  | 43 => ⟨S64, .f32⟩
  | 44 => ⟨S1x64, .f32⟩
  | 45 => ⟨S64, .f32⟩
  | 46 => ⟨S1x64, .f32⟩
  | 47 => ⟨S1x64, .f32⟩
  | 48 => ⟨S1x64, .f32⟩
  | 49 => ⟨S1x64, .f32⟩
  | 50 => ⟨S100000x64, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1, .i32⟩
  | 60 => ⟨S_, .i32⟩
  | 61 => ⟨S1600000x1, .i32⟩
  | 62 => ⟨S1600000x1, .i1⟩
  | 63 => ⟨S1x1, .i32⟩
  | 64 => ⟨S1600000x1, .i32⟩
  | 65 => ⟨S1600000x1, .i1⟩
  | 66 => ⟨S1600000x1, .i1⟩
  | 67 => ⟨S_, .i1⟩
  | 68 => ⟨S1600000, .i1⟩
  | 69 => ⟨S1600000x64, .f32⟩
  | 70 => ⟨S1600000x64, .i1⟩
  | 71 => ⟨S_, .f32⟩
  | 72 => ⟨S1600000x64, .f32⟩
  | 73 => ⟨S1600000x64, .f32⟩
  | 74 => ⟨S1x32x64, .f32⟩
  | 75 => ⟨S32x64, .f32⟩
  | 76 => ⟨S1x64, .f32⟩
  | 77 => ⟨S64, .f32⟩
  | 78 => ⟨S1x64, .f32⟩
  | 79 => ⟨S1600000x64, .f32⟩
  | 80 => ⟨S_, .f32⟩
  | 81 => ⟨S100000x64, .f32⟩
  | 82 => ⟨S1600000x1, .i32⟩
  | 83 => ⟨S100000x64, .f32⟩
  | 84 => ⟨S1x64x64, .f32⟩
  | 85 => ⟨S64x64, .f32⟩
  | 86 => ⟨S1x64, .f32⟩
  | 87 => ⟨S64, .f32⟩
  | 88 => ⟨S1x64x64, .f32⟩
  | 89 => ⟨S64x64, .f32⟩
  | 90 => ⟨S1x64, .f32⟩
  | 91 => ⟨S64, .f32⟩
  | 92 => ⟨S1x64, .f32⟩
  | 93 => ⟨S1x64, .f32⟩
  | 94 => ⟨S100000x64, .f32⟩
  | 95 => ⟨S_, .f32⟩
  | 96 => ⟨S64, .f32⟩
  | 97 => ⟨S_, .f32⟩
  | 98 => ⟨S64, .f32⟩
  | 99 => ⟨S64, .f32⟩
  | 100 => ⟨S_, .i32⟩
  | 101 => ⟨S_, .f32⟩
  | 102 => ⟨S64, .f32⟩
  | 103 => ⟨S1x64, .f32⟩
  | 104 => ⟨S_, .f32⟩
  | 105 => ⟨S1x64, .f32⟩
  | 106 => ⟨S1x64, .f32⟩
  | 107 => ⟨S100000x64, .f32⟩
  | 108 => ⟨S100000x64, .f32⟩
  | 109 => ⟨S100000x64, .f32⟩
  | 110 => ⟨S_, .f32⟩
  | 111 => ⟨S_, .f32⟩
  | 112 => ⟨S_, .f32⟩
  | 113 => ⟨S_, .f32⟩
  | 114 => ⟨S64, .f32⟩
  | 115 => ⟨S64, .f32⟩
  | 116 => ⟨S64, .f32⟩
  | 117 => ⟨S_, .f32⟩
  | 118 => ⟨S_, .i1⟩
  | 119 => ⟨S_, .f32⟩
  | 120 => ⟨S_, .f32⟩
  | 121 => ⟨S64, .f32⟩
  | 122 => ⟨S64, .f32⟩
  | 123 => ⟨S1x64, .f32⟩
  | 124 => ⟨S64, .f32⟩
  | 125 => ⟨S1x64, .f32⟩
  | 126 => ⟨S64, .f32⟩
  | 127 => ⟨S1x64, .f32⟩
  | _ => ⟨S100000x64, .f32⟩

abbrev hbmTy0_2 (i : Nat) : BufTy := match i % 128 with
  | 0 => ⟨S1x64, .f32⟩
  | 1 => ⟨S1x64, .f32⟩
  | 2 => ⟨S1x64, .f32⟩
  | 3 => ⟨S100000x64, .f32⟩
  | 4 => ⟨S1x64, .f32⟩
  | 5 => ⟨S100000x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S12800x64, .f32⟩
  | .local _ .vmem, ⟨1, _⟩ => ⟨S12800x64, .f32⟩
  | .local _ .vmem, ⟨2, _⟩ => ⟨S12800x32, .f32⟩
  | .local _ .vmem, ⟨3, _⟩ => ⟨S12800x32, .f32⟩
  | .local _ .vmem, ⟨4, _⟩ => ⟨S32x64, .f32⟩
  | .local _ .vmem, ⟨5, _⟩ => ⟨S1x64, .f32⟩
  | .local _ .vmem, ⟨6, _⟩ => ⟨S12800x64, .f32⟩
  | .local _ .vmem, ⟨7, _⟩ => ⟨S12800x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S12800x64, .f32⟩
  | .local _ .vmem, ⟨27, _⟩ => ⟨S12800x64, .f32⟩
  | .local _ .vmem, ⟨28, _⟩ => ⟨S12800x32, .f32⟩
  | .local _ .vmem, ⟨29, _⟩ => ⟨S12800x32, .f32⟩
  | .local _ .vmem, ⟨30, _⟩ => ⟨S32x64, .f32⟩
  | .local _ .vmem, ⟨31, _⟩ => ⟨S1x64, .f32⟩
  | .local _ .vmem, ⟨32, _⟩ => ⟨S12800x64, .f32⟩
  | .local _ .vmem, ⟨33, _⟩ => ⟨S12800x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S1x64, .f32⟩
  | .local _ .vmem, ⟨40, _⟩ => ⟨S64x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S5000x64, .f32⟩
  | .local _ .vmem, ⟨51, _⟩ => ⟨S5000x64, .f32⟩
  | .local _ .vmem, ⟨52, _⟩ => ⟨S12800x64, .f32⟩
  | .local _ .vmem, ⟨53, _⟩ => ⟨S12800x64, .f32⟩
  | .local _ .vmem, ⟨54, _⟩ => ⟨S12800x32, .f32⟩
  | .local _ .vmem, ⟨55, _⟩ => ⟨S12800x32, .f32⟩
  | .local _ .vmem, ⟨56, _⟩ => ⟨S32x64, .f32⟩
  | .local _ .vmem, ⟨57, _⟩ => ⟨S1x64, .f32⟩
  | .local _ .vmem, ⟨58, _⟩ => ⟨S12800x64, .f32⟩
  | .local _ .vmem, ⟨59, _⟩ => ⟨S12800x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S64x64, .f32⟩
  | .local _ .vmem, ⟨65, _⟩ => ⟨S1x64, .f32⟩
  | .local _ .vmem, ⟨66, _⟩ => ⟨S64x64, .f32⟩
  | .local _ .vmem, ⟨67, _⟩ => ⟨S1x64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S5000x64, .f32⟩
  | .local _ .vmem, ⟨72, _⟩ => ⟨S1x64, .f32⟩
  | .local _ .vmem, ⟨73, _⟩ => ⟨S1x64, .f32⟩
  | .local _ .vmem, ⟨74, _⟩ => ⟨S1x64, .f32⟩
  | .local _ .vmem, ⟨75, _⟩ => ⟨S1x64, .f32⟩
  | .local _ .vmem, ⟨76, _⟩ => ⟨S5000x64, .f32⟩
  | .local _ .vmem, ⟨77, _⟩ => ⟨S5000x64, .f32⟩
  | .local _ .vmem, ⟨78, _⟩ => ⟨S5000x64, .f32⟩
  | .local _ .vmem, ⟨79, _⟩ => ⟨S5000x64, .f32⟩
  | .local _ .vmem, ⟨80, _⟩ => ⟨S64x64, .f32⟩
  | .local _ .vmem, ⟨81, _⟩ => ⟨S1x64, .f32⟩
  | .local _ .vmem, ⟨82, _⟩ => ⟨S5000x64, .f32⟩
  | .local _ .vmem, ⟨83, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_cst : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_0 : Ref sig .tc := ⟨.hbm, 61, rfl⟩
abbrev main_v25 : Ref sig .tc := ⟨.hbm, 62, rfl⟩
abbrev main_cst_1 : Ref sig .tc := ⟨.hbm, 63, rfl⟩
abbrev main_v26 : Ref sig .tc := ⟨.hbm, 64, rfl⟩
abbrev main_v27 : Ref sig .tc := ⟨.hbm, 65, rfl⟩
abbrev main_c : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_cst_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_cst_1 : Ref sig .tc := ⟨.hbm, 77, rfl⟩
abbrev main_call1_v8 : Ref sig .tc := ⟨.hbm, 78, rfl⟩
abbrev main_call1_cst_2 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_cst_3 : Ref sig .tc := ⟨.hbm, 83, rfl⟩
abbrev main_call1_v12 : Ref sig .tc := ⟨.hbm, 84, rfl⟩
abbrev main_call1_cst_4 : Ref sig .tc := ⟨.hbm, 85, rfl⟩
abbrev main_call1_call0_v0 : Ref sig .tc := ⟨.hbm, 86, rfl⟩
abbrev main_call1_call0_v1 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_call2_c : Ref sig .tc := ⟨.hbm, 98, rfl⟩
abbrev main_call2_v0 : Ref sig .tc := ⟨.hbm, 99, rfl⟩
abbrev main_call2_v1 : Ref sig .tc := ⟨.hbm, 100, rfl⟩
abbrev main_call2_c_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_c_1 : Ref sig .tc := ⟨.hbm, 106, rfl⟩
abbrev main_call2_c_2 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_3 : Ref sig .tc := ⟨.hbm, 114, rfl⟩
abbrev main_call2_v12 : Ref sig .tc := ⟨.hbm, 115, rfl⟩
abbrev main_call2_v13 : Ref sig .tc := ⟨.hbm, 116, rfl⟩
abbrev main_call2_v14 : Ref sig .tc := ⟨.hbm, 117, rfl⟩
abbrev main_call2_cst : Ref sig .tc := ⟨.hbm, 118, rfl⟩
abbrev main_call2_v15 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_cst_2 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_cst_3 : Ref sig .tc := ⟨.hbm, 142, rfl⟩
abbrev main_v59 : Ref sig .tc := ⟨.hbm, 143, rfl⟩
abbrev main_cst_4 : Ref sig .tc := ⟨.hbm, 144, rfl⟩
abbrev main_v60 : Ref sig .tc := ⟨.hbm, 145, rfl⟩
abbrev main_v61 : Ref sig .tc := ⟨.hbm, 146, rfl⟩
abbrev main_c_5 : Ref sig .tc := ⟨.hbm, 147, rfl⟩
abbrev main_call3_cst : Ref sig .tc := ⟨.hbm, 148, rfl⟩
abbrev main_call3_v0 : Ref sig .tc := ⟨.hbm, 149, rfl⟩
abbrev main_call3_v1 : Ref sig .tc := ⟨.hbm, 150, rfl⟩
abbrev main_call3_cst_0 : Ref sig .tc := ⟨.hbm, 151, rfl⟩
abbrev main_call3_v2 : Ref sig .tc := ⟨.hbm, 152, rfl⟩
abbrev main_call3_v3 : Ref sig .tc := ⟨.hbm, 153, rfl⟩
abbrev main_call3_v4 : Ref sig .tc := ⟨.hbm, 154, rfl⟩
abbrev main_call3_v5 : Ref sig .tc := ⟨.hbm, 155, rfl⟩
abbrev main_call3_v6 : Ref sig .tc := ⟨.hbm, 156, rfl⟩
abbrev main_call3_v7 : Ref sig .tc := ⟨.hbm, 157, rfl⟩
abbrev main_call3_cst_1 : Ref sig .tc := ⟨.hbm, 158, rfl⟩
abbrev main_call3_v8 : Ref sig .tc := ⟨.hbm, 159, rfl⟩
abbrev main_call3_cst_2 : Ref sig .tc := ⟨.hbm, 160, rfl⟩
abbrev main_call3_v9 : Ref sig .tc := ⟨.hbm, 161, rfl⟩
abbrev main_call3_v10 : Ref sig .tc := ⟨.hbm, 162, rfl⟩
abbrev main_call3_v11 : Ref sig .tc := ⟨.hbm, 163, rfl⟩
abbrev main_call3_cst_3 : Ref sig .tc := ⟨.hbm, 164, rfl⟩
abbrev main_call3_v12 : Ref sig .tc := ⟨.hbm, 165, rfl⟩
abbrev main_call3_cst_4 : Ref sig .tc := ⟨.hbm, 166, rfl⟩
abbrev main_call3_call0_v0 : Ref sig .tc := ⟨.hbm, 167, rfl⟩
abbrev main_call3_call0_v1 : Ref sig .tc := ⟨.hbm, 168, rfl⟩
abbrev main_v62 : Ref sig .tc := ⟨.hbm, 169, rfl⟩
abbrev main_v63 : Ref sig .tc := ⟨.hbm, 170, rfl⟩
abbrev main_v64 : Ref sig .tc := ⟨.hbm, 171, rfl⟩
abbrev main_v65 : Ref sig .tc := ⟨.hbm, 172, rfl⟩
abbrev main_v66 : Ref sig .tc := ⟨.hbm, 173, rfl⟩
abbrev main_v67 : Ref sig .tc := ⟨.hbm, 174, rfl⟩
abbrev main_v68 : Ref sig .tc := ⟨.hbm, 175, rfl⟩
abbrev main_v69 : Ref sig .tc := ⟨.hbm, 176, rfl⟩
abbrev main_v70 : Ref sig .tc := ⟨.hbm, 177, rfl⟩
abbrev main_v71 : Ref sig .tc := ⟨.hbm, 178, rfl⟩
abbrev main_call4_c : Ref sig .tc := ⟨.hbm, 179, rfl⟩
abbrev main_call4_v0 : Ref sig .tc := ⟨.hbm, 180, rfl⟩
abbrev main_call4_v1 : Ref sig .tc := ⟨.hbm, 181, rfl⟩
abbrev main_call4_c_0 : Ref sig .tc := ⟨.hbm, 182, rfl⟩
abbrev main_call4_v2 : Ref sig .tc := ⟨.hbm, 183, rfl⟩
abbrev main_call4_v3 : Ref sig .tc := ⟨.hbm, 184, rfl⟩
abbrev main_call4_v4 : Ref sig .tc := ⟨.hbm, 185, rfl⟩
abbrev main_call4_v5 : Ref sig .tc := ⟨.hbm, 186, rfl⟩
abbrev main_call4_c_1 : Ref sig .tc := ⟨.hbm, 187, rfl⟩
abbrev main_call4_c_2 : Ref sig .tc := ⟨.hbm, 188, rfl⟩
abbrev main_call4_v6 : Ref sig .tc := ⟨.hbm, 189, rfl⟩
abbrev main_call4_v7 : Ref sig .tc := ⟨.hbm, 190, rfl⟩
abbrev main_call4_v8 : Ref sig .tc := ⟨.hbm, 191, rfl⟩
abbrev main_call4_v9 : Ref sig .tc := ⟨.hbm, 192, rfl⟩
abbrev main_call4_v10 : Ref sig .tc := ⟨.hbm, 193, rfl⟩
abbrev main_call4_v11 : Ref sig .tc := ⟨.hbm, 194, rfl⟩
abbrev main_call4_c_3 : Ref sig .tc := ⟨.hbm, 195, rfl⟩
abbrev main_call4_v12 : Ref sig .tc := ⟨.hbm, 196, rfl⟩
abbrev main_call4_v13 : Ref sig .tc := ⟨.hbm, 197, rfl⟩
abbrev main_call4_v14 : Ref sig .tc := ⟨.hbm, 198, rfl⟩
abbrev main_call4_cst : Ref sig .tc := ⟨.hbm, 199, rfl⟩
abbrev main_call4_v15 : Ref sig .tc := ⟨.hbm, 200, rfl⟩
abbrev main_v72 : Ref sig .tc := ⟨.hbm, 201, rfl⟩
abbrev main_v73 : Ref sig .tc := ⟨.hbm, 202, rfl⟩
abbrev main_v74 : Ref sig .tc := ⟨.hbm, 203, rfl⟩
abbrev main_v75 : Ref sig .tc := ⟨.hbm, 204, rfl⟩
abbrev main_v76 : Ref sig .tc := ⟨.hbm, 205, rfl⟩
abbrev main_v77 : Ref sig .tc := ⟨.hbm, 206, rfl⟩
abbrev main_v78 : Ref sig .tc := ⟨.hbm, 207, rfl⟩
abbrev main_cst_6 : Ref sig .tc := ⟨.hbm, 208, rfl⟩
abbrev main_v79 : Ref sig .tc := ⟨.hbm, 209, rfl⟩
abbrev main_v80 : Ref sig .tc := ⟨.hbm, 210, rfl⟩
abbrev main_v81 : Ref sig .tc := ⟨.hbm, 211, rfl⟩
abbrev main_v82 : Ref sig .tc := ⟨.hbm, 212, rfl⟩
abbrev main_v83 : Ref sig .tc := ⟨.hbm, 213, rfl⟩
abbrev main_v84 : Ref sig .tc := ⟨.hbm, 214, rfl⟩
abbrev main_v85 : Ref sig .tc := ⟨.hbm, 215, rfl⟩
abbrev main_v86 : Ref sig .tc := ⟨.hbm, 216, rfl⟩
abbrev main_v87 : Ref sig .tc := ⟨.hbm, 217, rfl⟩
abbrev main_v88 : Ref sig .tc := ⟨.hbm, 218, rfl⟩
abbrev main_v89 : Ref sig .tc := ⟨.hbm, 219, rfl⟩
abbrev main_v90 : Ref sig .tc := ⟨.hbm, 220, rfl⟩
abbrev main_v91 : Ref sig .tc := ⟨.hbm, 221, rfl⟩
abbrev main_v92 : Ref sig .tc := ⟨.hbm, 222, rfl⟩
abbrev main_cst_7 : Ref sig .tc := ⟨.hbm, 223, rfl⟩
abbrev main_v93 : Ref sig .tc := ⟨.hbm, 224, rfl⟩
abbrev main_cst_8 : Ref sig .tc := ⟨.hbm, 225, rfl⟩
abbrev main_v94 : Ref sig .tc := ⟨.hbm, 226, rfl⟩
abbrev main_v95 : Ref sig .tc := ⟨.hbm, 227, rfl⟩
abbrev main_c_9 : Ref sig .tc := ⟨.hbm, 228, rfl⟩
abbrev main_call5_cst : Ref sig .tc := ⟨.hbm, 229, rfl⟩
abbrev main_call5_v0 : Ref sig .tc := ⟨.hbm, 230, rfl⟩
abbrev main_call5_v1 : Ref sig .tc := ⟨.hbm, 231, rfl⟩
abbrev main_call5_cst_0 : Ref sig .tc := ⟨.hbm, 232, rfl⟩
abbrev main_call5_v2 : Ref sig .tc := ⟨.hbm, 233, rfl⟩
abbrev main_call5_v3 : Ref sig .tc := ⟨.hbm, 234, rfl⟩
abbrev main_call5_v4 : Ref sig .tc := ⟨.hbm, 235, rfl⟩
abbrev main_call5_v5 : Ref sig .tc := ⟨.hbm, 236, rfl⟩
abbrev main_call5_v6 : Ref sig .tc := ⟨.hbm, 237, rfl⟩
abbrev main_call5_v7 : Ref sig .tc := ⟨.hbm, 238, rfl⟩
abbrev main_call5_cst_1 : Ref sig .tc := ⟨.hbm, 239, rfl⟩
abbrev main_call5_v8 : Ref sig .tc := ⟨.hbm, 240, rfl⟩
abbrev main_call5_cst_2 : Ref sig .tc := ⟨.hbm, 241, rfl⟩
abbrev main_call5_v9 : Ref sig .tc := ⟨.hbm, 242, rfl⟩
abbrev main_call5_v10 : Ref sig .tc := ⟨.hbm, 243, rfl⟩
abbrev main_call5_v11 : Ref sig .tc := ⟨.hbm, 244, rfl⟩
abbrev main_call5_cst_3 : Ref sig .tc := ⟨.hbm, 245, rfl⟩
abbrev main_call5_v12 : Ref sig .tc := ⟨.hbm, 246, rfl⟩
abbrev main_call5_cst_4 : Ref sig .tc := ⟨.hbm, 247, rfl⟩
abbrev main_call5_call0_v0 : Ref sig .tc := ⟨.hbm, 248, rfl⟩
abbrev main_call5_call0_v1 : Ref sig .tc := ⟨.hbm, 249, rfl⟩
abbrev main_v96 : Ref sig .tc := ⟨.hbm, 250, rfl⟩
abbrev main_v97 : Ref sig .tc := ⟨.hbm, 251, rfl⟩
abbrev main_v98 : Ref sig .tc := ⟨.hbm, 252, rfl⟩
abbrev main_v99 : Ref sig .tc := ⟨.hbm, 253, rfl⟩
abbrev main_v100 : Ref sig .tc := ⟨.hbm, 254, rfl⟩
abbrev main_v101 : Ref sig .tc := ⟨.hbm, 255, rfl⟩
abbrev main_v102 : Ref sig .tc := ⟨.hbm, 256, rfl⟩
abbrev main_v103 : Ref sig .tc := ⟨.hbm, 257, rfl⟩
abbrev main_v104 : Ref sig .tc := ⟨.hbm, 258, rfl⟩
abbrev main_v105 : Ref sig .tc := ⟨.hbm, 259, rfl⟩
abbrev main_v106 : Ref sig .tc := ⟨.hbm, 260, rfl⟩
abbrev main_v107 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg6_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg4_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc7_stg3_0 : Ref sig .tc := ⟨.vmem, 65, rfl⟩
abbrev cc7_stg4_0 : Ref sig .tc := ⟨.vmem, 66, rfl⟩
abbrev cc7_stg5_0 : Ref sig .tc := ⟨.vmem, 67, rfl⟩
abbrev cc7_stg6_0 : Ref sig .tc := ⟨.vmem, 68, rfl⟩
abbrev cc7_stg6_1 : Ref sig .tc := ⟨.vmem, 69, rfl⟩
abbrev cc8_stg0_0 : Ref sig .tc := ⟨.vmem, 70, rfl⟩
abbrev cc8_stg0_1 : Ref sig .tc := ⟨.vmem, 71, rfl⟩
abbrev cc8_stg1_0 : Ref sig .tc := ⟨.vmem, 72, rfl⟩
abbrev cc8_stg2_0 : Ref sig .tc := ⟨.vmem, 73, rfl⟩
abbrev cc8_stg3_0 : Ref sig .tc := ⟨.vmem, 74, rfl⟩
abbrev cc8_stg4_0 : Ref sig .tc := ⟨.vmem, 75, rfl⟩
abbrev cc8_stg5_0 : Ref sig .tc := ⟨.vmem, 76, rfl⟩
abbrev cc8_stg5_1 : Ref sig .tc := ⟨.vmem, 77, rfl⟩
abbrev cc9_stg0_0 : Ref sig .tc := ⟨.vmem, 78, rfl⟩
abbrev cc9_stg0_1 : Ref sig .tc := ⟨.vmem, 79, rfl⟩
abbrev cc9_stg1_0 : Ref sig .tc := ⟨.vmem, 80, rfl⟩
abbrev cc9_stg2_0 : Ref sig .tc := ⟨.vmem, 81, rfl⟩
abbrev cc9_stg3_0 : Ref sig .tc := ⟨.vmem, 82, rfl⟩
abbrev cc9_stg3_1 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem6_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem5_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem3_0 : DmaSem sig := 57
abbrev cc6_sem4_0 : DmaSem sig := 58
abbrev cc6_sem4_1 : DmaSem sig := 59
abbrev cc7_sem0_0 : DmaSem sig := 60
abbrev cc7_sem0_1 : DmaSem sig := 61
abbrev cc7_sem1_0 : DmaSem sig := 62
abbrev cc7_sem1_1 : DmaSem sig := 63
abbrev cc7_sem2_0 : DmaSem sig := 64
abbrev cc7_sem3_0 : DmaSem sig := 65
abbrev cc7_sem4_0 : DmaSem sig := 66
abbrev cc7_sem5_0 : DmaSem sig := 67
abbrev cc7_sem6_0 : DmaSem sig := 68
abbrev cc7_sem6_1 : DmaSem sig := 69
abbrev cc8_sem0_0 : DmaSem sig := 70
abbrev cc8_sem0_1 : DmaSem sig := 71
abbrev cc8_sem1_0 : DmaSem sig := 72
abbrev cc8_sem2_0 : DmaSem sig := 73
abbrev cc8_sem3_0 : DmaSem sig := 74
abbrev cc8_sem4_0 : DmaSem sig := 75
abbrev cc8_sem5_0 : DmaSem sig := 76
abbrev cc8_sem5_1 : DmaSem sig := 77
abbrev cc9_sem0_0 : DmaSem sig := 78
abbrev cc9_sem0_1 : DmaSem sig := 79
abbrev cc9_sem1_0 : DmaSem sig := 80
abbrev cc9_sem2_0 : DmaSem sig := 81
abbrev cc9_sem3_0 : DmaSem sig := 82
abbrev cc9_sem3_1 : DmaSem sig := 83

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S12800x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S12800x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S12800x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S12800x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S12800x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S12800x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S32x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S12800x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  slices_S3x32x64_S1x32x64_0_0_0 : S3x32x64.Slices ![0, 0, 0] S1x32x64
  shapeCasts_S1x32x64_S32x64 : S1x32x64.ShapeCasts S32x64
  slices_S3x64_S1x64_0_0 : S3x64.Slices ![0, 0] S1x64
  shapeCasts_S1x64_S64 : S1x64.ShapeCasts S64
  shapeCasts_S64_S1x64 : S64.ShapeCasts S1x64
  inb_S12800x32_S12800x32_0_0 : ∀ a, (![0, 0] : Fin 2 → Nat) a + S12800x32.size a ≤ S12800x32.size a
  h_S12800x32 : 0 < S12800x32.numel
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S12800x64 : S1x64.Broadcasts S12800x64
  inb_S12800x64_S12800x64_0_0 : ∀ a, (![0, 0] : Fin 2 → Nat) a + S12800x64.size a ≤ S12800x64.size a
  h_S12800x64 : 0 < S12800x64.numel
  shapeCasts_S12800x64_S12800x64 : S12800x64.ShapeCasts S12800x64
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S5000x64 : S1x64.Broadcasts S5000x64
  reducesTo_S100000x64_S64_d0 : S100000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  slices_S3x32x64_S1x32x64_1_0_0 : S3x32x64.Slices ![1, 0, 0] S1x32x64
  slices_S3x64_S1x64_1_0 : S3x64.Slices ![1, 0] S1x64
  slices_S3x64x64_S1x64x64_1_0_0 : S3x64x64.Slices ![1, 0, 0] S1x64x64
  slices_S3x32x64_S1x32x64_2_0_0 : S3x32x64.Slices ![2, 0, 0] S1x32x64
  slices_S3x64_S1x64_2_0 : S3x64.Slices ![2, 0] S1x64
  slices_S3x64x64_S1x64x64_2_0_0 : S3x64x64.Slices ![2, 0, 0] S1x64x64
  gather_S100000x64_S1600000x1_S1600000x64_1_0_n_n_0_1_164_wf : GatherDims.WF S100000x64 S1600000x1 S1600000x64 [1] [0] [] [0] [] 1 ![1, 64]
  dot_S12800x32_S32x64_S12800x64_1_0_0_1_n_n_wf : DotDims.WF S12800x32 S32x64 S12800x64 [1] [0] [0] [1] [] []
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x64.size a ≤ S1600000x64.size a
  hwx0_0 : ∀ i : grid0.Coords, EltTy.bits .f32 = 32 ∨ (Rect.block (s := S1600000x64) S12800x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x32.size a ≤ S1600000x32.size a
  hwx0_1 : ∀ i : grid0.Coords, EltTy.bits .f32 = 32 ∨ (Rect.block (s := S1600000x32) S12800x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S12800x64.size a ≤ S1600000x64.size a
  hwx0_4 : ∀ i : grid0.Coords, EltTy.bits .f32 = 32 ∨ (Rect.block (s := S1600000x64) S12800x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S12800x64.size a ≤ S1600000x64.size a
  hwx3_0 : ∀ i : grid3.Coords, EltTy.bits .f32 = 32 ∨ (Rect.block (s := S1600000x64) S12800x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S12800x32.size a ≤ S1600000x32.size a
  hwx3_1 : ∀ i : grid3.Coords, EltTy.bits .f32 = 32 ∨ (Rect.block (s := S1600000x32) S12800x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x64.size a ≤ S32x64.size a
  hwx3_2 : ∀ i : grid3.Coords, EltTy.bits .f32 = 32 ∨ (Rect.block (s := S32x64) S32x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S12800x64.size a ≤ S1600000x64.size a
  hwx3_4 : ∀ i : grid3.Coords, EltTy.bits .f32 = 32 ∨ (Rect.block (s := S1600000x64) S12800x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S100000x64.size a
  hwx4_6 : ∀ i : grid4.Coords, EltTy.bits .f32 = 32 ∨ (Rect.block (s := S100000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S12800x64.size a ≤ S1600000x64.size a
  hwx6_0 : ∀ i : grid6.Coords, EltTy.bits .f32 = 32 ∨ (Rect.block (s := S1600000x64) S12800x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S12800x32.size a ≤ S1600000x32.size a
  hwx6_1 : ∀ i : grid6.Coords, EltTy.bits .f32 = 32 ∨ (Rect.block (s := S1600000x32) S12800x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32x64.size a ≤ S32x64.size a
  hwx6_2 : ∀ i : grid6.Coords, EltTy.bits .f32 = 32 ∨ (Rect.block (s := S32x64) S32x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S12800x64.size a ≤ S1600000x64.size a
  hwx6_4 : ∀ i : grid6.Coords, EltTy.bits .f32 = 32 ∨ (Rect.block (s := S1600000x64) S12800x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x64.size a ≤ S64x64.size a
  hwx7_4 : ∀ i : grid7.Coords, EltTy.bits .f32 = 32 ∨ (Rect.block (s := S64x64) S64x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x64.size a ≤ S100000x64.size a
  hwx7_6 : ∀ i : grid7.Coords, EltTy.bits .f32 = 32 ∨ (Rect.block (s := S100000x64) S5000x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S100000x64.size a
  hwx8_5 : ∀ i : grid8.Coords, EltTy.bits .f32 = 32 ∨ (Rect.block (s := S100000x64) S5000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x64.size a ≤ S100000x64.size a
  hwx9_3 : ∀ i : grid9.Coords, EltTy.bits .f32 = 32 ∨ (Rect.block (s := S100000x64) S5000x64.size (cc9_transform_3 i) (hinb9_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S12800x32_S32x64_S12800x64_1_0_0_1_n_n : DotDims S12800x32 S32x64 S12800x64 where
  lhsContracting := [1]
  rhsContracting := [0]
  lhsNonContracting := [0]
  rhsNonContracting := [1]
  lhsBatch := []
  rhsBatch := []
  wf := dot_S12800x32_S32x64_S12800x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v4) S12800x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S12800x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S12800x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v24) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v38) S12800x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S12800x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S32x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S12800x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v37) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v49) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v56) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v53) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v57) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v58) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v58) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v68) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v69) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v70) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v71) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v72) S12800x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg2) S12800x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v74) S32x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v77) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v78) S12800x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v71) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v81) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v83) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v90) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v87) S64x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v91) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v92) S5000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v92) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v101) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v102) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v103) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v104) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v105) S5000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v105) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg11) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v106) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v107) S5000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x32 : Shape := ⟨2, ![1600000, 32]⟩
abbrev S3x32x64 : Shape := ⟨3, ![3, 32, 64]⟩
abbrev S3x64 : Shape := ⟨2, ![3, 64]⟩
abbrev S3x64x64 : Shape := ⟨3, ![3, 64, 64]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S1x32x64 : Shape := ⟨3, ![1, 32, 64]⟩
abbrev S32x64 : Shape := ⟨2, ![32, 64]⟩
abbrev S1600000x64 : Shape := ⟨2, ![1600000, 64]⟩
abbrev S1x64 : Shape := ⟨2, ![1, 64]⟩
abbrev S_ : Shape := ⟨0, ![]⟩
abbrev S1600000x1 : Shape := ⟨2, ![1600000, 1]⟩
abbrev S1x64x64 : Shape := ⟨3, ![1, 64, 64]⟩

abbrev nBuf : Space → Nat
  | .hbm => 309
  | .vmem => 0
  | .smem => 0
  | _ => 0

abbrev hbmTy0_0 (i : Nat) : BufTy := match i % 128 with
  | 0 => ⟨S100000x64, .f32⟩
  | 1 => ⟨S2x1600000, .i32⟩
  | 2 => ⟨S1600000x32, .f32⟩
  | 3 => ⟨S3x32x64, .f32⟩
  | 4 => ⟨S3x64, .f32⟩
  | 5 => ⟨S3x64x64, .f32⟩
  | 6 => ⟨S3x64, .f32⟩
  | 7 => ⟨S3x64x64, .f32⟩
  | 8 => ⟨S3x64, .f32⟩
  | 9 => ⟨S3x64, .f32⟩
  | 10 => ⟨S3x64, .f32⟩
  | 11 => ⟨S64x64, .f32⟩
  | 12 => ⟨S64, .f32⟩
  | 13 => ⟨S1x1600000, .i32⟩
  | 14 => ⟨S1600000, .i32⟩
  | 15 => ⟨S1x1600000, .i32⟩
  | 16 => ⟨S1600000, .i32⟩
  | 17 => ⟨S1x32x64, .f32⟩
  | 18 => ⟨S32x64, .f32⟩
  | 19 => ⟨S1600000x64, .f32⟩
  | 20 => ⟨S1x64, .f32⟩
  | 21 => ⟨S64, .f32⟩
  | 22 => ⟨S1x64, .f32⟩
  | 23 => ⟨S1600000x64, .f32⟩
  | 24 => ⟨S1600000x64, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x64, .f32⟩
  | 34 => ⟨S1600000x64, .f32⟩
  | 35 => ⟨S_, .f32⟩
  | 36 => ⟨S1600000x64, .f32⟩
  | 37 => ⟨S1600000x64, .f32⟩
  | 38 => ⟨S_, .f32⟩
  | 39 => ⟨S100000x64, .f32⟩
  | 40 => ⟨S1600000x1, .i32⟩
  | 41 => ⟨S100000x64, .f32⟩
  | 42 => ⟨S100000x64, .f32⟩
  | 43 => ⟨S1x64x64, .f32⟩
  | 44 => ⟨S64x64, .f32⟩
  | 45 => ⟨S100000x64, .f32⟩
  | 46 => ⟨S1x64, .f32⟩
  | 47 => ⟨S64, .f32⟩
  | 48 => ⟨S1x64, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S1x64x64, .f32⟩
  | 55 => ⟨S64x64, .f32⟩
  | 56 => ⟨S100000x64, .f32⟩
  | 57 => ⟨S1x64, .f32⟩
  | 58 => ⟨S64, .f32⟩
  | 59 => ⟨S1x64, .f32⟩
  | 60 => ⟨S100000x64, .f32⟩
  | 61 => ⟨S100000x64, .f32⟩
  | 62 => ⟨S_, .f32⟩
  | 63 => ⟨S64, .f32⟩
  | 64 => ⟨S_, .f32⟩
  | 65 => ⟨S64, .f32⟩
  | 66 => ⟨S64, .f32⟩
  | 67 => ⟨S_, .i32⟩
  | 68 => ⟨S_, .f32⟩
  | 69 => ⟨S64, .f32⟩
  | 70 => ⟨S1x64, .f32⟩
  | 71 => ⟨S_, .f32⟩
  | 72 => ⟨S1x64, .f32⟩
  | 73 => ⟨S1x64, .f32⟩
  | 74 => ⟨S100000x64, .f32⟩
  | 75 => ⟨S100000x64, .f32⟩
  | 76 => ⟨S100000x64, .f32⟩
  | 77 => ⟨S_, .f32⟩
  | 78 => ⟨S_, .f32⟩
  | 79 => ⟨S_, .f32⟩
  | 80 => ⟨S_, .f32⟩
  | 81 => ⟨S64, .f32⟩
  | 82 => ⟨S64, .f32⟩
  | 83 => ⟨S64, .f32⟩
  | 84 => ⟨S_, .f32⟩
  | 85 => ⟨S_, .i1⟩
  | 86 => ⟨S_, .f32⟩
  | 87 => ⟨S_, .f32⟩
  | 88 => ⟨S64, .f32⟩
  | 89 => ⟨S64, .f32⟩
  | 90 => ⟨S1x64, .f32⟩
  | 91 => ⟨S100000x64, .f32⟩
  | 92 => ⟨S100000x64, .f32⟩
  | 93 => ⟨S_, .f32⟩
  | 94 => ⟨S64, .f32⟩
  | 95 => ⟨S64, .f32⟩
  | 96 => ⟨S64, .f32⟩
  | 97 => ⟨S1x64, .f32⟩
  | 98 => ⟨S100000x64, .f32⟩
  | 99 => ⟨S100000x64, .f32⟩
  | 100 => ⟨S1x64, .f32⟩
  | 101 => ⟨S64, .f32⟩
  | 102 => ⟨S1x64, .f32⟩
  | 103 => ⟨S100000x64, .f32⟩
  | 104 => ⟨S100000x64, .f32⟩
  | 105 => ⟨S1x64, .f32⟩
  | 106 => ⟨S64, .f32⟩
  | 107 => ⟨S1x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S1x32x64, .f32⟩
  | 114 => ⟨S32x64, .f32⟩
  | 115 => ⟨S1600000x64, .f32⟩
  | 116 => ⟨S1x64, .f32⟩
  | 117 => ⟨S64, .f32⟩
  | 118 => ⟨S1x64, .f32⟩
  | 119 => ⟨S1600000x64, .f32⟩
  | 120 => ⟨S1600000x64, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x64, .f32⟩

abbrev hbmTy0_1 (i : Nat) : BufTy := match i % 128 with
  | 0 => ⟨S1600000x1, .i32⟩
  | 1 => ⟨S1600000x64, .f32⟩
  | 2 => ⟨S1600000x64, .f32⟩
  | 3 => ⟨S_, .f32⟩
  | 4 => ⟨S1600000x64, .f32⟩
  | 5 => ⟨S1600000x64, .f32⟩
  | 6 => ⟨S_, .f32⟩
  | 7 => ⟨S100000x64, .f32⟩
  | 8 => ⟨S1600000x1, .i32⟩
  | 9 => ⟨S100000x64, .f32⟩
  | 10 => ⟨S100000x64, .f32⟩
  | 11 => ⟨S1x64x64, .f32⟩
  | 12 => ⟨S64x64, .f32⟩
  | 13 => ⟨S100000x64, .f32⟩
  | 14 => ⟨S1x64, .f32⟩
  | 15 => ⟨S64, .f32⟩
  | 16 => ⟨S1x64, .f32⟩
  | 17 => ⟨S100000x64, .f32⟩
  | 18 => ⟨S100000x64, .f32⟩
  | 19 => ⟨S_, .f32⟩
  | 20 => ⟨S100000x64, .f32⟩
  | 21 => ⟨S100000x64, .f32⟩
  | 22 => ⟨S1x64x64, .f32⟩
  | 23 => ⟨S64x64, .f32⟩
  | 24 => ⟨S100000x64, .f32⟩
  | 25 => ⟨S1x64, .f32⟩
  | 26 => ⟨S64, .f32⟩
  | 27 => ⟨S1x64, .f32⟩
  | 28 => ⟨S100000x64, .f32⟩
  | 29 => ⟨S100000x64, .f32⟩
  | 30 => ⟨S_, .f32⟩
  | 31 => ⟨S64, .f32⟩
  | 32 => ⟨S_, .f32⟩
  | 33 => ⟨S64, .f32⟩
  | 34 => ⟨S64, .f32⟩
  | 35 => ⟨S_, .i32⟩
  | 36 => ⟨S_, .f32⟩
  | 37 => ⟨S64, .f32⟩
  | 38 => ⟨S1x64, .f32⟩
  | 39 => ⟨S_, .f32⟩
  | 40 => ⟨S1x64, .f32⟩
  | 41 => ⟨S1x64, .f32⟩
  | 42 => ⟨S100000x64, .f32⟩
  | 43 => ⟨S100000x64, .f32⟩
  | 44 => ⟨S100000x64, .f32⟩
  | 45 => ⟨S_, .f32⟩
  | 46 => ⟨S_, .f32⟩
  | 47 => ⟨S_, .f32⟩
  | 48 => ⟨S_, .f32⟩
  | 49 => ⟨S64, .f32⟩
  | 50 => ⟨S64, .f32⟩
  | 51 => ⟨S64, .f32⟩
  | 52 => ⟨S_, .f32⟩
  | 53 => ⟨S_, .i1⟩
  | 54 => ⟨S_, .f32⟩
  | 55 => ⟨S_, .f32⟩
  | 56 => ⟨S64, .f32⟩
  | 57 => ⟨S64, .f32⟩
  | 58 => ⟨S1x64, .f32⟩
  | 59 => ⟨S100000x64, .f32⟩
  | 60 => ⟨S100000x64, .f32⟩
  | 61 => ⟨S_, .f32⟩
  | 62 => ⟨S64, .f32⟩
  | 63 => ⟨S64, .f32⟩
  | 64 => ⟨S64, .f32⟩
  | 65 => ⟨S1x64, .f32⟩
  | 66 => ⟨S100000x64, .f32⟩
  | 67 => ⟨S100000x64, .f32⟩
  | 68 => ⟨S1x64, .f32⟩
  | 69 => ⟨S64, .f32⟩
  | 70 => ⟨S1x64, .f32⟩
  | 71 => ⟨S100000x64, .f32⟩
  | 72 => ⟨S100000x64, .f32⟩
  | 73 => ⟨S1x64, .f32⟩
  | 74 => ⟨S64, .f32⟩
  | 75 => ⟨S1x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S1x32x64, .f32⟩
  | 82 => ⟨S32x64, .f32⟩
  | 83 => ⟨S1600000x64, .f32⟩
  | 84 => ⟨S1x64, .f32⟩
  | 85 => ⟨S64, .f32⟩
  | 86 => ⟨S1x64, .f32⟩
  | 87 => ⟨S1600000x64, .f32⟩
  | 88 => ⟨S1600000x64, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x64, .f32⟩
  | 98 => ⟨S1600000x64, .f32⟩
  | 99 => ⟨S_, .f32⟩
  | 100 => ⟨S1600000x64, .f32⟩
  | 101 => ⟨S1600000x64, .f32⟩
  | 102 => ⟨S_, .f32⟩
  | 103 => ⟨S100000x64, .f32⟩
  | 104 => ⟨S1600000x1, .i32⟩
  | 105 => ⟨S100000x64, .f32⟩
  | 106 => ⟨S100000x64, .f32⟩
  | 107 => ⟨S1x64x64, .f32⟩
  | 108 => ⟨S64x64, .f32⟩
  | 109 => ⟨S100000x64, .f32⟩
  | 110 => ⟨S1x64, .f32⟩
  | 111 => ⟨S64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S1x64x64, .f32⟩
  | 119 => ⟨S64x64, .f32⟩
  | 120 => ⟨S100000x64, .f32⟩
  | 121 => ⟨S1x64, .f32⟩
  | 122 => ⟨S64, .f32⟩
  | 123 => ⟨S1x64, .f32⟩
  | 124 => ⟨S100000x64, .f32⟩
  | 125 => ⟨S100000x64, .f32⟩
  | 126 => ⟨S_, .f32⟩
  | 127 => ⟨S64, .f32⟩
  | _ => ⟨S100000x64, .f32⟩

abbrev hbmTy0_2 (i : Nat) : BufTy := match i % 128 with
  | 0 => ⟨S_, .f32⟩
  | 1 => ⟨S64, .f32⟩
  | 2 => ⟨S64, .f32⟩
  | 3 => ⟨S_, .i32⟩
  | 4 => ⟨S_, .f32⟩
  | 5 => ⟨S64, .f32⟩
  | 6 => ⟨S1x64, .f32⟩
  | 7 => ⟨S_, .f32⟩
  | 8 => ⟨S1x64, .f32⟩
  | 9 => ⟨S1x64, .f32⟩
  | 10 => ⟨S100000x64, .f32⟩
  | 11 => ⟨S100000x64, .f32⟩
  | 12 => ⟨S100000x64, .f32⟩
  | 13 => ⟨S_, .f32⟩
  | 14 => ⟨S_, .f32⟩
  | 15 => ⟨S_, .f32⟩
  | 16 => ⟨S_, .f32⟩
  | 17 => ⟨S64, .f32⟩
  | 18 => ⟨S64, .f32⟩
  | 19 => ⟨S64, .f32⟩
  | 20 => ⟨S_, .f32⟩
  | 21 => ⟨S_, .i1⟩
  | 22 => ⟨S_, .f32⟩
  | 23 => ⟨S_, .f32⟩
  | 24 => ⟨S64, .f32⟩
  | 25 => ⟨S64, .f32⟩
  | 26 => ⟨S1x64, .f32⟩
  | 27 => ⟨S100000x64, .f32⟩
  | 28 => ⟨S100000x64, .f32⟩
  | 29 => ⟨S_, .f32⟩
  | 30 => ⟨S64, .f32⟩
  | 31 => ⟨S64, .f32⟩
  | 32 => ⟨S64, .f32⟩
  | 33 => ⟨S1x64, .f32⟩
  | 34 => ⟨S100000x64, .f32⟩
  | 35 => ⟨S100000x64, .f32⟩
  | 36 => ⟨S1x64, .f32⟩
  | 37 => ⟨S64, .f32⟩
  | 38 => ⟨S1x64, .f32⟩
  | 39 => ⟨S100000x64, .f32⟩
  | 40 => ⟨S100000x64, .f32⟩
  | 41 => ⟨S1x64, .f32⟩
  | 42 => ⟨S64, .f32⟩
  | 43 => ⟨S1x64, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_cst : Ref sig .tc := ⟨.hbm, 51, rfl⟩
abbrev main_call1_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_1 : Ref sig .tc := ⟨.hbm, 62, rfl⟩
abbrev main_v42 : Ref sig .tc := ⟨.hbm, 63, rfl⟩
abbrev main_cst_2 : Ref sig .tc := ⟨.hbm, 64, rfl⟩
abbrev main_v43 : Ref sig .tc := ⟨.hbm, 65, rfl⟩
abbrev main_v44 : Ref sig .tc := ⟨.hbm, 66, rfl⟩
abbrev main_c_3 : Ref sig .tc := ⟨.hbm, 67, rfl⟩
abbrev main_call2_cst : Ref sig .tc := ⟨.hbm, 68, rfl⟩
abbrev main_call2_v0 : Ref sig .tc := ⟨.hbm, 69, rfl⟩
abbrev main_call2_v1 : Ref sig .tc := ⟨.hbm, 70, rfl⟩
abbrev main_call2_cst_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_cst_1 : Ref sig .tc := ⟨.hbm, 78, rfl⟩
abbrev main_call2_v8 : Ref sig .tc := ⟨.hbm, 79, rfl⟩
abbrev main_call2_cst_2 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_cst_3 : Ref sig .tc := ⟨.hbm, 84, rfl⟩
abbrev main_call2_v12 : Ref sig .tc := ⟨.hbm, 85, rfl⟩
abbrev main_call2_cst_4 : Ref sig .tc := ⟨.hbm, 86, rfl⟩
abbrev main_call2_call0_v0 : Ref sig .tc := ⟨.hbm, 87, rfl⟩
abbrev main_call2_call0_v1 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_4 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_call3_cst : Ref sig .tc := ⟨.hbm, 110, rfl⟩
abbrev main_call3_v0 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_c_5 : Ref sig .tc := ⟨.hbm, 121, rfl⟩
abbrev main_v74 : Ref sig .tc := ⟨.hbm, 122, rfl⟩
abbrev main_v75 : Ref sig .tc := ⟨.hbm, 123, rfl⟩
abbrev main_c_6 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_call4_cst : Ref sig .tc := ⟨.hbm, 131, rfl⟩
abbrev main_call4_v0 : Ref sig .tc := ⟨.hbm, 132, rfl⟩
abbrev main_v82 : Ref sig .tc := ⟨.hbm, 133, rfl⟩
abbrev main_cst_7 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_call5_cst : Ref sig .tc := ⟨.hbm, 147, rfl⟩
abbrev main_call5_v0 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_cst_8 : Ref sig .tc := ⟨.hbm, 158, rfl⟩
abbrev main_v104 : Ref sig .tc := ⟨.hbm, 159, rfl⟩
abbrev main_cst_9 : Ref sig .tc := ⟨.hbm, 160, rfl⟩
abbrev main_v105 : Ref sig .tc := ⟨.hbm, 161, rfl⟩
abbrev main_v106 : Ref sig .tc := ⟨.hbm, 162, rfl⟩
abbrev main_c_10 : Ref sig .tc := ⟨.hbm, 163, rfl⟩
abbrev main_call6_cst : Ref sig .tc := ⟨.hbm, 164, rfl⟩
abbrev main_call6_v0 : Ref sig .tc := ⟨.hbm, 165, rfl⟩
abbrev main_call6_v1 : Ref sig .tc := ⟨.hbm, 166, rfl⟩
abbrev main_call6_cst_0 : Ref sig .tc := ⟨.hbm, 167, rfl⟩
abbrev main_call6_v2 : Ref sig .tc := ⟨.hbm, 168, rfl⟩
abbrev main_call6_v3 : Ref sig .tc := ⟨.hbm, 169, rfl⟩
abbrev main_call6_v4 : Ref sig .tc := ⟨.hbm, 170, rfl⟩
abbrev main_call6_v5 : Ref sig .tc := ⟨.hbm, 171, rfl⟩
abbrev main_call6_v6 : Ref sig .tc := ⟨.hbm, 172, rfl⟩
abbrev main_call6_v7 : Ref sig .tc := ⟨.hbm, 173, rfl⟩
abbrev main_call6_cst_1 : Ref sig .tc := ⟨.hbm, 174, rfl⟩
abbrev main_call6_v8 : Ref sig .tc := ⟨.hbm, 175, rfl⟩
abbrev main_call6_cst_2 : Ref sig .tc := ⟨.hbm, 176, rfl⟩
abbrev main_call6_v9 : Ref sig .tc := ⟨.hbm, 177, rfl⟩
abbrev main_call6_v10 : Ref sig .tc := ⟨.hbm, 178, rfl⟩
abbrev main_call6_v11 : Ref sig .tc := ⟨.hbm, 179, rfl⟩
abbrev main_call6_cst_3 : Ref sig .tc := ⟨.hbm, 180, rfl⟩
abbrev main_call6_v12 : Ref sig .tc := ⟨.hbm, 181, rfl⟩
abbrev main_call6_cst_4 : Ref sig .tc := ⟨.hbm, 182, rfl⟩
abbrev main_call6_call0_v0 : Ref sig .tc := ⟨.hbm, 183, rfl⟩
abbrev main_call6_call0_v1 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_cst_11 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_call7_cst : Ref sig .tc := ⟨.hbm, 206, rfl⟩
abbrev main_call7_v0 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_c_12 : Ref sig .tc := ⟨.hbm, 217, rfl⟩
abbrev main_v136 : Ref sig .tc := ⟨.hbm, 218, rfl⟩
abbrev main_v137 : Ref sig .tc := ⟨.hbm, 219, rfl⟩
abbrev main_c_13 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_call8_cst : Ref sig .tc := ⟨.hbm, 227, rfl⟩
abbrev main_call8_v0 : Ref sig .tc := ⟨.hbm, 228, rfl⟩
abbrev main_v144 : Ref sig .tc := ⟨.hbm, 229, rfl⟩
abbrev main_cst_14 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_call9_cst : Ref sig .tc := ⟨.hbm, 243, rfl⟩
abbrev main_call9_v0 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_cst_15 : Ref sig .tc := ⟨.hbm, 254, rfl⟩
abbrev main_v166 : Ref sig .tc := ⟨.hbm, 255, rfl⟩
abbrev main_cst_16 : Ref sig .tc := ⟨.hbm, 256, rfl⟩
abbrev main_v167 : Ref sig .tc := ⟨.hbm, 257, rfl⟩
abbrev main_v168 : Ref sig .tc := ⟨.hbm, 258, rfl⟩
abbrev main_c_17 : Ref sig .tc := ⟨.hbm, 259, rfl⟩
abbrev main_call10_cst : Ref sig .tc := ⟨.hbm, 260, rfl⟩
abbrev main_call10_v0 : Ref sig .tc := ⟨.hbm, 261, rfl⟩
abbrev main_call10_v1 : Ref sig .tc := ⟨.hbm, 262, rfl⟩
abbrev main_call10_cst_0 : Ref sig .tc := ⟨.hbm, 263, rfl⟩
abbrev main_call10_v2 : Ref sig .tc := ⟨.hbm, 264, rfl⟩
abbrev main_call10_v3 : Ref sig .tc := ⟨.hbm, 265, rfl⟩
abbrev main_call10_v4 : Ref sig .tc := ⟨.hbm, 266, rfl⟩
abbrev main_call10_v5 : Ref sig .tc := ⟨.hbm, 267, rfl⟩
abbrev main_call10_v6 : Ref sig .tc := ⟨.hbm, 268, rfl⟩
abbrev main_call10_v7 : Ref sig .tc := ⟨.hbm, 269, rfl⟩
abbrev main_call10_cst_1 : Ref sig .tc := ⟨.hbm, 270, rfl⟩
abbrev main_call10_v8 : Ref sig .tc := ⟨.hbm, 271, rfl⟩
abbrev main_call10_cst_2 : Ref sig .tc := ⟨.hbm, 272, rfl⟩
abbrev main_call10_v9 : Ref sig .tc := ⟨.hbm, 273, rfl⟩
abbrev main_call10_v10 : Ref sig .tc := ⟨.hbm, 274, rfl⟩
abbrev main_call10_v11 : Ref sig .tc := ⟨.hbm, 275, rfl⟩
abbrev main_call10_cst_3 : Ref sig .tc := ⟨.hbm, 276, rfl⟩
abbrev main_call10_v12 : Ref sig .tc := ⟨.hbm, 277, rfl⟩
abbrev main_call10_cst_4 : Ref sig .tc := ⟨.hbm, 278, rfl⟩
abbrev main_call10_call0_v0 : Ref sig .tc := ⟨.hbm, 279, rfl⟩
abbrev main_call10_call0_v1 : Ref sig .tc := ⟨.hbm, 280, rfl⟩
abbrev main_v169 : Ref sig .tc := ⟨.hbm, 281, rfl⟩
abbrev main_v170 : Ref sig .tc := ⟨.hbm, 282, rfl⟩
abbrev main_v171 : Ref sig .tc := ⟨.hbm, 283, rfl⟩
abbrev main_v172 : Ref sig .tc := ⟨.hbm, 284, rfl⟩
abbrev main_cst_18 : Ref sig .tc := ⟨.hbm, 285, rfl⟩
abbrev main_v173 : Ref sig .tc := ⟨.hbm, 286, rfl⟩
abbrev main_v174 : Ref sig .tc := ⟨.hbm, 287, rfl⟩
abbrev main_v175 : Ref sig .tc := ⟨.hbm, 288, rfl⟩
abbrev main_v176 : Ref sig .tc := ⟨.hbm, 289, rfl⟩
abbrev main_v177 : Ref sig .tc := ⟨.hbm, 290, rfl⟩
abbrev main_v178 : Ref sig .tc := ⟨.hbm, 291, rfl⟩
abbrev main_v179 : Ref sig .tc := ⟨.hbm, 292, rfl⟩
abbrev main_v180 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_v184 : Ref sig .tc := ⟨.hbm, 297, rfl⟩
abbrev main_v185 : Ref sig .tc := ⟨.hbm, 298, rfl⟩
abbrev main_v186 : Ref sig .tc := ⟨.hbm, 299, rfl⟩
abbrev main_v187 : Ref sig .tc := ⟨.hbm, 300, rfl⟩
abbrev main_v188 : Ref sig .tc := ⟨.hbm, 301, rfl⟩
abbrev main_call11_cst : Ref sig .tc := ⟨.hbm, 302, rfl⟩
abbrev main_call11_v0 : Ref sig .tc := ⟨.hbm, 303, rfl⟩
abbrev main_v189 : Ref sig .tc := ⟨.hbm, 304, rfl⟩
abbrev main_v190 : Ref sig .tc := ⟨.hbm, 305, rfl⟩
abbrev main_v191 : Ref sig .tc := ⟨.hbm, 306, rfl⟩
abbrev main_v192 : Ref sig .tc := ⟨.hbm, 307, rfl⟩
abbrev main_v193 : Ref sig .tc := ⟨.hbm, 308, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x32x64_S1x32x64_0_0_0 : S3x32x64.Slices ![0, 0, 0] S1x32x64
  shapeCasts_S1x32x64_S32x64 : S1x32x64.ShapeCasts S32x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x32x64_S1x32x64_1_0_0 : S3x32x64.Slices ![1, 0, 0] S1x32x64
  slices_S3x64_S1x64_1_0 : S3x64.Slices ![1, 0] S1x64
  slices_S3x64x64_S1x64x64_1_0_0 : S3x64x64.Slices ![1, 0, 0] S1x64x64
  slices_S3x32x64_S1x32x64_2_0_0 : S3x32x64.Slices ![2, 0, 0] S1x32x64
  slices_S3x64_S1x64_2_0 : S3x64.Slices ![2, 0] S1x64
  slices_S3x64x64_S1x64x64_2_0_0 : S3x64x64.Slices ![2, 0, 0] S1x64x64
  dot_S1600000x32_S32x64_S1600000x64_1_0_0_1_n_n_wf : DotDims.WF S1600000x32 S32x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def dot_S1600000x32_S32x64_S1600000x64_1_0_0_1_n_n : DotDims S1600000x32 S32x64 S1600000x64 where
  lhsContracting := [1]
  rhsContracting := [0]
  lhsNonContracting := [0]
  rhsNonContracting := [1]
  lhsBatch := []
  rhsBatch := []
  wf := dot_S1600000x32_S32x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
import Idealize.ShloMosaic.PureOps.Ideal
import Idealize.ShloMosaic.Lib.ValueIdx

/-! The four dense stages of one message-passing layer, each as ONE function of whole arrays, index by index over the
    extended reals. `E` = 1 600 000 edges, `N` = 100 000 nodes, 64 hidden features, 32 edge features.

    * `edgeG`: the message of edge `e`, feature `j`: `max (xs[e,j] + (Σₖ ea[e,k]·w[k,j] + b[0,j])) 0`.
    * `mlpG`: the two-layer perceptron of node `n`: with `h = x + agg`, `t[n,k] = max (Σᵢ h[n,i]·w1[i,k] + b1[0,k]) 0`,
      the result is `Σₖ t[n,k]·w2[k,j] + b2[0,j]`.
    * `bnG`: the normalisation with given column statistics: `max ((h[n,j] − mean[0,j])·rsqrt(var[0,j] + ε)·γ[0,j] + β[0,j]) 0`,
      `ε` the binary32 word `0x3727C5AC`.
    * `outG`: the last projection `Σₖ x[n,k]·w[k,j] + b[0,j]`. -/

noncomputable section

open scoped BigOperators

namespace Cert.Spec

open Idealize.ShloMosaic Idealize.ShloMosaic.ValueIdx

abbrev sE64 : Shape := ⟨2, ![1600000, 64]⟩
abbrev sE32 : Shape := ⟨2, ![1600000, 32]⟩
abbrev sN64 : Shape := ⟨2, ![100000, 64]⟩
abbrev s32x64 : Shape := ⟨2, ![32, 64]⟩
abbrev s64x64 : Shape := ⟨2, ![64, 64]⟩
abbrev s1x64 : Shape := ⟨2, ![1, 64]⟩
abbrev s64 : Shape := ⟨1, ![64]⟩

/-- A vector of 64 entries laid out as the one row of a `[1, 64]` array. -/
def row (b : s64.Idx → EReal) : s1x64.Idx → EReal := fun i => b (ix1 (n := 64) (i 1))

/-- The variance's guard `ε` as the kernels and the reference both spell it. -/
abbrev eps : EReal := Ideal.ofBits .f32 0x3727C5AC#32

/-- An edge's message. -/
def edgeG (xs : sE64.Idx → EReal) (ea : sE32.Idx → EReal) (w : s32x64.Idx → EReal) (b : s1x64.Idx → EReal) :
    sE64.Idx → EReal := fun i =>
  max (xs (ix2 (n0 := 1600000) (n1 := 64) (i 0) (i 1))
    + ((∑ k : Fin 32, ea (ix2 (n0 := 1600000) (n1 := 32) (i 0) k) * w (ix2 (n0 := 32) (n1 := 64) k (i 1)))
      + b (ix2 (n0 := 1) (n1 := 64) 0 (i 1)))) 0

/-- The hidden row of the node perceptron. -/
def mlpHid (x agg : sN64.Idx → EReal) (w1 : s64x64.Idx → EReal) (b1 : s1x64.Idx → EReal) (n : Fin 100000) (k : Fin 64) : EReal :=
  max ((∑ i : Fin 64, (x (ix2 (n0 := 100000) (n1 := 64) n i) + agg (ix2 (n0 := 100000) (n1 := 64) n i)) * w1 (ix2 (n0 := 64) (n1 := 64) i k))
    + b1 (ix2 (n0 := 1) (n1 := 64) 0 k)) 0

/-- A node's two-layer perceptron. -/
def mlpG (x agg : sN64.Idx → EReal) (w1 : s64x64.Idx → EReal) (b1 : s1x64.Idx → EReal) (w2 : s64x64.Idx → EReal)
    (b2 : s1x64.Idx → EReal) : sN64.Idx → EReal := fun i =>
  (∑ k : Fin 64, mlpHid x agg w1 b1 (i 0) k * w2 (ix2 (n0 := 64) (n1 := 64) k (i 1))) + b2 (ix2 (n0 := 1) (n1 := 64) 0 (i 1))

/-- The normalisation with given column statistics, then the rectifier. -/
def bnG (h : sN64.Idx → EReal) (mean var gam bet : s1x64.Idx → EReal) : sN64.Idx → EReal := fun i =>
  max ((h (ix2 (n0 := 100000) (n1 := 64) (i 0) (i 1)) - mean (ix2 (n0 := 1) (n1 := 64) 0 (i 1)))
        * Ideal.rsqrt (var (ix2 (n0 := 1) (n1 := 64) 0 (i 1)) + eps)
        * gam (ix2 (n0 := 1) (n1 := 64) 0 (i 1))
      + bet (ix2 (n0 := 1) (n1 := 64) 0 (i 1))) 0

/-- The last projection. -/
def outG (x : sN64.Idx → EReal) (w : s64x64.Idx → EReal) (b : s1x64.Idx → EReal) : sN64.Idx → EReal := fun i =>
  (∑ k : Fin 64, x (ix2 (n0 := 100000) (n1 := 64) (i 0) k) * w (ix2 (n0 := 64) (n1 := 64) k (i 1))) + b (ix2 (n0 := 1) (n1 := 64) 0 (i 1))

end Cert.Spec

end
-- ==== Proof.KVoc.lean ====
import proofs.«430051_j50208167690776_1_alg».proof.Proof.Gen.KernelIdeal
import proofs.«430051_j50208167690776_1_alg».proof.Proof.Spec

/-! The kernel program's host glue between its ten regions, as functions of whole arrays: the two index rows, the
    parameter rows of each layer, the filled gather, the scatter-add, the column mean and variance; and one layer and
    the last projection as compositions of those with the regions' stage functions. -/

noncomputable section

namespace Cert.KernelIdeal.Voc

open Cert.KernelIdeal Cert.KernelIdeal.Gen Idealize.ShloMosaic

variable {F : FTy → Type} [FloatOps F]

/-- Row 0 of the edge list: the sources. -/
abbrev srcK (ei : Vec F S2x1600000 .i32) : Vec F S1600000 .i32 :=
  shapeCast S1600000 (extractStridedSlice S1x1600000 ![0, 0] ei slices_S2x1600000_S1x1600000_0_0) shapeCasts_S1x1600000_S1600000
/-- Row 1 of the edge list: the destinations. -/
abbrev dstK (ei : Vec F S2x1600000 .i32) : Vec F S1600000 .i32 :=
  shapeCast S1600000 (extractStridedSlice S1x1600000 ![1, 0] ei slices_S2x1600000_S1x1600000_1_0) shapeCasts_S1x1600000_S1600000

/-- Layer `l`'s `[32, 64]` matrix of a `[3, 32, 64]` parameter. -/
abbrev we0 (a : Vec F S3x32x64 .f32) : Vec F S32x64 .f32 := shapeCast S32x64 (extractStridedSlice S1x32x64 ![0, 0, 0] a slices_S3x32x64_S1x32x64_0_0_0) shapeCasts_S1x32x64_S32x64
abbrev we1 (a : Vec F S3x32x64 .f32) : Vec F S32x64 .f32 := shapeCast S32x64 (extractStridedSlice S1x32x64 ![1, 0, 0] a slices_S3x32x64_S1x32x64_1_0_0) shapeCasts_S1x32x64_S32x64
abbrev we2 (a : Vec F S3x32x64 .f32) : Vec F S32x64 .f32 := shapeCast S32x64 (extractStridedSlice S1x32x64 ![2, 0, 0] a slices_S3x32x64_S1x32x64_2_0_0) shapeCasts_S1x32x64_S32x64
/-- Layer `l`'s 64-vector of a `[3, 64]` parameter. -/
abbrev vec0 (a : Vec F S3x64 .f32) : Vec F S64 .f32 := shapeCast S64 (extractStridedSlice S1x64 ![0, 0] a slices_S3x64_S1x64_0_0) shapeCasts_S1x64_S64
abbrev vec1 (a : Vec F S3x64 .f32) : Vec F S64 .f32 := shapeCast S64 (extractStridedSlice S1x64 ![1, 0] a slices_S3x64_S1x64_1_0) shapeCasts_S1x64_S64
abbrev vec2 (a : Vec F S3x64 .f32) : Vec F S64 .f32 := shapeCast S64 (extractStridedSlice S1x64 ![2, 0] a slices_S3x64_S1x64_2_0) shapeCasts_S1x64_S64
/-- Layer `l`'s `[64, 64]` matrix of a `[3, 64, 64]` parameter. -/
abbrev mat0 (a : Vec F S3x64x64 .f32) : Vec F S64x64 .f32 := shapeCast S64x64 (extractStridedSlice S1x64x64 ![0, 0, 0] a slices_S3x64x64_S1x64x64_0_0_0) shapeCasts_S1x64x64_S64x64
abbrev mat1 (a : Vec F S3x64x64 .f32) : Vec F S64x64 .f32 := shapeCast S64x64 (extractStridedSlice S1x64x64 ![1, 0, 0] a slices_S3x64x64_S1x64x64_1_0_0) shapeCasts_S1x64x64_S64x64
abbrev mat2 (a : Vec F S3x64x64 .f32) : Vec F S64x64 .f32 := shapeCast S64x64 (extractStridedSlice S1x64x64 ![2, 0, 0] a slices_S3x64x64_S1x64x64_2_0_0) shapeCasts_S1x64x64_S64x64

/-- A 64-vector laid out as the one row of a `[1, 64]` array (what the regions take). -/
abbrev rowK (v : Vec F S64 .f32) : Vec F S1x64 .f32 := shapeCast S1x64 v shapeCasts_S64_S1x64

/-- The index column the gather reads: a negative index counted from the end, then one column. -/
abbrev idxColK (s : Vec F S1600000 .i32) : Vec F S1600000x1 .i32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The rows of `x` at the (clamped) indices. -/
abbrev gatherK (x : Vec F S100000x64 .f32) (s : Vec F S1600000 .i32) : Vec F S1600000x64 .f32 :=
  Host.gather gather_S100000x64_S1600000x1_S1600000x64_1_0_n_n_0_1_164 x (idxColK s)

/-- Per edge, whether its index lies in `[0, 99999]`. -/
abbrev inRangeK (s : Vec F S1600000 .i32) : Vec F S1600000 .i1 :=
  Host.reduce IntOp.andi
    (andi (cmpi .sge (idxColK s) (broadcastInDim S1600000x1 ![] bcast_S_S1600000x1 (constantI S_ 32 0#32)))
          (cmpi .sle (idxColK s) (broadcastInDim S1600000x1 ![0, 1] bcast_S1x1_S1600000x1_0_1 (broadcastInDim S1x1 ![1] bcast_S1_S1x1_1 (constantI S1 32 99999#32)))))
    (constantI S_ 1 1#1) reducesTo_S1600000x1_S1600000_d1 h_S_

/-- The gather that fills the rows of out-of-range indices with the not-a-number word. -/
abbrev takeK (x : Vec F S100000x64 .f32) (s : Vec F S1600000 .i32) : Vec F S1600000x64 .f32 :=
  select (broadcastInDim S1600000x64 ![0] bcast_S1600000_S1600000x64_0 (inRangeK s)) (gatherK x s)
    (broadcastInDim S1600000x64 ![] bcast_S_S1600000x64 (constant S_ .f32 0x7FC00000#32))

/-- The messages summed into their destination rows, from zero. -/
abbrev aggK (dst : Vec F S1600000 .i32) (msg : Vec F S1600000x64 .f32) : Vec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst) msg

/-- The column means. -/
abbrev meanK (h : Vec F S100000x64 .f32) : Vec F S64 .f32 :=
  Host.divf (Host.reduceAdd h (constant S_ .f32 0x00000000#32) reducesTo_S100000x64_S64_d0 h_S_)
    (broadcastInDim S64 ![] bcast_S_S64 (constant S_ .f32 0x47C35000#32))

/-- The column variances (the mean of squared deviations, guarded by the count's sign as the source writes it). -/
abbrev varK (h : Vec F S100000x64 .f32) : Vec F S64 .f32 :=
  let dev : Vec F S100000x64 .f32 := subf h (broadcastInDim S100000x64 ![0, 1] bcast_S1x64_S100000x64_0_1
    (Host.divf (broadcastInDim S1x64 ![1] bcast_S64_S1x64_1 (Host.reduceAdd h (constant S_ .f32 0x00000000#32) reducesTo_S100000x64_S64_d0 h_S_))
      (broadcastInDim S1x64 ![] bcast_S_S1x64 (constant S_ .f32 0x47C35000#32))))
  let cnt : Vec F S_ .f32 := subf (constant S_ .f32 0x47C35000#32) (sitofp .f32 (constantI S_ 32 0#32))
  select (broadcastInDim S64 ![] bcast_S_S64 (cmpf .ogt cnt (constant S_ .f32 0x00000000#32)))
    (Host.divf (Host.reduceAdd (mulf dev dev) (constant S_ .f32 0x00000000#32) reducesTo_S100000x64_S64_d0 h_S_) (broadcastInDim S64 ![] bcast_S_S64 cnt))
    (broadcastInDim S64 ![] bcast_S_S64 (id (constant S_ .f32 0x7FC00000#32)))

/-- One layer of the kernel program: gather, the edge region, scatter-add, the perceptron region, the column
    statistics, the normalisation region. The parameters are this layer's rows. -/
def layerK (x : Vec Ideal S100000x64 .f32) (src dst : Vec Ideal S1600000 .i32) (ea : Vec Ideal S1600000x32 .f32)
    (we : Vec Ideal S32x64 .f32) (be : Vec Ideal S64 .f32) (w1 : Vec Ideal S64x64 .f32) (b1 : Vec Ideal S64 .f32)
    (w2 : Vec Ideal S64x64 .f32) (b2 : Vec Ideal S64 .f32) (g bt : Vec Ideal S64 .f32) : Vec Ideal S100000x64 .f32 :=
  let h2 : Vec Ideal S100000x64 .f32 := Spec.mlpG x (aggK dst (Spec.edgeG (takeK x src) ea we (rowK be))) w1 (rowK b1) w2 (rowK b2)
  Spec.bnG h2 (rowK (meanK h2)) (rowK (varK h2)) (rowK g) (rowK bt)

/-- The last projection of the kernel program. -/
def outK (x : Vec Ideal S100000x64 .f32) (w : Vec Ideal S64x64 .f32) (b : Vec Ideal S64 .f32) : Vec Ideal S100000x64 .f32 :=
  Spec.outG x w (rowK b)

end Cert.KernelIdeal.Voc

end
-- ==== Proof.KEdge0.lean ====
import proofs.«430051_j50208167690776_1_alg».proof.Proof.Gen.KernelIdeal.Frame
import proofs.«430051_j50208167690776_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KEdge0

open Cert.KernelIdeal Cert.KernelIdeal.Gen Idealize.ShloMosaic Idealize.ShloMosaic.TcCoe Idealize.ShloMosaic.ValueIdx
open Idealize.ShloMosaic.Pipeline (Dat Cfg Window)

-- the TensorCore's buffer contents when the region is entered: any
variable (V : (c : Dev nD) → (b : Ref sig .tc) → Buf (Elt Ideal) ((c : Thread nD τ).loc b))

/-- The rectangles' zero offsets, as the constant function. -/
theorem zero_off : (![0, 0] : Fin 2 → Nat) = fun _ => 0 := funext fun a => by fin_cases a <;> rfl

/-! ## The product of an edge-feature block with the layer's matrix, at an index -/

/-- The feature operand is read at the output's row … -/
theorem feat_row (j : S12800x64.Idx) (k : dot_S12800x32_S32x64_S12800x64_1_0_0_1_n_n.contr.Idx) :
    (dot_S12800x32_S32x64_S12800x64_1_0_0_1_n_n.lhsIdx j k 0).val = (j 0).val := by
  simp [DotDims.lhsIdx, dot_S12800x32_S32x64_S12800x64_1_0_0_1_n_n]; rfl

/-- … and at the contracted coordinate along its columns. -/
theorem feat_col (j : S12800x64.Idx) (k : dot_S12800x32_S32x64_S12800x64_1_0_0_1_n_n.contr.Idx) :
    (dot_S12800x32_S32x64_S12800x64_1_0_0_1_n_n.lhsIdx j k 1).val = (k ⟨0, Nat.one_pos⟩).val :=
  dot_S12800x32_S32x64_S12800x64_1_0_0_1_n_n.lhsIdx_val_of_single rfl j k

/-- The matrix operand is read at the contracted coordinate along its rows … -/
theorem mat_row (j : S12800x64.Idx) (k : dot_S12800x32_S32x64_S12800x64_1_0_0_1_n_n.contr.Idx) :
    (dot_S12800x32_S32x64_S12800x64_1_0_0_1_n_n.rhsIdx j k 0).val = (k ⟨0, Nat.one_pos⟩).val :=
  dot_S12800x32_S32x64_S12800x64_1_0_0_1_n_n.rhsIdx_val_of_single rfl j k

/-- … and at the output's column. -/
theorem mat_col (j : S12800x64.Idx) (k : dot_S12800x32_S32x64_S12800x64_1_0_0_1_n_n.contr.Idx) :
    (dot_S12800x32_S32x64_S12800x64_1_0_0_1_n_n.rhsIdx j k 1).val = (j 1).val := by
  simp [DotDims.rhsIdx, dot_S12800x32_S32x64_S12800x64_1_0_0_1_n_n]; rfl

/-- Into the zero accumulator the product at edge `p`, feature `q` is the sum over the 32 edge features. -/
theorem product_apply (ea : FVec Ideal S12800x32 .f32) (w : FVec Ideal S32x64 .f32) (p : Fin 12800) (q : Fin 64) :
    matmul dot_S12800x32_S32x64_S12800x64_1_0_0_1_n_n none ea w (constant (F := Ideal) S12800x64 .f32 0x00000000#32) (ix2 p q)
      = ∑ k : Fin 32, ea (ix2 p k) * w (ix2 k q) := by
  show FloatOps.matmul _ none ea w _ (ix2 p q) = _
  rw [Ideal.matmul_constant_zero_apply,
    ← Equiv.sum_comp (contrEquiv1 dot_S12800x32_S32x64_S12800x64_1_0_0_1_n_n 32 rfl rfl).symm]
  refine Finset.sum_congr rfl fun k _ => ?_
  have hk := contrEquiv1_symm_val dot_S12800x32_S32x64_S12800x64_1_0_0_1_n_n 32 rfl rfl k
  have hl : dot_S12800x32_S32x64_S12800x64_1_0_0_1_n_n.lhsIdx (ix2 p q)
      ((contrEquiv1 dot_S12800x32_S32x64_S12800x64_1_0_0_1_n_n 32 rfl rfl).symm k) = ix2 p k := by
    funext a; apply Fin.ext
    match a with
    | ⟨0, _⟩ => exact feat_row _ _
    | ⟨1, _⟩ => exact (feat_col _ _).trans hk
  have hr : dot_S12800x32_S32x64_S12800x64_1_0_0_1_n_n.rhsIdx (ix2 p q)
      ((contrEquiv1 dot_S12800x32_S32x64_S12800x64_1_0_0_1_n_n 32 rfl rfl).symm k) = ix2 k q := by
    funext a; apply Fin.ext
    match a with
    | ⟨0, _⟩ => exact (mat_row _ _).trans hk
    | ⟨1, _⟩ => exact mat_col _ _
  rw [hl, hr]

/-! ## The body's arithmetic at an index -/

/-- The body's value at edge `p`, feature `q` of a block: the rectified sum of the gathered row's entry with the
    product's entry and the bias. -/
theorem message_apply (xs : Vec Ideal S12800x64 .f32) (ea : Vec Ideal S12800x32 .f32) (w : Vec Ideal S32x64 .f32)
    (b : Vec Ideal S1x64 .f32) (p : Fin 12800) (q : Fin 64) :
    k0_pay1 ea w b xs (ix2 p q)
      = max (xs (ix2 p q) + ((∑ k : Fin 32, ea (ix2 p k) * w (ix2 k q)) + b (ix2 (0 : Fin 1) q))) 0 := by
  unfold k0_pay1
  simp only [shapeCast_self]
  show max (xs (ix2 p q) + (matmul dot_S12800x32_S32x64_S12800x64_1_0_0_1_n_n none ea w (constant (F := Ideal) S12800x64 .f32 0x00000000#32) (ix2 p q)
      + broadcastTo S12800x64 b broadcasts_S1x64_S12800x64 (ix2 p q))) (Ideal.ofBits .f32 0x00000000#32) = _
  rw [product_apply, broadcastTo_1b_ab_apply, Ideal.ofBits_zero_f32]

/-! ## Where each window's block sits at a grid point -/

/-- The block index maps over the 125 grid points: the gathered rows, the edge features and the messages move
    down their arrays one block of 12800 edges per point; the matrix and the bias row stay. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Edge `p` of block `t` is edge `12800 t + p` of the whole list. -/
def edgeOf (t : Fin cfg0.N) (p : Fin 12800) : Fin 1600000 :=
  ⟨t.val * 12800 + p.val, by have ht : t.val < 125 := t.isLt; have hp := p.isLt; omega⟩

/-- The gathered-rows block at point `t` reads the array at the block's edges. -/
theorem gathered_block (c : Dev nD) (t : Fin cfg0.N) (p : Fin 12800) (q : Fin 64) :
    (iblk0 V c 0 t : Vec Ideal S12800x64 .f32) (ix2 p q)
      = (V c (Pipeline.arrRef spec0 0) : Spec.sE64.Idx → EReal) (ix2 (edgeOf t p) q) := by
  obtain ⟨e0, e1, -⟩ := block_indices t
  show V c (Pipeline.arrRef spec0 0) (((cfg0.win 0).blk t).view.emb (ix2 p q)) = V c (Pipeline.arrRef spec0 0) _
  refine congrArg _ (funext fun a => Fin.ext ?_)
  match a with
  | ⟨0, _⟩ => show win0_0.index t (0 : Fin 2) * 12800 + 1 * p.val = t.val * 12800 + p.val; omega
  | ⟨1, _⟩ => show win0_0.index t (1 : Fin 2) * 64 + 1 * q.val = q.val; omega

/-- The edge-feature block at point `t` reads the array at the block's edges. -/
theorem feature_block (c : Dev nD) (t : Fin cfg0.N) (p : Fin 12800) (k : Fin 32) :
    (iblk0 V c 1 t : Vec Ideal S12800x32 .f32) (ix2 p k)
      = (V c (Pipeline.arrRef spec0 1) : Spec.sE32.Idx → EReal) (ix2 (edgeOf t p) k) := by
  obtain ⟨-, -, e0, e1, -⟩ := block_indices t
  show V c (Pipeline.arrRef spec0 1) (((cfg0.win 1).blk t).view.emb (ix2 p k)) = V c (Pipeline.arrRef spec0 1) _
  refine congrArg _ (funext fun a => Fin.ext ?_)
  match a with
  | ⟨0, _⟩ => show win0_1.index t (0 : Fin 2) * 12800 + 1 * p.val = t.val * 12800 + p.val; omega
  | ⟨1, _⟩ => show win0_1.index t (1 : Fin 2) * 32 + 1 * k.val = k.val; omega

/-- The matrix's one block is the matrix. -/
theorem matrix_block (c : Dev nD) (t : Fin cfg0.N) (k : Fin 32) (q : Fin 64) :
    (iblk0 V c 2 t : Vec Ideal S32x64 .f32) (ix2 k q)
      = (V c (Pipeline.arrRef spec0 2) : Spec.s32x64.Idx → EReal) (ix2 k q) := by
  obtain ⟨-, -, -, -, e0, e1, -⟩ := block_indices t
  show V c (Pipeline.arrRef spec0 2) (((cfg0.win 2).blk t).view.emb (ix2 k q)) = V c (Pipeline.arrRef spec0 2) _
  refine congrArg _ (funext fun a => Fin.ext ?_)
  match a with
  | ⟨0, _⟩ => show win0_2.index t (0 : Fin 2) * 32 + 1 * k.val = k.val; omega
  | ⟨1, _⟩ => show win0_2.index t (1 : Fin 2) * 64 + 1 * q.val = q.val; omega

/-- The bias row's one block is the row. -/
theorem bias_block (c : Dev nD) (t : Fin cfg0.N) (z : Fin 1) (q : Fin 64) :
    (iblk0 V c 3 t : Vec Ideal S1x64 .f32) (ix2 z q)
      = (V c (Pipeline.arrRef spec0 3) : Spec.s1x64.Idx → EReal) (ix2 z q) := by
  obtain ⟨-, -, -, -, -, -, e0, e1, -⟩ := block_indices t
  show V c (Pipeline.arrRef spec0 3) (((cfg0.win 3).blk t).view.emb (ix2 z q)) = V c (Pipeline.arrRef spec0 3) _
  refine congrArg _ (funext fun a => Fin.ext ?_)
  match a with
  | ⟨0, _⟩ => show win0_3.index t (0 : Fin 2) * 1 + 1 * z.val = z.val; omega
  | ⟨1, _⟩ => show win0_3.index t (1 : Fin 2) * 64 + 1 * q.val = q.val; omega

/-! ## What a grid point writes back -/

/-- Point `t` writes back block `t` of the messages of the whole arrays. -/
theorem writeback_eq (c : Dev nD) (t : Fin cfg0.N) :
    (dat0 (F := Ideal) V c).flushed 4 t = ((cfg0.win 4).blk t).view.read (Elt Ideal)
      (Spec.edgeG (V c (Pipeline.arrRef spec0 0)) (V c (Pipeline.arrRef spec0 1)) (V c (Pipeline.arrRef spec0 2)) (V c (Pipeline.arrRef spec0 3))) := by
  show (cfg0.win 4).cut (grid0.coords t) ((dat0 V c).after 4 t) = _
  rw [after0_4]
  unfold out0_4
  rw [View.canon_unit_zero zero_off]
  simp only [View.ld_unit_zero (S := S12800x64) zero_off, View.ld_unit_zero (S := S12800x32) zero_off,
    View.ld_unit_zero (S := S32x64) zero_off, View.ld_unit_zero (S := S1x64) zero_off]
  refine funext fun (j : S12800x64.Idx) => ?_
  obtain ⟨p, q, rfl⟩ : ∃ (p : Fin 12800) (q : Fin 64), j = ix2 p q := ⟨j 0, j 1, eq_ix2 j⟩
  have hplace : ((cfg0.win 4).blk t).view.emb (ix2 p q) = (ix2 (edgeOf t p) q : Spec.sE64.Idx) := by
    obtain ⟨-, -, -, -, -, -, -, -, e0, e1⟩ := block_indices t
    refine funext fun a => Fin.ext ?_
    match a with
    | ⟨0, _⟩ => show win0_4.index t (0 : Fin 2) * 12800 + 1 * p.val = t.val * 12800 + p.val; omega
    | ⟨1, _⟩ => show win0_4.index t (1 : Fin 2) * 64 + 1 * q.val = q.val; omega
  show k0_pay1 (iblk0 V c 1 t) (iblk0 V c 2 t) (iblk0 V c 3 t) (iblk0 V c 0 t) (ix2 p q)
      = Spec.edgeG _ _ _ _ (((cfg0.win 4).blk t).view.emb (ix2 p q))
  rw [hplace]
  refine (message_apply (iblk0 V c 0 t) (iblk0 V c 1 t) (iblk0 V c 2 t) (iblk0 V c 3 t) p q).trans ?_
  exact congrArg₂ max (congrArg₂ (· + ·) (gathered_block V c t p q)
    (congrArg₂ (· + ·) (Finset.sum_congr rfl fun k _ => congrArg₂ (· * ·) (feature_block V c t p k) (matrix_block V c t k q))
      (bias_block V c t 0 q))) rfl

/-! ## The blocks fill the array -/

/-- An edge row is in point `t`'s block iff it lies in that block's range of 12800 rows. -/
theorem mem_block (t : Fin cfg0.N) (i : S1600000x64.Idx) :
    i ∈ ((cfg0.win 4).blk t).view.set ↔ ∀ a : Fin 2, win0_4.index t a * S12800x64.size a ≤ (i a).val ∧ (i a).val < win0_4.index t a * S12800x64.size a + S12800x64.size a := by
  show i ∈ ((View.whole main_v10).slice (win0_4.rect t)).set ↔ _
  rw [View.set_slice_whole, Rect.mem_set_unit]
  exact Iff.rfl

/-- Every block of the 125 is some point's. -/
theorem block_onto : ∀ n : Fin 125, ∃ t : Fin cfg0.N, win0_4.index t = ![n.val, 0] :=
  (by decide +kernel : ∀ n : Fin 125, ∃ t : Fin grid0.N, win0_4.index t = ![n.val, 0])

/-- Edge row `r` is covered by the point of block `r / 12800`. -/
theorem covered (i : S1600000x64.Idx) :
    ∃ t : Fin cfg0.N, (cfg0.win 4).flush t = true ∧ i ∈ ((cfg0.win 4).blk t).view.set := by
  have hi0 : (i 0).val < 1600000 := (i 0).isLt
  have hi1 : (i 1).val < 64 := (i 1).isLt
  obtain ⟨t, ht⟩ := block_onto ⟨(i 0).val / 12800, by omega⟩
  have q0 : win0_4.index t (0 : Fin 2) = (i 0).val / 12800 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 12800 ≤ (i 0).val ∧ (i 0).val < win0_4.index t (0 : Fin 2) * 12800 + 12800; omega
  | ⟨1, _⟩ => show win0_4.index t (1 : Fin 2) * 64 ≤ (i 1).val ∧ (i 1).val < win0_4.index t (1 : Fin 2) * 64 + 64; omega

/-- The edge-message region leaves in its output array the stage function `Spec.edgeG` of its four input arrays as the region found them: gathered rows, edge features, the layer's matrix, its bias row. -/
theorem final (c : Dev nD) :
    ((dat0 (F := Ideal) V c).arrAt 4 cfg0.N : Spec.sE64.Idx → EReal)
      = Spec.edgeG (V c (Pipeline.arrRef spec0 0)) (V c (Pipeline.arrRef spec0 1)) (V c (Pipeline.arrRef spec0 2)) (V c (Pipeline.arrRef spec0 3)) :=
  (dat0 (F := Ideal) V c).arrAt_eq_of_cover 4 _ (fun t _ => writeback_eq V c t) covered

end Cert.KEdge0

end
-- ==== Proof.KMlp1.lean ====
import proofs.«430051_j50208167690776_1_alg».proof.Proof.Gen.KernelIdeal.Frame
import proofs.«430051_j50208167690776_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KMlp1

open Cert.KernelIdeal Cert.KernelIdeal.Gen Idealize.ShloMosaic Idealize.ShloMosaic.TcCoe Idealize.ShloMosaic.ValueIdx
open Idealize.ShloMosaic.Pipeline (Dat Cfg Window)

-- the TensorCore's buffer contents when the region is entered: any
variable (V : (c : Dev nD) → (b : Ref sig .tc) → Buf (Elt Ideal) ((c : Thread nD τ).loc b))

/-! ## The product of a 5000-row block with a 64 × 64 matrix, entry by entry -/

/-- The dimension numbers of both products: rows of the left operand against columns of the right one. -/
abbrev mm := dot_S5000x64_S64x64_S5000x64_1_0_0_1_n_n

/-- The left operand is read in the output's row … -/
theorem mm_lhs_row (j : S5000x64.Idx) (k : dot_S5000x64_S64x64_S5000x64_1_0_0_1_n_n.contr.Idx) :
    (dot_S5000x64_S64x64_S5000x64_1_0_0_1_n_n.lhsIdx j k 0).val = (j 0).val := by
  simp [DotDims.lhsIdx, dot_S5000x64_S64x64_S5000x64_1_0_0_1_n_n]; rfl

/-- … at the summation index; -/
theorem mm_lhs_col (j : S5000x64.Idx) (k : dot_S5000x64_S64x64_S5000x64_1_0_0_1_n_n.contr.Idx) :
    (dot_S5000x64_S64x64_S5000x64_1_0_0_1_n_n.lhsIdx j k 1).val = (k ⟨0, by decide⟩).val :=
  dot_S5000x64_S64x64_S5000x64_1_0_0_1_n_n.lhsIdx_val_of_single (cl := 1) rfl j k

/-- the right operand at the summation index … -/
theorem mm_rhs_row (j : S5000x64.Idx) (k : dot_S5000x64_S64x64_S5000x64_1_0_0_1_n_n.contr.Idx) :
    (dot_S5000x64_S64x64_S5000x64_1_0_0_1_n_n.rhsIdx j k 0).val = (k ⟨0, by decide⟩).val :=
  dot_S5000x64_S64x64_S5000x64_1_0_0_1_n_n.rhsIdx_val_of_single (cr := 0) rfl j k

/-- … in the output's column. -/
theorem mm_rhs_col (j : S5000x64.Idx) (k : dot_S5000x64_S64x64_S5000x64_1_0_0_1_n_n.contr.Idx) :
    (dot_S5000x64_S64x64_S5000x64_1_0_0_1_n_n.rhsIdx j k 1).val = (j 1).val := by
  simp [DotDims.rhsIdx, dot_S5000x64_S64x64_S5000x64_1_0_0_1_n_n]; rfl

/-- A block times a matrix, accumulated from zero, at row `p` and column `q`: the sum over the 64 inner indices. -/
theorem mm_apply (a : FVec Ideal S5000x64 .f32) (b : FVec Ideal S64x64 .f32) (p : Fin 5000) (q : Fin 64) :
    matmul mm none a b (constant S5000x64 .f32 0x00000000#32) (ix2 p q)
      = ∑ k : Fin 64, a (ix2 p k) * b (ix2 k q) := by
  refine (Ideal.matmul_constant_zero_apply mm none a b (ix2 p q)).trans ?_
  rw [← Equiv.sum_comp (contrEquiv1 mm 64 rfl rfl).symm]
  refine Finset.sum_congr rfl fun k _ => ?_
  have el : mm.lhsIdx (ix2 p q) ((contrEquiv1 mm 64 rfl rfl).symm k) = ix2 p k := by
    funext ax; apply Fin.ext
    match ax with
    | ⟨0, _⟩ => exact mm_lhs_row _ _
    | ⟨1, _⟩ => exact (mm_lhs_col _ _).trans (contrEquiv1_symm_val mm 64 rfl rfl k)
  have er : mm.rhsIdx (ix2 p q) ((contrEquiv1 mm 64 rfl rfl).symm k) = ix2 k q := by
    funext ax; apply Fin.ext
    match ax with
    | ⟨0, _⟩ => exact (mm_rhs_row _ _).trans (contrEquiv1_symm_val mm 64 rfl rfl k)
    | ⟨1, _⟩ => exact mm_rhs_col _ _
  rw [el, er]

/-! ## The body's result, entry by entry -/

/-- What the body stores at row `p`, column `q` of its block: the second layer's sum over the rectified first layer. -/
theorem pay_apply (x agg : Vec Ideal S5000x64 .f32) (w1 : Vec Ideal S64x64 .f32) (b1 : Vec Ideal S1x64 .f32)
    (w2 : Vec Ideal S64x64 .f32) (b2 : Vec Ideal S1x64 .f32) (p : Fin 5000) (q : Fin 64) :
    k1_pay1 x agg w1 b1 w2 b2 (ix2 p q)
      = (∑ k : Fin 64, max ((∑ i : Fin 64, (x (ix2 p i) + agg (ix2 p i)) * w1 (ix2 i k)) + b1 (ix2 (0 : Fin 1) k)) 0 * w2 (ix2 k q))
        + b2 (ix2 (0 : Fin 1) q) := by
  unfold k1_pay1
  simp only [shapeCast_self]
  refine (addf_apply _ _ (ix2 p q)).trans ?_
  refine congrArg₂ (· + ·) ?_ (broadcastTo_1b_ab_apply b2 broadcasts_S1x64_S5000x64 p q)
  refine (mm_apply _ _ p q).trans ?_
  refine Finset.sum_congr rfl fun k _ => congrArg (· * w2 (ix2 k q)) ?_
  refine (maximumf_apply _ _ (ix2 p k)).trans ?_
  refine congrArg₂ max ?_ Ideal.ofBits_zero_f32
  refine (addf_apply _ _ (ix2 p k)).trans ?_
  refine congrArg₂ (· + ·) ?_ (broadcastTo_1b_ab_apply b1 broadcasts_S1x64_S5000x64 p k)
  exact mm_apply _ _ p k

/-! ## The stage function at an entry -/

/-- The stage function at node `n`, feature `q`. -/
theorem mlpG_apply (x agg : Spec.sN64.Idx → EReal) (w1 : Spec.s64x64.Idx → EReal) (b1 : Spec.s1x64.Idx → EReal)
    (w2 : Spec.s64x64.Idx → EReal) (b2 : Spec.s1x64.Idx → EReal) (n : Fin 100000) (q : Fin 64) :
    Spec.mlpG x agg w1 b1 w2 b2 (ix2 n q)
      = (∑ k : Fin 64, Spec.mlpHid x agg w1 b1 n k * w2 (ix2 k q)) + b2 (ix2 (0 : Fin 1) q) := rfl

/-! ## The region's blocks -/

theorem hz : (![0, 0] : Fin 2 → Nat) = fun _ => 0 := funext fun a => by fin_cases a <;> rfl

/-- The block indices over the grid: at point `t` the node features, the aggregated messages and the output are at
    row block `t`; the two weight matrices and the two bias rows are whole at every point. -/
theorem idx_facts : ∀ t : Fin cfg1.N, win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row `p` of the node-feature block at point `t` is row `5000 t + p` of the array. -/
theorem x_blk (c : Dev nD) (t : Fin cfg1.N) (p : Fin 5000) (i : Fin 64) (n : Fin 100000) (hn : n.val = t.val * 5000 + p.val) :
    (iblk1 V c 0 t : Vec Ideal S5000x64 .f32) (ix2 p i) = (V c (Pipeline.arrRef spec1 0) : Spec.sN64.Idx → EReal) (ix2 n i) := by
  obtain ⟨-, -, e0, e1, -⟩ := idx_facts t
  unfold iblk1
  rw [View.read_apply]
  refine congrArg (V c (Pipeline.arrRef spec1 0) : Spec.sN64.Idx → EReal) (funext fun a => Fin.ext ?_)
  match a with
  | ⟨0, _⟩ => show win1_0.index t (0 : Fin 2) * 5000 + 1 * p.val = n.val; omega
  | ⟨1, _⟩ => show win1_0.index t (1 : Fin 2) * 64 + 1 * i.val = i.val; omega

/-- Likewise for the aggregated messages. -/
theorem agg_blk (c : Dev nD) (t : Fin cfg1.N) (p : Fin 5000) (i : Fin 64) (n : Fin 100000) (hn : n.val = t.val * 5000 + p.val) :
    (iblk1 V c 1 t : Vec Ideal S5000x64 .f32) (ix2 p i) = (V c (Pipeline.arrRef spec1 1) : Spec.sN64.Idx → EReal) (ix2 n i) := by
  obtain ⟨-, -, -, -, e0, e1, -⟩ := idx_facts t
  unfold iblk1
  rw [View.read_apply]
  refine congrArg (V c (Pipeline.arrRef spec1 1) : Spec.sN64.Idx → EReal) (funext fun a => Fin.ext ?_)
  match a with
  | ⟨0, _⟩ => show win1_1.index t (0 : Fin 2) * 5000 + 1 * p.val = n.val; omega
  | ⟨1, _⟩ => show win1_1.index t (1 : Fin 2) * 64 + 1 * i.val = i.val; omega

/-- The first layer's weights are read whole at every point. -/
theorem w1_blk (c : Dev nD) (t : Fin cfg1.N) (i k : Fin 64) :
    (iblk1 V c 2 t : Vec Ideal S64x64 .f32) (ix2 i k) = (V c (Pipeline.arrRef spec1 2) : Spec.s64x64.Idx → EReal) (ix2 i k) := by
  obtain ⟨-, -, -, -, -, -, e0, e1, -⟩ := idx_facts t
  unfold iblk1
  rw [View.read_apply]
  refine congrArg (V c (Pipeline.arrRef spec1 2) : Spec.s64x64.Idx → EReal) (funext fun a => Fin.ext ?_)
  match a with
  | ⟨0, _⟩ => show win1_2.index t (0 : Fin 2) * 64 + 1 * i.val = i.val; omega
  | ⟨1, _⟩ => show win1_2.index t (1 : Fin 2) * 64 + 1 * k.val = k.val; omega

/-- So is its bias row. -/
theorem b1_blk (c : Dev nD) (t : Fin cfg1.N) (k : Fin 64) :
    (iblk1 V c 3 t : Vec Ideal S1x64 .f32) (ix2 (0 : Fin 1) k) = (V c (Pipeline.arrRef spec1 3) : Spec.s1x64.Idx → EReal) (ix2 (0 : Fin 1) k) := by
  obtain ⟨-, -, -, -, -, -, -, -, e0, e1, -⟩ := idx_facts t
  unfold iblk1
  rw [View.read_apply]
  refine congrArg (V c (Pipeline.arrRef spec1 3) : Spec.s1x64.Idx → EReal) (funext fun a => Fin.ext ?_)
  match a with
  | ⟨0, _⟩ => show win1_3.index t (0 : Fin 2) * 1 + 1 * 0 = 0; omega
  | ⟨1, _⟩ => show win1_3.index t (1 : Fin 2) * 64 + 1 * k.val = k.val; omega

/-- The second layer's weights are read whole at every point. -/
theorem w2_blk (c : Dev nD) (t : Fin cfg1.N) (k q : Fin 64) :
    (iblk1 V c 4 t : Vec Ideal S64x64 .f32) (ix2 k q) = (V c (Pipeline.arrRef spec1 4) : Spec.s64x64.Idx → EReal) (ix2 k q) := by
  obtain ⟨-, -, -, -, -, -, -, -, -, -, e0, e1, -⟩ := idx_facts t
  unfold iblk1
  rw [View.read_apply]
  refine congrArg (V c (Pipeline.arrRef spec1 4) : Spec.s64x64.Idx → EReal) (funext fun a => Fin.ext ?_)
  match a with
  | ⟨0, _⟩ => show win1_4.index t (0 : Fin 2) * 64 + 1 * k.val = k.val; omega
  | ⟨1, _⟩ => show win1_4.index t (1 : Fin 2) * 64 + 1 * q.val = q.val; omega

/-- So is its bias row. -/
theorem b2_blk (c : Dev nD) (t : Fin cfg1.N) (q : Fin 64) :
    (iblk1 V c 5 t : Vec Ideal S1x64 .f32) (ix2 (0 : Fin 1) q) = (V c (Pipeline.arrRef spec1 5) : Spec.s1x64.Idx → EReal) (ix2 (0 : Fin 1) q) := by
  obtain ⟨-, -, -, -, -, -, -, -, -, -, -, -, e0, e1⟩ := idx_facts t
  unfold iblk1
  rw [View.read_apply]
  refine congrArg (V c (Pipeline.arrRef spec1 5) : Spec.s1x64.Idx → EReal) (funext fun a => Fin.ext ?_)
  match a with
  | ⟨0, _⟩ => show win1_5.index t (0 : Fin 2) * 1 + 1 * 0 = 0; omega
  | ⟨1, _⟩ => show win1_5.index t (1 : Fin 2) * 64 + 1 * q.val = q.val; omega

/-! ## What a point writes back -/

/-- What point `t` writes back is the body's result on the six blocks of point `t`. -/
theorem flushed_pay (c : Dev nD) (t : Fin cfg1.N) :
    (dat1 (F := Ideal) V c).flushed 6 t
      = (cfg1.win 6).cut (grid1.coords t) (k1_pay1 (iblk1 V c 0 t) (iblk1 V c 1 t) (iblk1 V c 2 t) (iblk1 V c 3 t) (iblk1 V c 4 t) (iblk1 V c 5 t)) := by
  show (cfg1.win 6).cut (grid1.coords t) ((dat1 V c).after 6 t) = _
  rw [after1_6]
  unfold out1_6
  rw [View.canon_unit_zero hz]
  simp only [View.ld_unit_zero (S := S5000x64) hz, View.ld_unit_zero (S := S64x64) hz, View.ld_unit_zero (S := S1x64) hz]

/-- Row `p` of the output block at point `t` is row `5000 t + p` of the array. -/
theorem out_emb (t : Fin cfg1.N) (p : Fin 5000) (q : Fin 64) (n : Fin 100000) (hn : n.val = t.val * 5000 + p.val) :
    ((cfg1.win 6).blk t).view.emb (ix2 p q) = ix2 (n0 := 100000) (n1 := 64) n q := by
  obtain ⟨e0, e1, -⟩ := idx_facts t
  funext a; apply Fin.ext
  match a with
  | ⟨0, _⟩ => show win1_6.index t (0 : Fin 2) * 5000 + 1 * p.val = n.val; omega
  | ⟨1, _⟩ => show win1_6.index t (1 : Fin 2) * 64 + 1 * q.val = q.val; omega

/-- The body's result on the blocks of point `t`, at row `p` and column `q`, is the stage function at row `5000 t + p`. -/
theorem pay_blocks (c : Dev nD) (t : Fin cfg1.N) (p : Fin 5000) (q : Fin 64) (n : Fin 100000) (hn : n.val = t.val * 5000 + p.val) :
    k1_pay1 (iblk1 V c 0 t) (iblk1 V c 1 t) (iblk1 V c 2 t) (iblk1 V c 3 t) (iblk1 V c 4 t) (iblk1 V c 5 t) (ix2 p q)
      = Spec.mlpG (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (ix2 n q) := by
  refine (pay_apply (iblk1 V c 0 t) (iblk1 V c 1 t) (iblk1 V c 2 t) (iblk1 V c 3 t) (iblk1 V c 4 t) (iblk1 V c 5 t) p q).trans ?_
  refine Eq.trans ?_ (mlpG_apply (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) n q).symm
  refine congrArg₂ (· + ·) (Finset.sum_congr rfl fun k _ => congrArg₂ (· * ·) ?_ (w2_blk V c t k q)) (b2_blk V c t q)
  unfold Spec.mlpHid
  exact congrArg (max · 0) (congrArg₂ (· + ·)
    (Finset.sum_congr rfl fun i _ => congrArg₂ (· * ·) (congrArg₂ (· + ·) (x_blk V c t p i n hn) (agg_blk V c t p i n hn)) (w1_blk V c t i k))
    (b1_blk V c t k))

/-- Point `t` writes back block `t` of the stage function of the six input arrays. -/
theorem flushed_eq (c : Dev nD) (t : Fin cfg1.N) :
    (dat1 (F := Ideal) V c).flushed 6 t = ((cfg1.win 6).blk t).view.read (Elt Ideal)
      (Spec.mlpG (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  rw [flushed_pay]
  refine funext fun (j : S5000x64.Idx) => ?_
  obtain ⟨p, q, rfl⟩ : ∃ (p : Fin 5000) (q : Fin 64), j = ix2 p q := ⟨j 0, j 1, eq_ix2 j⟩
  have ht : t.val < 20 := lt_of_lt_of_eq t.isLt N_1
  obtain ⟨n, hn⟩ : ∃ n : Fin 100000, n.val = t.val * 5000 + p.val := ⟨⟨t.val * 5000 + p.val, by have := p.isLt; omega⟩, rfl⟩
  rw [View.read_apply, out_emb t p q n hn]
  exact pay_blocks V c t p q n hn

/-! ## The row blocks fill the array -/

/-- An entry of the array is in point `t`'s block iff each coordinate is in the block's range on its axis. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v24).slice (win1_6.rect t)).set ↔ _
  rw [View.set_slice_whole, Rect.mem_set_unit]
  exact Iff.rfl

/-- Row `r` is written back by point `r / 5000`. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, lt_of_lt_of_eq (show (i 0).val / 5000 < 20 by omega) N_1.symm⟩, rfl⟩
  obtain ⟨e0, e1, -⟩ := idx_facts t
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-! ## The output array after the region -/

/-- The node-perceptron region leaves in its output array the stage function `Spec.mlpG` of its six input arrays as the region found them. -/
theorem final (c : Dev nD) :
    ((dat1 (F := Ideal) V c).arrAt 6 cfg1.N : Spec.sN64.Idx → EReal)
      = Spec.mlpG (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) := by
  exact (dat1 (F := Ideal) V c).arrAt_eq_of_cover 6 _ (fun t _ => flushed_eq V c t) cover

end Cert.KMlp1

end
-- ==== Proof.KBn2.lean ====
import proofs.«430051_j50208167690776_1_alg».proof.Proof.Gen.KernelIdeal.Frame
import proofs.«430051_j50208167690776_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KBn2

open Cert.KernelIdeal Cert.KernelIdeal.Gen Idealize.ShloMosaic Idealize.ShloMosaic.TcCoe Idealize.ShloMosaic.ValueIdx
open Idealize.ShloMosaic.Pipeline (Dat Cfg Window)

-- the TensorCore's buffer contents when the region is entered: any
variable (V : (c : Dev nD) → (b : Ref sig .tc) → Buf (Elt Ideal) ((c : Thread nD τ).loc b))

/-! ## The body's arithmetic at one entry of a block -/

/-- A one-row vector spread over the 5000 rows of a block reads, at row `p` and column `q`, its entry in column `q`. -/
theorem spread_row (x : Vec Ideal S1x64 .f32) (p : Fin 5000) (q : Fin 64) :
    broadcastTo S5000x64 x broadcasts_S1x64_S5000x64 (ix2 p q) = x (ix2 (n0 := 1) (n1 := 64) 0 q) := by
  refine broadcastTo_apply x _ (ix2 p q) (ix2 (n0 := 1) (n1 := 64) 0 q) ?_
  intro a
  match a with
  | ⟨0, _⟩ => rfl
  | ⟨1, _⟩ => rfl

/-- The value the body stores at row `p`, column `q` of its block: the row's entry centred by the column's mean, scaled
    by the reciprocal square root of the guarded variance and by the column's gain, shifted by the column's offset,
    then rectified. `v0` is the variance row, `v5` the block of rows, `v7` the mean row, `v13` the gains, `v17` the offsets. -/
theorem body_apply (v0 : Vec Ideal S1x64 .f32) (v5 : Vec Ideal S5000x64 .f32) (v7 v13 v17 : Vec Ideal S1x64 .f32)
    (p : Fin 5000) (q : Fin 64) :
    k2_pay1 v0 v5 v7 v13 v17 (ix2 p q)
      = max ((v5 (ix2 p q) - v7 (ix2 (n0 := 1) (n1 := 64) 0 q)) * Ideal.rsqrt (v0 (ix2 (n0 := 1) (n1 := 64) 0 q) + Spec.eps)
            * v13 (ix2 (n0 := 1) (n1 := 64) 0 q) + v17 (ix2 (n0 := 1) (n1 := 64) 0 q)) 0 := by
  unfold k2_pay1
  simp only [shapeCast_self]
  rw [maximumf_apply, addf_apply, mulf_apply, mulf_apply, subf_apply, broadcast_apply,
    spread_row, spread_row, spread_row, spread_row]
  show max _ (Ideal.ofBits .f32 0x00000000#32) = _
  rw [Ideal.ofBits_zero_f32]
  rfl

/-- The stage function at an index whose row is `r` and whose column is `q`. -/
theorem bnG_at (h : Spec.sN64.Idx → EReal) (mean var gam bet : Spec.s1x64.Idx → EReal) (i : Spec.sN64.Idx)
    (r : Fin 100000) (q : Fin 64) (hr : (i 0).val = r.val) (hq : (i 1).val = q.val) :
    Spec.bnG h mean var gam bet i
      = max ((h (ix2 (n0 := 100000) (n1 := 64) r q) - mean (ix2 (n0 := 1) (n1 := 64) 0 q))
            * Ideal.rsqrt (var (ix2 (n0 := 1) (n1 := 64) 0 q) + Spec.eps)
            * gam (ix2 (n0 := 1) (n1 := 64) 0 q) + bet (ix2 (n0 := 1) (n1 := 64) 0 q)) 0 := by
  obtain ⟨r', q', rfl⟩ : ∃ (r' : Fin 100000) (q' : Fin 64), i = ix2 r' q' := ⟨i 0, i 1, eq_ix2 i⟩
  obtain rfl : r' = r := Fin.ext hr
  obtain rfl : q' = q := Fin.ext hq
  rfl

/-! ## Where each window's block sits in its array -/

theorem zeroOffsets : (![0, 0] : Fin 2 → Nat) = fun _ => 0 :=
  funext fun a => by match a with | ⟨0, _⟩ => rfl | ⟨1, _⟩ => rfl

/-- The grid has 20 points. -/
theorem points_lt (t : Fin cfg2.N) : t.val < 20 := Nat.lt_of_lt_of_eq t.isLt N_2

/-- The printed index maps, decided over the 20 grid points: at point `t` the row windows (the input rows and the
    output) are at block row `t`, block column 0; the four one-row windows stay at block (0, 0). -/
theorem blockIndex : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The block of input rows at point `t` holds rows `5000 t … 5000 t + 4999` of the array of rows. -/
theorem rowsBlock_read (c : Dev nD) (t : Fin cfg2.N) (p : Fin 5000) (q : Fin 64) (r : Fin 100000)
    (hr : r.val = t.val * 5000 + p.val) :
    (iblk2 V c 0 t : Vec Ideal S5000x64 .f32) (ix2 p q)
      = (V c (Pipeline.arrRef spec2 0) : Spec.sN64.Idx → EReal) (ix2 (n0 := 100000) (n1 := 64) r q) := by
  obtain ⟨e0, e1, -⟩ := blockIndex t
  unfold iblk2
  rw [View.read_apply]
  show V c (Pipeline.arrRef spec2 0) (((cfg2.win 0).blk t).view.emb (ix2 p q)) = V c (Pipeline.arrRef spec2 0) _
  refine congrArg _ (funext fun a => Fin.ext ?_)
  match a with
  | ⟨0, _⟩ => show win2_0.index t (0 : Fin 2) * 5000 + 1 * p.val = r.val; rw [e0, hr]; omega
  | ⟨1, _⟩ => show win2_0.index t (1 : Fin 2) * 64 + 1 * q.val = q.val; rw [e1]; omega

/-- The one-row windows' blocks are their arrays: the means, -/
theorem meanBlock_read (c : Dev nD) (t : Fin cfg2.N) (q : Fin 64) :
    (iblk2 V c 1 t : Vec Ideal S1x64 .f32) (ix2 (n0 := 1) (n1 := 64) 0 q)
      = (V c (Pipeline.arrRef spec2 1) : Spec.s1x64.Idx → EReal) (ix2 (n0 := 1) (n1 := 64) 0 q) := by
  obtain ⟨-, -, e0, e1, -⟩ := blockIndex t
  unfold iblk2
  rw [View.read_apply]
  show V c (Pipeline.arrRef spec2 1) (((cfg2.win 1).blk t).view.emb (ix2 (n0 := 1) (n1 := 64) 0 q)) = V c (Pipeline.arrRef spec2 1) _
  refine congrArg _ (funext fun a => Fin.ext ?_)
  match a with
  | ⟨0, _⟩ => show win2_1.index t (0 : Fin 2) * 1 + 1 * 0 = 0; rw [e0]
  | ⟨1, _⟩ => show win2_1.index t (1 : Fin 2) * 64 + 1 * q.val = q.val; rw [e1]; omega

/-- the variances, -/
theorem varBlock_read (c : Dev nD) (t : Fin cfg2.N) (q : Fin 64) :
    (iblk2 V c 2 t : Vec Ideal S1x64 .f32) (ix2 (n0 := 1) (n1 := 64) 0 q)
      = (V c (Pipeline.arrRef spec2 2) : Spec.s1x64.Idx → EReal) (ix2 (n0 := 1) (n1 := 64) 0 q) := by
  obtain ⟨-, -, -, -, e0, e1, -⟩ := blockIndex t
  unfold iblk2
  rw [View.read_apply]
  show V c (Pipeline.arrRef spec2 2) (((cfg2.win 2).blk t).view.emb (ix2 (n0 := 1) (n1 := 64) 0 q)) = V c (Pipeline.arrRef spec2 2) _
  refine congrArg _ (funext fun a => Fin.ext ?_)
  match a with
  | ⟨0, _⟩ => show win2_2.index t (0 : Fin 2) * 1 + 1 * 0 = 0; rw [e0]
  | ⟨1, _⟩ => show win2_2.index t (1 : Fin 2) * 64 + 1 * q.val = q.val; rw [e1]; omega

/-- the gains, -/
theorem gainBlock_read (c : Dev nD) (t : Fin cfg2.N) (q : Fin 64) :
    (iblk2 V c 3 t : Vec Ideal S1x64 .f32) (ix2 (n0 := 1) (n1 := 64) 0 q)
      = (V c (Pipeline.arrRef spec2 3) : Spec.s1x64.Idx → EReal) (ix2 (n0 := 1) (n1 := 64) 0 q) := by
  obtain ⟨-, -, -, -, -, -, e0, e1, -⟩ := blockIndex t
  unfold iblk2
  rw [View.read_apply]
  show V c (Pipeline.arrRef spec2 3) (((cfg2.win 3).blk t).view.emb (ix2 (n0 := 1) (n1 := 64) 0 q)) = V c (Pipeline.arrRef spec2 3) _
  refine congrArg _ (funext fun a => Fin.ext ?_)
  match a with
  | ⟨0, _⟩ => show win2_3.index t (0 : Fin 2) * 1 + 1 * 0 = 0; rw [e0]
  | ⟨1, _⟩ => show win2_3.index t (1 : Fin 2) * 64 + 1 * q.val = q.val; rw [e1]; omega

/-- and the offsets. -/
theorem offsetBlock_read (c : Dev nD) (t : Fin cfg2.N) (q : Fin 64) :
    (iblk2 V c 4 t : Vec Ideal S1x64 .f32) (ix2 (n0 := 1) (n1 := 64) 0 q)
      = (V c (Pipeline.arrRef spec2 4) : Spec.s1x64.Idx → EReal) (ix2 (n0 := 1) (n1 := 64) 0 q) := by
  obtain ⟨-, -, -, -, -, -, -, -, e0, e1, -⟩ := blockIndex t
  unfold iblk2
  rw [View.read_apply]
  show V c (Pipeline.arrRef spec2 4) (((cfg2.win 4).blk t).view.emb (ix2 (n0 := 1) (n1 := 64) 0 q)) = V c (Pipeline.arrRef spec2 4) _
  refine congrArg _ (funext fun a => Fin.ext ?_)
  match a with
  | ⟨0, _⟩ => show win2_4.index t (0 : Fin 2) * 1 + 1 * 0 = 0; rw [e0]
  | ⟨1, _⟩ => show win2_4.index t (1 : Fin 2) * 64 + 1 * q.val = q.val; rw [e1]; omega

/-! ## What a grid point writes back -/

set_option maxHeartbeats 400000 in
/-- What point `t` writes back to the output array is block `t` of the stage function of the five input arrays. -/
theorem writeback_eq (c : Dev nD) (t : Fin cfg2.N) :
    (dat2 (F := Ideal) V c).flushed 5 t = ((cfg2.win 5).blk t).view.read (Elt Ideal)
      (Spec.bnG (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero zeroOffsets]
  simp only [View.ld_unit_zero (S := S5000x64) zeroOffsets, View.ld_unit_zero (S := S1x64) zeroOffsets]
  funext j
  obtain ⟨p, q, rfl⟩ : ∃ (p : Fin 5000) (q : Fin 64), j = ix2 p q := ⟨j 0, j 1, eq_ix2 j⟩
  obtain ⟨-, -, -, -, -, -, -, -, -, -, e0, e1⟩ := blockIndex t
  have ht := points_lt t
  show k2_pay1 (iblk2 V c 2 t) (iblk2 V c 0 t) (iblk2 V c 1 t) (iblk2 V c 3 t) (iblk2 V c 4 t) (ix2 p q)
    = Spec.bnG (V c (Pipeline.arrRef spec2 0)) (V c (Pipeline.arrRef spec2 1)) (V c (Pipeline.arrRef spec2 2)) (V c (Pipeline.arrRef spec2 3)) (V c (Pipeline.arrRef spec2 4))
        (((cfg2.win 5).blk t).view.emb (ix2 p q))
  refine (body_apply (iblk2 V c 2 t) (iblk2 V c 0 t) (iblk2 V c 1 t) (iblk2 V c 3 t) (iblk2 V c 4 t) p q).trans ?_
  refine Eq.trans ?_ (bnG_at _ _ _ _ _ _ ⟨t.val * 5000 + p.val, by have := p.isLt; omega⟩ q ?_ ?_).symm
  · rw [rowsBlock_read V c t p q ⟨t.val * 5000 + p.val, by have := p.isLt; omega⟩ rfl, meanBlock_read V c t q,
      varBlock_read V c t q, gainBlock_read V c t q, offsetBlock_read V c t q]
  · show win2_5.index t (0 : Fin 2) * 5000 + 1 * p.val = t.val * 5000 + p.val
    rw [e0]; omega
  · show win2_5.index t (1 : Fin 2) * 64 + 1 * q.val = q.val
    rw [e1]; omega

/-! ## The blocks fill the array -/

/-- An index of the output array lies in point `t`'s block iff each coordinate is in the block's range on its axis. -/
theorem mem_outBlock (t : Fin cfg2.N) (i : Spec.sN64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v37).slice (win2_5.rect t)).set ↔ _
  rw [View.set_slice_whole, Rect.mem_set_unit]
  exact Iff.rfl

/-- Every index of the output array is written: row `r` by the point `r / 5000`. -/
theorem covered (i : Spec.sN64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : (i 0).val / 5000 < cfg2.N := by rw [show cfg2.N = 20 from N_2]; omega
  obtain ⟨-, -, -, -, -, -, -, -, -, -, e0, e1⟩ := blockIndex ⟨(i 0).val / 5000, hN⟩
  have e0' : win2_5.index ⟨(i 0).val / 5000, hN⟩ (0 : Fin 2) = (i 0).val / 5000 := e0
  refine ⟨⟨(i 0).val / 5000, hN⟩, flush2_5 _, ?_⟩
  rw [mem_outBlock]
  intro a
  match a with
  | ⟨0, _⟩ =>
    show win2_5.index ⟨(i 0).val / 5000, hN⟩ (0 : Fin 2) * 5000 ≤ (i 0).val ∧ (i 0).val < win2_5.index ⟨(i 0).val / 5000, hN⟩ (0 : Fin 2) * 5000 + 5000
    rw [e0']; omega
  | ⟨1, _⟩ =>
    show win2_5.index ⟨(i 0).val / 5000, hN⟩ (1 : Fin 2) * 64 ≤ (i 1).val ∧ (i 1).val < win2_5.index ⟨(i 0).val / 5000, hN⟩ (1 : Fin 2) * 64 + 64
    rw [e1]; omega

/-- The normalisation region leaves in its output array the stage function `Spec.bnG` of its five input arrays as the region found them. -/
theorem final (c : Dev nD) :
    ((dat2 (F := Ideal) V c).arrAt 5 cfg2.N : Spec.sN64.Idx → EReal)
      = Spec.bnG (V c (Pipeline.arrRef spec2 0)) (V c (Pipeline.arrRef spec2 1)) (V c (Pipeline.arrRef spec2 2)) (V c (Pipeline.arrRef spec2 3)) (V c (Pipeline.arrRef spec2 4)) :=
  (dat2 (F := Ideal) V c).arrAt_eq_of_cover 5 _ (fun t _ => writeback_eq V c t) covered

end Cert.KBn2

end
-- ==== Proof.KTake.lean ====
import proofs.«430051_j50208167690776_1_alg».proof.Proof.Gen.KernelIdeal.Launch
import proofs.«430051_j50208167690776_1_alg».proof.Proof.KVoc
import Idealize.ShloMosaic.Lib.StableHlo.Run

/-! The three host stretches that gather rows with the filling gather, each read at its result buffer: the filled
    gather `Voc.takeK` of the activations and the source row as the stretch finds them. -/

noncomputable section

namespace Cert.KernelIdeal.Chain

open Cert.KernelIdeal Cert.KernelIdeal.Gen Cert.KernelIdeal.Voc Idealize.ShloMosaic Idealize.ShloMosaic.TcCoe Idealize.SL.Sem Idealize.ShloMosaic.StableHlo

variable {F : FTy → Type} [FloatOps F]

/-- Contents moved to a buffer's own type and back are the contents. -/
theorem ofBuf_toBuf {T : BufTy} {Val : EltTy → Type} (x : TRef sig T) (v : T.Contents Val) : x.ofBuf (x.toBuf v) = v := by
  obtain ⟨r, h, _, _⟩ := x
  subst h
  rfl

set_option maxHeartbeats 1000000 in
/-- Layer 0's gather. -/
theorem take0 (W : Valuation τ sig (Elt F)) :
    StableHlo.after hostOps0_1 W (Proc.devRef .tc main_v4) = takeK (W (Proc.devRef .tc main_arg0)) (W (Proc.devRef .tc main_v1)) := by
  have hs : (TRef.of (sig := sig) (T := ⟨S1600000, .i32⟩) main_v1).ofBuf (Val := Elt F) (W (Proc.devRef .tc main_v1))
      = W (Proc.devRef .tc main_v1) := rfl
  have hx : (TRef.of (sig := sig) (T := ⟨S100000x64, .f32⟩) main_arg0).ofBuf (Val := Elt F) (W (Proc.devRef .tc main_arg0))
      = W (Proc.devRef .tc main_arg0) := rfl
  have ho : ∀ X : (⟨S1600000x64, .f32⟩ : BufTy).Contents (Elt F),
      (TRef.of (sig := sig) (T := ⟨S1600000x64, .f32⟩) main_v4).toBuf (Val := Elt F) X = X := fun _ => rfl
  after_results_simp
  simp only [ofBuf_toBuf, hs, hx]
  refine (ho _).trans ?_
  with_reducible rfl

set_option maxHeartbeats 1000000 in
/-- Layer 1's gather. -/
theorem take1 (W : Valuation τ sig (Elt F)) :
    StableHlo.after hostOps3 W (Proc.devRef .tc main_v38) = takeK (W (Proc.devRef .tc main_v37)) (W (Proc.devRef .tc main_v1)) := by
  have hs : (TRef.of (sig := sig) (T := ⟨S1600000, .i32⟩) main_v1).ofBuf (Val := Elt F) (W (Proc.devRef .tc main_v1))
      = W (Proc.devRef .tc main_v1) := rfl
  have hx : (TRef.of (sig := sig) (T := ⟨S100000x64, .f32⟩) main_v37).ofBuf (Val := Elt F) (W (Proc.devRef .tc main_v37))
      = W (Proc.devRef .tc main_v37) := rfl
  have ho : ∀ X : (⟨S1600000x64, .f32⟩ : BufTy).Contents (Elt F),
      (TRef.of (sig := sig) (T := ⟨S1600000x64, .f32⟩) main_v38).toBuf (Val := Elt F) X = X := fun _ => rfl
  after_results_simp
  simp only [ofBuf_toBuf, hs, hx]
  refine (ho _).trans ?_
  with_reducible rfl

set_option maxHeartbeats 1000000 in
/-- Layer 2's gather. -/
theorem take2 (W : Valuation τ sig (Elt F)) :
    StableHlo.after hostOps6 W (Proc.devRef .tc main_v72) = takeK (W (Proc.devRef .tc main_v71)) (W (Proc.devRef .tc main_v1)) := by
  have hs : (TRef.of (sig := sig) (T := ⟨S1600000, .i32⟩) main_v1).ofBuf (Val := Elt F) (W (Proc.devRef .tc main_v1))
      = W (Proc.devRef .tc main_v1) := rfl
  have hx : (TRef.of (sig := sig) (T := ⟨S100000x64, .f32⟩) main_v71).ofBuf (Val := Elt F) (W (Proc.devRef .tc main_v71))
      = W (Proc.devRef .tc main_v71) := rfl
  have ho : ∀ X : (⟨S1600000x64, .f32⟩ : BufTy).Contents (Elt F),
      (TRef.of (sig := sig) (T := ⟨S1600000x64, .f32⟩) main_v72).toBuf (Val := Elt F) X = X := fun _ => rfl
  after_results_simp
  simp only [ofBuf_toBuf, hs, hx]
  refine (ho _).trans ?_
  with_reducible rfl

end Cert.KernelIdeal.Chain

end
-- ==== Proof.KChain0.lean ====
import proofs.«430051_j50208167690776_1_alg».proof.Proof.Gen.KernelIdeal.Frame
import proofs.«430051_j50208167690776_1_alg».proof.Proof.KVoc
import proofs.«430051_j50208167690776_1_alg».proof.Proof.KEdge0
import proofs.«430051_j50208167690776_1_alg».proof.Proof.KMlp1
import proofs.«430051_j50208167690776_1_alg».proof.Proof.KBn2
import proofs.«430051_j50208167690776_1_alg».proof.Proof.KTake
import Idealize.ShloMosaic.Lib.StableHlo.Run

set_option maxRecDepth 16384

noncomputable section

namespace Cert.KernelIdeal.Chain

open Cert.KernelIdeal Cert.KernelIdeal.Gen Cert.KernelIdeal.Voc Idealize.ShloMosaic Idealize.ShloMosaic.TcCoe Idealize.SL.Sem Idealize.ShloMosaic.StableHlo

/-! Layer 0 of the kernel program, read off the run: each host stretch's result buffers as functions of the contents the
    stretch finds (for any contents), each region's output array as its stage function of the arrays it finds, every
    buffer a segment does not write carried across it, and the chain of these from the launch memory to the
    normalisation region's exit. -/

namespace L0

section Stretch

-- the contents a stretch finds: any
variable {F : FTy → Type} [FloatOps F] (W : Valuation τ sig (Elt F))

/-! ## The first stretch group: the index rows, the filled gather, the edge region's parameter rows -/

/-- The three stretches before the edge region, as one fold. -/
abbrev grpA : Valuation τ sig (Elt F) := after hostOps0_2 (after hostOps0_1 (after hostOps0 W))

theorem s0_v1 : after hostOps0 W (Proc.devRef .tc main_v1) = srcK (W (Proc.devRef .tc main_arg1)) := by
  after_results
  rfl

theorem s0_arg0 : after hostOps0 W (Proc.devRef .tc main_arg0) = W (Proc.devRef .tc main_arg0) := by
  after_results

theorem s02_v4 : after hostOps0_2 W (Proc.devRef .tc main_v4) = W (Proc.devRef .tc main_v4) := by
  after_results

/-- The filled gather at the edge region's entry: made in the middle stretch from the activations and the source row
    the first stretch leaves, untouched by the third. -/
theorem grpA_v4 : grpA W (Proc.devRef .tc main_v4) = takeK (W (Proc.devRef .tc main_arg0)) (srcK (W (Proc.devRef .tc main_arg1))) := by
  refine (s02_v4 _).trans ((take0 _).trans ?_)
  rw [s0_arg0, s0_v1]

theorem grpA_v3 : grpA W (Proc.devRef .tc main_v3) = dstK (W (Proc.devRef .tc main_arg1)) := by
  show after hostOps0_2 (after hostOps0_1 (after hostOps0 W)) (Proc.devRef .tc main_v3) = _
  after_results
  rfl

theorem grpA_v6 : grpA W (Proc.devRef .tc main_v6) = we0 (W (Proc.devRef .tc main_arg3)) := by
  show after hostOps0_2 (after hostOps0_1 (after hostOps0 W)) (Proc.devRef .tc main_v6) = _
  after_results
  rfl

theorem grpA_v9 : grpA W (Proc.devRef .tc main_v9) = rowK (vec0 (W (Proc.devRef .tc main_arg4))) := by
  show after hostOps0_2 (after hostOps0_1 (after hostOps0 W)) (Proc.devRef .tc main_v9) = _
  after_results
  rfl

theorem grpA_arg0 : grpA W (Proc.devRef .tc main_arg0) = W (Proc.devRef .tc main_arg0) := by
  show after hostOps0_2 (after hostOps0_1 (after hostOps0 W)) (Proc.devRef .tc main_arg0) = _
  after_results

theorem grpA_arg2 : grpA W (Proc.devRef .tc main_arg2) = W (Proc.devRef .tc main_arg2) := by
  show after hostOps0_2 (after hostOps0_1 (after hostOps0 W)) (Proc.devRef .tc main_arg2) = _
  after_results

theorem grpA_arg5 : grpA W (Proc.devRef .tc main_arg5) = W (Proc.devRef .tc main_arg5) := by
  show after hostOps0_2 (after hostOps0_1 (after hostOps0 W)) (Proc.devRef .tc main_arg5) = _
  after_results

theorem grpA_arg6 : grpA W (Proc.devRef .tc main_arg6) = W (Proc.devRef .tc main_arg6) := by
  show after hostOps0_2 (after hostOps0_1 (after hostOps0 W)) (Proc.devRef .tc main_arg6) = _
  after_results

theorem grpA_arg7 : grpA W (Proc.devRef .tc main_arg7) = W (Proc.devRef .tc main_arg7) := by
  show after hostOps0_2 (after hostOps0_1 (after hostOps0 W)) (Proc.devRef .tc main_arg7) = _
  after_results

theorem grpA_arg8 : grpA W (Proc.devRef .tc main_arg8) = W (Proc.devRef .tc main_arg8) := by
  show after hostOps0_2 (after hostOps0_1 (after hostOps0 W)) (Proc.devRef .tc main_arg8) = _
  after_results

theorem grpA_arg9 : grpA W (Proc.devRef .tc main_arg9) = W (Proc.devRef .tc main_arg9) := by
  show after hostOps0_2 (after hostOps0_1 (after hostOps0 W)) (Proc.devRef .tc main_arg9) = _
  after_results

theorem grpA_arg10 : grpA W (Proc.devRef .tc main_arg10) = W (Proc.devRef .tc main_arg10) := by
  show after hostOps0_2 (after hostOps0_1 (after hostOps0 W)) (Proc.devRef .tc main_arg10) = _
  after_results

/-! ## The second stretch: the scatter-add and the perceptron's parameter rows -/

attribute [local irreducible] Host.reduce Host.gather Host.scatterAdd Host.reduceAdd in
theorem s1_v13 : after hostOps1 W (Proc.devRef .tc main_v13)
    = aggK (W (Proc.devRef .tc main_v3)) (W (Proc.devRef .tc main_v10)) := by
  after_results

theorem s1_v15 : after hostOps1 W (Proc.devRef .tc main_v15) = mat0 (W (Proc.devRef .tc main_arg5)) := by
  after_results
  rfl

theorem s1_v22 : after hostOps1 W (Proc.devRef .tc main_v22) = rowK (vec0 (W (Proc.devRef .tc main_arg6))) := by
  after_results
  rfl

theorem s1_v19 : after hostOps1 W (Proc.devRef .tc main_v19) = mat0 (W (Proc.devRef .tc main_arg7)) := by
  after_results
  rfl

theorem s1_v23 : after hostOps1 W (Proc.devRef .tc main_v23) = rowK (vec0 (W (Proc.devRef .tc main_arg8))) := by
  after_results
  rfl

theorem s1_arg0 : after hostOps1 W (Proc.devRef .tc main_arg0) = W (Proc.devRef .tc main_arg0) := by
  after_results

theorem s1_arg9 : after hostOps1 W (Proc.devRef .tc main_arg9) = W (Proc.devRef .tc main_arg9) := by
  after_results

theorem s1_arg10 : after hostOps1 W (Proc.devRef .tc main_arg10) = W (Proc.devRef .tc main_arg10) := by
  after_results

/-! ## The third stretch group: the column statistics and the normalisation's parameter rows -/

abbrev grpC : Valuation τ sig (Elt F) := after hostOps2_2 (after hostOps2_1 (after hostOps2 W))

theorem grpC_v24 : grpC W (Proc.devRef .tc main_v24) = W (Proc.devRef .tc main_v24) := by
  show after hostOps2_2 (after hostOps2_1 (after hostOps2 W)) (Proc.devRef .tc main_v24) = _
  after_results

theorem grpC_v35 : grpC W (Proc.devRef .tc main_v35) = rowK (vec0 (W (Proc.devRef .tc main_arg9))) := by
  show after hostOps2_2 (after hostOps2_1 (after hostOps2 W)) (Proc.devRef .tc main_v35) = _
  after_results
  rfl

theorem grpC_v36 : grpC W (Proc.devRef .tc main_v36) = rowK (vec0 (W (Proc.devRef .tc main_arg10))) := by
  show after hostOps2_2 (after hostOps2_1 (after hostOps2 W)) (Proc.devRef .tc main_v36) = _
  after_results
  rfl

attribute [local irreducible] Host.reduce Host.gather Host.scatterAdd Host.reduceAdd in
theorem grpC_v33 : grpC W (Proc.devRef .tc main_v33) = rowK (meanK (W (Proc.devRef .tc main_v24))) := by
  show after hostOps2_2 (after hostOps2_1 (after hostOps2 W)) (Proc.devRef .tc main_v33) = _
  after_results
  rfl

attribute [local irreducible] Host.reduce Host.gather Host.scatterAdd Host.reduceAdd in
set_option maxHeartbeats 1000000 in
theorem grpC_v34 : grpC W (Proc.devRef .tc main_v34) = rowK (varK (W (Proc.devRef .tc main_v24))) := by
  show after hostOps2_2 (after hostOps2_1 (after hostOps2 W)) (Proc.devRef .tc main_v34) = _
  after_results_simp
  rfl

end Stretch

section Run

variable (m : (ℓ : Loc nD τ sig) → Buf (Elt Ideal) ℓ) (ρ : Dev nD → PrngReg) (c : Dev nD)

/-! ## The edge region's entry: the launch memory through the first stretch group -/

theorem W3_v4 : W3 (F := Ideal) m ρ c (Proc.devRef .tc main_v4) = takeK (m ((c : Thread nD τ).loc main_arg0)) (srcK (m ((c : Thread nD τ).loc main_arg1))) := grpA_v4 (W0 m ρ c)
theorem W3_v6 : W3 (F := Ideal) m ρ c (Proc.devRef .tc main_v6) = we0 (m ((c : Thread nD τ).loc main_arg3)) := grpA_v6 (W0 m ρ c)
theorem W3_v9 : W3 (F := Ideal) m ρ c (Proc.devRef .tc main_v9) = rowK (vec0 (m ((c : Thread nD τ).loc main_arg4))) := grpA_v9 (W0 m ρ c)
theorem W3_v3 : W3 (F := Ideal) m ρ c (Proc.devRef .tc main_v3) = dstK (m ((c : Thread nD τ).loc main_arg1)) := grpA_v3 (W0 m ρ c)
theorem W3_arg0 : W3 (F := Ideal) m ρ c (Proc.devRef .tc main_arg0) = m ((c : Thread nD τ).loc main_arg0) := grpA_arg0 (W0 m ρ c)
theorem W3_arg2 : W3 (F := Ideal) m ρ c (Proc.devRef .tc main_arg2) = m ((c : Thread nD τ).loc main_arg2) := grpA_arg2 (W0 m ρ c)
theorem W3_arg5 : W3 (F := Ideal) m ρ c (Proc.devRef .tc main_arg5) = m ((c : Thread nD τ).loc main_arg5) := grpA_arg5 (W0 m ρ c)
theorem W3_arg6 : W3 (F := Ideal) m ρ c (Proc.devRef .tc main_arg6) = m ((c : Thread nD τ).loc main_arg6) := grpA_arg6 (W0 m ρ c)
theorem W3_arg7 : W3 (F := Ideal) m ρ c (Proc.devRef .tc main_arg7) = m ((c : Thread nD τ).loc main_arg7) := grpA_arg7 (W0 m ρ c)
theorem W3_arg8 : W3 (F := Ideal) m ρ c (Proc.devRef .tc main_arg8) = m ((c : Thread nD τ).loc main_arg8) := grpA_arg8 (W0 m ρ c)
theorem W3_arg9 : W3 (F := Ideal) m ρ c (Proc.devRef .tc main_arg9) = m ((c : Thread nD τ).loc main_arg9) := grpA_arg9 (W0 m ρ c)
theorem W3_arg10 : W3 (F := Ideal) m ρ c (Proc.devRef .tc main_arg10) = m ((c : Thread nD τ).loc main_arg10) := grpA_arg10 (W0 m ρ c)

/-! ## The edge region's exit -/

theorem W4_v10 : W4 (F := Ideal) m ρ c (Proc.devRef .tc main_v10) = Spec.edgeG (takeK (m ((c : Thread nD τ).loc main_arg0)) (srcK (m ((c : Thread nD τ).loc main_arg1)))) (m ((c : Thread nD τ).loc main_arg2)) (we0 (m ((c : Thread nD τ).loc main_arg3))) (rowK (vec0 (m ((c : Thread nD τ).loc main_arg4)))) := by
  refine ((W4_arr m ρ c 4).trans (Cert.KEdge0.final (V3 m ρ) c)).trans ?_
  show Spec.edgeG (W3 m ρ c (Proc.devRef .tc main_v4)) (W3 m ρ c (Proc.devRef .tc main_arg2)) (W3 m ρ c (Proc.devRef .tc main_v6)) (W3 m ρ c (Proc.devRef .tc main_v9)) = _
  rw [W3_v4, W3_arg2, W3_v6, W3_v9]
theorem W4_v3 : W4 (F := Ideal) m ρ c (Proc.devRef .tc main_v3) = dstK (m ((c : Thread nD τ).loc main_arg1)) :=
  (W4_of_ne m ρ c main_v3 (by decide)).trans (W3_v3 m ρ c)
theorem W4_arg0 : W4 (F := Ideal) m ρ c (Proc.devRef .tc main_arg0) = m ((c : Thread nD τ).loc main_arg0) :=
  (W4_of_ne m ρ c main_arg0 (by decide)).trans (W3_arg0 m ρ c)
theorem W4_arg5 : W4 (F := Ideal) m ρ c (Proc.devRef .tc main_arg5) = m ((c : Thread nD τ).loc main_arg5) :=
  (W4_of_ne m ρ c main_arg5 (by decide)).trans (W3_arg5 m ρ c)
theorem W4_arg6 : W4 (F := Ideal) m ρ c (Proc.devRef .tc main_arg6) = m ((c : Thread nD τ).loc main_arg6) :=
  (W4_of_ne m ρ c main_arg6 (by decide)).trans (W3_arg6 m ρ c)
theorem W4_arg7 : W4 (F := Ideal) m ρ c (Proc.devRef .tc main_arg7) = m ((c : Thread nD τ).loc main_arg7) :=
  (W4_of_ne m ρ c main_arg7 (by decide)).trans (W3_arg7 m ρ c)
theorem W4_arg8 : W4 (F := Ideal) m ρ c (Proc.devRef .tc main_arg8) = m ((c : Thread nD τ).loc main_arg8) :=
  (W4_of_ne m ρ c main_arg8 (by decide)).trans (W3_arg8 m ρ c)
theorem W4_arg9 : W4 (F := Ideal) m ρ c (Proc.devRef .tc main_arg9) = m ((c : Thread nD τ).loc main_arg9) :=
  (W4_of_ne m ρ c main_arg9 (by decide)).trans (W3_arg9 m ρ c)
theorem W4_arg10 : W4 (F := Ideal) m ρ c (Proc.devRef .tc main_arg10) = m ((c : Thread nD τ).loc main_arg10) :=
  (W4_of_ne m ρ c main_arg10 (by decide)).trans (W3_arg10 m ρ c)

/-! ## The perceptron region's entry and exit -/

theorem W5_v13 : W5 (F := Ideal) m ρ c (Proc.devRef .tc main_v13) = aggK (dstK (m ((c : Thread nD τ).loc main_arg1))) (Spec.edgeG (takeK (m ((c : Thread nD τ).loc main_arg0)) (srcK (m ((c : Thread nD τ).loc main_arg1)))) (m ((c : Thread nD τ).loc main_arg2)) (we0 (m ((c : Thread nD τ).loc main_arg3))) (rowK (vec0 (m ((c : Thread nD τ).loc main_arg4))))) := by
  refine (s1_v13 (W4 m ρ c)).trans ?_
  rw [W4_v3, W4_v10]
theorem W5_v15 : W5 (F := Ideal) m ρ c (Proc.devRef .tc main_v15) = mat0 (m ((c : Thread nD τ).loc main_arg5)) := by
  refine (s1_v15 (W4 m ρ c)).trans ?_
  rw [W4_arg5]
theorem W5_v22 : W5 (F := Ideal) m ρ c (Proc.devRef .tc main_v22) = rowK (vec0 (m ((c : Thread nD τ).loc main_arg6))) := by
  refine (s1_v22 (W4 m ρ c)).trans ?_
  rw [W4_arg6]
theorem W5_v19 : W5 (F := Ideal) m ρ c (Proc.devRef .tc main_v19) = mat0 (m ((c : Thread nD τ).loc main_arg7)) := by
  refine (s1_v19 (W4 m ρ c)).trans ?_
  rw [W4_arg7]
theorem W5_v23 : W5 (F := Ideal) m ρ c (Proc.devRef .tc main_v23) = rowK (vec0 (m ((c : Thread nD τ).loc main_arg8))) := by
  refine (s1_v23 (W4 m ρ c)).trans ?_
  rw [W4_arg8]
theorem W5_arg0 : W5 (F := Ideal) m ρ c (Proc.devRef .tc main_arg0) = m ((c : Thread nD τ).loc main_arg0) :=
  (s1_arg0 (W4 m ρ c)).trans (W4_arg0 m ρ c)
theorem W5_arg9 : W5 (F := Ideal) m ρ c (Proc.devRef .tc main_arg9) = m ((c : Thread nD τ).loc main_arg9) :=
  (s1_arg9 (W4 m ρ c)).trans (W4_arg9 m ρ c)
theorem W5_arg10 : W5 (F := Ideal) m ρ c (Proc.devRef .tc main_arg10) = m ((c : Thread nD τ).loc main_arg10) :=
  (s1_arg10 (W4 m ρ c)).trans (W4_arg10 m ρ c)

theorem W6_v24 : W6 (F := Ideal) m ρ c (Proc.devRef .tc main_v24) = Spec.mlpG (m ((c : Thread nD τ).loc main_arg0)) (aggK (dstK (m ((c : Thread nD τ).loc main_arg1))) (Spec.edgeG (takeK (m ((c : Thread nD τ).loc main_arg0)) (srcK (m ((c : Thread nD τ).loc main_arg1)))) (m ((c : Thread nD τ).loc main_arg2)) (we0 (m ((c : Thread nD τ).loc main_arg3))) (rowK (vec0 (m ((c : Thread nD τ).loc main_arg4)))))) (mat0 (m ((c : Thread nD τ).loc main_arg5))) (rowK (vec0 (m ((c : Thread nD τ).loc main_arg6)))) (mat0 (m ((c : Thread nD τ).loc main_arg7))) (rowK (vec0 (m ((c : Thread nD τ).loc main_arg8)))) := by
  refine ((W6_arr m ρ c 6).trans (Cert.KMlp1.final (V5 m ρ) c)).trans ?_
  show Spec.mlpG (W5 m ρ c (Proc.devRef .tc main_arg0)) (W5 m ρ c (Proc.devRef .tc main_v13)) (W5 m ρ c (Proc.devRef .tc main_v15)) (W5 m ρ c (Proc.devRef .tc main_v22)) (W5 m ρ c (Proc.devRef .tc main_v19)) (W5 m ρ c (Proc.devRef .tc main_v23)) = _
  rw [W5_arg0, W5_v13, W5_v15, W5_v22, W5_v19, W5_v23]
theorem W6_arg9 : W6 (F := Ideal) m ρ c (Proc.devRef .tc main_arg9) = m ((c : Thread nD τ).loc main_arg9) :=
  (W6_of_ne m ρ c main_arg9 (by decide)).trans (W5_arg9 m ρ c)
theorem W6_arg10 : W6 (F := Ideal) m ρ c (Proc.devRef .tc main_arg10) = m ((c : Thread nD τ).loc main_arg10) :=
  (W6_of_ne m ρ c main_arg10 (by decide)).trans (W5_arg10 m ρ c)

/-! ## The normalisation region's entry -/

theorem W9_v24 : W9 (F := Ideal) m ρ c (Proc.devRef .tc main_v24) = W6 m ρ c (Proc.devRef .tc main_v24) := grpC_v24 (W6 m ρ c)
theorem W9_v33 : W9 (F := Ideal) m ρ c (Proc.devRef .tc main_v33) = rowK (meanK (W6 m ρ c (Proc.devRef .tc main_v24))) := grpC_v33 (W6 m ρ c)
theorem W9_v34 : W9 (F := Ideal) m ρ c (Proc.devRef .tc main_v34) = rowK (varK (W6 m ρ c (Proc.devRef .tc main_v24))) := grpC_v34 (W6 m ρ c)
theorem W9_v35 : W9 (F := Ideal) m ρ c (Proc.devRef .tc main_v35) = rowK (vec0 (m ((c : Thread nD τ).loc main_arg9))) := by
  refine (grpC_v35 (W6 m ρ c)).trans ?_
  rw [W6_arg9]
theorem W9_v36 : W9 (F := Ideal) m ρ c (Proc.devRef .tc main_v36) = rowK (vec0 (m ((c : Thread nD τ).loc main_arg10))) := by
  refine (grpC_v36 (W6 m ρ c)).trans ?_
  rw [W6_arg10]

end Run

end L0

variable (m : (ℓ : Loc nD τ sig) → Buf (Elt Ideal) ℓ) (ρ : Dev nD → PrngReg)

/-- Layer 0 of the kernel program: the contents of its last region's output array at that region's exit, from the layer's
    input activations (the first argument) and the argument arrays: gather, edge region, scatter-add, perceptron region,
    column statistics, normalisation region. -/
theorem layer0 (c : Dev nD) :
    W10 (F := Ideal) m ρ c (Proc.devRef .tc main_v37)
      = layerK (m ((c : Thread nD τ).loc main_arg0)) (srcK (m ((c : Thread nD τ).loc main_arg1))) (dstK (m ((c : Thread nD τ).loc main_arg1))) (m ((c : Thread nD τ).loc main_arg2))
        (we0 (m ((c : Thread nD τ).loc main_arg3))) (vec0 (m ((c : Thread nD τ).loc main_arg4))) (mat0 (m ((c : Thread nD τ).loc main_arg5))) (vec0 (m ((c : Thread nD τ).loc main_arg6)))
        (mat0 (m ((c : Thread nD τ).loc main_arg7))) (vec0 (m ((c : Thread nD τ).loc main_arg8))) (vec0 (m ((c : Thread nD τ).loc main_arg9))) (vec0 (m ((c : Thread nD τ).loc main_arg10))) := by
  refine ((W10_arr m ρ c 5).trans (Cert.KBn2.final (V9 m ρ) c)).trans ?_
  show Spec.bnG (W9 m ρ c (Proc.devRef .tc main_v24)) (W9 m ρ c (Proc.devRef .tc main_v33)) (W9 m ρ c (Proc.devRef .tc main_v34)) (W9 m ρ c (Proc.devRef .tc main_v35)) (W9 m ρ c (Proc.devRef .tc main_v36)) = _
  rw [L0.W9_v24, L0.W9_v33, L0.W9_v34, L0.W9_v35, L0.W9_v36, L0.W6_v24]
  rfl

end Cert.KernelIdeal.Chain

end
-- ==== Proof.KEdge3.lean ====
import proofs.«430051_j50208167690776_1_alg».proof.Proof.Gen.KernelIdeal.Frame
import proofs.«430051_j50208167690776_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KEdge3

open Cert.KernelIdeal Cert.KernelIdeal.Gen Idealize.ShloMosaic Idealize.ShloMosaic.TcCoe Idealize.ShloMosaic.ValueIdx
open Idealize.ShloMosaic.Pipeline (Dat Cfg Window)

-- the TensorCore's buffer contents when the region is entered: any
variable (V : (c : Dev nD) → (b : Ref sig .tc) → Buf (Elt Ideal) ((c : Thread nD τ).loc b))

/-- The rectangles' zero offsets, as the constant function. -/
theorem zero_off : (![0, 0] : Fin 2 → Nat) = fun _ => 0 := funext fun a => by fin_cases a <;> rfl

/-! ## The product of an edge-feature block with the layer's matrix, at an index -/

/-- The feature operand is read at the output's row … -/
theorem feat_row (j : S12800x64.Idx) (k : dot_S12800x32_S32x64_S12800x64_1_0_0_1_n_n.contr.Idx) :
    (dot_S12800x32_S32x64_S12800x64_1_0_0_1_n_n.lhsIdx j k 0).val = (j 0).val := by
  simp [DotDims.lhsIdx, dot_S12800x32_S32x64_S12800x64_1_0_0_1_n_n]; rfl

/-- … and at the contracted coordinate along its columns. -/
theorem feat_col (j : S12800x64.Idx) (k : dot_S12800x32_S32x64_S12800x64_1_0_0_1_n_n.contr.Idx) :
    (dot_S12800x32_S32x64_S12800x64_1_0_0_1_n_n.lhsIdx j k 1).val = (k ⟨0, Nat.one_pos⟩).val :=
  dot_S12800x32_S32x64_S12800x64_1_0_0_1_n_n.lhsIdx_val_of_single rfl j k

/-- The matrix operand is read at the contracted coordinate along its rows … -/
theorem mat_row (j : S12800x64.Idx) (k : dot_S12800x32_S32x64_S12800x64_1_0_0_1_n_n.contr.Idx) :
    (dot_S12800x32_S32x64_S12800x64_1_0_0_1_n_n.rhsIdx j k 0).val = (k ⟨0, Nat.one_pos⟩).val :=
  dot_S12800x32_S32x64_S12800x64_1_0_0_1_n_n.rhsIdx_val_of_single rfl j k

/-- … and at the output's column. -/
theorem mat_col (j : S12800x64.Idx) (k : dot_S12800x32_S32x64_S12800x64_1_0_0_1_n_n.contr.Idx) :
    (dot_S12800x32_S32x64_S12800x64_1_0_0_1_n_n.rhsIdx j k 1).val = (j 1).val := by
  simp [DotDims.rhsIdx, dot_S12800x32_S32x64_S12800x64_1_0_0_1_n_n]; rfl

/-- Into the zero accumulator the product at edge `p`, feature `q` is the sum over the 32 edge features. -/
theorem product_apply (ea : FVec Ideal S12800x32 .f32) (w : FVec Ideal S32x64 .f32) (p : Fin 12800) (q : Fin 64) :
    matmul dot_S12800x32_S32x64_S12800x64_1_0_0_1_n_n none ea w (constant (F := Ideal) S12800x64 .f32 0x00000000#32) (ix2 p q)
      = ∑ k : Fin 32, ea (ix2 p k) * w (ix2 k q) := by
  show FloatOps.matmul _ none ea w _ (ix2 p q) = _
  rw [Ideal.matmul_constant_zero_apply,
    ← Equiv.sum_comp (contrEquiv1 dot_S12800x32_S32x64_S12800x64_1_0_0_1_n_n 32 rfl rfl).symm]
  refine Finset.sum_congr rfl fun k _ => ?_
  have hk := contrEquiv1_symm_val dot_S12800x32_S32x64_S12800x64_1_0_0_1_n_n 32 rfl rfl k
  have hl : dot_S12800x32_S32x64_S12800x64_1_0_0_1_n_n.lhsIdx (ix2 p q)
      ((contrEquiv1 dot_S12800x32_S32x64_S12800x64_1_0_0_1_n_n 32 rfl rfl).symm k) = ix2 p k := by
    funext a; apply Fin.ext
    match a with
    | ⟨0, _⟩ => exact feat_row _ _
    | ⟨1, _⟩ => exact (feat_col _ _).trans hk
  have hr : dot_S12800x32_S32x64_S12800x64_1_0_0_1_n_n.rhsIdx (ix2 p q)
      ((contrEquiv1 dot_S12800x32_S32x64_S12800x64_1_0_0_1_n_n 32 rfl rfl).symm k) = ix2 k q := by
    funext a; apply Fin.ext
    match a with
    | ⟨0, _⟩ => exact (mat_row _ _).trans hk
    | ⟨1, _⟩ => exact mat_col _ _
  rw [hl, hr]

/-! ## The body's arithmetic at an index -/

/-- The body's value at edge `p`, feature `q` of a block: the rectified sum of the gathered row's entry with the
    product's entry and the bias. -/
theorem message_apply (xs : Vec Ideal S12800x64 .f32) (ea : Vec Ideal S12800x32 .f32) (w : Vec Ideal S32x64 .f32)
    (b : Vec Ideal S1x64 .f32) (p : Fin 12800) (q : Fin 64) :
    k3_pay1 ea w b xs (ix2 p q)
      = max (xs (ix2 p q) + ((∑ k : Fin 32, ea (ix2 p k) * w (ix2 k q)) + b (ix2 (0 : Fin 1) q))) 0 := by
  unfold k3_pay1
  simp only [shapeCast_self]
  show max (xs (ix2 p q) + (matmul dot_S12800x32_S32x64_S12800x64_1_0_0_1_n_n none ea w (constant (F := Ideal) S12800x64 .f32 0x00000000#32) (ix2 p q)
      + broadcastTo S12800x64 b broadcasts_S1x64_S12800x64 (ix2 p q))) (Ideal.ofBits .f32 0x00000000#32) = _
  rw [product_apply, broadcastTo_1b_ab_apply, Ideal.ofBits_zero_f32]

/-! ## Where each window's block sits at a grid point -/

/-- The block index maps over the 125 grid points: the gathered rows, the edge features and the messages move
    down their arrays one block of 12800 edges per point; the matrix and the bias row stay. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Edge `p` of block `t` is edge `12800 t + p` of the whole list. -/
def edgeOf (t : Fin cfg3.N) (p : Fin 12800) : Fin 1600000 :=
  ⟨t.val * 12800 + p.val, by have ht : t.val < 125 := t.isLt; have hp := p.isLt; omega⟩

/-- The gathered-rows block at point `t` reads the array at the block's edges. -/
theorem gathered_block (c : Dev nD) (t : Fin cfg3.N) (p : Fin 12800) (q : Fin 64) :
    (iblk3 V c 0 t : Vec Ideal S12800x64 .f32) (ix2 p q)
      = (V c (Pipeline.arrRef spec3 0) : Spec.sE64.Idx → EReal) (ix2 (edgeOf t p) q) := by
  obtain ⟨e0, e1, -⟩ := block_indices t
  show V c (Pipeline.arrRef spec3 0) (((cfg3.win 0).blk t).view.emb (ix2 p q)) = V c (Pipeline.arrRef spec3 0) _
  refine congrArg _ (funext fun a => Fin.ext ?_)
  match a with
  | ⟨0, _⟩ => show win3_0.index t (0 : Fin 2) * 12800 + 1 * p.val = t.val * 12800 + p.val; omega
  | ⟨1, _⟩ => show win3_0.index t (1 : Fin 2) * 64 + 1 * q.val = q.val; omega

/-- The edge-feature block at point `t` reads the array at the block's edges. -/
theorem feature_block (c : Dev nD) (t : Fin cfg3.N) (p : Fin 12800) (k : Fin 32) :
    (iblk3 V c 1 t : Vec Ideal S12800x32 .f32) (ix2 p k)
      = (V c (Pipeline.arrRef spec3 1) : Spec.sE32.Idx → EReal) (ix2 (edgeOf t p) k) := by
  obtain ⟨-, -, e0, e1, -⟩ := block_indices t
  show V c (Pipeline.arrRef spec3 1) (((cfg3.win 1).blk t).view.emb (ix2 p k)) = V c (Pipeline.arrRef spec3 1) _
  refine congrArg _ (funext fun a => Fin.ext ?_)
  match a with
  | ⟨0, _⟩ => show win3_1.index t (0 : Fin 2) * 12800 + 1 * p.val = t.val * 12800 + p.val; omega
  | ⟨1, _⟩ => show win3_1.index t (1 : Fin 2) * 32 + 1 * k.val = k.val; omega

/-- The matrix's one block is the matrix. -/
theorem matrix_block (c : Dev nD) (t : Fin cfg3.N) (k : Fin 32) (q : Fin 64) :
    (iblk3 V c 2 t : Vec Ideal S32x64 .f32) (ix2 k q)
      = (V c (Pipeline.arrRef spec3 2) : Spec.s32x64.Idx → EReal) (ix2 k q) := by
  obtain ⟨-, -, -, -, e0, e1, -⟩ := block_indices t
  show V c (Pipeline.arrRef spec3 2) (((cfg3.win 2).blk t).view.emb (ix2 k q)) = V c (Pipeline.arrRef spec3 2) _
  refine congrArg _ (funext fun a => Fin.ext ?_)
  match a with
  | ⟨0, _⟩ => show win3_2.index t (0 : Fin 2) * 32 + 1 * k.val = k.val; omega
  | ⟨1, _⟩ => show win3_2.index t (1 : Fin 2) * 64 + 1 * q.val = q.val; omega

/-- The bias row's one block is the row. -/
theorem bias_block (c : Dev nD) (t : Fin cfg3.N) (z : Fin 1) (q : Fin 64) :
    (iblk3 V c 3 t : Vec Ideal S1x64 .f32) (ix2 z q)
      = (V c (Pipeline.arrRef spec3 3) : Spec.s1x64.Idx → EReal) (ix2 z q) := by
  obtain ⟨-, -, -, -, -, -, e0, e1, -⟩ := block_indices t
  show V c (Pipeline.arrRef spec3 3) (((cfg3.win 3).blk t).view.emb (ix2 z q)) = V c (Pipeline.arrRef spec3 3) _
  refine congrArg _ (funext fun a => Fin.ext ?_)
  match a with
  | ⟨0, _⟩ => show win3_3.index t (0 : Fin 2) * 1 + 1 * z.val = z.val; omega
  | ⟨1, _⟩ => show win3_3.index t (1 : Fin 2) * 64 + 1 * q.val = q.val; omega

/-! ## What a grid point writes back -/

/-- Point `t` writes back block `t` of the messages of the whole arrays. -/
theorem writeback_eq (c : Dev nD) (t : Fin cfg3.N) :
    (dat3 (F := Ideal) V c).flushed 4 t = ((cfg3.win 4).blk t).view.read (Elt Ideal)
      (Spec.edgeG (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero zero_off]
  simp only [View.ld_unit_zero (S := S12800x64) zero_off, View.ld_unit_zero (S := S12800x32) zero_off,
    View.ld_unit_zero (S := S32x64) zero_off, View.ld_unit_zero (S := S1x64) zero_off]
  refine funext fun (j : S12800x64.Idx) => ?_
  obtain ⟨p, q, rfl⟩ : ∃ (p : Fin 12800) (q : Fin 64), j = ix2 p q := ⟨j 0, j 1, eq_ix2 j⟩
  have hplace : ((cfg3.win 4).blk t).view.emb (ix2 p q) = (ix2 (edgeOf t p) q : Spec.sE64.Idx) := by
    obtain ⟨-, -, -, -, -, -, -, -, e0, e1⟩ := block_indices t
    refine funext fun a => Fin.ext ?_
    match a with
    | ⟨0, _⟩ => show win3_4.index t (0 : Fin 2) * 12800 + 1 * p.val = t.val * 12800 + p.val; omega
    | ⟨1, _⟩ => show win3_4.index t (1 : Fin 2) * 64 + 1 * q.val = q.val; omega
  show k3_pay1 (iblk3 V c 1 t) (iblk3 V c 2 t) (iblk3 V c 3 t) (iblk3 V c 0 t) (ix2 p q)
      = Spec.edgeG _ _ _ _ (((cfg3.win 4).blk t).view.emb (ix2 p q))
  rw [hplace]
  refine (message_apply (iblk3 V c 0 t) (iblk3 V c 1 t) (iblk3 V c 2 t) (iblk3 V c 3 t) p q).trans ?_
  exact congrArg₂ max (congrArg₂ (· + ·) (gathered_block V c t p q)
    (congrArg₂ (· + ·) (Finset.sum_congr rfl fun k _ => congrArg₂ (· * ·) (feature_block V c t p k) (matrix_block V c t k q))
      (bias_block V c t 0 q))) rfl

/-! ## The blocks fill the array -/

/-- An edge row is in point `t`'s block iff it lies in that block's range of 12800 rows. -/
theorem mem_block (t : Fin cfg3.N) (i : S1600000x64.Idx) :
    i ∈ ((cfg3.win 4).blk t).view.set ↔ ∀ a : Fin 2, win3_4.index t a * S12800x64.size a ≤ (i a).val ∧ (i a).val < win3_4.index t a * S12800x64.size a + S12800x64.size a := by
  show i ∈ ((View.whole main_v44).slice (win3_4.rect t)).set ↔ _
  rw [View.set_slice_whole, Rect.mem_set_unit]
  exact Iff.rfl

/-- Every block of the 125 is some point's. -/
theorem block_onto : ∀ n : Fin 125, ∃ t : Fin cfg3.N, win3_4.index t = ![n.val, 0] :=
  (by decide +kernel : ∀ n : Fin 125, ∃ t : Fin grid3.N, win3_4.index t = ![n.val, 0])

/-- Edge row `r` is covered by the point of block `r / 12800`. -/
theorem covered (i : S1600000x64.Idx) :
    ∃ t : Fin cfg3.N, (cfg3.win 4).flush t = true ∧ i ∈ ((cfg3.win 4).blk t).view.set := by
  have hi0 : (i 0).val < 1600000 := (i 0).isLt
  have hi1 : (i 1).val < 64 := (i 1).isLt
  obtain ⟨t, ht⟩ := block_onto ⟨(i 0).val / 12800, by omega⟩
  have q0 : win3_4.index t (0 : Fin 2) = (i 0).val / 12800 := congrFun ht 0
  have q1 : win3_4.index t (1 : Fin 2) = 0 := congrFun ht 1
  refine ⟨t, flush3_4 t, ?_⟩
  rw [mem_block]
  intro a
  match a with
  | ⟨0, _⟩ => show win3_4.index t (0 : Fin 2) * 12800 ≤ (i 0).val ∧ (i 0).val < win3_4.index t (0 : Fin 2) * 12800 + 12800; omega
  | ⟨1, _⟩ => show win3_4.index t (1 : Fin 2) * 64 ≤ (i 1).val ∧ (i 1).val < win3_4.index t (1 : Fin 2) * 64 + 64; omega

/-- The edge-message region leaves in its output array the stage function `Spec.edgeG` of its four input arrays as the region found them: gathered rows, edge features, the layer's matrix, its bias row. -/
theorem final (c : Dev nD) :
    ((dat3 (F := Ideal) V c).arrAt 4 cfg3.N : Spec.sE64.Idx → EReal)
      = Spec.edgeG (V c (Pipeline.arrRef spec3 0)) (V c (Pipeline.arrRef spec3 1)) (V c (Pipeline.arrRef spec3 2)) (V c (Pipeline.arrRef spec3 3)) :=
  (dat3 (F := Ideal) V c).arrAt_eq_of_cover 4 _ (fun t _ => writeback_eq V c t) covered

end Cert.KEdge3

end
-- ==== Proof.KMlp4.lean ====
import proofs.«430051_j50208167690776_1_alg».proof.Proof.Gen.KernelIdeal.Frame
import proofs.«430051_j50208167690776_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KMlp4

open Cert.KernelIdeal Cert.KernelIdeal.Gen Idealize.ShloMosaic Idealize.ShloMosaic.TcCoe Idealize.ShloMosaic.ValueIdx
open Idealize.ShloMosaic.Pipeline (Dat Cfg Window)

-- the TensorCore's buffer contents when the region is entered: any
variable (V : (c : Dev nD) → (b : Ref sig .tc) → Buf (Elt Ideal) ((c : Thread nD τ).loc b))

/-! ## The product of a 5000-row block with a 64 × 64 matrix, entry by entry -/

/-- The dimension numbers of both products: rows of the left operand against columns of the right one. -/
abbrev mm := dot_S5000x64_S64x64_S5000x64_1_0_0_1_n_n

/-- The left operand is read in the output's row … -/
theorem mm_lhs_row (j : S5000x64.Idx) (k : dot_S5000x64_S64x64_S5000x64_1_0_0_1_n_n.contr.Idx) :
    (dot_S5000x64_S64x64_S5000x64_1_0_0_1_n_n.lhsIdx j k 0).val = (j 0).val := by
  simp [DotDims.lhsIdx, dot_S5000x64_S64x64_S5000x64_1_0_0_1_n_n]; rfl

/-- … at the summation index; -/
theorem mm_lhs_col (j : S5000x64.Idx) (k : dot_S5000x64_S64x64_S5000x64_1_0_0_1_n_n.contr.Idx) :
    (dot_S5000x64_S64x64_S5000x64_1_0_0_1_n_n.lhsIdx j k 1).val = (k ⟨0, by decide⟩).val :=
  dot_S5000x64_S64x64_S5000x64_1_0_0_1_n_n.lhsIdx_val_of_single (cl := 1) rfl j k

/-- the right operand at the summation index … -/
theorem mm_rhs_row (j : S5000x64.Idx) (k : dot_S5000x64_S64x64_S5000x64_1_0_0_1_n_n.contr.Idx) :
    (dot_S5000x64_S64x64_S5000x64_1_0_0_1_n_n.rhsIdx j k 0).val = (k ⟨0, by decide⟩).val :=
  dot_S5000x64_S64x64_S5000x64_1_0_0_1_n_n.rhsIdx_val_of_single (cr := 0) rfl j k

/-- … in the output's column. -/
theorem mm_rhs_col (j : S5000x64.Idx) (k : dot_S5000x64_S64x64_S5000x64_1_0_0_1_n_n.contr.Idx) :
    (dot_S5000x64_S64x64_S5000x64_1_0_0_1_n_n.rhsIdx j k 1).val = (j 1).val := by
  simp [DotDims.rhsIdx, dot_S5000x64_S64x64_S5000x64_1_0_0_1_n_n]; rfl

/-- A block times a matrix, accumulated from zero, at row `p` and column `q`: the sum over the 64 inner indices. -/
theorem mm_apply (a : FVec Ideal S5000x64 .f32) (b : FVec Ideal S64x64 .f32) (p : Fin 5000) (q : Fin 64) :
    matmul mm none a b (constant S5000x64 .f32 0x00000000#32) (ix2 p q)
      = ∑ k : Fin 64, a (ix2 p k) * b (ix2 k q) := by
  refine (Ideal.matmul_constant_zero_apply mm none a b (ix2 p q)).trans ?_
  rw [← Equiv.sum_comp (contrEquiv1 mm 64 rfl rfl).symm]
  refine Finset.sum_congr rfl fun k _ => ?_
  have el : mm.lhsIdx (ix2 p q) ((contrEquiv1 mm 64 rfl rfl).symm k) = ix2 p k := by
    funext ax; apply Fin.ext
    match ax with
    | ⟨0, _⟩ => exact mm_lhs_row _ _
    | ⟨1, _⟩ => exact (mm_lhs_col _ _).trans (contrEquiv1_symm_val mm 64 rfl rfl k)
  have er : mm.rhsIdx (ix2 p q) ((contrEquiv1 mm 64 rfl rfl).symm k) = ix2 k q := by
    funext ax; apply Fin.ext
    match ax with
    | ⟨0, _⟩ => exact (mm_rhs_row _ _).trans (contrEquiv1_symm_val mm 64 rfl rfl k)
    | ⟨1, _⟩ => exact mm_rhs_col _ _
  rw [el, er]

/-! ## The body's result, entry by entry -/

/-- What the body stores at row `p`, column `q` of its block: the second layer's sum over the rectified first layer. -/
theorem pay_apply (x agg : Vec Ideal S5000x64 .f32) (w1 : Vec Ideal S64x64 .f32) (b1 : Vec Ideal S1x64 .f32)
    (w2 : Vec Ideal S64x64 .f32) (b2 : Vec Ideal S1x64 .f32) (p : Fin 5000) (q : Fin 64) :
    k4_pay1 x agg w1 b1 w2 b2 (ix2 p q)
      = (∑ k : Fin 64, max ((∑ i : Fin 64, (x (ix2 p i) + agg (ix2 p i)) * w1 (ix2 i k)) + b1 (ix2 (0 : Fin 1) k)) 0 * w2 (ix2 k q))
        + b2 (ix2 (0 : Fin 1) q) := by
  unfold k4_pay1
  simp only [shapeCast_self]
  refine (addf_apply _ _ (ix2 p q)).trans ?_
  refine congrArg₂ (· + ·) ?_ (broadcastTo_1b_ab_apply b2 broadcasts_S1x64_S5000x64 p q)
  refine (mm_apply _ _ p q).trans ?_
  refine Finset.sum_congr rfl fun k _ => congrArg (· * w2 (ix2 k q)) ?_
  refine (maximumf_apply _ _ (ix2 p k)).trans ?_
  refine congrArg₂ max ?_ Ideal.ofBits_zero_f32
  refine (addf_apply _ _ (ix2 p k)).trans ?_
  refine congrArg₂ (· + ·) ?_ (broadcastTo_1b_ab_apply b1 broadcasts_S1x64_S5000x64 p k)
  exact mm_apply _ _ p k

/-! ## The stage function at an entry -/

/-- The stage function at node `n`, feature `q`. -/
theorem mlpG_apply (x agg : Spec.sN64.Idx → EReal) (w1 : Spec.s64x64.Idx → EReal) (b1 : Spec.s1x64.Idx → EReal)
    (w2 : Spec.s64x64.Idx → EReal) (b2 : Spec.s1x64.Idx → EReal) (n : Fin 100000) (q : Fin 64) :
    Spec.mlpG x agg w1 b1 w2 b2 (ix2 n q)
      = (∑ k : Fin 64, Spec.mlpHid x agg w1 b1 n k * w2 (ix2 k q)) + b2 (ix2 (0 : Fin 1) q) := rfl

/-! ## The region's blocks -/

theorem hz : (![0, 0] : Fin 2 → Nat) = fun _ => 0 := funext fun a => by fin_cases a <;> rfl

/-- The block indices over the grid: at point `t` the node features, the aggregated messages and the output are at
    row block `t`; the two weight matrices and the two bias rows are whole at every point. -/
theorem idx_facts : ∀ t : Fin cfg4.N, win4_6.index t (0 : Fin 2) = t.val ∧ win4_6.index t (1 : Fin 2) = 0
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Row `p` of the node-feature block at point `t` is row `5000 t + p` of the array. -/
theorem x_blk (c : Dev nD) (t : Fin cfg4.N) (p : Fin 5000) (i : Fin 64) (n : Fin 100000) (hn : n.val = t.val * 5000 + p.val) :
    (iblk4 V c 0 t : Vec Ideal S5000x64 .f32) (ix2 p i) = (V c (Pipeline.arrRef spec4 0) : Spec.sN64.Idx → EReal) (ix2 n i) := by
  obtain ⟨-, -, e0, e1, -⟩ := idx_facts t
  unfold iblk4
  rw [View.read_apply]
  refine congrArg (V c (Pipeline.arrRef spec4 0) : Spec.sN64.Idx → EReal) (funext fun a => Fin.ext ?_)
  match a with
  | ⟨0, _⟩ => show win4_0.index t (0 : Fin 2) * 5000 + 1 * p.val = n.val; omega
  | ⟨1, _⟩ => show win4_0.index t (1 : Fin 2) * 64 + 1 * i.val = i.val; omega

/-- Likewise for the aggregated messages. -/
theorem agg_blk (c : Dev nD) (t : Fin cfg4.N) (p : Fin 5000) (i : Fin 64) (n : Fin 100000) (hn : n.val = t.val * 5000 + p.val) :
    (iblk4 V c 1 t : Vec Ideal S5000x64 .f32) (ix2 p i) = (V c (Pipeline.arrRef spec4 1) : Spec.sN64.Idx → EReal) (ix2 n i) := by
  obtain ⟨-, -, -, -, e0, e1, -⟩ := idx_facts t
  unfold iblk4
  rw [View.read_apply]
  refine congrArg (V c (Pipeline.arrRef spec4 1) : Spec.sN64.Idx → EReal) (funext fun a => Fin.ext ?_)
  match a with
  | ⟨0, _⟩ => show win4_1.index t (0 : Fin 2) * 5000 + 1 * p.val = n.val; omega
  | ⟨1, _⟩ => show win4_1.index t (1 : Fin 2) * 64 + 1 * i.val = i.val; omega

/-- The first layer's weights are read whole at every point. -/
theorem w1_blk (c : Dev nD) (t : Fin cfg4.N) (i k : Fin 64) :
    (iblk4 V c 2 t : Vec Ideal S64x64 .f32) (ix2 i k) = (V c (Pipeline.arrRef spec4 2) : Spec.s64x64.Idx → EReal) (ix2 i k) := by
  obtain ⟨-, -, -, -, -, -, e0, e1, -⟩ := idx_facts t
  unfold iblk4
  rw [View.read_apply]
  refine congrArg (V c (Pipeline.arrRef spec4 2) : Spec.s64x64.Idx → EReal) (funext fun a => Fin.ext ?_)
  match a with
  | ⟨0, _⟩ => show win4_2.index t (0 : Fin 2) * 64 + 1 * i.val = i.val; omega
  | ⟨1, _⟩ => show win4_2.index t (1 : Fin 2) * 64 + 1 * k.val = k.val; omega

/-- So is its bias row. -/
theorem b1_blk (c : Dev nD) (t : Fin cfg4.N) (k : Fin 64) :
    (iblk4 V c 3 t : Vec Ideal S1x64 .f32) (ix2 (0 : Fin 1) k) = (V c (Pipeline.arrRef spec4 3) : Spec.s1x64.Idx → EReal) (ix2 (0 : Fin 1) k) := by
  obtain ⟨-, -, -, -, -, -, -, -, e0, e1, -⟩ := idx_facts t
  unfold iblk4
  rw [View.read_apply]
  refine congrArg (V c (Pipeline.arrRef spec4 3) : Spec.s1x64.Idx → EReal) (funext fun a => Fin.ext ?_)
  match a with
  | ⟨0, _⟩ => show win4_3.index t (0 : Fin 2) * 1 + 1 * 0 = 0; omega
  | ⟨1, _⟩ => show win4_3.index t (1 : Fin 2) * 64 + 1 * k.val = k.val; omega

/-- The second layer's weights are read whole at every point. -/
theorem w2_blk (c : Dev nD) (t : Fin cfg4.N) (k q : Fin 64) :
    (iblk4 V c 4 t : Vec Ideal S64x64 .f32) (ix2 k q) = (V c (Pipeline.arrRef spec4 4) : Spec.s64x64.Idx → EReal) (ix2 k q) := by
  obtain ⟨-, -, -, -, -, -, -, -, -, -, e0, e1, -⟩ := idx_facts t
  unfold iblk4
  rw [View.read_apply]
  refine congrArg (V c (Pipeline.arrRef spec4 4) : Spec.s64x64.Idx → EReal) (funext fun a => Fin.ext ?_)
  match a with
  | ⟨0, _⟩ => show win4_4.index t (0 : Fin 2) * 64 + 1 * k.val = k.val; omega
  | ⟨1, _⟩ => show win4_4.index t (1 : Fin 2) * 64 + 1 * q.val = q.val; omega

/-- So is its bias row. -/
theorem b2_blk (c : Dev nD) (t : Fin cfg4.N) (q : Fin 64) :
    (iblk4 V c 5 t : Vec Ideal S1x64 .f32) (ix2 (0 : Fin 1) q) = (V c (Pipeline.arrRef spec4 5) : Spec.s1x64.Idx → EReal) (ix2 (0 : Fin 1) q) := by
  obtain ⟨-, -, -, -, -, -, -, -, -, -, -, -, e0, e1⟩ := idx_facts t
  unfold iblk4
  rw [View.read_apply]
  refine congrArg (V c (Pipeline.arrRef spec4 5) : Spec.s1x64.Idx → EReal) (funext fun a => Fin.ext ?_)
  match a with
  | ⟨0, _⟩ => show win4_5.index t (0 : Fin 2) * 1 + 1 * 0 = 0; omega
  | ⟨1, _⟩ => show win4_5.index t (1 : Fin 2) * 64 + 1 * q.val = q.val; omega

/-! ## What a point writes back -/

/-- What point `t` writes back is the body's result on the six blocks of point `t`. -/
theorem flushed_pay (c : Dev nD) (t : Fin cfg4.N) :
    (dat4 (F := Ideal) V c).flushed 6 t
      = (cfg4.win 6).cut (grid4.coords t) (k4_pay1 (iblk4 V c 0 t) (iblk4 V c 1 t) (iblk4 V c 2 t) (iblk4 V c 3 t) (iblk4 V c 4 t) (iblk4 V c 5 t)) := by
  show (cfg4.win 6).cut (grid4.coords t) ((dat4 V c).after 6 t) = _
  rw [after4_6]
  unfold out4_6
  rw [View.canon_unit_zero hz]
  simp only [View.ld_unit_zero (S := S5000x64) hz, View.ld_unit_zero (S := S64x64) hz, View.ld_unit_zero (S := S1x64) hz]

/-- Row `p` of the output block at point `t` is row `5000 t + p` of the array. -/
theorem out_emb (t : Fin cfg4.N) (p : Fin 5000) (q : Fin 64) (n : Fin 100000) (hn : n.val = t.val * 5000 + p.val) :
    ((cfg4.win 6).blk t).view.emb (ix2 p q) = ix2 (n0 := 100000) (n1 := 64) n q := by
  obtain ⟨e0, e1, -⟩ := idx_facts t
  funext a; apply Fin.ext
  match a with
  | ⟨0, _⟩ => show win4_6.index t (0 : Fin 2) * 5000 + 1 * p.val = n.val; omega
  | ⟨1, _⟩ => show win4_6.index t (1 : Fin 2) * 64 + 1 * q.val = q.val; omega

/-- The body's result on the blocks of point `t`, at row `p` and column `q`, is the stage function at row `5000 t + p`. -/
theorem pay_blocks (c : Dev nD) (t : Fin cfg4.N) (p : Fin 5000) (q : Fin 64) (n : Fin 100000) (hn : n.val = t.val * 5000 + p.val) :
    k4_pay1 (iblk4 V c 0 t) (iblk4 V c 1 t) (iblk4 V c 2 t) (iblk4 V c 3 t) (iblk4 V c 4 t) (iblk4 V c 5 t) (ix2 p q)
      = Spec.mlpG (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (ix2 n q) := by
  refine (pay_apply (iblk4 V c 0 t) (iblk4 V c 1 t) (iblk4 V c 2 t) (iblk4 V c 3 t) (iblk4 V c 4 t) (iblk4 V c 5 t) p q).trans ?_
  refine Eq.trans ?_ (mlpG_apply (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) n q).symm
  refine congrArg₂ (· + ·) (Finset.sum_congr rfl fun k _ => congrArg₂ (· * ·) ?_ (w2_blk V c t k q)) (b2_blk V c t q)
  unfold Spec.mlpHid
  exact congrArg (max · 0) (congrArg₂ (· + ·)
    (Finset.sum_congr rfl fun i _ => congrArg₂ (· * ·) (congrArg₂ (· + ·) (x_blk V c t p i n hn) (agg_blk V c t p i n hn)) (w1_blk V c t i k))
    (b1_blk V c t k))

/-- Point `t` writes back block `t` of the stage function of the six input arrays. -/
theorem flushed_eq (c : Dev nD) (t : Fin cfg4.N) :
    (dat4 (F := Ideal) V c).flushed 6 t = ((cfg4.win 6).blk t).view.read (Elt Ideal)
      (Spec.mlpG (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) := by
  rw [flushed_pay]
  refine funext fun (j : S5000x64.Idx) => ?_
  obtain ⟨p, q, rfl⟩ : ∃ (p : Fin 5000) (q : Fin 64), j = ix2 p q := ⟨j 0, j 1, eq_ix2 j⟩
  have ht : t.val < 20 := lt_of_lt_of_eq t.isLt N_4
  obtain ⟨n, hn⟩ : ∃ n : Fin 100000, n.val = t.val * 5000 + p.val := ⟨⟨t.val * 5000 + p.val, by have := p.isLt; omega⟩, rfl⟩
  rw [View.read_apply, out_emb t p q n hn]
  exact pay_blocks V c t p q n hn

/-! ## The row blocks fill the array -/

/-- An entry of the array is in point `t`'s block iff each coordinate is in the block's range on its axis. -/
theorem mem_blk (t : Fin cfg4.N) (i : S100000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v58).slice (win4_6.rect t)).set ↔ _
  rw [View.set_slice_whole, Rect.mem_set_unit]
  exact Iff.rfl

/-- Row `r` is written back by point `r / 5000`. -/
theorem cover (i : S100000x64.Idx) : ∃ t : Fin cfg4.N, (cfg4.win 6).flush t = true ∧ i ∈ ((cfg4.win 6).blk t).view.set := by
  have hi0 : (i 0).val < 100000 := (i 0).isLt
  have hi1 : (i 1).val < 64 := (i 1).isLt
  obtain ⟨t, ht⟩ : ∃ t : Fin cfg4.N, t.val = (i 0).val / 5000 :=
    ⟨⟨(i 0).val / 5000, lt_of_lt_of_eq (show (i 0).val / 5000 < 20 by omega) N_4.symm⟩, rfl⟩
  obtain ⟨e0, e1, -⟩ := idx_facts t
  refine ⟨t, flush4_6 t, ?_⟩
  rw [mem_blk]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 64 ≤ (i 1).val ∧ (i 1).val < win4_6.index t (1 : Fin 2) * 64 + 64; omega

/-! ## The output array after the region -/

/-- The node-perceptron region leaves in its output array the stage function `Spec.mlpG` of its six input arrays as the region found them. -/
theorem final (c : Dev nD) :
    ((dat4 (F := Ideal) V c).arrAt 6 cfg4.N : Spec.sN64.Idx → EReal)
      = Spec.mlpG (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) := by
  exact (dat4 (F := Ideal) V c).arrAt_eq_of_cover 6 _ (fun t _ => flushed_eq V c t) cover

end Cert.KMlp4

end
-- ==== Proof.KBn5.lean ====
import proofs.«430051_j50208167690776_1_alg».proof.Proof.Gen.KernelIdeal.Frame
import proofs.«430051_j50208167690776_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KBn5

open Cert.KernelIdeal Cert.KernelIdeal.Gen Idealize.ShloMosaic Idealize.ShloMosaic.TcCoe Idealize.ShloMosaic.ValueIdx
open Idealize.ShloMosaic.Pipeline (Dat Cfg Window)

-- the TensorCore's buffer contents when the region is entered: any
variable (V : (c : Dev nD) → (b : Ref sig .tc) → Buf (Elt Ideal) ((c : Thread nD τ).loc b))

/-! ## The body's arithmetic at one entry of a block -/

/-- A one-row vector spread over the 5000 rows of a block reads, at row `p` and column `q`, its entry in column `q`. -/
theorem spread_row (x : Vec Ideal S1x64 .f32) (p : Fin 5000) (q : Fin 64) :
    broadcastTo S5000x64 x broadcasts_S1x64_S5000x64 (ix2 p q) = x (ix2 (n0 := 1) (n1 := 64) 0 q) := by
  refine broadcastTo_apply x _ (ix2 p q) (ix2 (n0 := 1) (n1 := 64) 0 q) ?_
  intro a
  match a with
  | ⟨0, _⟩ => rfl
  | ⟨1, _⟩ => rfl

/-- The value the body stores at row `p`, column `q` of its block: the row's entry centred by the column's mean, scaled
    by the reciprocal square root of the guarded variance and by the column's gain, shifted by the column's offset,
    then rectified. `v0` is the variance row, `v5` the block of rows, `v7` the mean row, `v13` the gains, `v17` the offsets. -/
theorem body_apply (v0 : Vec Ideal S1x64 .f32) (v5 : Vec Ideal S5000x64 .f32) (v7 v13 v17 : Vec Ideal S1x64 .f32)
    (p : Fin 5000) (q : Fin 64) :
    k5_pay1 v0 v5 v7 v13 v17 (ix2 p q)
      = max ((v5 (ix2 p q) - v7 (ix2 (n0 := 1) (n1 := 64) 0 q)) * Ideal.rsqrt (v0 (ix2 (n0 := 1) (n1 := 64) 0 q) + Spec.eps)
            * v13 (ix2 (n0 := 1) (n1 := 64) 0 q) + v17 (ix2 (n0 := 1) (n1 := 64) 0 q)) 0 := by
  unfold k5_pay1
  simp only [shapeCast_self]
  rw [maximumf_apply, addf_apply, mulf_apply, mulf_apply, subf_apply, broadcast_apply,
    spread_row, spread_row, spread_row, spread_row]
  show max _ (Ideal.ofBits .f32 0x00000000#32) = _
  rw [Ideal.ofBits_zero_f32]
  rfl

/-- The stage function at an index whose row is `r` and whose column is `q`. -/
theorem bnG_at (h : Spec.sN64.Idx → EReal) (mean var gam bet : Spec.s1x64.Idx → EReal) (i : Spec.sN64.Idx)
    (r : Fin 100000) (q : Fin 64) (hr : (i 0).val = r.val) (hq : (i 1).val = q.val) :
    Spec.bnG h mean var gam bet i
      = max ((h (ix2 (n0 := 100000) (n1 := 64) r q) - mean (ix2 (n0 := 1) (n1 := 64) 0 q))
            * Ideal.rsqrt (var (ix2 (n0 := 1) (n1 := 64) 0 q) + Spec.eps)
            * gam (ix2 (n0 := 1) (n1 := 64) 0 q) + bet (ix2 (n0 := 1) (n1 := 64) 0 q)) 0 := by
  obtain ⟨r', q', rfl⟩ : ∃ (r' : Fin 100000) (q' : Fin 64), i = ix2 r' q' := ⟨i 0, i 1, eq_ix2 i⟩
  obtain rfl : r' = r := Fin.ext hr
  obtain rfl : q' = q := Fin.ext hq
  rfl

/-! ## Where each window's block sits in its array -/

theorem zeroOffsets : (![0, 0] : Fin 2 → Nat) = fun _ => 0 :=
  funext fun a => by match a with | ⟨0, _⟩ => rfl | ⟨1, _⟩ => rfl

/-- The grid has 20 points. -/
theorem points_lt (t : Fin cfg5.N) : t.val < 20 := Nat.lt_of_lt_of_eq t.isLt N_5

/-- The printed index maps, decided over the 20 grid points: at point `t` the row windows (the input rows and the
    output) are at block row `t`, block column 0; the four one-row windows stay at block (0, 0). -/
theorem blockIndex : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The block of input rows at point `t` holds rows `5000 t … 5000 t + 4999` of the array of rows. -/
theorem rowsBlock_read (c : Dev nD) (t : Fin cfg5.N) (p : Fin 5000) (q : Fin 64) (r : Fin 100000)
    (hr : r.val = t.val * 5000 + p.val) :
    (iblk5 V c 0 t : Vec Ideal S5000x64 .f32) (ix2 p q)
      = (V c (Pipeline.arrRef spec5 0) : Spec.sN64.Idx → EReal) (ix2 (n0 := 100000) (n1 := 64) r q) := by
  obtain ⟨e0, e1, -⟩ := blockIndex t
  unfold iblk5
  rw [View.read_apply]
  show V c (Pipeline.arrRef spec5 0) (((cfg5.win 0).blk t).view.emb (ix2 p q)) = V c (Pipeline.arrRef spec5 0) _
  refine congrArg _ (funext fun a => Fin.ext ?_)
  match a with
  | ⟨0, _⟩ => show win5_0.index t (0 : Fin 2) * 5000 + 1 * p.val = r.val; rw [e0, hr]; omega
  | ⟨1, _⟩ => show win5_0.index t (1 : Fin 2) * 64 + 1 * q.val = q.val; rw [e1]; omega

/-- The one-row windows' blocks are their arrays: the means, -/
theorem meanBlock_read (c : Dev nD) (t : Fin cfg5.N) (q : Fin 64) :
    (iblk5 V c 1 t : Vec Ideal S1x64 .f32) (ix2 (n0 := 1) (n1 := 64) 0 q)
      = (V c (Pipeline.arrRef spec5 1) : Spec.s1x64.Idx → EReal) (ix2 (n0 := 1) (n1 := 64) 0 q) := by
  obtain ⟨-, -, e0, e1, -⟩ := blockIndex t
  unfold iblk5
  rw [View.read_apply]
  show V c (Pipeline.arrRef spec5 1) (((cfg5.win 1).blk t).view.emb (ix2 (n0 := 1) (n1 := 64) 0 q)) = V c (Pipeline.arrRef spec5 1) _
  refine congrArg _ (funext fun a => Fin.ext ?_)
  match a with
  | ⟨0, _⟩ => show win5_1.index t (0 : Fin 2) * 1 + 1 * 0 = 0; rw [e0]
  | ⟨1, _⟩ => show win5_1.index t (1 : Fin 2) * 64 + 1 * q.val = q.val; rw [e1]; omega

/-- the variances, -/
theorem varBlock_read (c : Dev nD) (t : Fin cfg5.N) (q : Fin 64) :
    (iblk5 V c 2 t : Vec Ideal S1x64 .f32) (ix2 (n0 := 1) (n1 := 64) 0 q)
      = (V c (Pipeline.arrRef spec5 2) : Spec.s1x64.Idx → EReal) (ix2 (n0 := 1) (n1 := 64) 0 q) := by
  obtain ⟨-, -, -, -, e0, e1, -⟩ := blockIndex t
  unfold iblk5
  rw [View.read_apply]
  show V c (Pipeline.arrRef spec5 2) (((cfg5.win 2).blk t).view.emb (ix2 (n0 := 1) (n1 := 64) 0 q)) = V c (Pipeline.arrRef spec5 2) _
  refine congrArg _ (funext fun a => Fin.ext ?_)
  match a with
  | ⟨0, _⟩ => show win5_2.index t (0 : Fin 2) * 1 + 1 * 0 = 0; rw [e0]
  | ⟨1, _⟩ => show win5_2.index t (1 : Fin 2) * 64 + 1 * q.val = q.val; rw [e1]; omega

/-- the gains, -/
theorem gainBlock_read (c : Dev nD) (t : Fin cfg5.N) (q : Fin 64) :
    (iblk5 V c 3 t : Vec Ideal S1x64 .f32) (ix2 (n0 := 1) (n1 := 64) 0 q)
      = (V c (Pipeline.arrRef spec5 3) : Spec.s1x64.Idx → EReal) (ix2 (n0 := 1) (n1 := 64) 0 q) := by
  obtain ⟨-, -, -, -, -, -, e0, e1, -⟩ := blockIndex t
  unfold iblk5
  rw [View.read_apply]
  show V c (Pipeline.arrRef spec5 3) (((cfg5.win 3).blk t).view.emb (ix2 (n0 := 1) (n1 := 64) 0 q)) = V c (Pipeline.arrRef spec5 3) _
  refine congrArg _ (funext fun a => Fin.ext ?_)
  match a with
  | ⟨0, _⟩ => show win5_3.index t (0 : Fin 2) * 1 + 1 * 0 = 0; rw [e0]
  | ⟨1, _⟩ => show win5_3.index t (1 : Fin 2) * 64 + 1 * q.val = q.val; rw [e1]; omega

/-- and the offsets. -/
theorem offsetBlock_read (c : Dev nD) (t : Fin cfg5.N) (q : Fin 64) :
    (iblk5 V c 4 t : Vec Ideal S1x64 .f32) (ix2 (n0 := 1) (n1 := 64) 0 q)
      = (V c (Pipeline.arrRef spec5 4) : Spec.s1x64.Idx → EReal) (ix2 (n0 := 1) (n1 := 64) 0 q) := by
  obtain ⟨-, -, -, -, -, -, -, -, e0, e1, -⟩ := blockIndex t
  unfold iblk5
  rw [View.read_apply]
  show V c (Pipeline.arrRef spec5 4) (((cfg5.win 4).blk t).view.emb (ix2 (n0 := 1) (n1 := 64) 0 q)) = V c (Pipeline.arrRef spec5 4) _
  refine congrArg _ (funext fun a => Fin.ext ?_)
  match a with
  | ⟨0, _⟩ => show win5_4.index t (0 : Fin 2) * 1 + 1 * 0 = 0; rw [e0]
  | ⟨1, _⟩ => show win5_4.index t (1 : Fin 2) * 64 + 1 * q.val = q.val; rw [e1]; omega

/-! ## What a grid point writes back -/

set_option maxHeartbeats 400000 in
/-- What point `t` writes back to the output array is block `t` of the stage function of the five input arrays. -/
theorem writeback_eq (c : Dev nD) (t : Fin cfg5.N) :
    (dat5 (F := Ideal) V c).flushed 5 t = ((cfg5.win 5).blk t).view.read (Elt Ideal)
      (Spec.bnG (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 V c).after 5 t) = _
  rw [after5_5]
  unfold out5_5
  rw [View.canon_unit_zero zeroOffsets]
  simp only [View.ld_unit_zero (S := S5000x64) zeroOffsets, View.ld_unit_zero (S := S1x64) zeroOffsets]
  funext j
  obtain ⟨p, q, rfl⟩ : ∃ (p : Fin 5000) (q : Fin 64), j = ix2 p q := ⟨j 0, j 1, eq_ix2 j⟩
  obtain ⟨-, -, -, -, -, -, -, -, -, -, e0, e1⟩ := blockIndex t
  have ht := points_lt t
  show k5_pay1 (iblk5 V c 2 t) (iblk5 V c 0 t) (iblk5 V c 1 t) (iblk5 V c 3 t) (iblk5 V c 4 t) (ix2 p q)
    = Spec.bnG (V c (Pipeline.arrRef spec5 0)) (V c (Pipeline.arrRef spec5 1)) (V c (Pipeline.arrRef spec5 2)) (V c (Pipeline.arrRef spec5 3)) (V c (Pipeline.arrRef spec5 4))
        (((cfg5.win 5).blk t).view.emb (ix2 p q))
  refine (body_apply (iblk5 V c 2 t) (iblk5 V c 0 t) (iblk5 V c 1 t) (iblk5 V c 3 t) (iblk5 V c 4 t) p q).trans ?_
  refine Eq.trans ?_ (bnG_at _ _ _ _ _ _ ⟨t.val * 5000 + p.val, by have := p.isLt; omega⟩ q ?_ ?_).symm
  · rw [rowsBlock_read V c t p q ⟨t.val * 5000 + p.val, by have := p.isLt; omega⟩ rfl, meanBlock_read V c t q,
      varBlock_read V c t q, gainBlock_read V c t q, offsetBlock_read V c t q]
  · show win5_5.index t (0 : Fin 2) * 5000 + 1 * p.val = t.val * 5000 + p.val
    rw [e0]; omega
  · show win5_5.index t (1 : Fin 2) * 64 + 1 * q.val = q.val
    rw [e1]; omega

/-! ## The blocks fill the array -/

/-- An index of the output array lies in point `t`'s block iff each coordinate is in the block's range on its axis. -/
theorem mem_outBlock (t : Fin cfg5.N) (i : Spec.sN64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v71).slice (win5_5.rect t)).set ↔ _
  rw [View.set_slice_whole, Rect.mem_set_unit]
  exact Iff.rfl

/-- Every index of the output array is written: row `r` by the point `r / 5000`. -/
theorem covered (i : Spec.sN64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  have hN : (i 0).val / 5000 < cfg5.N := by rw [show cfg5.N = 20 from N_5]; omega
  obtain ⟨-, -, -, -, -, -, -, -, -, -, e0, e1⟩ := blockIndex ⟨(i 0).val / 5000, hN⟩
  have e0' : win5_5.index ⟨(i 0).val / 5000, hN⟩ (0 : Fin 2) = (i 0).val / 5000 := e0
  refine ⟨⟨(i 0).val / 5000, hN⟩, flush5_5 _, ?_⟩
  rw [mem_outBlock]
  intro a
  match a with
  | ⟨0, _⟩ =>
    show win5_5.index ⟨(i 0).val / 5000, hN⟩ (0 : Fin 2) * 5000 ≤ (i 0).val ∧ (i 0).val < win5_5.index ⟨(i 0).val / 5000, hN⟩ (0 : Fin 2) * 5000 + 5000
    rw [e0']; omega
  | ⟨1, _⟩ =>
    show win5_5.index ⟨(i 0).val / 5000, hN⟩ (1 : Fin 2) * 64 ≤ (i 1).val ∧ (i 1).val < win5_5.index ⟨(i 0).val / 5000, hN⟩ (1 : Fin 2) * 64 + 64
    rw [e1]; omega

/-- The normalisation region leaves in its output array the stage function `Spec.bnG` of its five input arrays as the region found them. -/
theorem final (c : Dev nD) :
    ((dat5 (F := Ideal) V c).arrAt 5 cfg5.N : Spec.sN64.Idx → EReal)
      = Spec.bnG (V c (Pipeline.arrRef spec5 0)) (V c (Pipeline.arrRef spec5 1)) (V c (Pipeline.arrRef spec5 2)) (V c (Pipeline.arrRef spec5 3)) (V c (Pipeline.arrRef spec5 4)) :=
  (dat5 (F := Ideal) V c).arrAt_eq_of_cover 5 _ (fun t _ => writeback_eq V c t) covered

end Cert.KBn5

end
-- ==== Proof.KChain1.lean ====
import proofs.«430051_j50208167690776_1_alg».proof.Proof.Gen.KernelIdeal.Frame
import proofs.«430051_j50208167690776_1_alg».proof.Proof.KVoc
import proofs.«430051_j50208167690776_1_alg».proof.Proof.KEdge3
import proofs.«430051_j50208167690776_1_alg».proof.Proof.KMlp4
import proofs.«430051_j50208167690776_1_alg».proof.Proof.KBn5
import proofs.«430051_j50208167690776_1_alg».proof.Proof.KTake
import Idealize.ShloMosaic.Lib.StableHlo.Run

set_option maxRecDepth 16384

noncomputable section

namespace Cert.KernelIdeal.Chain

open Cert.KernelIdeal Cert.KernelIdeal.Gen Cert.KernelIdeal.Voc Idealize.ShloMosaic Idealize.ShloMosaic.TcCoe Idealize.SL.Sem Idealize.ShloMosaic.StableHlo

variable (m : (ℓ : Loc nD τ sig) → Buf (Elt Ideal) ℓ) (ρ : Dev nD → PrngReg)

namespace L1

/-- A host stretch leaves a buffer that none of its operations writes. -/
local macro "host_keep " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The host stretches, each read at one result buffer

Generic in the contents `W` the stretch starts from: the operations' composed term over `W` at the buffers the stretch
reads is the vocabulary's function, by unfolding the fold. -/

section Stretch

variable {F : FTy → Type} [FloatOps F]

/-- The two rows of the edge list. -/
theorem src_row (W : Valuation τ sig (Elt F)) :
    StableHlo.after hostOps0 W (Proc.devRef .tc main_v1) = srcK (W (Proc.devRef .tc main_arg1)) := by
  after_results <;> rfl
theorem dst_row (W : Valuation τ sig (Elt F)) :
    StableHlo.after hostOps0 W (Proc.devRef .tc main_v3) = dstK (W (Proc.devRef .tc main_arg1)) := by
  after_results <;> rfl

/-- The edge region's weight matrix and bias row. -/
theorem we_row (W : Valuation τ sig (Elt F)) :
    StableHlo.after hostOps3_1 (StableHlo.after hostOps3 W) (Proc.devRef .tc main_v40)
      = we1 (W (Proc.devRef .tc main_arg3)) := by
  after_results <;> rfl
theorem be_row (W : Valuation τ sig (Elt F)) :
    StableHlo.after hostOps3_1 (StableHlo.after hostOps3 W) (Proc.devRef .tc main_v43)
      = rowK (vec1 (W (Proc.devRef .tc main_arg4))) := by
  after_results <;> rfl

attribute [local irreducible] Host.reduce Host.reduceAdd Host.gather Host.scatterAdd in
/-- The scatter-add of the messages, from zero. -/
theorem agg_row (W : Valuation τ sig (Elt F)) :
    StableHlo.after hostOps4 W (Proc.devRef .tc main_v47)
      = aggK (W (Proc.devRef .tc main_v3)) (W (Proc.devRef .tc main_v44)) := by
  after_results <;> rfl

/-- The perceptron region's two matrices and two bias rows. -/
theorem w1_row (W : Valuation τ sig (Elt F)) :
    StableHlo.after hostOps4 W (Proc.devRef .tc main_v49) = mat1 (W (Proc.devRef .tc main_arg5)) := by
  after_results <;> rfl
theorem b1_row (W : Valuation τ sig (Elt F)) :
    StableHlo.after hostOps4 W (Proc.devRef .tc main_v56) = rowK (vec1 (W (Proc.devRef .tc main_arg6))) := by
  after_results <;> rfl
theorem w2_row (W : Valuation τ sig (Elt F)) :
    StableHlo.after hostOps4 W (Proc.devRef .tc main_v53) = mat1 (W (Proc.devRef .tc main_arg7)) := by
  after_results <;> rfl
theorem b2_row (W : Valuation τ sig (Elt F)) :
    StableHlo.after hostOps4 W (Proc.devRef .tc main_v57) = rowK (vec1 (W (Proc.devRef .tc main_arg8))) := by
  after_results <;> rfl

attribute [local irreducible] Host.reduce Host.reduceAdd Host.gather Host.scatterAdd in
set_option maxHeartbeats 1000000 in
/-- The column means, as one row. -/
theorem mean_row (W : Valuation τ sig (Elt F)) :
    StableHlo.after hostOps5_2 (StableHlo.after hostOps5_1 (StableHlo.after hostOps5 W)) (Proc.devRef .tc main_v67)
      = rowK (meanK (W (Proc.devRef .tc main_v58))) := by
  after_results_simp <;> rfl

attribute [local irreducible] Host.reduce Host.reduceAdd Host.gather Host.scatterAdd in
set_option maxHeartbeats 1000000 in
/-- The column variances, as one row. -/
theorem var_row (W : Valuation τ sig (Elt F)) :
    StableHlo.after hostOps5_2 (StableHlo.after hostOps5_1 (StableHlo.after hostOps5 W)) (Proc.devRef .tc main_v68)
      = rowK (varK (W (Proc.devRef .tc main_v58))) := by
  after_results_simp <;> rfl

/-- The normalisation's scale and shift rows. -/
theorem g_row (W : Valuation τ sig (Elt F)) :
    StableHlo.after hostOps5_2 (StableHlo.after hostOps5_1 (StableHlo.after hostOps5 W)) (Proc.devRef .tc main_v69)
      = rowK (vec1 (W (Proc.devRef .tc main_arg9))) := by
  after_results_simp <;> rfl
theorem bt_row (W : Valuation τ sig (Elt F)) :
    StableHlo.after hostOps5_2 (StableHlo.after hostOps5_1 (StableHlo.after hostOps5 W)) (Proc.devRef .tc main_v70)
      = rowK (vec1 (W (Proc.devRef .tc main_arg10))) := by
  after_results_simp <;> rfl

end Stretch

/-! ## Buffers a segment leaves alone

A host stretch rewrites only its operations' result buffers, a region only its output array; every other buffer
keeps its contents. The layer reads nine argument arrays and the two index rows made at the start of the program:
they are carried, segment by segment, from where they were made to where the layer reads them. -/

section Keep

variable {F : FTy → Type} [FloatOps F]

/-- The argument arrays the layer slices or reads whole. -/
abbrev argsL : List (Ref sig .tc) :=
  [main_arg2, main_arg3, main_arg4, main_arg5, main_arg6, main_arg7, main_arg8, main_arg9, main_arg10]

/-- The same with the two index rows. -/
abbrev kept : List (Ref sig .tc) :=
  [main_arg2, main_arg3, main_arg4, main_arg5, main_arg6, main_arg7, main_arg8, main_arg9, main_arg10, main_v1, main_v3]

theorem keep0 (W : Valuation τ sig (Elt F)) {r : Ref sig .tc} (hr : r ∈ argsL) :
    StableHlo.after hostOps0 W (Proc.devRef .tc r) = W (Proc.devRef .tc r) := by
  simp only [argsL, List.mem_cons, List.not_mem_nil, or_false] at hr
  rcases hr with rfl | rfl | rfl | rfl | rfl | rfl | rfl | rfl | rfl <;> host_keep hostOps0

theorem keep0_1 (W : Valuation τ sig (Elt F)) {r : Ref sig .tc} (hr : r ∈ kept) :
    StableHlo.after hostOps0_1 W (Proc.devRef .tc r) = W (Proc.devRef .tc r) := by
  simp only [kept, List.mem_cons, List.not_mem_nil, or_false] at hr
  rcases hr with rfl | rfl | rfl | rfl | rfl | rfl | rfl | rfl | rfl | rfl | rfl <;> host_keep hostOps0_1

theorem keep0_2 (W : Valuation τ sig (Elt F)) {r : Ref sig .tc} (hr : r ∈ kept) :
    StableHlo.after hostOps0_2 W (Proc.devRef .tc r) = W (Proc.devRef .tc r) := by
  simp only [kept, List.mem_cons, List.not_mem_nil, or_false] at hr
  rcases hr with rfl | rfl | rfl | rfl | rfl | rfl | rfl | rfl | rfl | rfl | rfl <;> host_keep hostOps0_2

theorem keep1 (W : Valuation τ sig (Elt F)) {r : Ref sig .tc} (hr : r ∈ kept) :
    StableHlo.after hostOps1 W (Proc.devRef .tc r) = W (Proc.devRef .tc r) := by
  simp only [kept, List.mem_cons, List.not_mem_nil, or_false] at hr
  rcases hr with rfl | rfl | rfl | rfl | rfl | rfl | rfl | rfl | rfl | rfl | rfl <;> host_keep hostOps1

theorem keep2 (W : Valuation τ sig (Elt F)) {r : Ref sig .tc} (hr : r ∈ kept) :
    StableHlo.after hostOps2 W (Proc.devRef .tc r) = W (Proc.devRef .tc r) := by
  simp only [kept, List.mem_cons, List.not_mem_nil, or_false] at hr
  rcases hr with rfl | rfl | rfl | rfl | rfl | rfl | rfl | rfl | rfl | rfl | rfl <;> host_keep hostOps2

theorem keep2_1 (W : Valuation τ sig (Elt F)) {r : Ref sig .tc} (hr : r ∈ kept) :
    StableHlo.after hostOps2_1 W (Proc.devRef .tc r) = W (Proc.devRef .tc r) := by
  simp only [kept, List.mem_cons, List.not_mem_nil, or_false] at hr
  rcases hr with rfl | rfl | rfl | rfl | rfl | rfl | rfl | rfl | rfl | rfl | rfl <;> host_keep hostOps2_1

theorem keep2_2 (W : Valuation τ sig (Elt F)) {r : Ref sig .tc} (hr : r ∈ kept) :
    StableHlo.after hostOps2_2 W (Proc.devRef .tc r) = W (Proc.devRef .tc r) := by
  simp only [kept, List.mem_cons, List.not_mem_nil, or_false] at hr
  rcases hr with rfl | rfl | rfl | rfl | rfl | rfl | rfl | rfl | rfl | rfl | rfl <;> host_keep hostOps2_2

theorem keep3 (W : Valuation τ sig (Elt F)) {r : Ref sig .tc} (hr : r ∈ kept) :
    StableHlo.after hostOps3 W (Proc.devRef .tc r) = W (Proc.devRef .tc r) := by
  simp only [kept, List.mem_cons, List.not_mem_nil, or_false] at hr
  rcases hr with rfl | rfl | rfl | rfl | rfl | rfl | rfl | rfl | rfl | rfl | rfl <;> host_keep hostOps3

theorem keep3_1 (W : Valuation τ sig (Elt F)) {r : Ref sig .tc} (hr : r ∈ kept) :
    StableHlo.after hostOps3_1 W (Proc.devRef .tc r) = W (Proc.devRef .tc r) := by
  simp only [kept, List.mem_cons, List.not_mem_nil, or_false] at hr
  rcases hr with rfl | rfl | rfl | rfl | rfl | rfl | rfl | rfl | rfl | rfl | rfl <;> host_keep hostOps3_1

theorem keep4 (W : Valuation τ sig (Elt F)) {r : Ref sig .tc} (hr : r ∈ kept) :
    StableHlo.after hostOps4 W (Proc.devRef .tc r) = W (Proc.devRef .tc r) := by
  simp only [kept, List.mem_cons, List.not_mem_nil, or_false] at hr
  rcases hr with rfl | rfl | rfl | rfl | rfl | rfl | rfl | rfl | rfl | rfl | rfl <;> host_keep hostOps4

end Keep

/-! The regions: of the kept buffers only the edge attributes are an array of a region (window 1 of the edge regions,
    an input: left as entered); the others are not among a region's arrays. -/

theorem keepR0 (c : Dev nD) {r : Ref sig .tc} (hr : r ∈ kept) :
    W4 m ρ c (Proc.devRef .tc r) = W3 m ρ c (Proc.devRef .tc r) := by
  simp only [kept, List.mem_cons, List.not_mem_nil, or_false] at hr
  rcases hr with rfl | rfl | rfl | rfl | rfl | rfl | rfl | rfl | rfl | rfl | rfl
  · exact (W4_arr m ρ c 1).trans (((dat0 (V3 m ρ) c).arrAt_in 1 rfl _).trans (A_eq0 (V3 m ρ) c 1))
  all_goals exact W4_of_ne m ρ c _ (by decide)

theorem keepR1 (c : Dev nD) {r : Ref sig .tc} (hr : r ∈ kept) :
    W6 m ρ c (Proc.devRef .tc r) = W5 m ρ c (Proc.devRef .tc r) := by
  simp only [kept, List.mem_cons, List.not_mem_nil, or_false] at hr
  rcases hr with rfl | rfl | rfl | rfl | rfl | rfl | rfl | rfl | rfl | rfl | rfl
  all_goals exact W6_of_ne m ρ c _ (by decide)

theorem keepR2 (c : Dev nD) {r : Ref sig .tc} (hr : r ∈ kept) :
    W10 m ρ c (Proc.devRef .tc r) = W9 m ρ c (Proc.devRef .tc r) := by
  simp only [kept, List.mem_cons, List.not_mem_nil, or_false] at hr
  rcases hr with rfl | rfl | rfl | rfl | rfl | rfl | rfl | rfl | rfl | rfl | rfl
  all_goals exact W10_of_ne m ρ c _ (by decide)

theorem keepR3 (c : Dev nD) {r : Ref sig .tc} (hr : r ∈ kept) :
    W13 m ρ c (Proc.devRef .tc r) = W12 m ρ c (Proc.devRef .tc r) := by
  simp only [kept, List.mem_cons, List.not_mem_nil, or_false] at hr
  rcases hr with rfl | rfl | rfl | rfl | rfl | rfl | rfl | rfl | rfl | rfl | rfl
  · exact (W13_arr m ρ c 1).trans (((dat3 (V12 m ρ) c).arrAt_in 1 rfl _).trans (A_eq3 (V12 m ρ) c 1))
  all_goals exact W13_of_ne m ρ c _ (by decide)

theorem keepR4 (c : Dev nD) {r : Ref sig .tc} (hr : r ∈ kept) :
    W15 m ρ c (Proc.devRef .tc r) = W14 m ρ c (Proc.devRef .tc r) := by
  simp only [kept, List.mem_cons, List.not_mem_nil, or_false] at hr
  rcases hr with rfl | rfl | rfl | rfl | rfl | rfl | rfl | rfl | rfl | rfl | rfl
  all_goals exact W15_of_ne m ρ c _ (by decide)

/-! The kept buffers at the boundaries where the layer reads them, as they were after the first host stretch. -/

theorem kept10 (c : Dev nD) {r : Ref sig .tc} (hr : r ∈ kept) :
    W10 m ρ c (Proc.devRef .tc r) = W1 m ρ c (Proc.devRef .tc r) :=
  calc W10 m ρ c (Proc.devRef .tc r)
    _ = W9 m ρ c (Proc.devRef .tc r) := keepR2 m ρ c hr
    _ = W8 m ρ c (Proc.devRef .tc r) := keep2_2 _ hr
    _ = W7 m ρ c (Proc.devRef .tc r) := keep2_1 _ hr
    _ = W6 m ρ c (Proc.devRef .tc r) := keep2 _ hr
    _ = W5 m ρ c (Proc.devRef .tc r) := keepR1 m ρ c hr
    _ = W4 m ρ c (Proc.devRef .tc r) := keep1 _ hr
    _ = W3 m ρ c (Proc.devRef .tc r) := keepR0 m ρ c hr
    _ = W2 m ρ c (Proc.devRef .tc r) := keep0_2 _ hr
    _ = W1 m ρ c (Proc.devRef .tc r) := keep0_1 _ hr

theorem kept12 (c : Dev nD) {r : Ref sig .tc} (hr : r ∈ kept) :
    W12 m ρ c (Proc.devRef .tc r) = W1 m ρ c (Proc.devRef .tc r) :=
  calc W12 m ρ c (Proc.devRef .tc r)
    _ = W11 m ρ c (Proc.devRef .tc r) := keep3_1 _ hr
    _ = W10 m ρ c (Proc.devRef .tc r) := keep3 _ hr
    _ = W1 m ρ c (Proc.devRef .tc r) := kept10 m ρ c hr

theorem kept13 (c : Dev nD) {r : Ref sig .tc} (hr : r ∈ kept) :
    W13 m ρ c (Proc.devRef .tc r) = W1 m ρ c (Proc.devRef .tc r) :=
  (keepR3 m ρ c hr).trans (kept12 m ρ c hr)

theorem kept15 (c : Dev nD) {r : Ref sig .tc} (hr : r ∈ kept) :
    W15 m ρ c (Proc.devRef .tc r) = W1 m ρ c (Proc.devRef .tc r) :=
  calc W15 m ρ c (Proc.devRef .tc r)
    _ = W14 m ρ c (Proc.devRef .tc r) := keepR4 m ρ c hr
    _ = W13 m ρ c (Proc.devRef .tc r) := keep4 _ hr
    _ = W1 m ρ c (Proc.devRef .tc r) := kept13 m ρ c hr

/-- An argument array after the first host stretch is the launch memory's. -/
theorem arg_at1 (c : Dev nD) {r : Ref sig .tc} (hr : r ∈ argsL) :
    W1 m ρ c (Proc.devRef .tc r) = m ((c : Thread nD τ).loc r) :=
  (keep0 (W0 m ρ c) hr).trans rfl

/-- The source row where the gather reads it. -/
theorem src_at10 (c : Dev nD) : W10 m ρ c (Proc.devRef .tc main_v1) = srcK (m ((c : Thread nD τ).loc main_arg1)) :=
  (kept10 m ρ c (by decide)).trans (src_row (W0 m ρ c))

/-- The destination row where the scatter-add reads it. -/
theorem dst_at13 (c : Dev nD) : W13 m ρ c (Proc.devRef .tc main_v3) = dstK (m ((c : Thread nD τ).loc main_arg1)) :=
  (kept13 m ρ c (by decide)).trans (dst_row (W0 m ρ c))

theorem arg2_at12 (c : Dev nD) : W12 m ρ c (Proc.devRef .tc main_arg2) = m ((c : Thread nD τ).loc main_arg2) :=
  (kept12 m ρ c (by decide)).trans (arg_at1 m ρ c (by decide))
theorem arg3_at10 (c : Dev nD) : W10 m ρ c (Proc.devRef .tc main_arg3) = m ((c : Thread nD τ).loc main_arg3) :=
  (kept10 m ρ c (by decide)).trans (arg_at1 m ρ c (by decide))
theorem arg4_at10 (c : Dev nD) : W10 m ρ c (Proc.devRef .tc main_arg4) = m ((c : Thread nD τ).loc main_arg4) :=
  (kept10 m ρ c (by decide)).trans (arg_at1 m ρ c (by decide))
theorem arg5_at13 (c : Dev nD) : W13 m ρ c (Proc.devRef .tc main_arg5) = m ((c : Thread nD τ).loc main_arg5) :=
  (kept13 m ρ c (by decide)).trans (arg_at1 m ρ c (by decide))
theorem arg6_at13 (c : Dev nD) : W13 m ρ c (Proc.devRef .tc main_arg6) = m ((c : Thread nD τ).loc main_arg6) :=
  (kept13 m ρ c (by decide)).trans (arg_at1 m ρ c (by decide))
theorem arg7_at13 (c : Dev nD) : W13 m ρ c (Proc.devRef .tc main_arg7) = m ((c : Thread nD τ).loc main_arg7) :=
  (kept13 m ρ c (by decide)).trans (arg_at1 m ρ c (by decide))
theorem arg8_at13 (c : Dev nD) : W13 m ρ c (Proc.devRef .tc main_arg8) = m ((c : Thread nD τ).loc main_arg8) :=
  (kept13 m ρ c (by decide)).trans (arg_at1 m ρ c (by decide))
theorem arg9_at15 (c : Dev nD) : W15 m ρ c (Proc.devRef .tc main_arg9) = m ((c : Thread nD τ).loc main_arg9) :=
  (kept15 m ρ c (by decide)).trans (arg_at1 m ρ c (by decide))
theorem arg10_at15 (c : Dev nD) : W15 m ρ c (Proc.devRef .tc main_arg10) = m ((c : Thread nD τ).loc main_arg10) :=
  (kept15 m ρ c (by decide)).trans (arg_at1 m ρ c (by decide))

/-- The layer's input activations as region 4 finds them: no segment since region 2 wrote that buffer. -/
theorem x_at14 (c : Dev nD) : W14 m ρ c (Proc.devRef .tc main_v37) = W10 m ρ c (Proc.devRef .tc main_v37) :=
  calc W14 m ρ c (Proc.devRef .tc main_v37)
    _ = W13 m ρ c (Proc.devRef .tc main_v37) := by host_keep hostOps4
    _ = W12 m ρ c (Proc.devRef .tc main_v37) := W13_of_ne m ρ c main_v37 (by decide)
    _ = W11 m ρ c (Proc.devRef .tc main_v37) := by host_keep hostOps3_1
    _ = W10 m ρ c (Proc.devRef .tc main_v37) := by host_keep hostOps3

/-! ## The three regions and the layer -/

/-- The gathered rows as the edge region finds them. -/
theorem take_at12 (c : Dev nD) :
    W12 m ρ c (Proc.devRef .tc main_v38) = takeK (W10 m ρ c (Proc.devRef .tc main_v37)) (W10 m ρ c (Proc.devRef .tc main_v1)) :=
  calc W12 m ρ c (Proc.devRef .tc main_v38)
    _ = W11 m ρ c (Proc.devRef .tc main_v38) := by host_keep hostOps3_1
    _ = takeK (W10 m ρ c (Proc.devRef .tc main_v37)) (W10 m ρ c (Proc.devRef .tc main_v1)) := take1 (W10 m ρ c)

/-- The messages: the edge region's output array at its exit. -/
theorem msg_at13 (c : Dev nD) :
    W13 m ρ c (Proc.devRef .tc main_v44)
      = Spec.edgeG (takeK (W10 m ρ c (Proc.devRef .tc main_v37)) (srcK (m ((c : Thread nD τ).loc main_arg1)))) (m ((c : Thread nD τ).loc main_arg2))
          (we1 (m ((c : Thread nD τ).loc main_arg3))) (rowK (vec1 (m ((c : Thread nD τ).loc main_arg4)))) := by
  have h : W13 m ρ c (Proc.devRef .tc main_v44)
      = Spec.edgeG (W12 m ρ c (Proc.devRef .tc main_v38)) (W12 m ρ c (Proc.devRef .tc main_arg2)) (W12 m ρ c (Proc.devRef .tc main_v40)) (W12 m ρ c (Proc.devRef .tc main_v43)) :=
    (W13_arr m ρ c 4).trans (Cert.KEdge3.final (V12 m ρ) c)
  have e2 : W12 m ρ c (Proc.devRef .tc main_v40) = we1 (W10 m ρ c (Proc.devRef .tc main_arg3)) := we_row (W10 m ρ c)
  have e3 : W12 m ρ c (Proc.devRef .tc main_v43) = rowK (vec1 (W10 m ρ c (Proc.devRef .tc main_arg4))) := be_row (W10 m ρ c)
  rw [h, take_at12 m ρ c, e2, e3, src_at10 m ρ c, arg2_at12 m ρ c, arg3_at10 m ρ c, arg4_at10 m ρ c]

/-- The perceptron region's output array at its exit. -/
theorem hid_at15 (c : Dev nD) :
    W15 m ρ c (Proc.devRef .tc main_v58)
      = Spec.mlpG (W10 m ρ c (Proc.devRef .tc main_v37))
          (aggK (dstK (m ((c : Thread nD τ).loc main_arg1)))
            (Spec.edgeG (takeK (W10 m ρ c (Proc.devRef .tc main_v37)) (srcK (m ((c : Thread nD τ).loc main_arg1)))) (m ((c : Thread nD τ).loc main_arg2))
              (we1 (m ((c : Thread nD τ).loc main_arg3))) (rowK (vec1 (m ((c : Thread nD τ).loc main_arg4))))))
          (mat1 (m ((c : Thread nD τ).loc main_arg5))) (rowK (vec1 (m ((c : Thread nD τ).loc main_arg6)))) (mat1 (m ((c : Thread nD τ).loc main_arg7))) (rowK (vec1 (m ((c : Thread nD τ).loc main_arg8)))) := by
  have h : W15 m ρ c (Proc.devRef .tc main_v58)
      = Spec.mlpG (W14 m ρ c (Proc.devRef .tc main_v37)) (W14 m ρ c (Proc.devRef .tc main_v47)) (W14 m ρ c (Proc.devRef .tc main_v49)) (W14 m ρ c (Proc.devRef .tc main_v56))
          (W14 m ρ c (Proc.devRef .tc main_v53)) (W14 m ρ c (Proc.devRef .tc main_v57)) :=
    (W15_arr m ρ c 6).trans (Cert.KMlp4.final (V14 m ρ) c)
  have e1 : W14 m ρ c (Proc.devRef .tc main_v47) = aggK (W13 m ρ c (Proc.devRef .tc main_v3)) (W13 m ρ c (Proc.devRef .tc main_v44)) := agg_row (W13 m ρ c)
  have e2 : W14 m ρ c (Proc.devRef .tc main_v49) = mat1 (W13 m ρ c (Proc.devRef .tc main_arg5)) := w1_row (W13 m ρ c)
  have e3 : W14 m ρ c (Proc.devRef .tc main_v56) = rowK (vec1 (W13 m ρ c (Proc.devRef .tc main_arg6))) := b1_row (W13 m ρ c)
  have e4 : W14 m ρ c (Proc.devRef .tc main_v53) = mat1 (W13 m ρ c (Proc.devRef .tc main_arg7)) := w2_row (W13 m ρ c)
  have e5 : W14 m ρ c (Proc.devRef .tc main_v57) = rowK (vec1 (W13 m ρ c (Proc.devRef .tc main_arg8))) := b2_row (W13 m ρ c)
  rw [h, x_at14 m ρ c, e1, e2, e3, e4, e5, dst_at13 m ρ c, msg_at13 m ρ c, arg5_at13 m ρ c, arg6_at13 m ρ c,
    arg7_at13 m ρ c, arg8_at13 m ρ c]

/-- The perceptron's output as the normalisation region finds it: the statistics' stretches do not write it. -/
theorem hid_at18 (c : Dev nD) : W18 m ρ c (Proc.devRef .tc main_v58) = W15 m ρ c (Proc.devRef .tc main_v58) :=
  calc W18 m ρ c (Proc.devRef .tc main_v58)
    _ = W17 m ρ c (Proc.devRef .tc main_v58) := by host_keep hostOps5_2
    _ = W16 m ρ c (Proc.devRef .tc main_v58) := by host_keep hostOps5_1
    _ = W15 m ρ c (Proc.devRef .tc main_v58) := by host_keep hostOps5

end L1

open L1

/-- Layer 1 of the kernel program: the contents of its last region's output array at that region's exit, from the layer's
    input activations (the previous layer's output as that layer left it) and the argument arrays: gather, edge region, scatter-add, perceptron region,
    column statistics, normalisation region. -/
theorem layer1 (c : Dev nD) :
    W19 (F := Ideal) m ρ c (Proc.devRef .tc main_v71)
      = layerK (W10 m ρ c (Proc.devRef .tc main_v37)) (srcK (m ((c : Thread nD τ).loc main_arg1))) (dstK (m ((c : Thread nD τ).loc main_arg1))) (m ((c : Thread nD τ).loc main_arg2))
        (we1 (m ((c : Thread nD τ).loc main_arg3))) (vec1 (m ((c : Thread nD τ).loc main_arg4))) (mat1 (m ((c : Thread nD τ).loc main_arg5))) (vec1 (m ((c : Thread nD τ).loc main_arg6)))
        (mat1 (m ((c : Thread nD τ).loc main_arg7))) (vec1 (m ((c : Thread nD τ).loc main_arg8))) (vec1 (m ((c : Thread nD τ).loc main_arg9))) (vec1 (m ((c : Thread nD τ).loc main_arg10))) := by
  have h : W19 (F := Ideal) m ρ c (Proc.devRef .tc main_v71)
      = Spec.bnG (W18 m ρ c (Proc.devRef .tc main_v58)) (W18 m ρ c (Proc.devRef .tc main_v67)) (W18 m ρ c (Proc.devRef .tc main_v68)) (W18 m ρ c (Proc.devRef .tc main_v69))
          (W18 m ρ c (Proc.devRef .tc main_v70)) :=
    (W19_arr m ρ c 5).trans (Cert.KBn5.final (V18 m ρ) c)
  have e1 : W18 m ρ c (Proc.devRef .tc main_v67) = rowK (meanK (W15 m ρ c (Proc.devRef .tc main_v58))) := mean_row (W15 m ρ c)
  have e2 : W18 m ρ c (Proc.devRef .tc main_v68) = rowK (varK (W15 m ρ c (Proc.devRef .tc main_v58))) := var_row (W15 m ρ c)
  have e3 : W18 m ρ c (Proc.devRef .tc main_v69) = rowK (vec1 (W15 m ρ c (Proc.devRef .tc main_arg9))) := g_row (W15 m ρ c)
  have e4 : W18 m ρ c (Proc.devRef .tc main_v70) = rowK (vec1 (W15 m ρ c (Proc.devRef .tc main_arg10))) := bt_row (W15 m ρ c)
  rw [h, hid_at18 m ρ c, e1, e2, e3, e4, hid_at15 m ρ c, arg9_at15 m ρ c, arg10_at15 m ρ c]
  rfl

end Cert.KernelIdeal.Chain

end
-- ==== Proof.KEdge6.lean ====
import proofs.«430051_j50208167690776_1_alg».proof.Proof.Gen.KernelIdeal.Frame
import proofs.«430051_j50208167690776_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KEdge6

open Cert.KernelIdeal Cert.KernelIdeal.Gen Idealize.ShloMosaic Idealize.ShloMosaic.TcCoe Idealize.ShloMosaic.ValueIdx
open Idealize.ShloMosaic.Pipeline (Dat Cfg Window)

-- the TensorCore's buffer contents when the region is entered: any
variable (V : (c : Dev nD) → (b : Ref sig .tc) → Buf (Elt Ideal) ((c : Thread nD τ).loc b))

/-- The rectangles' zero offsets, as the constant function. -/
theorem zero_off : (![0, 0] : Fin 2 → Nat) = fun _ => 0 := funext fun a => by fin_cases a <;> rfl

/-! ## The product of an edge-feature block with the layer's matrix, at an index -/

/-- The feature operand is read at the output's row … -/
theorem feat_row (j : S12800x64.Idx) (k : dot_S12800x32_S32x64_S12800x64_1_0_0_1_n_n.contr.Idx) :
    (dot_S12800x32_S32x64_S12800x64_1_0_0_1_n_n.lhsIdx j k 0).val = (j 0).val := by
  simp [DotDims.lhsIdx, dot_S12800x32_S32x64_S12800x64_1_0_0_1_n_n]; rfl

/-- … and at the contracted coordinate along its columns. -/
theorem feat_col (j : S12800x64.Idx) (k : dot_S12800x32_S32x64_S12800x64_1_0_0_1_n_n.contr.Idx) :
    (dot_S12800x32_S32x64_S12800x64_1_0_0_1_n_n.lhsIdx j k 1).val = (k ⟨0, Nat.one_pos⟩).val :=
  dot_S12800x32_S32x64_S12800x64_1_0_0_1_n_n.lhsIdx_val_of_single rfl j k

/-- The matrix operand is read at the contracted coordinate along its rows … -/
theorem mat_row (j : S12800x64.Idx) (k : dot_S12800x32_S32x64_S12800x64_1_0_0_1_n_n.contr.Idx) :
    (dot_S12800x32_S32x64_S12800x64_1_0_0_1_n_n.rhsIdx j k 0).val = (k ⟨0, Nat.one_pos⟩).val :=
  dot_S12800x32_S32x64_S12800x64_1_0_0_1_n_n.rhsIdx_val_of_single rfl j k

/-- … and at the output's column. -/
theorem mat_col (j : S12800x64.Idx) (k : dot_S12800x32_S32x64_S12800x64_1_0_0_1_n_n.contr.Idx) :
    (dot_S12800x32_S32x64_S12800x64_1_0_0_1_n_n.rhsIdx j k 1).val = (j 1).val := by
  simp [DotDims.rhsIdx, dot_S12800x32_S32x64_S12800x64_1_0_0_1_n_n]; rfl

/-- Into the zero accumulator the product at edge `p`, feature `q` is the sum over the 32 edge features. -/
theorem product_apply (ea : FVec Ideal S12800x32 .f32) (w : FVec Ideal S32x64 .f32) (p : Fin 12800) (q : Fin 64) :
    matmul dot_S12800x32_S32x64_S12800x64_1_0_0_1_n_n none ea w (constant (F := Ideal) S12800x64 .f32 0x00000000#32) (ix2 p q)
      = ∑ k : Fin 32, ea (ix2 p k) * w (ix2 k q) := by
  show FloatOps.matmul _ none ea w _ (ix2 p q) = _
  rw [Ideal.matmul_constant_zero_apply,
    ← Equiv.sum_comp (contrEquiv1 dot_S12800x32_S32x64_S12800x64_1_0_0_1_n_n 32 rfl rfl).symm]
  refine Finset.sum_congr rfl fun k _ => ?_
  have hk := contrEquiv1_symm_val dot_S12800x32_S32x64_S12800x64_1_0_0_1_n_n 32 rfl rfl k
  have hl : dot_S12800x32_S32x64_S12800x64_1_0_0_1_n_n.lhsIdx (ix2 p q)
      ((contrEquiv1 dot_S12800x32_S32x64_S12800x64_1_0_0_1_n_n 32 rfl rfl).symm k) = ix2 p k := by
    funext a; apply Fin.ext
    match a with
    | ⟨0, _⟩ => exact feat_row _ _
    | ⟨1, _⟩ => exact (feat_col _ _).trans hk
  have hr : dot_S12800x32_S32x64_S12800x64_1_0_0_1_n_n.rhsIdx (ix2 p q)
      ((contrEquiv1 dot_S12800x32_S32x64_S12800x64_1_0_0_1_n_n 32 rfl rfl).symm k) = ix2 k q := by
    funext a; apply Fin.ext
    match a with
    | ⟨0, _⟩ => exact (mat_row _ _).trans hk
    | ⟨1, _⟩ => exact mat_col _ _
  rw [hl, hr]

/-! ## The body's arithmetic at an index -/

/-- The body's value at edge `p`, feature `q` of a block: the rectified sum of the gathered row's entry with the
    product's entry and the bias. -/
theorem message_apply (xs : Vec Ideal S12800x64 .f32) (ea : Vec Ideal S12800x32 .f32) (w : Vec Ideal S32x64 .f32)
    (b : Vec Ideal S1x64 .f32) (p : Fin 12800) (q : Fin 64) :
    k6_pay1 ea w b xs (ix2 p q)
      = max (xs (ix2 p q) + ((∑ k : Fin 32, ea (ix2 p k) * w (ix2 k q)) + b (ix2 (0 : Fin 1) q))) 0 := by
  unfold k6_pay1
  simp only [shapeCast_self]
  show max (xs (ix2 p q) + (matmul dot_S12800x32_S32x64_S12800x64_1_0_0_1_n_n none ea w (constant (F := Ideal) S12800x64 .f32 0x00000000#32) (ix2 p q)
      + broadcastTo S12800x64 b broadcasts_S1x64_S12800x64 (ix2 p q))) (Ideal.ofBits .f32 0x00000000#32) = _
  rw [product_apply, broadcastTo_1b_ab_apply, Ideal.ofBits_zero_f32]

/-! ## Where each window's block sits at a grid point -/

/-- The block index maps over the 125 grid points: the gathered rows, the edge features and the messages move
    down their arrays one block of 12800 edges per point; the matrix and the bias row stay. -/
theorem block_indices : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Edge `p` of block `t` is edge `12800 t + p` of the whole list. -/
def edgeOf (t : Fin cfg6.N) (p : Fin 12800) : Fin 1600000 :=
  ⟨t.val * 12800 + p.val, by have ht : t.val < 125 := t.isLt; have hp := p.isLt; omega⟩

/-- The gathered-rows block at point `t` reads the array at the block's edges. -/
theorem gathered_block (c : Dev nD) (t : Fin cfg6.N) (p : Fin 12800) (q : Fin 64) :
    (iblk6 V c 0 t : Vec Ideal S12800x64 .f32) (ix2 p q)
      = (V c (Pipeline.arrRef spec6 0) : Spec.sE64.Idx → EReal) (ix2 (edgeOf t p) q) := by
  obtain ⟨e0, e1, -⟩ := block_indices t
  show V c (Pipeline.arrRef spec6 0) (((cfg6.win 0).blk t).view.emb (ix2 p q)) = V c (Pipeline.arrRef spec6 0) _
  refine congrArg _ (funext fun a => Fin.ext ?_)
  match a with
  | ⟨0, _⟩ => show win6_0.index t (0 : Fin 2) * 12800 + 1 * p.val = t.val * 12800 + p.val; omega
  | ⟨1, _⟩ => show win6_0.index t (1 : Fin 2) * 64 + 1 * q.val = q.val; omega

/-- The edge-feature block at point `t` reads the array at the block's edges. -/
theorem feature_block (c : Dev nD) (t : Fin cfg6.N) (p : Fin 12800) (k : Fin 32) :
    (iblk6 V c 1 t : Vec Ideal S12800x32 .f32) (ix2 p k)
      = (V c (Pipeline.arrRef spec6 1) : Spec.sE32.Idx → EReal) (ix2 (edgeOf t p) k) := by
  obtain ⟨-, -, e0, e1, -⟩ := block_indices t
  show V c (Pipeline.arrRef spec6 1) (((cfg6.win 1).blk t).view.emb (ix2 p k)) = V c (Pipeline.arrRef spec6 1) _
  refine congrArg _ (funext fun a => Fin.ext ?_)
  match a with
  | ⟨0, _⟩ => show win6_1.index t (0 : Fin 2) * 12800 + 1 * p.val = t.val * 12800 + p.val; omega
  | ⟨1, _⟩ => show win6_1.index t (1 : Fin 2) * 32 + 1 * k.val = k.val; omega

/-- The matrix's one block is the matrix. -/
theorem matrix_block (c : Dev nD) (t : Fin cfg6.N) (k : Fin 32) (q : Fin 64) :
    (iblk6 V c 2 t : Vec Ideal S32x64 .f32) (ix2 k q)
      = (V c (Pipeline.arrRef spec6 2) : Spec.s32x64.Idx → EReal) (ix2 k q) := by
  obtain ⟨-, -, -, -, e0, e1, -⟩ := block_indices t
  show V c (Pipeline.arrRef spec6 2) (((cfg6.win 2).blk t).view.emb (ix2 k q)) = V c (Pipeline.arrRef spec6 2) _
  refine congrArg _ (funext fun a => Fin.ext ?_)
  match a with
  | ⟨0, _⟩ => show win6_2.index t (0 : Fin 2) * 32 + 1 * k.val = k.val; omega
  | ⟨1, _⟩ => show win6_2.index t (1 : Fin 2) * 64 + 1 * q.val = q.val; omega

/-- The bias row's one block is the row. -/
theorem bias_block (c : Dev nD) (t : Fin cfg6.N) (z : Fin 1) (q : Fin 64) :
    (iblk6 V c 3 t : Vec Ideal S1x64 .f32) (ix2 z q)
      = (V c (Pipeline.arrRef spec6 3) : Spec.s1x64.Idx → EReal) (ix2 z q) := by
  obtain ⟨-, -, -, -, -, -, e0, e1, -⟩ := block_indices t
  show V c (Pipeline.arrRef spec6 3) (((cfg6.win 3).blk t).view.emb (ix2 z q)) = V c (Pipeline.arrRef spec6 3) _
  refine congrArg _ (funext fun a => Fin.ext ?_)
  match a with
  | ⟨0, _⟩ => show win6_3.index t (0 : Fin 2) * 1 + 1 * z.val = z.val; omega
  | ⟨1, _⟩ => show win6_3.index t (1 : Fin 2) * 64 + 1 * q.val = q.val; omega

/-! ## What a grid point writes back -/

/-- Point `t` writes back block `t` of the messages of the whole arrays. -/
theorem writeback_eq (c : Dev nD) (t : Fin cfg6.N) :
    (dat6 (F := Ideal) V c).flushed 4 t = ((cfg6.win 4).blk t).view.read (Elt Ideal)
      (Spec.edgeG (V c (Pipeline.arrRef spec6 0)) (V c (Pipeline.arrRef spec6 1)) (V c (Pipeline.arrRef spec6 2)) (V c (Pipeline.arrRef spec6 3))) := by
  show (cfg6.win 4).cut (grid6.coords t) ((dat6 V c).after 4 t) = _
  rw [after6_4]
  unfold out6_4
  rw [View.canon_unit_zero zero_off]
  simp only [View.ld_unit_zero (S := S12800x64) zero_off, View.ld_unit_zero (S := S12800x32) zero_off,
    View.ld_unit_zero (S := S32x64) zero_off, View.ld_unit_zero (S := S1x64) zero_off]
  refine funext fun (j : S12800x64.Idx) => ?_
  obtain ⟨p, q, rfl⟩ : ∃ (p : Fin 12800) (q : Fin 64), j = ix2 p q := ⟨j 0, j 1, eq_ix2 j⟩
  have hplace : ((cfg6.win 4).blk t).view.emb (ix2 p q) = (ix2 (edgeOf t p) q : Spec.sE64.Idx) := by
    obtain ⟨-, -, -, -, -, -, -, -, e0, e1⟩ := block_indices t
    refine funext fun a => Fin.ext ?_
    match a with
    | ⟨0, _⟩ => show win6_4.index t (0 : Fin 2) * 12800 + 1 * p.val = t.val * 12800 + p.val; omega
    | ⟨1, _⟩ => show win6_4.index t (1 : Fin 2) * 64 + 1 * q.val = q.val; omega
  show k6_pay1 (iblk6 V c 1 t) (iblk6 V c 2 t) (iblk6 V c 3 t) (iblk6 V c 0 t) (ix2 p q)
      = Spec.edgeG _ _ _ _ (((cfg6.win 4).blk t).view.emb (ix2 p q))
  rw [hplace]
  refine (message_apply (iblk6 V c 0 t) (iblk6 V c 1 t) (iblk6 V c 2 t) (iblk6 V c 3 t) p q).trans ?_
  exact congrArg₂ max (congrArg₂ (· + ·) (gathered_block V c t p q)
    (congrArg₂ (· + ·) (Finset.sum_congr rfl fun k _ => congrArg₂ (· * ·) (feature_block V c t p k) (matrix_block V c t k q))
      (bias_block V c t 0 q))) rfl

/-! ## The blocks fill the array -/

/-- An edge row is in point `t`'s block iff it lies in that block's range of 12800 rows. -/
theorem mem_block (t : Fin cfg6.N) (i : S1600000x64.Idx) :
    i ∈ ((cfg6.win 4).blk t).view.set ↔ ∀ a : Fin 2, win6_4.index t a * S12800x64.size a ≤ (i a).val ∧ (i a).val < win6_4.index t a * S12800x64.size a + S12800x64.size a := by
  show i ∈ ((View.whole main_v78).slice (win6_4.rect t)).set ↔ _
  rw [View.set_slice_whole, Rect.mem_set_unit]
  exact Iff.rfl

/-- Every block of the 125 is some point's. -/
theorem block_onto : ∀ n : Fin 125, ∃ t : Fin cfg6.N, win6_4.index t = ![n.val, 0] :=
  (by decide +kernel : ∀ n : Fin 125, ∃ t : Fin grid6.N, win6_4.index t = ![n.val, 0])

/-- Edge row `r` is covered by the point of block `r / 12800`. -/
theorem covered (i : S1600000x64.Idx) :
    ∃ t : Fin cfg6.N, (cfg6.win 4).flush t = true ∧ i ∈ ((cfg6.win 4).blk t).view.set := by
  have hi0 : (i 0).val < 1600000 := (i 0).isLt
  have hi1 : (i 1).val < 64 := (i 1).isLt
  obtain ⟨t, ht⟩ := block_onto ⟨(i 0).val / 12800, by omega⟩
  have q0 : win6_4.index t (0 : Fin 2) = (i 0).val / 12800 := congrFun ht 0
  have q1 : win6_4.index t (1 : Fin 2) = 0 := congrFun ht 1
  refine ⟨t, flush6_4 t, ?_⟩
  rw [mem_block]
  intro a
  match a with
  | ⟨0, _⟩ => show win6_4.index t (0 : Fin 2) * 12800 ≤ (i 0).val ∧ (i 0).val < win6_4.index t (0 : Fin 2) * 12800 + 12800; omega
  | ⟨1, _⟩ => show win6_4.index t (1 : Fin 2) * 64 ≤ (i 1).val ∧ (i 1).val < win6_4.index t (1 : Fin 2) * 64 + 64; omega

/-- The edge-message region leaves in its output array the stage function `Spec.edgeG` of its four input arrays as the region found them: gathered rows, edge features, the layer's matrix, its bias row. -/
theorem final (c : Dev nD) :
    ((dat6 (F := Ideal) V c).arrAt 4 cfg6.N : Spec.sE64.Idx → EReal)
      = Spec.edgeG (V c (Pipeline.arrRef spec6 0)) (V c (Pipeline.arrRef spec6 1)) (V c (Pipeline.arrRef spec6 2)) (V c (Pipeline.arrRef spec6 3)) :=
  (dat6 (F := Ideal) V c).arrAt_eq_of_cover 4 _ (fun t _ => writeback_eq V c t) covered

end Cert.KEdge6

end
-- ==== Proof.KMlp7.lean ====
import proofs.«430051_j50208167690776_1_alg».proof.Proof.Gen.KernelIdeal.Frame
import proofs.«430051_j50208167690776_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KMlp7

open Cert.KernelIdeal Cert.KernelIdeal.Gen Idealize.ShloMosaic Idealize.ShloMosaic.TcCoe Idealize.ShloMosaic.ValueIdx
open Idealize.ShloMosaic.Pipeline (Dat Cfg Window)

-- the TensorCore's buffer contents when the region is entered: any
variable (V : (c : Dev nD) → (b : Ref sig .tc) → Buf (Elt Ideal) ((c : Thread nD τ).loc b))

/-! ## The product of a 5000-row block with a 64 × 64 matrix, entry by entry -/

/-- The dimension numbers of both products: rows of the left operand against columns of the right one. -/
abbrev mm := dot_S5000x64_S64x64_S5000x64_1_0_0_1_n_n

/-- The left operand is read in the output's row … -/
theorem mm_lhs_row (j : S5000x64.Idx) (k : dot_S5000x64_S64x64_S5000x64_1_0_0_1_n_n.contr.Idx) :
    (dot_S5000x64_S64x64_S5000x64_1_0_0_1_n_n.lhsIdx j k 0).val = (j 0).val := by
  simp [DotDims.lhsIdx, dot_S5000x64_S64x64_S5000x64_1_0_0_1_n_n]; rfl

/-- … at the summation index; -/
theorem mm_lhs_col (j : S5000x64.Idx) (k : dot_S5000x64_S64x64_S5000x64_1_0_0_1_n_n.contr.Idx) :
    (dot_S5000x64_S64x64_S5000x64_1_0_0_1_n_n.lhsIdx j k 1).val = (k ⟨0, by decide⟩).val :=
  dot_S5000x64_S64x64_S5000x64_1_0_0_1_n_n.lhsIdx_val_of_single (cl := 1) rfl j k

/-- the right operand at the summation index … -/
theorem mm_rhs_row (j : S5000x64.Idx) (k : dot_S5000x64_S64x64_S5000x64_1_0_0_1_n_n.contr.Idx) :
    (dot_S5000x64_S64x64_S5000x64_1_0_0_1_n_n.rhsIdx j k 0).val = (k ⟨0, by decide⟩).val :=
  dot_S5000x64_S64x64_S5000x64_1_0_0_1_n_n.rhsIdx_val_of_single (cr := 0) rfl j k

/-- … in the output's column. -/
theorem mm_rhs_col (j : S5000x64.Idx) (k : dot_S5000x64_S64x64_S5000x64_1_0_0_1_n_n.contr.Idx) :
    (dot_S5000x64_S64x64_S5000x64_1_0_0_1_n_n.rhsIdx j k 1).val = (j 1).val := by
  simp [DotDims.rhsIdx, dot_S5000x64_S64x64_S5000x64_1_0_0_1_n_n]; rfl

/-- A block times a matrix, accumulated from zero, at row `p` and column `q`: the sum over the 64 inner indices. -/
theorem mm_apply (a : FVec Ideal S5000x64 .f32) (b : FVec Ideal S64x64 .f32) (p : Fin 5000) (q : Fin 64) :
    matmul mm none a b (constant S5000x64 .f32 0x00000000#32) (ix2 p q)
      = ∑ k : Fin 64, a (ix2 p k) * b (ix2 k q) := by
  refine (Ideal.matmul_constant_zero_apply mm none a b (ix2 p q)).trans ?_
  rw [← Equiv.sum_comp (contrEquiv1 mm 64 rfl rfl).symm]
  refine Finset.sum_congr rfl fun k _ => ?_
  have el : mm.lhsIdx (ix2 p q) ((contrEquiv1 mm 64 rfl rfl).symm k) = ix2 p k := by
    funext ax; apply Fin.ext
    match ax with
    | ⟨0, _⟩ => exact mm_lhs_row _ _
    | ⟨1, _⟩ => exact (mm_lhs_col _ _).trans (contrEquiv1_symm_val mm 64 rfl rfl k)
  have er : mm.rhsIdx (ix2 p q) ((contrEquiv1 mm 64 rfl rfl).symm k) = ix2 k q := by
    funext ax; apply Fin.ext
    match ax with
    | ⟨0, _⟩ => exact (mm_rhs_row _ _).trans (contrEquiv1_symm_val mm 64 rfl rfl k)
    | ⟨1, _⟩ => exact mm_rhs_col _ _
  rw [el, er]

/-! ## The body's result, entry by entry -/

/-- What the body stores at row `p`, column `q` of its block: the second layer's sum over the rectified first layer. -/
theorem pay_apply (x agg : Vec Ideal S5000x64 .f32) (w1 : Vec Ideal S64x64 .f32) (b1 : Vec Ideal S1x64 .f32)
    (w2 : Vec Ideal S64x64 .f32) (b2 : Vec Ideal S1x64 .f32) (p : Fin 5000) (q : Fin 64) :
    k7_pay1 x agg w1 b1 w2 b2 (ix2 p q)
      = (∑ k : Fin 64, max ((∑ i : Fin 64, (x (ix2 p i) + agg (ix2 p i)) * w1 (ix2 i k)) + b1 (ix2 (0 : Fin 1) k)) 0 * w2 (ix2 k q))
        + b2 (ix2 (0 : Fin 1) q) := by
  unfold k7_pay1
  simp only [shapeCast_self]
  refine (addf_apply _ _ (ix2 p q)).trans ?_
  refine congrArg₂ (· + ·) ?_ (broadcastTo_1b_ab_apply b2 broadcasts_S1x64_S5000x64 p q)
  refine (mm_apply _ _ p q).trans ?_
  refine Finset.sum_congr rfl fun k _ => congrArg (· * w2 (ix2 k q)) ?_
  refine (maximumf_apply _ _ (ix2 p k)).trans ?_
  refine congrArg₂ max ?_ Ideal.ofBits_zero_f32
  refine (addf_apply _ _ (ix2 p k)).trans ?_
  refine congrArg₂ (· + ·) ?_ (broadcastTo_1b_ab_apply b1 broadcasts_S1x64_S5000x64 p k)
  exact mm_apply _ _ p k

/-! ## The stage function at an entry -/

/-- The stage function at node `n`, feature `q`. -/
theorem mlpG_apply (x agg : Spec.sN64.Idx → EReal) (w1 : Spec.s64x64.Idx → EReal) (b1 : Spec.s1x64.Idx → EReal)
    (w2 : Spec.s64x64.Idx → EReal) (b2 : Spec.s1x64.Idx → EReal) (n : Fin 100000) (q : Fin 64) :
    Spec.mlpG x agg w1 b1 w2 b2 (ix2 n q)
      = (∑ k : Fin 64, Spec.mlpHid x agg w1 b1 n k * w2 (ix2 k q)) + b2 (ix2 (0 : Fin 1) q) := rfl

/-! ## The region's blocks -/

theorem hz : (![0, 0] : Fin 2 → Nat) = fun _ => 0 := funext fun a => by fin_cases a <;> rfl

/-- The block indices over the grid: at point `t` the node features, the aggregated messages and the output are at
    row block `t`; the two weight matrices and the two bias rows are whole at every point. -/
theorem idx_facts : ∀ t : Fin cfg7.N, win7_6.index t (0 : Fin 2) = t.val ∧ win7_6.index t (1 : Fin 2) = 0
    ∧ win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

/-- Row `p` of the node-feature block at point `t` is row `5000 t + p` of the array. -/
theorem x_blk (c : Dev nD) (t : Fin cfg7.N) (p : Fin 5000) (i : Fin 64) (n : Fin 100000) (hn : n.val = t.val * 5000 + p.val) :
    (iblk7 V c 0 t : Vec Ideal S5000x64 .f32) (ix2 p i) = (V c (Pipeline.arrRef spec7 0) : Spec.sN64.Idx → EReal) (ix2 n i) := by
  obtain ⟨-, -, e0, e1, -⟩ := idx_facts t
  unfold iblk7
  rw [View.read_apply]
  refine congrArg (V c (Pipeline.arrRef spec7 0) : Spec.sN64.Idx → EReal) (funext fun a => Fin.ext ?_)
  match a with
  | ⟨0, _⟩ => show win7_0.index t (0 : Fin 2) * 5000 + 1 * p.val = n.val; omega
  | ⟨1, _⟩ => show win7_0.index t (1 : Fin 2) * 64 + 1 * i.val = i.val; omega

/-- Likewise for the aggregated messages. -/
theorem agg_blk (c : Dev nD) (t : Fin cfg7.N) (p : Fin 5000) (i : Fin 64) (n : Fin 100000) (hn : n.val = t.val * 5000 + p.val) :
    (iblk7 V c 1 t : Vec Ideal S5000x64 .f32) (ix2 p i) = (V c (Pipeline.arrRef spec7 1) : Spec.sN64.Idx → EReal) (ix2 n i) := by
  obtain ⟨-, -, -, -, e0, e1, -⟩ := idx_facts t
  unfold iblk7
  rw [View.read_apply]
  refine congrArg (V c (Pipeline.arrRef spec7 1) : Spec.sN64.Idx → EReal) (funext fun a => Fin.ext ?_)
  match a with
  | ⟨0, _⟩ => show win7_1.index t (0 : Fin 2) * 5000 + 1 * p.val = n.val; omega
  | ⟨1, _⟩ => show win7_1.index t (1 : Fin 2) * 64 + 1 * i.val = i.val; omega

/-- The first layer's weights are read whole at every point. -/
theorem w1_blk (c : Dev nD) (t : Fin cfg7.N) (i k : Fin 64) :
    (iblk7 V c 2 t : Vec Ideal S64x64 .f32) (ix2 i k) = (V c (Pipeline.arrRef spec7 2) : Spec.s64x64.Idx → EReal) (ix2 i k) := by
  obtain ⟨-, -, -, -, -, -, e0, e1, -⟩ := idx_facts t
  unfold iblk7
  rw [View.read_apply]
  refine congrArg (V c (Pipeline.arrRef spec7 2) : Spec.s64x64.Idx → EReal) (funext fun a => Fin.ext ?_)
  match a with
  | ⟨0, _⟩ => show win7_2.index t (0 : Fin 2) * 64 + 1 * i.val = i.val; omega
  | ⟨1, _⟩ => show win7_2.index t (1 : Fin 2) * 64 + 1 * k.val = k.val; omega

/-- So is its bias row. -/
theorem b1_blk (c : Dev nD) (t : Fin cfg7.N) (k : Fin 64) :
    (iblk7 V c 3 t : Vec Ideal S1x64 .f32) (ix2 (0 : Fin 1) k) = (V c (Pipeline.arrRef spec7 3) : Spec.s1x64.Idx → EReal) (ix2 (0 : Fin 1) k) := by
  obtain ⟨-, -, -, -, -, -, -, -, e0, e1, -⟩ := idx_facts t
  unfold iblk7
  rw [View.read_apply]
  refine congrArg (V c (Pipeline.arrRef spec7 3) : Spec.s1x64.Idx → EReal) (funext fun a => Fin.ext ?_)
  match a with
  | ⟨0, _⟩ => show win7_3.index t (0 : Fin 2) * 1 + 1 * 0 = 0; omega
  | ⟨1, _⟩ => show win7_3.index t (1 : Fin 2) * 64 + 1 * k.val = k.val; omega

/-- The second layer's weights are read whole at every point. -/
theorem w2_blk (c : Dev nD) (t : Fin cfg7.N) (k q : Fin 64) :
    (iblk7 V c 4 t : Vec Ideal S64x64 .f32) (ix2 k q) = (V c (Pipeline.arrRef spec7 4) : Spec.s64x64.Idx → EReal) (ix2 k q) := by
  obtain ⟨-, -, -, -, -, -, -, -, -, -, e0, e1, -⟩ := idx_facts t
  unfold iblk7
  rw [View.read_apply]
  refine congrArg (V c (Pipeline.arrRef spec7 4) : Spec.s64x64.Idx → EReal) (funext fun a => Fin.ext ?_)
  match a with
  | ⟨0, _⟩ => show win7_4.index t (0 : Fin 2) * 64 + 1 * k.val = k.val; omega
  | ⟨1, _⟩ => show win7_4.index t (1 : Fin 2) * 64 + 1 * q.val = q.val; omega

/-- So is its bias row. -/
theorem b2_blk (c : Dev nD) (t : Fin cfg7.N) (q : Fin 64) :
    (iblk7 V c 5 t : Vec Ideal S1x64 .f32) (ix2 (0 : Fin 1) q) = (V c (Pipeline.arrRef spec7 5) : Spec.s1x64.Idx → EReal) (ix2 (0 : Fin 1) q) := by
  obtain ⟨-, -, -, -, -, -, -, -, -, -, -, -, e0, e1⟩ := idx_facts t
  unfold iblk7
  rw [View.read_apply]
  refine congrArg (V c (Pipeline.arrRef spec7 5) : Spec.s1x64.Idx → EReal) (funext fun a => Fin.ext ?_)
  match a with
  | ⟨0, _⟩ => show win7_5.index t (0 : Fin 2) * 1 + 1 * 0 = 0; omega
  | ⟨1, _⟩ => show win7_5.index t (1 : Fin 2) * 64 + 1 * q.val = q.val; omega

/-! ## What a point writes back -/

/-- What point `t` writes back is the body's result on the six blocks of point `t`. -/
theorem flushed_pay (c : Dev nD) (t : Fin cfg7.N) :
    (dat7 (F := Ideal) V c).flushed 6 t
      = (cfg7.win 6).cut (grid7.coords t) (k7_pay1 (iblk7 V c 0 t) (iblk7 V c 1 t) (iblk7 V c 2 t) (iblk7 V c 3 t) (iblk7 V c 4 t) (iblk7 V c 5 t)) := by
  show (cfg7.win 6).cut (grid7.coords t) ((dat7 V c).after 6 t) = _
  rw [after7_6]
  unfold out7_6
  rw [View.canon_unit_zero hz]
  simp only [View.ld_unit_zero (S := S5000x64) hz, View.ld_unit_zero (S := S64x64) hz, View.ld_unit_zero (S := S1x64) hz]

/-- Row `p` of the output block at point `t` is row `5000 t + p` of the array. -/
theorem out_emb (t : Fin cfg7.N) (p : Fin 5000) (q : Fin 64) (n : Fin 100000) (hn : n.val = t.val * 5000 + p.val) :
    ((cfg7.win 6).blk t).view.emb (ix2 p q) = ix2 (n0 := 100000) (n1 := 64) n q := by
  obtain ⟨e0, e1, -⟩ := idx_facts t
  funext a; apply Fin.ext
  match a with
  | ⟨0, _⟩ => show win7_6.index t (0 : Fin 2) * 5000 + 1 * p.val = n.val; omega
  | ⟨1, _⟩ => show win7_6.index t (1 : Fin 2) * 64 + 1 * q.val = q.val; omega

/-- The body's result on the blocks of point `t`, at row `p` and column `q`, is the stage function at row `5000 t + p`. -/
theorem pay_blocks (c : Dev nD) (t : Fin cfg7.N) (p : Fin 5000) (q : Fin 64) (n : Fin 100000) (hn : n.val = t.val * 5000 + p.val) :
    k7_pay1 (iblk7 V c 0 t) (iblk7 V c 1 t) (iblk7 V c 2 t) (iblk7 V c 3 t) (iblk7 V c 4 t) (iblk7 V c 5 t) (ix2 p q)
      = Spec.mlpG (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (ix2 n q) := by
  refine (pay_apply (iblk7 V c 0 t) (iblk7 V c 1 t) (iblk7 V c 2 t) (iblk7 V c 3 t) (iblk7 V c 4 t) (iblk7 V c 5 t) p q).trans ?_
  refine Eq.trans ?_ (mlpG_apply (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) n q).symm
  refine congrArg₂ (· + ·) (Finset.sum_congr rfl fun k _ => congrArg₂ (· * ·) ?_ (w2_blk V c t k q)) (b2_blk V c t q)
  unfold Spec.mlpHid
  exact congrArg (max · 0) (congrArg₂ (· + ·)
    (Finset.sum_congr rfl fun i _ => congrArg₂ (· * ·) (congrArg₂ (· + ·) (x_blk V c t p i n hn) (agg_blk V c t p i n hn)) (w1_blk V c t i k))
    (b1_blk V c t k))

/-- Point `t` writes back block `t` of the stage function of the six input arrays. -/
theorem flushed_eq (c : Dev nD) (t : Fin cfg7.N) :
    (dat7 (F := Ideal) V c).flushed 6 t = ((cfg7.win 6).blk t).view.read (Elt Ideal)
      (Spec.mlpG (V c (Pipeline.arrRef spec7 0)) (V c (Pipeline.arrRef spec7 1)) (V c (Pipeline.arrRef spec7 2)) (V c (Pipeline.arrRef spec7 3)) (V c (Pipeline.arrRef spec7 4)) (V c (Pipeline.arrRef spec7 5))) := by
  rw [flushed_pay]
  refine funext fun (j : S5000x64.Idx) => ?_
  obtain ⟨p, q, rfl⟩ : ∃ (p : Fin 5000) (q : Fin 64), j = ix2 p q := ⟨j 0, j 1, eq_ix2 j⟩
  have ht : t.val < 20 := lt_of_lt_of_eq t.isLt N_7
  obtain ⟨n, hn⟩ : ∃ n : Fin 100000, n.val = t.val * 5000 + p.val := ⟨⟨t.val * 5000 + p.val, by have := p.isLt; omega⟩, rfl⟩
  rw [View.read_apply, out_emb t p q n hn]
  exact pay_blocks V c t p q n hn

/-! ## The row blocks fill the array -/

/-- An entry of the array is in point `t`'s block iff each coordinate is in the block's range on its axis. -/
theorem mem_blk (t : Fin cfg7.N) (i : S100000x64.Idx) :
    i ∈ ((cfg7.win 6).blk t).view.set ↔ ∀ a : Fin 2, win7_6.index t a * S5000x64.size a ≤ (i a).val ∧ (i a).val < win7_6.index t a * S5000x64.size a + S5000x64.size a := by
  show i ∈ ((View.whole main_v92).slice (win7_6.rect t)).set ↔ _
  rw [View.set_slice_whole, Rect.mem_set_unit]
  exact Iff.rfl

/-- Row `r` is written back by point `r / 5000`. -/
theorem cover (i : S100000x64.Idx) : ∃ t : Fin cfg7.N, (cfg7.win 6).flush t = true ∧ i ∈ ((cfg7.win 6).blk t).view.set := by
  have hi0 : (i 0).val < 100000 := (i 0).isLt
  have hi1 : (i 1).val < 64 := (i 1).isLt
  obtain ⟨t, ht⟩ : ∃ t : Fin cfg7.N, t.val = (i 0).val / 5000 :=
    ⟨⟨(i 0).val / 5000, lt_of_lt_of_eq (show (i 0).val / 5000 < 20 by omega) N_7.symm⟩, rfl⟩
  obtain ⟨e0, e1, -⟩ := idx_facts t
  refine ⟨t, flush7_6 t, ?_⟩
  rw [mem_blk]
  intro a
  match a with
  | ⟨0, _⟩ => show win7_6.index t (0 : Fin 2) * 5000 ≤ (i 0).val ∧ (i 0).val < win7_6.index t (0 : Fin 2) * 5000 + 5000; omega
  | ⟨1, _⟩ => show win7_6.index t (1 : Fin 2) * 64 ≤ (i 1).val ∧ (i 1).val < win7_6.index t (1 : Fin 2) * 64 + 64; omega

/-! ## The output array after the region -/

/-- The node-perceptron region leaves in its output array the stage function `Spec.mlpG` of its six input arrays as the region found them. -/
theorem final (c : Dev nD) :
    ((dat7 (F := Ideal) V c).arrAt 6 cfg7.N : Spec.sN64.Idx → EReal)
      = Spec.mlpG (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) := by
  exact (dat7 (F := Ideal) V c).arrAt_eq_of_cover 6 _ (fun t _ => flushed_eq V c t) cover

end Cert.KMlp7

end
-- ==== Proof.KBn8.lean ====
import proofs.«430051_j50208167690776_1_alg».proof.Proof.Gen.KernelIdeal.Frame
import proofs.«430051_j50208167690776_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KBn8

open Cert.KernelIdeal Cert.KernelIdeal.Gen Idealize.ShloMosaic Idealize.ShloMosaic.TcCoe Idealize.ShloMosaic.ValueIdx
open Idealize.ShloMosaic.Pipeline (Dat Cfg Window)

-- the TensorCore's buffer contents when the region is entered: any
variable (V : (c : Dev nD) → (b : Ref sig .tc) → Buf (Elt Ideal) ((c : Thread nD τ).loc b))

/-! ## The body's arithmetic at one entry of a block -/

/-- A one-row vector spread over the 5000 rows of a block reads, at row `p` and column `q`, its entry in column `q`. -/
theorem spread_row (x : Vec Ideal S1x64 .f32) (p : Fin 5000) (q : Fin 64) :
    broadcastTo S5000x64 x broadcasts_S1x64_S5000x64 (ix2 p q) = x (ix2 (n0 := 1) (n1 := 64) 0 q) := by
  refine broadcastTo_apply x _ (ix2 p q) (ix2 (n0 := 1) (n1 := 64) 0 q) ?_
  intro a
  match a with
  | ⟨0, _⟩ => rfl
  | ⟨1, _⟩ => rfl

/-- The value the body stores at row `p`, column `q` of its block: the row's entry centred by the column's mean, scaled
    by the reciprocal square root of the guarded variance and by the column's gain, shifted by the column's offset,
    then rectified. `v0` is the variance row, `v5` the block of rows, `v7` the mean row, `v13` the gains, `v17` the offsets. -/
theorem body_apply (v0 : Vec Ideal S1x64 .f32) (v5 : Vec Ideal S5000x64 .f32) (v7 v13 v17 : Vec Ideal S1x64 .f32)
    (p : Fin 5000) (q : Fin 64) :
    k8_pay1 v0 v5 v7 v13 v17 (ix2 p q)
      = max ((v5 (ix2 p q) - v7 (ix2 (n0 := 1) (n1 := 64) 0 q)) * Ideal.rsqrt (v0 (ix2 (n0 := 1) (n1 := 64) 0 q) + Spec.eps)
            * v13 (ix2 (n0 := 1) (n1 := 64) 0 q) + v17 (ix2 (n0 := 1) (n1 := 64) 0 q)) 0 := by
  unfold k8_pay1
  simp only [shapeCast_self]
  rw [maximumf_apply, addf_apply, mulf_apply, mulf_apply, subf_apply, broadcast_apply,
    spread_row, spread_row, spread_row, spread_row]
  show max _ (Ideal.ofBits .f32 0x00000000#32) = _
  rw [Ideal.ofBits_zero_f32]
  rfl

/-- The stage function at an index whose row is `r` and whose column is `q`. -/
theorem bnG_at (h : Spec.sN64.Idx → EReal) (mean var gam bet : Spec.s1x64.Idx → EReal) (i : Spec.sN64.Idx)
    (r : Fin 100000) (q : Fin 64) (hr : (i 0).val = r.val) (hq : (i 1).val = q.val) :
    Spec.bnG h mean var gam bet i
      = max ((h (ix2 (n0 := 100000) (n1 := 64) r q) - mean (ix2 (n0 := 1) (n1 := 64) 0 q))
            * Ideal.rsqrt (var (ix2 (n0 := 1) (n1 := 64) 0 q) + Spec.eps)
            * gam (ix2 (n0 := 1) (n1 := 64) 0 q) + bet (ix2 (n0 := 1) (n1 := 64) 0 q)) 0 := by
  obtain ⟨r', q', rfl⟩ : ∃ (r' : Fin 100000) (q' : Fin 64), i = ix2 r' q' := ⟨i 0, i 1, eq_ix2 i⟩
  obtain rfl : r' = r := Fin.ext hr
  obtain rfl : q' = q := Fin.ext hq
  rfl

/-! ## Where each window's block sits in its array -/

theorem zeroOffsets : (![0, 0] : Fin 2 → Nat) = fun _ => 0 :=
  funext fun a => by match a with | ⟨0, _⟩ => rfl | ⟨1, _⟩ => rfl

/-- The grid has 20 points. -/
theorem points_lt (t : Fin cfg8.N) : t.val < 20 := Nat.lt_of_lt_of_eq t.isLt N_8

/-- The printed index maps, decided over the 20 grid points: at point `t` the row windows (the input rows and the
    output) are at block row `t`, block column 0; the four one-row windows stay at block (0, 0). -/
theorem blockIndex : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- The block of input rows at point `t` holds rows `5000 t … 5000 t + 4999` of the array of rows. -/
theorem rowsBlock_read (c : Dev nD) (t : Fin cfg8.N) (p : Fin 5000) (q : Fin 64) (r : Fin 100000)
    (hr : r.val = t.val * 5000 + p.val) :
    (iblk8 V c 0 t : Vec Ideal S5000x64 .f32) (ix2 p q)
      = (V c (Pipeline.arrRef spec8 0) : Spec.sN64.Idx → EReal) (ix2 (n0 := 100000) (n1 := 64) r q) := by
  obtain ⟨e0, e1, -⟩ := blockIndex t
  unfold iblk8
  rw [View.read_apply]
  show V c (Pipeline.arrRef spec8 0) (((cfg8.win 0).blk t).view.emb (ix2 p q)) = V c (Pipeline.arrRef spec8 0) _
  refine congrArg _ (funext fun a => Fin.ext ?_)
  match a with
  | ⟨0, _⟩ => show win8_0.index t (0 : Fin 2) * 5000 + 1 * p.val = r.val; rw [e0, hr]; omega
  | ⟨1, _⟩ => show win8_0.index t (1 : Fin 2) * 64 + 1 * q.val = q.val; rw [e1]; omega

/-- The one-row windows' blocks are their arrays: the means, -/
theorem meanBlock_read (c : Dev nD) (t : Fin cfg8.N) (q : Fin 64) :
    (iblk8 V c 1 t : Vec Ideal S1x64 .f32) (ix2 (n0 := 1) (n1 := 64) 0 q)
      = (V c (Pipeline.arrRef spec8 1) : Spec.s1x64.Idx → EReal) (ix2 (n0 := 1) (n1 := 64) 0 q) := by
  obtain ⟨-, -, e0, e1, -⟩ := blockIndex t
  unfold iblk8
  rw [View.read_apply]
  show V c (Pipeline.arrRef spec8 1) (((cfg8.win 1).blk t).view.emb (ix2 (n0 := 1) (n1 := 64) 0 q)) = V c (Pipeline.arrRef spec8 1) _
  refine congrArg _ (funext fun a => Fin.ext ?_)
  match a with
  | ⟨0, _⟩ => show win8_1.index t (0 : Fin 2) * 1 + 1 * 0 = 0; rw [e0]
  | ⟨1, _⟩ => show win8_1.index t (1 : Fin 2) * 64 + 1 * q.val = q.val; rw [e1]; omega

/-- the variances, -/
theorem varBlock_read (c : Dev nD) (t : Fin cfg8.N) (q : Fin 64) :
    (iblk8 V c 2 t : Vec Ideal S1x64 .f32) (ix2 (n0 := 1) (n1 := 64) 0 q)
      = (V c (Pipeline.arrRef spec8 2) : Spec.s1x64.Idx → EReal) (ix2 (n0 := 1) (n1 := 64) 0 q) := by
  obtain ⟨-, -, -, -, e0, e1, -⟩ := blockIndex t
  unfold iblk8
  rw [View.read_apply]
  show V c (Pipeline.arrRef spec8 2) (((cfg8.win 2).blk t).view.emb (ix2 (n0 := 1) (n1 := 64) 0 q)) = V c (Pipeline.arrRef spec8 2) _
  refine congrArg _ (funext fun a => Fin.ext ?_)
  match a with
  | ⟨0, _⟩ => show win8_2.index t (0 : Fin 2) * 1 + 1 * 0 = 0; rw [e0]
  | ⟨1, _⟩ => show win8_2.index t (1 : Fin 2) * 64 + 1 * q.val = q.val; rw [e1]; omega

/-- the gains, -/
theorem gainBlock_read (c : Dev nD) (t : Fin cfg8.N) (q : Fin 64) :
    (iblk8 V c 3 t : Vec Ideal S1x64 .f32) (ix2 (n0 := 1) (n1 := 64) 0 q)
      = (V c (Pipeline.arrRef spec8 3) : Spec.s1x64.Idx → EReal) (ix2 (n0 := 1) (n1 := 64) 0 q) := by
  obtain ⟨-, -, -, -, -, -, e0, e1, -⟩ := blockIndex t
  unfold iblk8
  rw [View.read_apply]
  show V c (Pipeline.arrRef spec8 3) (((cfg8.win 3).blk t).view.emb (ix2 (n0 := 1) (n1 := 64) 0 q)) = V c (Pipeline.arrRef spec8 3) _
  refine congrArg _ (funext fun a => Fin.ext ?_)
  match a with
  | ⟨0, _⟩ => show win8_3.index t (0 : Fin 2) * 1 + 1 * 0 = 0; rw [e0]
  | ⟨1, _⟩ => show win8_3.index t (1 : Fin 2) * 64 + 1 * q.val = q.val; rw [e1]; omega

/-- and the offsets. -/
theorem offsetBlock_read (c : Dev nD) (t : Fin cfg8.N) (q : Fin 64) :
    (iblk8 V c 4 t : Vec Ideal S1x64 .f32) (ix2 (n0 := 1) (n1 := 64) 0 q)
      = (V c (Pipeline.arrRef spec8 4) : Spec.s1x64.Idx → EReal) (ix2 (n0 := 1) (n1 := 64) 0 q) := by
  obtain ⟨-, -, -, -, -, -, -, -, e0, e1, -⟩ := blockIndex t
  unfold iblk8
  rw [View.read_apply]
  show V c (Pipeline.arrRef spec8 4) (((cfg8.win 4).blk t).view.emb (ix2 (n0 := 1) (n1 := 64) 0 q)) = V c (Pipeline.arrRef spec8 4) _
  refine congrArg _ (funext fun a => Fin.ext ?_)
  match a with
  | ⟨0, _⟩ => show win8_4.index t (0 : Fin 2) * 1 + 1 * 0 = 0; rw [e0]
  | ⟨1, _⟩ => show win8_4.index t (1 : Fin 2) * 64 + 1 * q.val = q.val; rw [e1]; omega

/-! ## What a grid point writes back -/

set_option maxHeartbeats 400000 in
/-- What point `t` writes back to the output array is block `t` of the stage function of the five input arrays. -/
theorem writeback_eq (c : Dev nD) (t : Fin cfg8.N) :
    (dat8 (F := Ideal) V c).flushed 5 t = ((cfg8.win 5).blk t).view.read (Elt Ideal)
      (Spec.bnG (V c (Pipeline.arrRef spec8 0)) (V c (Pipeline.arrRef spec8 1)) (V c (Pipeline.arrRef spec8 2)) (V c (Pipeline.arrRef spec8 3)) (V c (Pipeline.arrRef spec8 4))) := by
  show (cfg8.win 5).cut (grid8.coords t) ((dat8 V c).after 5 t) = _
  rw [after8_5]
  unfold out8_5
  rw [View.canon_unit_zero zeroOffsets]
  simp only [View.ld_unit_zero (S := S5000x64) zeroOffsets, View.ld_unit_zero (S := S1x64) zeroOffsets]
  funext j
  obtain ⟨p, q, rfl⟩ : ∃ (p : Fin 5000) (q : Fin 64), j = ix2 p q := ⟨j 0, j 1, eq_ix2 j⟩
  obtain ⟨-, -, -, -, -, -, -, -, -, -, e0, e1⟩ := blockIndex t
  have ht := points_lt t
  show k8_pay1 (iblk8 V c 2 t) (iblk8 V c 0 t) (iblk8 V c 1 t) (iblk8 V c 3 t) (iblk8 V c 4 t) (ix2 p q)
    = Spec.bnG (V c (Pipeline.arrRef spec8 0)) (V c (Pipeline.arrRef spec8 1)) (V c (Pipeline.arrRef spec8 2)) (V c (Pipeline.arrRef spec8 3)) (V c (Pipeline.arrRef spec8 4))
        (((cfg8.win 5).blk t).view.emb (ix2 p q))
  refine (body_apply (iblk8 V c 2 t) (iblk8 V c 0 t) (iblk8 V c 1 t) (iblk8 V c 3 t) (iblk8 V c 4 t) p q).trans ?_
  refine Eq.trans ?_ (bnG_at _ _ _ _ _ _ ⟨t.val * 5000 + p.val, by have := p.isLt; omega⟩ q ?_ ?_).symm
  · rw [rowsBlock_read V c t p q ⟨t.val * 5000 + p.val, by have := p.isLt; omega⟩ rfl, meanBlock_read V c t q,
      varBlock_read V c t q, gainBlock_read V c t q, offsetBlock_read V c t q]
  · show win8_5.index t (0 : Fin 2) * 5000 + 1 * p.val = t.val * 5000 + p.val
    rw [e0]; omega
  · show win8_5.index t (1 : Fin 2) * 64 + 1 * q.val = q.val
    rw [e1]; omega

/-! ## The blocks fill the array -/

/-- An index of the output array lies in point `t`'s block iff each coordinate is in the block's range on its axis. -/
theorem mem_outBlock (t : Fin cfg8.N) (i : Spec.sN64.Idx) :
    i ∈ ((cfg8.win 5).blk t).view.set ↔ ∀ a : Fin 2, win8_5.index t a * S5000x64.size a ≤ (i a).val ∧ (i a).val < win8_5.index t a * S5000x64.size a + S5000x64.size a := by
  show i ∈ ((View.whole main_v105).slice (win8_5.rect t)).set ↔ _
  rw [View.set_slice_whole, Rect.mem_set_unit]
  exact Iff.rfl

/-- Every index of the output array is written: row `r` by the point `r / 5000`. -/
theorem covered (i : Spec.sN64.Idx) :
    ∃ t : Fin cfg8.N, (cfg8.win 5).flush t = true ∧ i ∈ ((cfg8.win 5).blk t).view.set := by
  have hi0 : (i 0).val < 100000 := (i 0).isLt
  have hi1 : (i 1).val < 64 := (i 1).isLt
  have hN : (i 0).val / 5000 < cfg8.N := by rw [show cfg8.N = 20 from N_8]; omega
  obtain ⟨-, -, -, -, -, -, -, -, -, -, e0, e1⟩ := blockIndex ⟨(i 0).val / 5000, hN⟩
  have e0' : win8_5.index ⟨(i 0).val / 5000, hN⟩ (0 : Fin 2) = (i 0).val / 5000 := e0
  refine ⟨⟨(i 0).val / 5000, hN⟩, flush8_5 _, ?_⟩
  rw [mem_outBlock]
  intro a
  match a with
  | ⟨0, _⟩ =>
    show win8_5.index ⟨(i 0).val / 5000, hN⟩ (0 : Fin 2) * 5000 ≤ (i 0).val ∧ (i 0).val < win8_5.index ⟨(i 0).val / 5000, hN⟩ (0 : Fin 2) * 5000 + 5000
    rw [e0']; omega
  | ⟨1, _⟩ =>
    show win8_5.index ⟨(i 0).val / 5000, hN⟩ (1 : Fin 2) * 64 ≤ (i 1).val ∧ (i 1).val < win8_5.index ⟨(i 0).val / 5000, hN⟩ (1 : Fin 2) * 64 + 64
    rw [e1]; omega

/-- The normalisation region leaves in its output array the stage function `Spec.bnG` of its five input arrays as the region found them. -/
theorem final (c : Dev nD) :
    ((dat8 (F := Ideal) V c).arrAt 5 cfg8.N : Spec.sN64.Idx → EReal)
      = Spec.bnG (V c (Pipeline.arrRef spec8 0)) (V c (Pipeline.arrRef spec8 1)) (V c (Pipeline.arrRef spec8 2)) (V c (Pipeline.arrRef spec8 3)) (V c (Pipeline.arrRef spec8 4)) :=
  (dat8 (F := Ideal) V c).arrAt_eq_of_cover 5 _ (fun t _ => writeback_eq V c t) covered

end Cert.KBn8

end
-- ==== Proof.KCarry2.lean ====
import proofs.«430051_j50208167690776_1_alg».proof.Proof.Gen.KernelIdeal.Frame
import proofs.«430051_j50208167690776_1_alg».proof.Proof.KVoc
import Idealize.ShloMosaic.Lib.StableHlo.Run

/-! Buffers that reach layer 2 unchanged: the two index rows made by the first host stretch, and the argument arrays,
    each read at the segment boundary where layer 2 uses it. No host operation and no region between writes them, so the
    fold at such a buffer walks back, boundary by boundary, to the launch memory (or to the stretch that made the row). -/

set_option maxRecDepth 16384

noncomputable section

namespace Cert.KernelIdeal.Chain

open Cert.KernelIdeal Cert.KernelIdeal.Gen Cert.KernelIdeal.Voc Idealize.ShloMosaic Idealize.ShloMosaic.TcCoe Idealize.SL.Sem Idealize.ShloMosaic.StableHlo

/-- A host stretch keeps a buffer none of its operations writes: each operation's written set is a singleton, and the
    buffer differs from every one of them. -/
local macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The first host stretch makes the source row from the edge list. -/
theorem s0_v1 (W : Valuation τ sig (Elt Ideal)) :
    StableHlo.after hostOps0 W (Proc.devRef .tc main_v1) = srcK (W (Proc.devRef .tc main_arg1)) := by
  after_results
  rfl
/-- The first host stretch makes the destination row from the edge list. -/
theorem s0_v3 (W : Valuation τ sig (Elt Ideal)) :
    StableHlo.after hostOps0 W (Proc.devRef .tc main_v3) = dstK (W (Proc.devRef .tc main_arg1)) := by
  after_results
  rfl

variable (m : (ℓ : Loc nD τ sig) → Buf (Elt Ideal) ℓ) (ρ : Dev nD → PrngReg)

/-- The source row at layer 2's entry. -/
theorem v1_at19 (c : Dev nD) : W19 (F := Ideal) m ρ c (Proc.devRef .tc main_v1) = srcK (m ((c : Thread nD τ).loc main_arg1)) :=
  calc W19 (F := Ideal) m ρ c (Proc.devRef .tc main_v1)
    _ = W18 m ρ c (Proc.devRef .tc main_v1) := W19_of_ne m ρ c main_v1 (by decide)
    _ = W17 m ρ c (Proc.devRef .tc main_v1) := by host_keeps hostOps5_2
    _ = W16 m ρ c (Proc.devRef .tc main_v1) := by host_keeps hostOps5_1
    _ = W15 m ρ c (Proc.devRef .tc main_v1) := by host_keeps hostOps5
    _ = W14 m ρ c (Proc.devRef .tc main_v1) := W15_of_ne m ρ c main_v1 (by decide)
    _ = W13 m ρ c (Proc.devRef .tc main_v1) := by host_keeps hostOps4
    _ = W12 m ρ c (Proc.devRef .tc main_v1) := W13_of_ne m ρ c main_v1 (by decide)
    _ = W11 m ρ c (Proc.devRef .tc main_v1) := by host_keeps hostOps3_1
    _ = W10 m ρ c (Proc.devRef .tc main_v1) := by host_keeps hostOps3
    _ = W9 m ρ c (Proc.devRef .tc main_v1) := W10_of_ne m ρ c main_v1 (by decide)
    _ = W8 m ρ c (Proc.devRef .tc main_v1) := by host_keeps hostOps2_2
    _ = W7 m ρ c (Proc.devRef .tc main_v1) := by host_keeps hostOps2_1
    _ = W6 m ρ c (Proc.devRef .tc main_v1) := by host_keeps hostOps2
    _ = W5 m ρ c (Proc.devRef .tc main_v1) := W6_of_ne m ρ c main_v1 (by decide)
    _ = W4 m ρ c (Proc.devRef .tc main_v1) := by host_keeps hostOps1
    _ = W3 m ρ c (Proc.devRef .tc main_v1) := W4_of_ne m ρ c main_v1 (by decide)
    _ = W2 m ρ c (Proc.devRef .tc main_v1) := by host_keeps hostOps0_2
    _ = W1 m ρ c (Proc.devRef .tc main_v1) := by host_keeps hostOps0_1
    _ = srcK (m ((c : Thread nD τ).loc main_arg1)) := s0_v1 (W0 m ρ c)

/-- The destination row where layer 2's scatter-add reads it. -/
theorem v3_at22 (c : Dev nD) : W22 (F := Ideal) m ρ c (Proc.devRef .tc main_v3) = dstK (m ((c : Thread nD τ).loc main_arg1)) :=
  calc W22 (F := Ideal) m ρ c (Proc.devRef .tc main_v3)
    _ = W21 m ρ c (Proc.devRef .tc main_v3) := W22_of_ne m ρ c main_v3 (by decide)
    _ = W20 m ρ c (Proc.devRef .tc main_v3) := by host_keeps hostOps6_1
    _ = W19 m ρ c (Proc.devRef .tc main_v3) := by host_keeps hostOps6
    _ = W18 m ρ c (Proc.devRef .tc main_v3) := W19_of_ne m ρ c main_v3 (by decide)
    _ = W17 m ρ c (Proc.devRef .tc main_v3) := by host_keeps hostOps5_2
    _ = W16 m ρ c (Proc.devRef .tc main_v3) := by host_keeps hostOps5_1
    _ = W15 m ρ c (Proc.devRef .tc main_v3) := by host_keeps hostOps5
    _ = W14 m ρ c (Proc.devRef .tc main_v3) := W15_of_ne m ρ c main_v3 (by decide)
    _ = W13 m ρ c (Proc.devRef .tc main_v3) := by host_keeps hostOps4
    _ = W12 m ρ c (Proc.devRef .tc main_v3) := W13_of_ne m ρ c main_v3 (by decide)
    _ = W11 m ρ c (Proc.devRef .tc main_v3) := by host_keeps hostOps3_1
    _ = W10 m ρ c (Proc.devRef .tc main_v3) := by host_keeps hostOps3
    _ = W9 m ρ c (Proc.devRef .tc main_v3) := W10_of_ne m ρ c main_v3 (by decide)
    _ = W8 m ρ c (Proc.devRef .tc main_v3) := by host_keeps hostOps2_2
    _ = W7 m ρ c (Proc.devRef .tc main_v3) := by host_keeps hostOps2_1
    _ = W6 m ρ c (Proc.devRef .tc main_v3) := by host_keeps hostOps2
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)
    _ = W2 m ρ c (Proc.devRef .tc main_v3) := by host_keeps hostOps0_2
    _ = W1 m ρ c (Proc.devRef .tc main_v3) := by host_keeps hostOps0_1
    _ = dstK (m ((c : Thread nD τ).loc main_arg1)) := s0_v3 (W0 m ρ c)

/-- Argument 2 at boundary 21 is as launched. -/
theorem arg2_at21 (c : Dev nD) : W21 (F := Ideal) m ρ c (Proc.devRef .tc main_arg2) = m ((c : Thread nD τ).loc main_arg2) :=
  calc W21 (F := Ideal) m ρ c (Proc.devRef .tc main_arg2)
    _ = W20 m ρ c (Proc.devRef .tc main_arg2) := by host_keeps hostOps6_1
    _ = W19 m ρ c (Proc.devRef .tc main_arg2) := by host_keeps hostOps6
    _ = W18 m ρ c (Proc.devRef .tc main_arg2) := W19_of_ne m ρ c main_arg2 (by decide)
    _ = W17 m ρ c (Proc.devRef .tc main_arg2) := by host_keeps hostOps5_2
    _ = W16 m ρ c (Proc.devRef .tc main_arg2) := by host_keeps hostOps5_1
    _ = W15 m ρ c (Proc.devRef .tc main_arg2) := by host_keeps hostOps5
    _ = W14 m ρ c (Proc.devRef .tc main_arg2) := W15_of_ne m ρ c main_arg2 (by decide)
    _ = W13 m ρ c (Proc.devRef .tc main_arg2) := by host_keeps hostOps4
    _ = W12 m ρ c (Proc.devRef .tc main_arg2) := (W13_arr m ρ c 1).trans (((dat3 (V12 m ρ) c).arrAt_in 1 rfl _).trans (A_eq3 (V12 m ρ) c 1))
    _ = W11 m ρ c (Proc.devRef .tc main_arg2) := by host_keeps hostOps3_1
    _ = W10 m ρ c (Proc.devRef .tc main_arg2) := by host_keeps hostOps3
    _ = W9 m ρ c (Proc.devRef .tc main_arg2) := W10_of_ne m ρ c main_arg2 (by decide)
    _ = W8 m ρ c (Proc.devRef .tc main_arg2) := by host_keeps hostOps2_2
    _ = W7 m ρ c (Proc.devRef .tc main_arg2) := by host_keeps hostOps2_1
    _ = W6 m ρ c (Proc.devRef .tc main_arg2) := by host_keeps hostOps2
    _ = W5 m ρ c (Proc.devRef .tc main_arg2) := W6_of_ne m ρ c main_arg2 (by decide)
    _ = W4 m ρ c (Proc.devRef .tc main_arg2) := by host_keeps hostOps1
    _ = W3 m ρ c (Proc.devRef .tc main_arg2) := (W4_arr m ρ c 1).trans (((dat0 (V3 m ρ) c).arrAt_in 1 rfl _).trans (A_eq0 (V3 m ρ) c 1))
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = m ((c : Thread nD τ).loc main_arg2) := rfl

/-- Argument 3 at boundary 19 is as launched. -/
theorem arg3_at19 (c : Dev nD) : W19 (F := Ideal) m ρ c (Proc.devRef .tc main_arg3) = m ((c : Thread nD τ).loc main_arg3) :=
  calc W19 (F := Ideal) m ρ c (Proc.devRef .tc main_arg3)
    _ = W18 m ρ c (Proc.devRef .tc main_arg3) := W19_of_ne m ρ c main_arg3 (by decide)
    _ = W17 m ρ c (Proc.devRef .tc main_arg3) := by host_keeps hostOps5_2
    _ = W16 m ρ c (Proc.devRef .tc main_arg3) := by host_keeps hostOps5_1
    _ = W15 m ρ c (Proc.devRef .tc main_arg3) := by host_keeps hostOps5
    _ = W14 m ρ c (Proc.devRef .tc main_arg3) := W15_of_ne m ρ c main_arg3 (by decide)
    _ = W13 m ρ c (Proc.devRef .tc main_arg3) := by host_keeps hostOps4
    _ = W12 m ρ c (Proc.devRef .tc main_arg3) := W13_of_ne m ρ c main_arg3 (by decide)
    _ = W11 m ρ c (Proc.devRef .tc main_arg3) := by host_keeps hostOps3_1
    _ = W10 m ρ c (Proc.devRef .tc main_arg3) := by host_keeps hostOps3
    _ = W9 m ρ c (Proc.devRef .tc main_arg3) := W10_of_ne m ρ c main_arg3 (by decide)
    _ = W8 m ρ c (Proc.devRef .tc main_arg3) := by host_keeps hostOps2_2
    _ = W7 m ρ c (Proc.devRef .tc main_arg3) := by host_keeps hostOps2_1
    _ = W6 m ρ c (Proc.devRef .tc main_arg3) := by host_keeps hostOps2
    _ = W5 m ρ c (Proc.devRef .tc main_arg3) := W6_of_ne m ρ c main_arg3 (by decide)
    _ = W4 m ρ c (Proc.devRef .tc main_arg3) := by host_keeps hostOps1
    _ = W3 m ρ c (Proc.devRef .tc main_arg3) := W4_of_ne m ρ c main_arg3 (by decide)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = m ((c : Thread nD τ).loc main_arg3) := rfl

/-- Argument 4 at boundary 19 is as launched. -/
theorem arg4_at19 (c : Dev nD) : W19 (F := Ideal) m ρ c (Proc.devRef .tc main_arg4) = m ((c : Thread nD τ).loc main_arg4) :=
  calc W19 (F := Ideal) m ρ c (Proc.devRef .tc main_arg4)
    _ = W18 m ρ c (Proc.devRef .tc main_arg4) := W19_of_ne m ρ c main_arg4 (by decide)
    _ = W17 m ρ c (Proc.devRef .tc main_arg4) := by host_keeps hostOps5_2
    _ = W16 m ρ c (Proc.devRef .tc main_arg4) := by host_keeps hostOps5_1
    _ = W15 m ρ c (Proc.devRef .tc main_arg4) := by host_keeps hostOps5
    _ = W14 m ρ c (Proc.devRef .tc main_arg4) := W15_of_ne m ρ c main_arg4 (by decide)
    _ = W13 m ρ c (Proc.devRef .tc main_arg4) := by host_keeps hostOps4
    _ = W12 m ρ c (Proc.devRef .tc main_arg4) := W13_of_ne m ρ c main_arg4 (by decide)
    _ = W11 m ρ c (Proc.devRef .tc main_arg4) := by host_keeps hostOps3_1
    _ = W10 m ρ c (Proc.devRef .tc main_arg4) := by host_keeps hostOps3
    _ = W9 m ρ c (Proc.devRef .tc main_arg4) := W10_of_ne m ρ c main_arg4 (by decide)
    _ = W8 m ρ c (Proc.devRef .tc main_arg4) := by host_keeps hostOps2_2
    _ = W7 m ρ c (Proc.devRef .tc main_arg4) := by host_keeps hostOps2_1
    _ = W6 m ρ c (Proc.devRef .tc main_arg4) := by host_keeps hostOps2
    _ = W5 m ρ c (Proc.devRef .tc main_arg4) := W6_of_ne m ρ c main_arg4 (by decide)
    _ = W4 m ρ c (Proc.devRef .tc main_arg4) := by host_keeps hostOps1
    _ = W3 m ρ c (Proc.devRef .tc main_arg4) := W4_of_ne m ρ c main_arg4 (by decide)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = m ((c : Thread nD τ).loc main_arg4) := rfl

/-- Argument 5 at boundary 22 is as launched. -/
theorem arg5_at22 (c : Dev nD) : W22 (F := Ideal) m ρ c (Proc.devRef .tc main_arg5) = m ((c : Thread nD τ).loc main_arg5) :=
  calc W22 (F := Ideal) m ρ c (Proc.devRef .tc main_arg5)
    _ = W21 m ρ c (Proc.devRef .tc main_arg5) := W22_of_ne m ρ c main_arg5 (by decide)
    _ = W20 m ρ c (Proc.devRef .tc main_arg5) := by host_keeps hostOps6_1
    _ = W19 m ρ c (Proc.devRef .tc main_arg5) := by host_keeps hostOps6
    _ = W18 m ρ c (Proc.devRef .tc main_arg5) := W19_of_ne m ρ c main_arg5 (by decide)
    _ = W17 m ρ c (Proc.devRef .tc main_arg5) := by host_keeps hostOps5_2
    _ = W16 m ρ c (Proc.devRef .tc main_arg5) := by host_keeps hostOps5_1
    _ = W15 m ρ c (Proc.devRef .tc main_arg5) := by host_keeps hostOps5
    _ = W14 m ρ c (Proc.devRef .tc main_arg5) := W15_of_ne m ρ c main_arg5 (by decide)
    _ = W13 m ρ c (Proc.devRef .tc main_arg5) := by host_keeps hostOps4
    _ = W12 m ρ c (Proc.devRef .tc main_arg5) := W13_of_ne m ρ c main_arg5 (by decide)
    _ = W11 m ρ c (Proc.devRef .tc main_arg5) := by host_keeps hostOps3_1
    _ = W10 m ρ c (Proc.devRef .tc main_arg5) := by host_keeps hostOps3
    _ = W9 m ρ c (Proc.devRef .tc main_arg5) := W10_of_ne m ρ c main_arg5 (by decide)
    _ = W8 m ρ c (Proc.devRef .tc main_arg5) := by host_keeps hostOps2_2
    _ = W7 m ρ c (Proc.devRef .tc main_arg5) := by host_keeps hostOps2_1
    _ = W6 m ρ c (Proc.devRef .tc main_arg5) := by host_keeps hostOps2
    _ = W5 m ρ c (Proc.devRef .tc main_arg5) := W6_of_ne m ρ c main_arg5 (by decide)
    _ = W4 m ρ c (Proc.devRef .tc main_arg5) := by host_keeps hostOps1
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = m ((c : Thread nD τ).loc main_arg5) := rfl

/-- Argument 6 at boundary 22 is as launched. -/
theorem arg6_at22 (c : Dev nD) : W22 (F := Ideal) m ρ c (Proc.devRef .tc main_arg6) = m ((c : Thread nD τ).loc main_arg6) :=
  calc W22 (F := Ideal) m ρ c (Proc.devRef .tc main_arg6)
    _ = W21 m ρ c (Proc.devRef .tc main_arg6) := W22_of_ne m ρ c main_arg6 (by decide)
    _ = W20 m ρ c (Proc.devRef .tc main_arg6) := by host_keeps hostOps6_1
    _ = W19 m ρ c (Proc.devRef .tc main_arg6) := by host_keeps hostOps6
    _ = W18 m ρ c (Proc.devRef .tc main_arg6) := W19_of_ne m ρ c main_arg6 (by decide)
    _ = W17 m ρ c (Proc.devRef .tc main_arg6) := by host_keeps hostOps5_2
    _ = W16 m ρ c (Proc.devRef .tc main_arg6) := by host_keeps hostOps5_1
    _ = W15 m ρ c (Proc.devRef .tc main_arg6) := by host_keeps hostOps5
    _ = W14 m ρ c (Proc.devRef .tc main_arg6) := W15_of_ne m ρ c main_arg6 (by decide)
    _ = W13 m ρ c (Proc.devRef .tc main_arg6) := by host_keeps hostOps4
    _ = W12 m ρ c (Proc.devRef .tc main_arg6) := W13_of_ne m ρ c main_arg6 (by decide)
    _ = W11 m ρ c (Proc.devRef .tc main_arg6) := by host_keeps hostOps3_1
    _ = W10 m ρ c (Proc.devRef .tc main_arg6) := by host_keeps hostOps3
    _ = W9 m ρ c (Proc.devRef .tc main_arg6) := W10_of_ne m ρ c main_arg6 (by decide)
    _ = W8 m ρ c (Proc.devRef .tc main_arg6) := by host_keeps hostOps2_2
    _ = W7 m ρ c (Proc.devRef .tc main_arg6) := by host_keeps hostOps2_1
    _ = W6 m ρ c (Proc.devRef .tc main_arg6) := by host_keeps hostOps2
    _ = W5 m ρ c (Proc.devRef .tc main_arg6) := W6_of_ne m ρ c main_arg6 (by decide)
    _ = W4 m ρ c (Proc.devRef .tc main_arg6) := by host_keeps hostOps1
    _ = W3 m ρ c (Proc.devRef .tc main_arg6) := W4_of_ne m ρ c main_arg6 (by decide)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0
    _ = m ((c : Thread nD τ).loc main_arg6) := rfl

/-- Argument 7 at boundary 22 is as launched. -/
theorem arg7_at22 (c : Dev nD) : W22 (F := Ideal) m ρ c (Proc.devRef .tc main_arg7) = m ((c : Thread nD τ).loc main_arg7) :=
  calc W22 (F := Ideal) m ρ c (Proc.devRef .tc main_arg7)
    _ = W21 m ρ c (Proc.devRef .tc main_arg7) := W22_of_ne m ρ c main_arg7 (by decide)
    _ = W20 m ρ c (Proc.devRef .tc main_arg7) := by host_keeps hostOps6_1
    _ = W19 m ρ c (Proc.devRef .tc main_arg7) := by host_keeps hostOps6
    _ = W18 m ρ c (Proc.devRef .tc main_arg7) := W19_of_ne m ρ c main_arg7 (by decide)
    _ = W17 m ρ c (Proc.devRef .tc main_arg7) := by host_keeps hostOps5_2
    _ = W16 m ρ c (Proc.devRef .tc main_arg7) := by host_keeps hostOps5_1
    _ = W15 m ρ c (Proc.devRef .tc main_arg7) := by host_keeps hostOps5
    _ = W14 m ρ c (Proc.devRef .tc main_arg7) := W15_of_ne m ρ c main_arg7 (by decide)
    _ = W13 m ρ c (Proc.devRef .tc main_arg7) := by host_keeps hostOps4
    _ = W12 m ρ c (Proc.devRef .tc main_arg7) := W13_of_ne m ρ c main_arg7 (by decide)
    _ = W11 m ρ c (Proc.devRef .tc main_arg7) := by host_keeps hostOps3_1
    _ = W10 m ρ c (Proc.devRef .tc main_arg7) := by host_keeps hostOps3
    _ = W9 m ρ c (Proc.devRef .tc main_arg7) := W10_of_ne m ρ c main_arg7 (by decide)
    _ = W8 m ρ c (Proc.devRef .tc main_arg7) := by host_keeps hostOps2_2
    _ = W7 m ρ c (Proc.devRef .tc main_arg7) := by host_keeps hostOps2_1
    _ = W6 m ρ c (Proc.devRef .tc main_arg7) := by host_keeps hostOps2
    _ = W5 m ρ c (Proc.devRef .tc main_arg7) := W6_of_ne m ρ c main_arg7 (by decide)
    _ = W4 m ρ c (Proc.devRef .tc main_arg7) := by host_keeps hostOps1
    _ = W3 m ρ c (Proc.devRef .tc main_arg7) := W4_of_ne m ρ c main_arg7 (by decide)
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0
    _ = m ((c : Thread nD τ).loc main_arg7) := rfl

/-- Argument 8 at boundary 22 is as launched. -/
theorem arg8_at22 (c : Dev nD) : W22 (F := Ideal) m ρ c (Proc.devRef .tc main_arg8) = m ((c : Thread nD τ).loc main_arg8) :=
  calc W22 (F := Ideal) m ρ c (Proc.devRef .tc main_arg8)
    _ = W21 m ρ c (Proc.devRef .tc main_arg8) := W22_of_ne m ρ c main_arg8 (by decide)
    _ = W20 m ρ c (Proc.devRef .tc main_arg8) := by host_keeps hostOps6_1
    _ = W19 m ρ c (Proc.devRef .tc main_arg8) := by host_keeps hostOps6
    _ = W18 m ρ c (Proc.devRef .tc main_arg8) := W19_of_ne m ρ c main_arg8 (by decide)
    _ = W17 m ρ c (Proc.devRef .tc main_arg8) := by host_keeps hostOps5_2
    _ = W16 m ρ c (Proc.devRef .tc main_arg8) := by host_keeps hostOps5_1
    _ = W15 m ρ c (Proc.devRef .tc main_arg8) := by host_keeps hostOps5
    _ = W14 m ρ c (Proc.devRef .tc main_arg8) := W15_of_ne m ρ c main_arg8 (by decide)
    _ = W13 m ρ c (Proc.devRef .tc main_arg8) := by host_keeps hostOps4
    _ = W12 m ρ c (Proc.devRef .tc main_arg8) := W13_of_ne m ρ c main_arg8 (by decide)
    _ = W11 m ρ c (Proc.devRef .tc main_arg8) := by host_keeps hostOps3_1
    _ = W10 m ρ c (Proc.devRef .tc main_arg8) := by host_keeps hostOps3
    _ = W9 m ρ c (Proc.devRef .tc main_arg8) := W10_of_ne m ρ c main_arg8 (by decide)
    _ = W8 m ρ c (Proc.devRef .tc main_arg8) := by host_keeps hostOps2_2
    _ = W7 m ρ c (Proc.devRef .tc main_arg8) := by host_keeps hostOps2_1
    _ = W6 m ρ c (Proc.devRef .tc main_arg8) := by host_keeps hostOps2
    _ = W5 m ρ c (Proc.devRef .tc main_arg8) := W6_of_ne m ρ c main_arg8 (by decide)
    _ = W4 m ρ c (Proc.devRef .tc main_arg8) := by host_keeps hostOps1
    _ = W3 m ρ c (Proc.devRef .tc main_arg8) := W4_of_ne m ρ c main_arg8 (by decide)
    _ = W2 m ρ c (Proc.devRef .tc main_arg8) := by host_keeps hostOps0_2
    _ = W1 m ρ c (Proc.devRef .tc main_arg8) := by host_keeps hostOps0_1
    _ = W0 m ρ c (Proc.devRef .tc main_arg8) := by host_keeps hostOps0
    _ = m ((c : Thread nD τ).loc main_arg8) := rfl

/-- Argument 9 at boundary 24 is as launched. -/
theorem arg9_at24 (c : Dev nD) : W24 (F := Ideal) m ρ c (Proc.devRef .tc main_arg9) = m ((c : Thread nD τ).loc main_arg9) :=
  calc W24 (F := Ideal) m ρ c (Proc.devRef .tc main_arg9)
    _ = W23 m ρ c (Proc.devRef .tc main_arg9) := W24_of_ne m ρ c main_arg9 (by decide)
    _ = W22 m ρ c (Proc.devRef .tc main_arg9) := by host_keeps hostOps7
    _ = W21 m ρ c (Proc.devRef .tc main_arg9) := W22_of_ne m ρ c main_arg9 (by decide)
    _ = W20 m ρ c (Proc.devRef .tc main_arg9) := by host_keeps hostOps6_1
    _ = W19 m ρ c (Proc.devRef .tc main_arg9) := by host_keeps hostOps6
    _ = W18 m ρ c (Proc.devRef .tc main_arg9) := W19_of_ne m ρ c main_arg9 (by decide)
    _ = W17 m ρ c (Proc.devRef .tc main_arg9) := by host_keeps hostOps5_2
    _ = W16 m ρ c (Proc.devRef .tc main_arg9) := by host_keeps hostOps5_1
    _ = W15 m ρ c (Proc.devRef .tc main_arg9) := by host_keeps hostOps5
    _ = W14 m ρ c (Proc.devRef .tc main_arg9) := W15_of_ne m ρ c main_arg9 (by decide)
    _ = W13 m ρ c (Proc.devRef .tc main_arg9) := by host_keeps hostOps4
    _ = W12 m ρ c (Proc.devRef .tc main_arg9) := W13_of_ne m ρ c main_arg9 (by decide)
    _ = W11 m ρ c (Proc.devRef .tc main_arg9) := by host_keeps hostOps3_1
    _ = W10 m ρ c (Proc.devRef .tc main_arg9) := by host_keeps hostOps3
    _ = W9 m ρ c (Proc.devRef .tc main_arg9) := W10_of_ne m ρ c main_arg9 (by decide)
    _ = W8 m ρ c (Proc.devRef .tc main_arg9) := by host_keeps hostOps2_2
    _ = W7 m ρ c (Proc.devRef .tc main_arg9) := by host_keeps hostOps2_1
    _ = W6 m ρ c (Proc.devRef .tc main_arg9) := by host_keeps hostOps2
    _ = W5 m ρ c (Proc.devRef .tc main_arg9) := W6_of_ne m ρ c main_arg9 (by decide)
    _ = W4 m ρ c (Proc.devRef .tc main_arg9) := by host_keeps hostOps1
    _ = W3 m ρ c (Proc.devRef .tc main_arg9) := W4_of_ne m ρ c main_arg9 (by decide)
    _ = W2 m ρ c (Proc.devRef .tc main_arg9) := by host_keeps hostOps0_2
    _ = W1 m ρ c (Proc.devRef .tc main_arg9) := by host_keeps hostOps0_1
    _ = W0 m ρ c (Proc.devRef .tc main_arg9) := by host_keeps hostOps0
    _ = m ((c : Thread nD τ).loc main_arg9) := rfl

/-- Argument 10 at boundary 24 is as launched. -/
theorem arg10_at24 (c : Dev nD) : W24 (F := Ideal) m ρ c (Proc.devRef .tc main_arg10) = m ((c : Thread nD τ).loc main_arg10) :=
  calc W24 (F := Ideal) m ρ c (Proc.devRef .tc main_arg10)
    _ = W23 m ρ c (Proc.devRef .tc main_arg10) := W24_of_ne m ρ c main_arg10 (by decide)
    _ = W22 m ρ c (Proc.devRef .tc main_arg10) := by host_keeps hostOps7
    _ = W21 m ρ c (Proc.devRef .tc main_arg10) := W22_of_ne m ρ c main_arg10 (by decide)
    _ = W20 m ρ c (Proc.devRef .tc main_arg10) := by host_keeps hostOps6_1
    _ = W19 m ρ c (Proc.devRef .tc main_arg10) := by host_keeps hostOps6
    _ = W18 m ρ c (Proc.devRef .tc main_arg10) := W19_of_ne m ρ c main_arg10 (by decide)
    _ = W17 m ρ c (Proc.devRef .tc main_arg10) := by host_keeps hostOps5_2
    _ = W16 m ρ c (Proc.devRef .tc main_arg10) := by host_keeps hostOps5_1
    _ = W15 m ρ c (Proc.devRef .tc main_arg10) := by host_keeps hostOps5
    _ = W14 m ρ c (Proc.devRef .tc main_arg10) := W15_of_ne m ρ c main_arg10 (by decide)
    _ = W13 m ρ c (Proc.devRef .tc main_arg10) := by host_keeps hostOps4
    _ = W12 m ρ c (Proc.devRef .tc main_arg10) := W13_of_ne m ρ c main_arg10 (by decide)
    _ = W11 m ρ c (Proc.devRef .tc main_arg10) := by host_keeps hostOps3_1
    _ = W10 m ρ c (Proc.devRef .tc main_arg10) := by host_keeps hostOps3
    _ = W9 m ρ c (Proc.devRef .tc main_arg10) := W10_of_ne m ρ c main_arg10 (by decide)
    _ = W8 m ρ c (Proc.devRef .tc main_arg10) := by host_keeps hostOps2_2
    _ = W7 m ρ c (Proc.devRef .tc main_arg10) := by host_keeps hostOps2_1
    _ = W6 m ρ c (Proc.devRef .tc main_arg10) := by host_keeps hostOps2
    _ = W5 m ρ c (Proc.devRef .tc main_arg10) := W6_of_ne m ρ c main_arg10 (by decide)
    _ = W4 m ρ c (Proc.devRef .tc main_arg10) := by host_keeps hostOps1
    _ = W3 m ρ c (Proc.devRef .tc main_arg10) := W4_of_ne m ρ c main_arg10 (by decide)
    _ = W2 m ρ c (Proc.devRef .tc main_arg10) := by host_keeps hostOps0_2
    _ = W1 m ρ c (Proc.devRef .tc main_arg10) := by host_keeps hostOps0_1
    _ = W0 m ρ c (Proc.devRef .tc main_arg10) := by host_keeps hostOps0
    _ = m ((c : Thread nD τ).loc main_arg10) := rfl

end Cert.KernelIdeal.Chain

end
-- ==== Proof.KChain2.lean ====
import proofs.«430051_j50208167690776_1_alg».proof.Proof.Gen.KernelIdeal.Frame
import proofs.«430051_j50208167690776_1_alg».proof.Proof.KVoc
import proofs.«430051_j50208167690776_1_alg».proof.Proof.KEdge6
import proofs.«430051_j50208167690776_1_alg».proof.Proof.KMlp7
import proofs.«430051_j50208167690776_1_alg».proof.Proof.KBn8
import proofs.«430051_j50208167690776_1_alg».proof.Proof.KCarry2
import proofs.«430051_j50208167690776_1_alg».proof.Proof.KTake
import Idealize.ShloMosaic.Lib.StableHlo.Run

set_option maxRecDepth 16384

noncomputable section

namespace Cert.KernelIdeal.Chain

open Cert.KernelIdeal Cert.KernelIdeal.Gen Cert.KernelIdeal.Voc Idealize.ShloMosaic Idealize.ShloMosaic.TcCoe Idealize.SL.Sem Idealize.ShloMosaic.StableHlo

/-! ## The host stretches of layer 2, buffer by buffer, from any contents W

Each operation writes its own result buffer with its function of the operands' contents and leaves every other buffer;
so a buffer's contents after a stretch is the composition of the operations on the path to it, over W at the buffers the
stretch only reads. -/

section Stretch

variable (W : Valuation τ sig (Elt Ideal))

/-- The parameter-row stretch before region 6 does not write the gathered rows. -/
theorem s61_v72 : StableHlo.after hostOps6_1 W (Proc.devRef .tc main_v72) = W (Proc.devRef .tc main_v72) := by
  after_results

/-- The edge matrix of layer 2: slice 2 of argument 3. -/
theorem s6_v74 : StableHlo.after hostOps6_1 (StableHlo.after hostOps6 W) (Proc.devRef .tc main_v74)
    = we2 (W (Proc.devRef .tc main_arg3)) := by
  after_results
  rfl

/-- The edge bias row of layer 2: slice 2 of argument 4, as one row. -/
theorem s6_v77 : StableHlo.after hostOps6_1 (StableHlo.after hostOps6 W) (Proc.devRef .tc main_v77)
    = rowK (vec2 (W (Proc.devRef .tc main_arg4))) := by
  after_results
  rfl

/-- The gather and the parameter-row stretch do not write the edge features. -/
theorem s6_arg2 : StableHlo.after hostOps6_1 (StableHlo.after hostOps6 W) (Proc.devRef .tc main_arg2)
    = W (Proc.devRef .tc main_arg2) := by
  after_results

/-- Nor the layer's input activations. -/
theorem s6_v71 : StableHlo.after hostOps6_1 (StableHlo.after hostOps6 W) (Proc.devRef .tc main_v71)
    = W (Proc.devRef .tc main_v71) := by
  after_results

attribute [local irreducible] Host.reduce Host.reduceAdd Host.gather Host.scatterAdd in
set_option maxHeartbeats 1000000 in
/-- The scatter-add from zero of region 6's messages into their destination rows. -/
theorem s7_v81 : StableHlo.after hostOps7 W (Proc.devRef .tc main_v81)
    = aggK (W (Proc.devRef .tc main_v3)) (W (Proc.devRef .tc main_v78)) := by
  after_results

/-- The perceptron's parameters of layer 2: slice 2 of arguments 5 to 8, the vectors as one row. -/
theorem s7_v83 : StableHlo.after hostOps7 W (Proc.devRef .tc main_v83) = mat2 (W (Proc.devRef .tc main_arg5)) := by
  after_results
  rfl
theorem s7_v90 : StableHlo.after hostOps7 W (Proc.devRef .tc main_v90) = rowK (vec2 (W (Proc.devRef .tc main_arg6))) := by
  after_results
  rfl
theorem s7_v87 : StableHlo.after hostOps7 W (Proc.devRef .tc main_v87) = mat2 (W (Proc.devRef .tc main_arg7)) := by
  after_results
  rfl
theorem s7_v91 : StableHlo.after hostOps7 W (Proc.devRef .tc main_v91) = rowK (vec2 (W (Proc.devRef .tc main_arg8))) := by
  after_results
  rfl
/-- The scatter-add stretch does not write the layer's input activations. -/
theorem s7_v71 : StableHlo.after hostOps7 W (Proc.devRef .tc main_v71) = W (Proc.devRef .tc main_v71) := by
  after_results

attribute [local irreducible] Host.reduce Host.reduceAdd Host.gather Host.scatterAdd in
set_option maxHeartbeats 1000000 in
/-- The column means of the perceptron's output, as one row. -/
theorem s8_v101 : StableHlo.after hostOps8_2 (StableHlo.after hostOps8_1 (StableHlo.after hostOps8 W)) (Proc.devRef .tc main_v101)
    = rowK (meanK (W (Proc.devRef .tc main_v92))) := by
  after_results
  rfl

attribute [local irreducible] Host.reduce Host.reduceAdd Host.gather Host.scatterAdd in
set_option maxHeartbeats 2000000 in
/-- The column variances of the perceptron's output, as one row. -/
theorem s8_v102 : StableHlo.after hostOps8_2 (StableHlo.after hostOps8_1 (StableHlo.after hostOps8 W)) (Proc.devRef .tc main_v102)
    = rowK (varK (W (Proc.devRef .tc main_v92))) := by
  after_results_simp
  rfl

/-- The scale and shift rows of layer 2: slice 2 of arguments 9 and 10, each as one row. -/
theorem s8_v103 : StableHlo.after hostOps8_2 (StableHlo.after hostOps8_1 (StableHlo.after hostOps8 W)) (Proc.devRef .tc main_v103)
    = rowK (vec2 (W (Proc.devRef .tc main_arg9))) := by
  after_results
  rfl
theorem s8_v104 : StableHlo.after hostOps8_2 (StableHlo.after hostOps8_1 (StableHlo.after hostOps8 W)) (Proc.devRef .tc main_v104)
    = rowK (vec2 (W (Proc.devRef .tc main_arg10))) := by
  after_results
  rfl
/-- The statistics stretches do not write the perceptron's output. -/
theorem s8_v92 : StableHlo.after hostOps8_2 (StableHlo.after hostOps8_1 (StableHlo.after hostOps8 W)) (Proc.devRef .tc main_v92)
    = W (Proc.devRef .tc main_v92) := by
  after_results

end Stretch

variable (m : (ℓ : Loc nD τ sig) → Buf (Elt Ideal) ℓ) (ρ : Dev nD → PrngReg)

/-- Layer 2 of the kernel program: the contents of its last region's output array at that region's exit, from the layer's
    input activations (the previous layer's output as that layer left it) and the argument arrays: gather, edge region, scatter-add, perceptron region,
    column statistics, normalisation region. -/
theorem layer2 (c : Dev nD) :
    W28 (F := Ideal) m ρ c (Proc.devRef .tc main_v105)
      = layerK (W19 m ρ c (Proc.devRef .tc main_v71)) (srcK (m ((c : Thread nD τ).loc main_arg1))) (dstK (m ((c : Thread nD τ).loc main_arg1))) (m ((c : Thread nD τ).loc main_arg2))
        (we2 (m ((c : Thread nD τ).loc main_arg3))) (vec2 (m ((c : Thread nD τ).loc main_arg4))) (mat2 (m ((c : Thread nD τ).loc main_arg5))) (vec2 (m ((c : Thread nD τ).loc main_arg6)))
        (mat2 (m ((c : Thread nD τ).loc main_arg7))) (vec2 (m ((c : Thread nD τ).loc main_arg8))) (vec2 (m ((c : Thread nD τ).loc main_arg9))) (vec2 (m ((c : Thread nD τ).loc main_arg10))) := by
  -- region 6's operands at its entry: the filled gather of the input activations, the layer's matrix and bias row
  have e72 : W21 (F := Ideal) m ρ c (Proc.devRef .tc main_v72)
      = takeK (W19 m ρ c (Proc.devRef .tc main_v71)) (srcK (m ((c : Thread nD τ).loc main_arg1))) :=
    ((s61_v72 (W20 m ρ c)).trans (take2 (W19 m ρ c))).trans
      (congrArg (fun s => takeK (W19 m ρ c (Proc.devRef .tc main_v71)) s) (v1_at19 m ρ c))
  have e74 : W21 (F := Ideal) m ρ c (Proc.devRef .tc main_v74) = we2 (m ((c : Thread nD τ).loc main_arg3)) :=
    (s6_v74 (W19 m ρ c)).trans (congrArg (fun a => we2 a) (arg3_at19 m ρ c))
  have e77 : W21 (F := Ideal) m ρ c (Proc.devRef .tc main_v77) = rowK (vec2 (m ((c : Thread nD τ).loc main_arg4))) :=
    (s6_v77 (W19 m ρ c)).trans (congrArg (fun a => rowK (vec2 a)) (arg4_at19 m ρ c))
  -- region 6's exit: the messages
  have e78 : W22 (F := Ideal) m ρ c (Proc.devRef .tc main_v78)
      = Spec.edgeG (W21 m ρ c (Proc.devRef .tc main_v72)) (W21 m ρ c (Proc.devRef .tc main_arg2))
          (W21 m ρ c (Proc.devRef .tc main_v74)) (W21 m ρ c (Proc.devRef .tc main_v77)) :=
    (W22_arr m ρ c 4).trans (Cert.KEdge6.final (V21 m ρ) c)
  rw [e72, arg2_at21 m ρ c, e74, e77] at e78
  -- region 7's operands at its entry: the input activations carried, the scatter-add of the messages, the perceptron's parameters
  have e71 : W23 (F := Ideal) m ρ c (Proc.devRef .tc main_v71) = W19 m ρ c (Proc.devRef .tc main_v71) :=
    (s7_v71 (W22 m ρ c)).trans ((W22_of_ne m ρ c main_v71 (by decide)).trans (s6_v71 (W19 m ρ c)))
  have e81 : W23 (F := Ideal) m ρ c (Proc.devRef .tc main_v81)
      = aggK (dstK (m ((c : Thread nD τ).loc main_arg1))) (W22 m ρ c (Proc.devRef .tc main_v78)) :=
    (s7_v81 (W22 m ρ c)).trans (congrArg (fun d => aggK d (W22 m ρ c (Proc.devRef .tc main_v78))) (v3_at22 m ρ c))
  have e83 : W23 (F := Ideal) m ρ c (Proc.devRef .tc main_v83) = mat2 (m ((c : Thread nD τ).loc main_arg5)) :=
    (s7_v83 (W22 m ρ c)).trans (congrArg (fun a => mat2 a) (arg5_at22 m ρ c))
  have e90 : W23 (F := Ideal) m ρ c (Proc.devRef .tc main_v90) = rowK (vec2 (m ((c : Thread nD τ).loc main_arg6))) :=
    (s7_v90 (W22 m ρ c)).trans (congrArg (fun a => rowK (vec2 a)) (arg6_at22 m ρ c))
  have e87 : W23 (F := Ideal) m ρ c (Proc.devRef .tc main_v87) = mat2 (m ((c : Thread nD τ).loc main_arg7)) :=
    (s7_v87 (W22 m ρ c)).trans (congrArg (fun a => mat2 a) (arg7_at22 m ρ c))
  have e91 : W23 (F := Ideal) m ρ c (Proc.devRef .tc main_v91) = rowK (vec2 (m ((c : Thread nD τ).loc main_arg8))) :=
    (s7_v91 (W22 m ρ c)).trans (congrArg (fun a => rowK (vec2 a)) (arg8_at22 m ρ c))
  -- region 7's exit: the perceptron's output
  have e92 : W24 (F := Ideal) m ρ c (Proc.devRef .tc main_v92)
      = Spec.mlpG (W23 m ρ c (Proc.devRef .tc main_v71)) (W23 m ρ c (Proc.devRef .tc main_v81)) (W23 m ρ c (Proc.devRef .tc main_v83))
          (W23 m ρ c (Proc.devRef .tc main_v90)) (W23 m ρ c (Proc.devRef .tc main_v87)) (W23 m ρ c (Proc.devRef .tc main_v91)) :=
    (W24_arr m ρ c 6).trans (Cert.KMlp7.final (V23 m ρ) c)
  rw [e71, e81, e83, e90, e87, e91, e78] at e92
  -- region 8's operands at its entry: the perceptron's output carried, its column statistics, the scale and shift rows
  have e92' : W27 (F := Ideal) m ρ c (Proc.devRef .tc main_v92) = W24 m ρ c (Proc.devRef .tc main_v92) := s8_v92 (W24 m ρ c)
  have e101 : W27 (F := Ideal) m ρ c (Proc.devRef .tc main_v101) = rowK (meanK (W24 m ρ c (Proc.devRef .tc main_v92))) := s8_v101 (W24 m ρ c)
  have e102 : W27 (F := Ideal) m ρ c (Proc.devRef .tc main_v102) = rowK (varK (W24 m ρ c (Proc.devRef .tc main_v92))) := s8_v102 (W24 m ρ c)
  have e103 : W27 (F := Ideal) m ρ c (Proc.devRef .tc main_v103) = rowK (vec2 (m ((c : Thread nD τ).loc main_arg9))) :=
    (s8_v103 (W24 m ρ c)).trans (congrArg (fun a => rowK (vec2 a)) (arg9_at24 m ρ c))
  have e104 : W27 (F := Ideal) m ρ c (Proc.devRef .tc main_v104) = rowK (vec2 (m ((c : Thread nD τ).loc main_arg10))) :=
    (s8_v104 (W24 m ρ c)).trans (congrArg (fun a => rowK (vec2 a)) (arg10_at24 m ρ c))
  -- region 8's exit: the layer's output
  have e105 : W28 (F := Ideal) m ρ c (Proc.devRef .tc main_v105)
      = Spec.bnG (W27 m ρ c (Proc.devRef .tc main_v92)) (W27 m ρ c (Proc.devRef .tc main_v101)) (W27 m ρ c (Proc.devRef .tc main_v102))
          (W27 m ρ c (Proc.devRef .tc main_v103)) (W27 m ρ c (Proc.devRef .tc main_v104)) :=
    (W28_arr m ρ c 5).trans (Cert.KBn8.final (V27 m ρ) c)
  rw [e92', e101, e102, e103, e104, e92] at e105
  unfold layerK
  exact e105

end Cert.KernelIdeal.Chain

end
-- ==== Proof.KOut9.lean ====
import proofs.«430051_j50208167690776_1_alg».proof.Proof.Gen.KernelIdeal.Frame
import proofs.«430051_j50208167690776_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KOut9

open Cert.KernelIdeal Cert.KernelIdeal.Gen Idealize.ShloMosaic Idealize.ShloMosaic.TcCoe Idealize.ShloMosaic.ValueIdx
open Idealize.ShloMosaic.Pipeline (Dat Cfg Window)

-- the TensorCore's buffer contents when the region is entered: any
variable (V : (c : Dev nD) → (b : Ref sig .tc) → Buf (Elt Ideal) ((c : Thread nD τ).loc b))

/-- A rectangle that starts at a buffer's corner has the zero offset on each axis. -/
theorem cornerOff : (![0, 0] : Fin 2 → Nat) = fun _ => 0 := funext fun a => by fin_cases a <;> rfl

/-! ## The product's operand indices: rows of the left operand follow the result's row, columns of the right operand
    the result's column, and the contracted coordinate runs along the left's columns and the right's rows. -/

theorem lhs_row (j : S5000x64.Idx) (k : dot_S5000x64_S64x64_S5000x64_1_0_0_1_n_n.contr.Idx) :
    (dot_S5000x64_S64x64_S5000x64_1_0_0_1_n_n.lhsIdx j k 0).val = (j 0).val := by
  simp [DotDims.lhsIdx, dot_S5000x64_S64x64_S5000x64_1_0_0_1_n_n]; rfl

theorem lhs_col (j : S5000x64.Idx) (k : dot_S5000x64_S64x64_S5000x64_1_0_0_1_n_n.contr.Idx) :
    (dot_S5000x64_S64x64_S5000x64_1_0_0_1_n_n.lhsIdx j k 1).val = (k ⟨0, by decide⟩).val :=
  dot_S5000x64_S64x64_S5000x64_1_0_0_1_n_n.lhsIdx_val_of_single (cl := 1) rfl j k

theorem rhs_row (j : S5000x64.Idx) (k : dot_S5000x64_S64x64_S5000x64_1_0_0_1_n_n.contr.Idx) :
    (dot_S5000x64_S64x64_S5000x64_1_0_0_1_n_n.rhsIdx j k 0).val = (k ⟨0, by decide⟩).val :=
  dot_S5000x64_S64x64_S5000x64_1_0_0_1_n_n.rhsIdx_val_of_single (cr := 0) rfl j k

theorem rhs_col (j : S5000x64.Idx) (k : dot_S5000x64_S64x64_S5000x64_1_0_0_1_n_n.contr.Idx) :
    (dot_S5000x64_S64x64_S5000x64_1_0_0_1_n_n.rhsIdx j k 1).val = (j 1).val := by
  simp [DotDims.rhsIdx, dot_S5000x64_S64x64_S5000x64_1_0_0_1_n_n]; rfl

/-- The product into the zero accumulator, at row `p` and column `q`: the sum over the 64 contracted coordinates. -/
theorem product_apply (x : FVec Ideal S5000x64 .f32) (w : FVec Ideal S64x64 .f32) (p : Fin 5000) (q : Fin 64) :
    matmul dot_S5000x64_S64x64_S5000x64_1_0_0_1_n_n none x w (constant (F := Ideal) S5000x64 .f32 0x00000000#32) (ix2 p q)
      = ∑ k : Fin 64, x (ix2 p k) * w (ix2 k q) := by
  show FloatOps.matmul dot_S5000x64_S64x64_S5000x64_1_0_0_1_n_n none x w _ (ix2 p q) = _
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have hl : dot_S5000x64_S64x64_S5000x64_1_0_0_1_n_n.lhsIdx (ix2 p q) ((contrEquiv1 _ 64 rfl rfl).symm k) = ix2 p k := by
    funext a; apply Fin.ext
    match a with
    | ⟨0, _⟩ => exact lhs_row _ _
    | ⟨1, _⟩ => exact (lhs_col _ _).trans hk
  have hr : dot_S5000x64_S64x64_S5000x64_1_0_0_1_n_n.rhsIdx (ix2 p q) ((contrEquiv1 _ 64 rfl rfl).symm k) = ix2 k q := by
    funext a; apply Fin.ext
    match a with
    | ⟨0, _⟩ => exact (rhs_row _ _).trans hk
    | ⟨1, _⟩ => exact rhs_col _ _
  rw [hl, hr]

/-- The body's arithmetic at row `p` and column `q` of a block: the row of `x` against the column of `w`, plus the bias. -/
theorem body_apply (x : Vec Ideal S5000x64 .f32) (w : Vec Ideal S64x64 .f32) (b : Vec Ideal S1x64 .f32) (p : Fin 5000) (q : Fin 64) :
    k9_pay1 (F := Ideal) x w b (ix2 p q) = (∑ k : Fin 64, x (ix2 p k) * w (ix2 k q)) + b (ix2 (0 : Fin 1) q) := by
  unfold k9_pay1
  simp only [shapeCast_self]
  refine (addf_apply _ _ _).trans ?_
  refine congrArg₂ (· + ·) (product_apply x w p q) ?_
  exact broadcastTo_1b_ab_apply b _ p q

/-! ## The grid: 20 points, point `t` working on rows `5000·t … 5000·t + 4999`; the weights and the bias are whole at every point. -/

/-- The index maps over the grid: the input rows' and the output's block index is the point on the row axis and zero on
    the column axis; the weights' and the bias's block index is zero on both. -/
theorem blockIdx : ∀ t : Fin cfg9.N, win9_3.index t (0 : Fin 2) = t.val ∧ win9_3.index t (1 : Fin 2) = 0
    ∧ win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0 :=
  (by decide +kernel : ∀ t : Fin grid9.N, _)

/-- The input rows' block at point `t`, at row `p` and column `k`, is the array at row `5000·t + p`, column `k`. -/
theorem rows_apply (c : Dev nD) (t : Fin cfg9.N) (p : Fin 5000) (k : Fin 64) (i : Spec.sN64.Idx)
    (h0 : (i 0).val = t.val * 5000 + p.val) (h1 : (i 1).val = k.val) :
    (iblk9 V c 0 t : Vec Ideal S5000x64 .f32) (ix2 p k) = (V c (Pipeline.arrRef spec9 0) : Spec.sN64.Idx → EReal) i := by
  obtain ⟨-, -, e0, e1, -, -, -, -⟩ := blockIdx t
  unfold iblk9
  rw [View.read_apply]
  show (V c (Pipeline.arrRef spec9 0) : Spec.sN64.Idx → EReal) _ = _
  congr 1
  funext a
  apply Fin.ext
  match a with
  | ⟨0, _⟩ => show win9_0.index t (0 : Fin 2) * 5000 + 1 * p.val = (i 0).val; rw [e0, h0]; omega
  | ⟨1, _⟩ => show win9_0.index t (1 : Fin 2) * 64 + 1 * k.val = (i 1).val; rw [e1, h1]; omega

/-- The weights' block at any point is the whole weight array. -/
theorem weights_apply (c : Dev nD) (t : Fin cfg9.N) (k : Fin 64) (q : Fin 64) :
    (iblk9 V c 1 t : Vec Ideal S64x64 .f32) (ix2 k q) = (V c (Pipeline.arrRef spec9 1) : Spec.s64x64.Idx → EReal) (ix2 k q) := by
  obtain ⟨-, -, -, -, e0, e1, -, -⟩ := blockIdx t
  unfold iblk9
  rw [View.read_apply]
  show (V c (Pipeline.arrRef spec9 1) : Spec.s64x64.Idx → EReal) _ = _
  congr 1
  funext a
  apply Fin.ext
  match a with
  | ⟨0, _⟩ => show win9_1.index t (0 : Fin 2) * 64 + 1 * k.val = k.val; rw [e0]; omega
  | ⟨1, _⟩ => show win9_1.index t (1 : Fin 2) * 64 + 1 * q.val = q.val; rw [e1]; omega

/-- The bias's block at any point is the whole bias row. -/
theorem bias_apply (c : Dev nD) (t : Fin cfg9.N) (q : Fin 64) :
    (iblk9 V c 2 t : Vec Ideal S1x64 .f32) (ix2 (0 : Fin 1) q) = (V c (Pipeline.arrRef spec9 2) : Spec.s1x64.Idx → EReal) (ix2 (0 : Fin 1) q) := by
  obtain ⟨-, -, -, -, -, -, e0, e1⟩ := blockIdx t
  unfold iblk9
  rw [View.read_apply]
  show (V c (Pipeline.arrRef spec9 2) : Spec.s1x64.Idx → EReal) _ = _
  congr 1
  funext a
  apply Fin.ext
  match a with
  | ⟨0, _⟩ => show win9_2.index t (0 : Fin 2) * 1 + 1 * (0 : Fin 1).val = (0 : Fin 1).val; rw [e0]; rfl
  | ⟨1, _⟩ => show win9_2.index t (1 : Fin 2) * 64 + 1 * q.val = q.val; rw [e1]; omega

/-- The projection at an index whose row is `r` and whose column is `q`. -/
theorem outG_at (X : Spec.sN64.Idx → EReal) (W : Spec.s64x64.Idx → EReal) (B : Spec.s1x64.Idx → EReal) (i : Spec.sN64.Idx)
    (r : Fin 100000) (q : Fin 64) (h0 : (i 0).val = r.val) (h1 : (i 1).val = q.val) :
    Spec.outG X W B i = (∑ k : Fin 64, X (ix2 r k) * W (ix2 k q)) + B (ix2 (0 : Fin 1) q) := by
  obtain ⟨r', q', rfl⟩ : ∃ (r' : Fin 100000) (q' : Fin 64), i = ix2 r' q' := ⟨i 0, i 1, eq_ix2 i⟩
  obtain rfl : r' = r := Fin.ext h0
  obtain rfl : q' = q := Fin.ext h1
  rfl

/-- What point `t` writes back is block `t` of the projection of the three input arrays. -/
theorem flushed_eq (c : Dev nD) (t : Fin cfg9.N) :
    (dat9 (F := Ideal) V c).flushed 3 t = ((cfg9.win 3).blk t).view.read (Elt Ideal)
      (Spec.outG (V c (Pipeline.arrRef spec9 0)) (V c (Pipeline.arrRef spec9 1)) (V c (Pipeline.arrRef spec9 2))) := by
  show (cfg9.win 3).cut (grid9.coords t) ((dat9 (F := Ideal) V c).after 3 t) = _
  rw [after9_3]
  unfold out9_3
  rw [View.canon_unit_zero cornerOff]
  simp only [View.ld_unit_zero (S := S5000x64) cornerOff, View.ld_unit_zero (S := S64x64) cornerOff, View.ld_unit_zero (S := S1x64) cornerOff]
  refine funext fun (j : S5000x64.Idx) => ?_
  obtain ⟨p, q, rfl⟩ : ∃ (p : Fin 5000) (q : Fin 64), j = ix2 p q := ⟨j 0, j 1, eq_ix2 j⟩
  obtain ⟨o0, o1, -, -, -, -, -, -⟩ := blockIdx t
  have hq : (((cfg9.win 3).blk t).view.emb (ix2 p q) 1).val = q.val := by
    show win9_3.index t (1 : Fin 2) * 64 + 1 * q.val = q.val; rw [o1]; omega
  have hp : (((cfg9.win 3).blk t).view.emb (ix2 p q) 0).val = t.val * 5000 + p.val := by
    show win9_3.index t (0 : Fin 2) * 5000 + 1 * p.val = _; rw [o0]; omega
  refine (body_apply (iblk9 V c 0 t) (iblk9 V c 1 t) (iblk9 V c 2 t) p q).trans ?_
  refine Eq.symm ((outG_at _ _ _ _ (((cfg9.win 3).blk t).view.emb (ix2 p q) 0) q rfl hq).trans ?_)
  refine congrArg₂ (· + ·) (Finset.sum_congr rfl fun k _ => congrArg₂ (· * ·) ?_ ?_) ?_
  · exact (rows_apply V c t p k (ix2 (n0 := 100000) (n1 := 64) (((cfg9.win 3).blk t).view.emb (ix2 p q) 0) k) hp rfl).symm
  · exact (weights_apply V c t k q).symm
  · exact (bias_apply V c t q).symm

/-- An index of the output array is in point `t`'s block iff each coordinate is in the block's range on its axis. -/
theorem mem_blk (t : Fin cfg9.N) (i : S100000x64.Idx) :
    i ∈ ((cfg9.win 3).blk t).view.set ↔ ∀ a : Fin 2, win9_3.index t a * S5000x64.size a ≤ (i a).val ∧ (i a).val < win9_3.index t a * S5000x64.size a + S5000x64.size a := by
  show i ∈ ((View.whole main_v107).slice (win9_3.rect t)).set ↔ _
  rw [View.set_slice_whole, Rect.mem_set_unit]
  exact Iff.rfl

/-- Every index of the output array is in the block of the point its row falls to: row `r` belongs to point `r / 5000`. -/
theorem covered (i : S100000x64.Idx) :
    ∃ t : Fin cfg9.N, (cfg9.win 3).flush t = true ∧ i ∈ ((cfg9.win 3).blk t).view.set := by
  have hi0 : (i 0).val < 100000 := (i 0).isLt
  have hi1 : (i 1).val < 64 := (i 1).isLt
  obtain ⟨t, ht⟩ : ∃ t : Fin cfg9.N, t.val = (i 0).val / 5000 :=
    ⟨⟨(i 0).val / 5000, show (i 0).val / 5000 < 20 by omega⟩, rfl⟩
  obtain ⟨o0, o1, -, -, -, -, -, -⟩ := blockIdx t
  refine ⟨t, flush9_3 t, ?_⟩
  rw [mem_blk]
  intro a
  match a with
  | ⟨0, _⟩ =>
    show win9_3.index t (0 : Fin 2) * 5000 ≤ (i 0).val ∧ (i 0).val < win9_3.index t (0 : Fin 2) * 5000 + 5000
    rw [o0, ht]; omega
  | ⟨1, _⟩ =>
    show win9_3.index t (1 : Fin 2) * 64 ≤ (i 1).val ∧ (i 1).val < win9_3.index t (1 : Fin 2) * 64 + 64
    rw [o1]; omega

/-- The projection region leaves in its output array the stage function `Spec.outG` of its three input arrays as the region found them. -/
theorem final (c : Dev nD) :
    ((dat9 (F := Ideal) V c).arrAt 3 cfg9.N : Spec.sN64.Idx → EReal)
      = Spec.outG (V c (Pipeline.arrRef spec9 0)) (V c (Pipeline.arrRef spec9 1)) (V c (Pipeline.arrRef spec9 2)) :=
  (dat9 (F := Ideal) V c).arrAt_eq_of_cover 3
    (Spec.outG (V c (Pipeline.arrRef spec9 0)) (V c (Pipeline.arrRef spec9 1)) (V c (Pipeline.arrRef spec9 2)))
    (fun t _ => flushed_eq V c t) (fun i => covered i)

end Cert.KOut9

end
-- ==== Proof.KChainOut.lean ====
import proofs.«430051_j50208167690776_1_alg».proof.Proof.Gen.KernelIdeal.Frame
import proofs.«430051_j50208167690776_1_alg».proof.Proof.KVoc
import proofs.«430051_j50208167690776_1_alg».proof.Proof.KOut9
import Idealize.ShloMosaic.Lib.StableHlo.Run

set_option maxRecDepth 16384

noncomputable section

namespace Cert.KernelIdeal.Chain

open Cert.KernelIdeal Cert.KernelIdeal.Gen Cert.KernelIdeal.Voc Idealize.ShloMosaic Idealize.ShloMosaic.TcCoe Idealize.SL.Sem Idealize.ShloMosaic.StableHlo

variable (m : (ℓ : Loc nD τ sig) → Buf (Elt Ideal) ℓ) (ρ : Dev nD → PrngReg)

/-! The one host operation between region 8 and the last region lays the bias out as a row and writes nothing else. -/

/-- The third layer's output is, when the last region is entered, as region 8 left it. -/
theorem entry_x (c : Dev nD) :
    W29 (F := Ideal) m ρ c (Proc.devRef .tc main_v105) = W28 m ρ c (Proc.devRef .tc main_v105) := by
  show StableHlo.after hostOps9 (W28 m ρ c) (Proc.devRef .tc main_v105) = _
  after_results

/-- So is the projection matrix. -/
theorem entry_w (c : Dev nD) :
    W29 (F := Ideal) m ρ c (Proc.devRef .tc main_arg11) = W28 m ρ c (Proc.devRef .tc main_arg11) := by
  show StableHlo.after hostOps9 (W28 m ρ c) (Proc.devRef .tc main_arg11) = _
  after_results

/-- So is the bias vector itself. -/
theorem entry_b (c : Dev nD) :
    W29 (F := Ideal) m ρ c (Proc.devRef .tc main_arg12) = W28 m ρ c (Proc.devRef .tc main_arg12) := by
  show StableHlo.after hostOps9 (W28 m ρ c) (Proc.devRef .tc main_arg12) = _
  after_results

/-- The row the last region reads its bias from is the bias vector laid out as one row. -/
theorem entry_row (c : Dev nD) :
    W29 (F := Ideal) m ρ c (Proc.devRef .tc main_v106) = rowK (W28 m ρ c (Proc.devRef .tc main_arg12)) := by
  show StableHlo.after hostOps9 (W28 m ρ c) (Proc.devRef .tc main_v106) = _
  after_results
  rfl

/-! An argument nobody writes holds, at region 8's exit, what the launch put there: it holds that at the run's last
    boundary, and the last two steps of the run do not touch it. -/

/-- The projection matrix at region 8's exit is the launch's. -/
theorem exit8_w (c : Dev nD) :
    W28 (F := Ideal) m ρ c (Proc.devRef .tc main_arg11) = m ((c : Thread nD τ).loc main_arg11) := by
  have h : W30 (F := Ideal) m ρ c (Proc.devRef .tc main_arg11) = W29 m ρ c (Proc.devRef .tc main_arg11) :=
    (W30_arr m ρ c 1).trans (((dat9 (V29 m ρ) c).arrAt_in 1 rfl _).trans (A_eq9 (V29 m ρ) c 1))
  exact (entry_w m ρ c).symm.trans (h.symm.trans (W30_main_arg11 m ρ c))

/-- The bias vector at region 8's exit is the launch's. -/
theorem exit8_b (c : Dev nD) :
    W28 (F := Ideal) m ρ c (Proc.devRef .tc main_arg12) = m ((c : Thread nD τ).loc main_arg12) := by
  have h : W30 (F := Ideal) m ρ c (Proc.devRef .tc main_arg12) = W29 m ρ c (Proc.devRef .tc main_arg12) :=
    W30_of_ne m ρ c main_arg12 (by decide)
  exact (entry_b m ρ c).symm.trans (h.symm.trans (W30_main_arg12 m ρ c))

/-- The last region: the result array at the run's last boundary is the projection of the third layer's output as that
    layer left it. -/
theorem out (c : Dev nD) :
    W30 (F := Ideal) m ρ c (Proc.devRef .tc main_v107)
      = outK (W28 m ρ c (Proc.devRef .tc main_v105)) (m ((c : Thread nD τ).loc main_arg11)) (m ((c : Thread nD τ).loc main_arg12)) := by
  have h0 : W30 (F := Ideal) m ρ c (Proc.devRef .tc main_v107)
      = Spec.outG (V29 m ρ c (Pipeline.arrRef spec9 0)) (V29 m ρ c (Pipeline.arrRef spec9 1)) (V29 m ρ c (Pipeline.arrRef spec9 2)) :=
    (W30_arr m ρ c 3).trans (Cert.KOut9.final (V29 m ρ) c)
  have e0 : V29 (F := Ideal) m ρ c (Pipeline.arrRef spec9 0) = W28 m ρ c (Proc.devRef .tc main_v105) := entry_x m ρ c
  have e1 : V29 (F := Ideal) m ρ c (Pipeline.arrRef spec9 1) = m ((c : Thread nD τ).loc main_arg11) :=
    (entry_w m ρ c).trans (exit8_w m ρ c)
  have e2 : V29 (F := Ideal) m ρ c (Pipeline.arrRef spec9 2) = rowK (m ((c : Thread nD τ).loc main_arg12)) :=
    (entry_row m ρ c).trans (congrArg rowK (exit8_b m ρ c))
  rw [h0, e0, e1, e2]
  rfl

end Cert.KernelIdeal.Chain

end
-- ==== Proof.RefOps.lean ====
import proofs.«430051_j50208167690776_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements in its part 0, calls unfolded: 85 operations. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.unary main_arg3 main_v4 ((extractStridedSlice S1x32x64 ![0, 0, 0] · slices_S3x32x64_S1x32x64_0_0_0) : (⟨S3x32x64, .f32⟩ : BufTy).Contents (Elt F) → (⟨S1x32x64, .f32⟩ : BufTy).Contents (Elt F)),
    StableHlo.reshape main_v4 main_v5 rfl shapeCasts_S1x32x64_S32x64,
    StableHlo.binary main_arg2 main_v5 main_v6 ((fun l r => Host.dotGeneral dot_S1600000x32_S32x64_S1600000x64_1_0_0_1_n_n none l r) : (⟨S1600000x32, .f32⟩ : BufTy).Contents (Elt F) → (⟨S32x64, .f32⟩ : BufTy).Contents (Elt F) → (⟨S1600000x64, .f32⟩ : BufTy).Contents (Elt F)),
    StableHlo.unary main_arg4 main_v7 ((extractStridedSlice S1x64 ![0, 0] · slices_S3x64_S1x64_0_0) : (⟨S3x64, .f32⟩ : BufTy).Contents (Elt F) → (⟨S1x64, .f32⟩ : BufTy).Contents (Elt F)),
    StableHlo.reshape main_v7 main_v8 rfl shapeCasts_S1x64_S64,
    StableHlo.unary main_v8 main_v9 (broadcastInDim S1x64 ![1] bcast_S64_S1x64_1 : (⟨S64, .f32⟩ : BufTy).Contents (Elt F) → (⟨S1x64, .f32⟩ : BufTy).Contents (Elt F)),
    StableHlo.unary main_v9 main_v10 (broadcastInDim S1600000x64 ![0, 1] bcast_S1x64_S1600000x64_0_1 : (⟨S1x64, .f32⟩ : BufTy).Contents (Elt F) → (⟨S1600000x64, .f32⟩ : BufTy).Contents (Elt F)),
    StableHlo.binary main_v6 main_v10 main_v11 (addf : (⟨S1600000x64, .f32⟩ : BufTy).Contents (Elt F) → (⟨S1600000x64, .f32⟩ : BufTy).Contents (Elt F) → (⟨S1600000x64, .f32⟩ : BufTy).Contents (Elt F)),
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_arg0 main_v17 main_v18 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.binary main_v18 main_v11 main_v19 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call0.cst (constant S_ .f32 0x00000000#32),
    StableHlo.TRef.unary main_call0.cst main_call0.v0 (broadcastInDim S1600000x64 ![] bcast_S_S1600000x64),
    StableHlo.TRef.binary (.of main_v19) main_call0.v0 main_call0.v1 maximumf,
    StableHlo.nullary main_cst (constant S_ .f32 0x00000000#32),
    StableHlo.unary main_cst main_v21 (broadcastInDim S100000x64 ![] bcast_S_S100000x64 : (⟨S_, .f32⟩ : BufTy).Contents (Elt F) → (⟨S100000x64, .f32⟩ : BufTy).Contents (Elt F)),
    StableHlo.unary main_v3 main_v22 (broadcastInDim S1600000x1 ![0] bcast_S1600000_S1600000x1_0 : (⟨S1600000, .i32⟩ : BufTy).Contents (Elt F) → (⟨S1600000x1, .i32⟩ : BufTy).Contents (Elt F)),
    StableHlo.ternary main_v21 main_v22 main_v20 main_v23 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_arg0 main_v23 main_v24 (addf : (⟨S100000x64, .f32⟩ : BufTy).Contents (Elt F) → (⟨S100000x64, .f32⟩ : BufTy).Contents (Elt F) → (⟨S100000x64, .f32⟩ : BufTy).Contents (Elt F)),
    StableHlo.unary main_arg5 main_v25 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v25 main_v26 rfl shapeCasts_S1x64x64_S64x64,
    StableHlo.binary main_v24 main_v26 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v28 ((extractStridedSlice S1x64 ![0, 0] · slices_S3x64_S1x64_0_0) : (⟨S3x64, .f32⟩ : BufTy).Contents (Elt F) → (⟨S1x64, .f32⟩ : BufTy).Contents (Elt F)),
    StableHlo.reshape main_v28 main_v29 rfl shapeCasts_S1x64_S64,
    StableHlo.unary main_v29 main_v30 (broadcastInDim S1x64 ![1] bcast_S64_S1x64_1 : (⟨S64, .f32⟩ : BufTy).Contents (Elt F) → (⟨S1x64, .f32⟩ : BufTy).Contents (Elt F)),
    StableHlo.unary main_v30 main_v31 (broadcastInDim S100000x64 ![0, 1] bcast_S1x64_S100000x64_0_1 : (⟨S1x64, .f32⟩ : BufTy).Contents (Elt F) → (⟨S100000x64, .f32⟩ : BufTy).Contents (Elt F)),
    StableHlo.binary main_v27 main_v31 main_v32 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v32) main_call1.v0 main_call1.v1 maximumf,
    StableHlo.unary main_arg7 main_v34 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v34 main_v35 rfl shapeCasts_S1x64x64_S64x64,
    StableHlo.binary main_v33 main_v35 main_v36 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v37 ((extractStridedSlice S1x64 ![0, 0] · slices_S3x64_S1x64_0_0) : (⟨S3x64, .f32⟩ : BufTy).Contents (Elt F) → (⟨S1x64, .f32⟩ : BufTy).Contents (Elt F)),
    StableHlo.reshape main_v37 main_v38 rfl shapeCasts_S1x64_S64,
    StableHlo.unary main_v38 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S100000x64 ![0, 1] bcast_S1x64_S100000x64_0_1 : (⟨S1x64, .f32⟩ : BufTy).Contents (Elt F) → (⟨S100000x64, .f32⟩ : BufTy).Contents (Elt F)),
    StableHlo.binary main_v36 main_v40 main_v41 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x00000000#32),
    StableHlo.binary main_v41 main_cst_1 main_v42 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_2 (constant S_ .f32 0x47C35000#32),
    StableHlo.unary main_cst_2 main_v43 (broadcastInDim S64 ![] bcast_S_S64 : (⟨S_, .f32⟩ : BufTy).Contents (Elt F) → (⟨S64, .f32⟩ : BufTy).Contents (Elt F)),
    StableHlo.binary main_v42 main_v43 main_v44 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call2.cst (constant S_ .f32 0x00000000#32),
    StableHlo.TRef.binary (.of main_v41) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v41) main_call2.v4 main_call2.v5 subf,
    StableHlo.TRef.binary main_call2.v5 main_call2.v5 main_call2.v6 mulf,
    StableHlo.TRef.unary (.of main_c_3) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v44 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S100000x64 ![0, 1] bcast_S1x64_S100000x64_0_1 : (⟨S1x64, .f32⟩ : BufTy).Contents (Elt F) → (⟨S100000x64, .f32⟩ : BufTy).Contents (Elt F)),
    StableHlo.binary main_v41 main_v47 main_v48 (subf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x3727C5AC#32),
    StableHlo.unary main_cst_4 main_v49 (broadcastInDim S64 ![] bcast_S_S64 : (⟨S_, .f32⟩ : BufTy).Contents (Elt F) → (⟨S64, .f32⟩ : BufTy).Contents (Elt F)),
    StableHlo.binary main_v45 main_v49 main_v50 (addf : (⟨S64, .f32⟩ : BufTy).Contents (Elt F) → (⟨S64, .f32⟩ : BufTy).Contents (Elt F) → (⟨S64, .f32⟩ : BufTy).Contents (Elt F)),
    StableHlo.unary main_v50 main_v51 (Host.rsqrt : (⟨S64, .f32⟩ : BufTy).Contents (Elt F) → (⟨S64, .f32⟩ : BufTy).Contents (Elt F)),
    StableHlo.unary main_v51 main_v52 (broadcastInDim S1x64 ![1] bcast_S64_S1x64_1 : (⟨S64, .f32⟩ : BufTy).Contents (Elt F) → (⟨S1x64, .f32⟩ : BufTy).Contents (Elt F)) ]

theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub ..⟩

/-- The operations of @main's statements in its part 1, calls unfolded: 66 operations. -/
abbrev ops1 : List (HloOp τ sig (Elt F)) :=
  [ StableHlo.unary main_v52 main_v53 (broadcastInDim S100000x64 ![0, 1] bcast_S1x64_S100000x64_0_1 : (⟨S1x64, .f32⟩ : BufTy).Contents (Elt F) → (⟨S100000x64, .f32⟩ : BufTy).Contents (Elt F)),
    StableHlo.binary main_v48 main_v53 main_v54 (mulf : (⟨S100000x64, .f32⟩ : BufTy).Contents (Elt F) → (⟨S100000x64, .f32⟩ : BufTy).Contents (Elt F) → (⟨S100000x64, .f32⟩ : BufTy).Contents (Elt F)),
    StableHlo.unary main_arg9 main_v55 ((extractStridedSlice S1x64 ![0, 0] · slices_S3x64_S1x64_0_0) : (⟨S3x64, .f32⟩ : BufTy).Contents (Elt F) → (⟨S1x64, .f32⟩ : BufTy).Contents (Elt F)),
    StableHlo.reshape main_v55 main_v56 rfl shapeCasts_S1x64_S64,
    StableHlo.unary main_v56 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S100000x64 ![0, 1] bcast_S1x64_S100000x64_0_1 : (⟨S1x64, .f32⟩ : BufTy).Contents (Elt F) → (⟨S100000x64, .f32⟩ : BufTy).Contents (Elt F)),
    StableHlo.binary main_v54 main_v58 main_v59 (mulf : (⟨S100000x64, .f32⟩ : BufTy).Contents (Elt F) → (⟨S100000x64, .f32⟩ : BufTy).Contents (Elt F) → (⟨S100000x64, .f32⟩ : BufTy).Contents (Elt F)),
    StableHlo.unary main_arg10 main_v60 ((extractStridedSlice S1x64 ![0, 0] · slices_S3x64_S1x64_0_0) : (⟨S3x64, .f32⟩ : BufTy).Contents (Elt F) → (⟨S1x64, .f32⟩ : BufTy).Contents (Elt F)),
    StableHlo.reshape main_v60 main_v61 rfl shapeCasts_S1x64_S64,
    StableHlo.unary main_v61 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S100000x64 ![0, 1] bcast_S1x64_S100000x64_0_1 : (⟨S1x64, .f32⟩ : BufTy).Contents (Elt F) → (⟨S100000x64, .f32⟩ : BufTy).Contents (Elt F)),
    StableHlo.binary main_v59 main_v63 main_v64 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v64) main_call3.v0 main_call3.v1 maximumf,
    StableHlo.unary main_arg3 main_v66 ((extractStridedSlice S1x32x64 ![1, 0, 0] · slices_S3x32x64_S1x32x64_1_0_0) : (⟨S3x32x64, .f32⟩ : BufTy).Contents (Elt F) → (⟨S1x32x64, .f32⟩ : BufTy).Contents (Elt F)),
    StableHlo.reshape main_v66 main_v67 rfl shapeCasts_S1x32x64_S32x64,
    StableHlo.binary main_arg2 main_v67 main_v68 ((fun l r => Host.dotGeneral dot_S1600000x32_S32x64_S1600000x64_1_0_0_1_n_n none l r) : (⟨S1600000x32, .f32⟩ : BufTy).Contents (Elt F) → (⟨S32x64, .f32⟩ : BufTy).Contents (Elt F) → (⟨S1600000x64, .f32⟩ : BufTy).Contents (Elt F)),
    StableHlo.unary main_arg4 main_v69 ((extractStridedSlice S1x64 ![1, 0] · slices_S3x64_S1x64_1_0) : (⟨S3x64, .f32⟩ : BufTy).Contents (Elt F) → (⟨S1x64, .f32⟩ : BufTy).Contents (Elt F)),
    StableHlo.reshape main_v69 main_v70 rfl shapeCasts_S1x64_S64,
    StableHlo.unary main_v70 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S1600000x64 ![0, 1] bcast_S1x64_S1600000x64_0_1 : (⟨S1x64, .f32⟩ : BufTy).Contents (Elt F) → (⟨S1600000x64, .f32⟩ : BufTy).Contents (Elt F)),
    StableHlo.binary main_v68 main_v72 main_v73 (addf : (⟨S1600000x64, .f32⟩ : BufTy).Contents (Elt F) → (⟨S1600000x64, .f32⟩ : BufTy).Contents (Elt F) → (⟨S1600000x64, .f32⟩ : BufTy).Contents (Elt F)),
    StableHlo.nullary main_c_5 (constantI S_ 32 0#32),
    StableHlo.unary main_c_5 main_v74 (broadcastInDim S1600000 ![] bcast_S_S1600000 : (⟨S_, .i32⟩ : BufTy).Contents (Elt F) → (⟨S1600000, .i32⟩ : BufTy).Contents (Elt F)),
    StableHlo.binary main_v1 main_v74 main_v75 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v76 (broadcastInDim S1600000 ![] bcast_S_S1600000 : (⟨S_, .i32⟩ : BufTy).Contents (Elt F) → (⟨S1600000, .i32⟩ : BufTy).Contents (Elt F)),
    StableHlo.binary main_v1 main_v76 main_v77 (addi : (⟨S1600000, .i32⟩ : BufTy).Contents (Elt F) → (⟨S1600000, .i32⟩ : BufTy).Contents (Elt F) → (⟨S1600000, .i32⟩ : BufTy).Contents (Elt F)),
    StableHlo.ternary main_v75 main_v77 main_v1 main_v78 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v78 main_v79 (broadcastInDim S1600000x1 ![0] bcast_S1600000_S1600000x1_0 : (⟨S1600000, .i32⟩ : BufTy).Contents (Elt F) → (⟨S1600000x1, .i32⟩ : BufTy).Contents (Elt F)),
    StableHlo.binary main_v65 main_v79 main_v80 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.binary main_v80 main_v73 main_v81 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call4.cst (constant S_ .f32 0x00000000#32),
    StableHlo.TRef.unary main_call4.cst main_call4.v0 (broadcastInDim S1600000x64 ![] bcast_S_S1600000x64),
    StableHlo.TRef.binary (.of main_v81) main_call4.v0 main_call4.v1 maximumf,
    StableHlo.nullary main_cst_7 (constant S_ .f32 0x00000000#32),
    StableHlo.unary main_cst_7 main_v83 (broadcastInDim S100000x64 ![] bcast_S_S100000x64 : (⟨S_, .f32⟩ : BufTy).Contents (Elt F) → (⟨S100000x64, .f32⟩ : BufTy).Contents (Elt F)),
    StableHlo.unary main_v3 main_v84 (broadcastInDim S1600000x1 ![0] bcast_S1600000_S1600000x1_0 : (⟨S1600000, .i32⟩ : BufTy).Contents (Elt F) → (⟨S1600000x1, .i32⟩ : BufTy).Contents (Elt F)),
    StableHlo.ternary main_v83 main_v84 main_v82 main_v85 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v65 main_v85 main_v86 (addf : (⟨S100000x64, .f32⟩ : BufTy).Contents (Elt F) → (⟨S100000x64, .f32⟩ : BufTy).Contents (Elt F) → (⟨S100000x64, .f32⟩ : BufTy).Contents (Elt F)),
    StableHlo.unary main_arg5 main_v87 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v87 main_v88 rfl shapeCasts_S1x64x64_S64x64,
    StableHlo.binary main_v86 main_v88 main_v89 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v90 ((extractStridedSlice S1x64 ![1, 0] · slices_S3x64_S1x64_1_0) : (⟨S3x64, .f32⟩ : BufTy).Contents (Elt F) → (⟨S1x64, .f32⟩ : BufTy).Contents (Elt F)),
    StableHlo.reshape main_v90 main_v91 rfl shapeCasts_S1x64_S64,
    StableHlo.unary main_v91 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S100000x64 ![0, 1] bcast_S1x64_S100000x64_0_1 : (⟨S1x64, .f32⟩ : BufTy).Contents (Elt F) → (⟨S100000x64, .f32⟩ : BufTy).Contents (Elt F)),
    StableHlo.binary main_v89 main_v93 main_v94 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v94) main_call5.v0 main_call5.v1 maximumf,
    StableHlo.unary main_arg7 main_v96 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v96 main_v97 rfl shapeCasts_S1x64x64_S64x64,
    StableHlo.binary main_v95 main_v97 main_v98 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v99 ((extractStridedSlice S1x64 ![1, 0] · slices_S3x64_S1x64_1_0) : (⟨S3x64, .f32⟩ : BufTy).Contents (Elt F) → (⟨S1x64, .f32⟩ : BufTy).Contents (Elt F)),
    StableHlo.reshape main_v99 main_v100 rfl shapeCasts_S1x64_S64,
    StableHlo.unary main_v100 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S100000x64 ![0, 1] bcast_S1x64_S100000x64_0_1 : (⟨S1x64, .f32⟩ : BufTy).Contents (Elt F) → (⟨S100000x64, .f32⟩ : BufTy).Contents (Elt F)),
    StableHlo.binary main_v98 main_v102 main_v103 (addf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x00000000#32),
    StableHlo.binary main_v103 main_cst_8 main_v104 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_9 (constant S_ .f32 0x47C35000#32),
    StableHlo.unary main_cst_9 main_v105 (broadcastInDim S64 ![] bcast_S_S64 : (⟨S_, .f32⟩ : BufTy).Contents (Elt F) → (⟨S64, .f32⟩ : BufTy).Contents (Elt F)),
    StableHlo.binary main_v104 main_v105 main_v106 (Host.divf : (⟨S64, .f32⟩ : BufTy).Contents (Elt F) → (⟨S64, .f32⟩ : BufTy).Contents (Elt F) → (⟨S64, .f32⟩ : BufTy).Contents (Elt F)),
    StableHlo.nullary main_c_10 (constantI S_ 32 0#32) ]

theorem ops1_sub : (ops1 : List (HloOp τ sig (Elt F))).Forall fun op => op.bufs ⊆ tcRefs τ sig :=
  ⟨unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub ..⟩

/-- The operations of @main's statements in its part 2, calls unfolded: 87 operations. -/
abbrev ops2 : List (HloOp τ sig (Elt F)) :=
  [ StableHlo.TRef.nullary main_call6.cst (constant S_ .f32 0x00000000#32),
    StableHlo.TRef.binary (.of main_v103) main_call6.cst main_call6.v0 (fun x v => Host.reduceAdd x v reducesTo_S100000x64_S64_d0 h_S_),
    StableHlo.TRef.unary main_call6.v0 main_call6.v1 (broadcastInDim S1x64 ![1] bcast_S64_S1x64_1),
    StableHlo.TRef.nullary main_call6.cst_0 (constant S_ .f32 0x47C35000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S100000x64 ![0, 1] bcast_S1x64_S100000x64_0_1),
    StableHlo.TRef.binary (.of main_v103) main_call6.v4 main_call6.v5 subf,
    StableHlo.TRef.binary main_call6.v5 main_call6.v5 main_call6.v6 mulf,
    StableHlo.TRef.unary (.of main_c_10) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v106 main_v108 (broadcastInDim S1x64 ![1] bcast_S64_S1x64_1 : (⟨S64, .f32⟩ : BufTy).Contents (Elt F) → (⟨S1x64, .f32⟩ : BufTy).Contents (Elt F)),
    StableHlo.unary main_v108 main_v109 (broadcastInDim S100000x64 ![0, 1] bcast_S1x64_S100000x64_0_1 : (⟨S1x64, .f32⟩ : BufTy).Contents (Elt F) → (⟨S100000x64, .f32⟩ : BufTy).Contents (Elt F)),
    StableHlo.binary main_v103 main_v109 main_v110 (subf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3727C5AC#32),
    StableHlo.unary main_cst_11 main_v111 (broadcastInDim S64 ![] bcast_S_S64 : (⟨S_, .f32⟩ : BufTy).Contents (Elt F) → (⟨S64, .f32⟩ : BufTy).Contents (Elt F)),
    StableHlo.binary main_v107 main_v111 main_v112 (addf : (⟨S64, .f32⟩ : BufTy).Contents (Elt F) → (⟨S64, .f32⟩ : BufTy).Contents (Elt F) → (⟨S64, .f32⟩ : BufTy).Contents (Elt F)),
    StableHlo.unary main_v112 main_v113 (Host.rsqrt : (⟨S64, .f32⟩ : BufTy).Contents (Elt F) → (⟨S64, .f32⟩ : BufTy).Contents (Elt F)),
    StableHlo.unary main_v113 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S100000x64 ![0, 1] bcast_S1x64_S100000x64_0_1 : (⟨S1x64, .f32⟩ : BufTy).Contents (Elt F) → (⟨S100000x64, .f32⟩ : BufTy).Contents (Elt F)),
    StableHlo.binary main_v110 main_v115 main_v116 (mulf : (⟨S100000x64, .f32⟩ : BufTy).Contents (Elt F) → (⟨S100000x64, .f32⟩ : BufTy).Contents (Elt F) → (⟨S100000x64, .f32⟩ : BufTy).Contents (Elt F)),
    StableHlo.unary main_arg9 main_v117 ((extractStridedSlice S1x64 ![1, 0] · slices_S3x64_S1x64_1_0) : (⟨S3x64, .f32⟩ : BufTy).Contents (Elt F) → (⟨S1x64, .f32⟩ : BufTy).Contents (Elt F)),
    StableHlo.reshape main_v117 main_v118 rfl shapeCasts_S1x64_S64,
    StableHlo.unary main_v118 main_v119 (broadcastInDim S1x64 ![1] bcast_S64_S1x64_1 : (⟨S64, .f32⟩ : BufTy).Contents (Elt F) → (⟨S1x64, .f32⟩ : BufTy).Contents (Elt F)),
    StableHlo.unary main_v119 main_v120 (broadcastInDim S100000x64 ![0, 1] bcast_S1x64_S100000x64_0_1 : (⟨S1x64, .f32⟩ : BufTy).Contents (Elt F) → (⟨S100000x64, .f32⟩ : BufTy).Contents (Elt F)),
    StableHlo.binary main_v116 main_v120 main_v121 (mulf : (⟨S100000x64, .f32⟩ : BufTy).Contents (Elt F) → (⟨S100000x64, .f32⟩ : BufTy).Contents (Elt F) → (⟨S100000x64, .f32⟩ : BufTy).Contents (Elt F)),
    StableHlo.unary main_arg10 main_v122 ((extractStridedSlice S1x64 ![1, 0] · slices_S3x64_S1x64_1_0) : (⟨S3x64, .f32⟩ : BufTy).Contents (Elt F) → (⟨S1x64, .f32⟩ : BufTy).Contents (Elt F)),
    StableHlo.reshape main_v122 main_v123 rfl shapeCasts_S1x64_S64,
    StableHlo.unary main_v123 main_v124 (broadcastInDim S1x64 ![1] bcast_S64_S1x64_1 : (⟨S64, .f32⟩ : BufTy).Contents (Elt F) → (⟨S1x64, .f32⟩ : BufTy).Contents (Elt F)),
    StableHlo.unary main_v124 main_v125 (broadcastInDim S100000x64 ![0, 1] bcast_S1x64_S100000x64_0_1 : (⟨S1x64, .f32⟩ : BufTy).Contents (Elt F) → (⟨S100000x64, .f32⟩ : BufTy).Contents (Elt F)),
    StableHlo.binary main_v121 main_v125 main_v126 (addf : (⟨S100000x64, .f32⟩ : BufTy).Contents (Elt F) → (⟨S100000x64, .f32⟩ : BufTy).Contents (Elt F) → (⟨S100000x64, .f32⟩ : BufTy).Contents (Elt F)),
    StableHlo.TRef.nullary main_call7.cst (constant S_ .f32 0x00000000#32),
    StableHlo.TRef.unary main_call7.cst main_call7.v0 (broadcastInDim S100000x64 ![] bcast_S_S100000x64),
    StableHlo.TRef.binary (.of main_v126) main_call7.v0 main_call7.v1 maximumf,
    StableHlo.unary main_arg3 main_v128 ((extractStridedSlice S1x32x64 ![2, 0, 0] · slices_S3x32x64_S1x32x64_2_0_0) : (⟨S3x32x64, .f32⟩ : BufTy).Contents (Elt F) → (⟨S1x32x64, .f32⟩ : BufTy).Contents (Elt F)),
    StableHlo.reshape main_v128 main_v129 rfl shapeCasts_S1x32x64_S32x64,
    StableHlo.binary main_arg2 main_v129 main_v130 ((fun l r => Host.dotGeneral dot_S1600000x32_S32x64_S1600000x64_1_0_0_1_n_n none l r) : (⟨S1600000x32, .f32⟩ : BufTy).Contents (Elt F) → (⟨S32x64, .f32⟩ : BufTy).Contents (Elt F) → (⟨S1600000x64, .f32⟩ : BufTy).Contents (Elt F)),
    StableHlo.unary main_arg4 main_v131 ((extractStridedSlice S1x64 ![2, 0] · slices_S3x64_S1x64_2_0) : (⟨S3x64, .f32⟩ : BufTy).Contents (Elt F) → (⟨S1x64, .f32⟩ : BufTy).Contents (Elt F)),
    StableHlo.reshape main_v131 main_v132 rfl shapeCasts_S1x64_S64,
    StableHlo.unary main_v132 main_v133 (broadcastInDim S1x64 ![1] bcast_S64_S1x64_1 : (⟨S64, .f32⟩ : BufTy).Contents (Elt F) → (⟨S1x64, .f32⟩ : BufTy).Contents (Elt F)),
    StableHlo.unary main_v133 main_v134 (broadcastInDim S1600000x64 ![0, 1] bcast_S1x64_S1600000x64_0_1 : (⟨S1x64, .f32⟩ : BufTy).Contents (Elt F) → (⟨S1600000x64, .f32⟩ : BufTy).Contents (Elt F)),
    StableHlo.binary main_v130 main_v134 main_v135 (addf : (⟨S1600000x64, .f32⟩ : BufTy).Contents (Elt F) → (⟨S1600000x64, .f32⟩ : BufTy).Contents (Elt F) → (⟨S1600000x64, .f32⟩ : BufTy).Contents (Elt F)),
    StableHlo.nullary main_c_12 (constantI S_ 32 0#32),
    StableHlo.unary main_c_12 main_v136 (broadcastInDim S1600000 ![] bcast_S_S1600000 : (⟨S_, .i32⟩ : BufTy).Contents (Elt F) → (⟨S1600000, .i32⟩ : BufTy).Contents (Elt F)),
    StableHlo.binary main_v1 main_v136 main_v137 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v138 (broadcastInDim S1600000 ![] bcast_S_S1600000 : (⟨S_, .i32⟩ : BufTy).Contents (Elt F) → (⟨S1600000, .i32⟩ : BufTy).Contents (Elt F)),
    StableHlo.binary main_v1 main_v138 main_v139 (addi : (⟨S1600000, .i32⟩ : BufTy).Contents (Elt F) → (⟨S1600000, .i32⟩ : BufTy).Contents (Elt F) → (⟨S1600000, .i32⟩ : BufTy).Contents (Elt F)),
    StableHlo.ternary main_v137 main_v139 main_v1 main_v140 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v140 main_v141 (broadcastInDim S1600000x1 ![0] bcast_S1600000_S1600000x1_0 : (⟨S1600000, .i32⟩ : BufTy).Contents (Elt F) → (⟨S1600000x1, .i32⟩ : BufTy).Contents (Elt F)),
    StableHlo.binary main_v127 main_v141 main_v142 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.binary main_v142 main_v135 main_v143 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call8.cst (constant S_ .f32 0x00000000#32),
    StableHlo.TRef.unary main_call8.cst main_call8.v0 (broadcastInDim S1600000x64 ![] bcast_S_S1600000x64),
    StableHlo.TRef.binary (.of main_v143) main_call8.v0 main_call8.v1 maximumf,
    StableHlo.nullary main_cst_14 (constant S_ .f32 0x00000000#32),
    StableHlo.unary main_cst_14 main_v145 (broadcastInDim S100000x64 ![] bcast_S_S100000x64 : (⟨S_, .f32⟩ : BufTy).Contents (Elt F) → (⟨S100000x64, .f32⟩ : BufTy).Contents (Elt F)),
    StableHlo.unary main_v3 main_v146 (broadcastInDim S1600000x1 ![0] bcast_S1600000_S1600000x1_0 : (⟨S1600000, .i32⟩ : BufTy).Contents (Elt F) → (⟨S1600000x1, .i32⟩ : BufTy).Contents (Elt F)),
    StableHlo.ternary main_v145 main_v146 main_v144 main_v147 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v127 main_v147 main_v148 (addf : (⟨S100000x64, .f32⟩ : BufTy).Contents (Elt F) → (⟨S100000x64, .f32⟩ : BufTy).Contents (Elt F) → (⟨S100000x64, .f32⟩ : BufTy).Contents (Elt F)),
    StableHlo.unary main_arg5 main_v149 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v149 main_v150 rfl shapeCasts_S1x64x64_S64x64,
    StableHlo.binary main_v148 main_v150 main_v151 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v152 ((extractStridedSlice S1x64 ![2, 0] · slices_S3x64_S1x64_2_0) : (⟨S3x64, .f32⟩ : BufTy).Contents (Elt F) → (⟨S1x64, .f32⟩ : BufTy).Contents (Elt F)),
    StableHlo.reshape main_v152 main_v153 rfl shapeCasts_S1x64_S64,
    StableHlo.unary main_v153 main_v154 (broadcastInDim S1x64 ![1] bcast_S64_S1x64_1 : (⟨S64, .f32⟩ : BufTy).Contents (Elt F) → (⟨S1x64, .f32⟩ : BufTy).Contents (Elt F)),
    StableHlo.unary main_v154 main_v155 (broadcastInDim S100000x64 ![0, 1] bcast_S1x64_S100000x64_0_1 : (⟨S1x64, .f32⟩ : BufTy).Contents (Elt F) → (⟨S100000x64, .f32⟩ : BufTy).Contents (Elt F)),
    StableHlo.binary main_v151 main_v155 main_v156 (addf : (⟨S100000x64, .f32⟩ : BufTy).Contents (Elt F) → (⟨S100000x64, .f32⟩ : BufTy).Contents (Elt F) → (⟨S100000x64, .f32⟩ : BufTy).Contents (Elt F)),
    StableHlo.TRef.nullary main_call9.cst (constant S_ .f32 0x00000000#32),
    StableHlo.TRef.unary main_call9.cst main_call9.v0 (broadcastInDim S100000x64 ![] bcast_S_S100000x64),
    StableHlo.TRef.binary (.of main_v156) main_call9.v0 main_call9.v1 maximumf,
    StableHlo.unary main_arg7 main_v158 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v158 main_v159 rfl shapeCasts_S1x64x64_S64x64,
    StableHlo.binary main_v157 main_v159 main_v160 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v161 ((extractStridedSlice S1x64 ![2, 0] · slices_S3x64_S1x64_2_0) : (⟨S3x64, .f32⟩ : BufTy).Contents (Elt F) → (⟨S1x64, .f32⟩ : BufTy).Contents (Elt F)),
    StableHlo.reshape main_v161 main_v162 rfl shapeCasts_S1x64_S64 ]

theorem ops2_sub : (ops2 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub ..⟩

/-- The operations of @main's statements in its part 3, calls unfolded: 58 operations. -/
abbrev ops3 : List (HloOp τ sig (Elt F)) :=
  [ StableHlo.unary main_v162 main_v163 (broadcastInDim S1x64 ![1] bcast_S64_S1x64_1 : (⟨S64, .f32⟩ : BufTy).Contents (Elt F) → (⟨S1x64, .f32⟩ : BufTy).Contents (Elt F)),
    StableHlo.unary main_v163 main_v164 (broadcastInDim S100000x64 ![0, 1] bcast_S1x64_S100000x64_0_1 : (⟨S1x64, .f32⟩ : BufTy).Contents (Elt F) → (⟨S100000x64, .f32⟩ : BufTy).Contents (Elt F)),
    StableHlo.binary main_v160 main_v164 main_v165 (addf : (⟨S100000x64, .f32⟩ : BufTy).Contents (Elt F) → (⟨S100000x64, .f32⟩ : BufTy).Contents (Elt F) → (⟨S100000x64, .f32⟩ : BufTy).Contents (Elt F)),
    StableHlo.nullary main_cst_15 (constant S_ .f32 0x00000000#32),
    StableHlo.binary main_v165 main_cst_15 main_v166 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_16 (constant S_ .f32 0x47C35000#32),
    StableHlo.unary main_cst_16 main_v167 (broadcastInDim S64 ![] bcast_S_S64 : (⟨S_, .f32⟩ : BufTy).Contents (Elt F) → (⟨S64, .f32⟩ : BufTy).Contents (Elt F)),
    StableHlo.binary main_v166 main_v167 main_v168 (Host.divf : (⟨S64, .f32⟩ : BufTy).Contents (Elt F) → (⟨S64, .f32⟩ : BufTy).Contents (Elt F) → (⟨S64, .f32⟩ : BufTy).Contents (Elt F)),
    StableHlo.nullary main_c_17 (constantI S_ 32 0#32),
    StableHlo.TRef.nullary main_call10.cst (constant S_ .f32 0x00000000#32),
    StableHlo.TRef.binary (.of main_v165) main_call10.cst main_call10.v0 (fun x v => Host.reduceAdd x v reducesTo_S100000x64_S64_d0 h_S_),
    StableHlo.TRef.unary main_call10.v0 main_call10.v1 (broadcastInDim S1x64 ![1] bcast_S64_S1x64_1),
    StableHlo.TRef.nullary main_call10.cst_0 (constant S_ .f32 0x47C35000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S100000x64 ![0, 1] bcast_S1x64_S100000x64_0_1),
    StableHlo.TRef.binary (.of main_v165) main_call10.v4 main_call10.v5 subf,
    StableHlo.TRef.binary main_call10.v5 main_call10.v5 main_call10.v6 mulf,
    StableHlo.TRef.unary (.of main_c_17) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v168 main_v170 (broadcastInDim S1x64 ![1] bcast_S64_S1x64_1 : (⟨S64, .f32⟩ : BufTy).Contents (Elt F) → (⟨S1x64, .f32⟩ : BufTy).Contents (Elt F)),
    StableHlo.unary main_v170 main_v171 (broadcastInDim S100000x64 ![0, 1] bcast_S1x64_S100000x64_0_1 : (⟨S1x64, .f32⟩ : BufTy).Contents (Elt F) → (⟨S100000x64, .f32⟩ : BufTy).Contents (Elt F)),
    StableHlo.binary main_v165 main_v171 main_v172 (subf : (⟨S100000x64, .f32⟩ : BufTy).Contents (Elt F) → (⟨S100000x64, .f32⟩ : BufTy).Contents (Elt F) → (⟨S100000x64, .f32⟩ : BufTy).Contents (Elt F)),
    StableHlo.nullary main_cst_18 (constant S_ .f32 0x3727C5AC#32),
    StableHlo.unary main_cst_18 main_v173 (broadcastInDim S64 ![] bcast_S_S64 : (⟨S_, .f32⟩ : BufTy).Contents (Elt F) → (⟨S64, .f32⟩ : BufTy).Contents (Elt F)),
    StableHlo.binary main_v169 main_v173 main_v174 (addf : (⟨S64, .f32⟩ : BufTy).Contents (Elt F) → (⟨S64, .f32⟩ : BufTy).Contents (Elt F) → (⟨S64, .f32⟩ : BufTy).Contents (Elt F)),
    StableHlo.unary main_v174 main_v175 (Host.rsqrt : (⟨S64, .f32⟩ : BufTy).Contents (Elt F) → (⟨S64, .f32⟩ : BufTy).Contents (Elt F)),
    StableHlo.unary main_v175 main_v176 (broadcastInDim S1x64 ![1] bcast_S64_S1x64_1 : (⟨S64, .f32⟩ : BufTy).Contents (Elt F) → (⟨S1x64, .f32⟩ : BufTy).Contents (Elt F)),
    StableHlo.unary main_v176 main_v177 (broadcastInDim S100000x64 ![0, 1] bcast_S1x64_S100000x64_0_1 : (⟨S1x64, .f32⟩ : BufTy).Contents (Elt F) → (⟨S100000x64, .f32⟩ : BufTy).Contents (Elt F)),
    StableHlo.binary main_v172 main_v177 main_v178 (mulf : (⟨S100000x64, .f32⟩ : BufTy).Contents (Elt F) → (⟨S100000x64, .f32⟩ : BufTy).Contents (Elt F) → (⟨S100000x64, .f32⟩ : BufTy).Contents (Elt F)),
    StableHlo.unary main_arg9 main_v179 ((extractStridedSlice S1x64 ![2, 0] · slices_S3x64_S1x64_2_0) : (⟨S3x64, .f32⟩ : BufTy).Contents (Elt F) → (⟨S1x64, .f32⟩ : BufTy).Contents (Elt F)),
    StableHlo.reshape main_v179 main_v180 rfl shapeCasts_S1x64_S64,
    StableHlo.unary main_v180 main_v181 (broadcastInDim S1x64 ![1] bcast_S64_S1x64_1 : (⟨S64, .f32⟩ : BufTy).Contents (Elt F) → (⟨S1x64, .f32⟩ : BufTy).Contents (Elt F)),
    StableHlo.unary main_v181 main_v182 (broadcastInDim S100000x64 ![0, 1] bcast_S1x64_S100000x64_0_1 : (⟨S1x64, .f32⟩ : BufTy).Contents (Elt F) → (⟨S100000x64, .f32⟩ : BufTy).Contents (Elt F)),
    StableHlo.binary main_v178 main_v182 main_v183 (mulf : (⟨S100000x64, .f32⟩ : BufTy).Contents (Elt F) → (⟨S100000x64, .f32⟩ : BufTy).Contents (Elt F) → (⟨S100000x64, .f32⟩ : BufTy).Contents (Elt F)),
    StableHlo.unary main_arg10 main_v184 ((extractStridedSlice S1x64 ![2, 0] · slices_S3x64_S1x64_2_0) : (⟨S3x64, .f32⟩ : BufTy).Contents (Elt F) → (⟨S1x64, .f32⟩ : BufTy).Contents (Elt F)),
    StableHlo.reshape main_v184 main_v185 rfl shapeCasts_S1x64_S64,
    StableHlo.unary main_v185 main_v186 (broadcastInDim S1x64 ![1] bcast_S64_S1x64_1 : (⟨S64, .f32⟩ : BufTy).Contents (Elt F) → (⟨S1x64, .f32⟩ : BufTy).Contents (Elt F)),
    StableHlo.unary main_v186 main_v187 (broadcastInDim S100000x64 ![0, 1] bcast_S1x64_S100000x64_0_1 : (⟨S1x64, .f32⟩ : BufTy).Contents (Elt F) → (⟨S100000x64, .f32⟩ : BufTy).Contents (Elt F)),
    StableHlo.binary main_v183 main_v187 main_v188 (addf : (⟨S100000x64, .f32⟩ : BufTy).Contents (Elt F) → (⟨S100000x64, .f32⟩ : BufTy).Contents (Elt F) → (⟨S100000x64, .f32⟩ : BufTy).Contents (Elt F)),
    StableHlo.TRef.nullary main_call11.cst (constant S_ .f32 0x00000000#32),
    StableHlo.TRef.unary main_call11.cst main_call11.v0 (broadcastInDim S100000x64 ![] bcast_S_S100000x64),
    StableHlo.TRef.binary (.of main_v188) main_call11.v0 main_call11.v1 maximumf,
    StableHlo.binary main_v189 main_arg11 main_v190 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg12 main_v191 (broadcastInDim S1x64 ![1] bcast_S64_S1x64_1 : (⟨S64, .f32⟩ : BufTy).Contents (Elt F) → (⟨S1x64, .f32⟩ : BufTy).Contents (Elt F)),
    StableHlo.unary main_v191 main_v192 (broadcastInDim S100000x64 ![0, 1] bcast_S1x64_S100000x64_0_1 : (⟨S1x64, .f32⟩ : BufTy).Contents (Elt F) → (⟨S100000x64, .f32⟩ : BufTy).Contents (Elt F)),
    StableHlo.binary main_v190 main_v192 main_v193 (addf : (⟨S100000x64, .f32⟩ : BufTy).Contents (Elt F) → (⟨S100000x64, .f32⟩ : BufTy).Contents (Elt F) → (⟨S100000x64, .f32⟩ : BufTy).Contents (Elt F)) ]

theorem ops3_sub : (ops3 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., unary_bufs_sub .., unary_bufs_sub .., binary_bufs_sub ..⟩

end Cert.ReferenceIdeal.Ops

end
-- ==== Proof.RRun.lean ====
import proofs.«430051_j50208167690776_1_alg».proof.Proof.RefOps

/-! The reference program is a straight line of host operations: its @main is the sequence of the listed operations,
    so every weakly fair execution terminates with every buffer at the operations' fold over the launch contents. -/

noncomputable section

namespace Cert.ReferenceIdeal.Run

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-- All of @main's operations, in order. -/
abbrev ops : List (HloOp τ sig (Elt F)) := ops0 ++ (ops1 ++ (ops2 ++ ops3))

/- Each part is one chain of steps: with the called functions' bodies unfolded at their calls and the sequencing
   reassociated, both sides are the same chain, one step per listed operation. -/

set_option maxRecDepth 8192 in
set_option maxHeartbeats 1000000 in
theorem part0_eq (c : Dev nD) : main_part0 (F := F) c = seq ops0 := by
  simp only [main_part0, fn_relu.body, fn_relu_0.body, fn_var.body, fn_where.body, seq, bind_assoc, pure_bind]
  rfl

set_option maxRecDepth 8192 in
set_option maxHeartbeats 1000000 in
theorem part1_eq (c : Dev nD) : main_part1 (F := F) c = seq ops1 := by
  simp only [main_part1, fn_relu.body, fn_relu_0.body, fn_var.body, fn_where.body, seq, bind_assoc, pure_bind]
  rfl

set_option maxRecDepth 8192 in
set_option maxHeartbeats 1000000 in
theorem part2_eq (c : Dev nD) : main_part2 (F := F) c = seq ops2 := by
  simp only [main_part2, fn_relu.body, fn_relu_0.body, fn_var.body, fn_where.body, seq, bind_assoc, pure_bind]
  rfl

set_option maxRecDepth 8192 in
set_option maxHeartbeats 1000000 in
theorem part3_eq (c : Dev nD) : main_part3 (F := F) c = seq ops3 := by
  simp only [main_part3, fn_relu.body, fn_relu_0.body, fn_var.body, fn_where.body, seq, bind_assoc, pure_bind]

/-- @main runs its four parts in order, and a concatenation runs as its pieces one after the other. -/
theorem main_eq (c : Dev nD) : main (F := F) c = seq ops := by
  simp only [ops, seq_append, ← part0_eq c, ← part1_eq c, ← part2_eq c, ← part3_eq c]
  simp only [main, bind_assoc]

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append' {α : Type} {p : α → Prop} : ∀ {l₁ l₂ : List α}, l₁.Forall p → l₂.Forall p → (l₁ ++ l₂).Forall p := by
  intro l₁ l₂ h₁ h₂
  rw [List.forall_iff_forall_mem] at h₁ h₂ ⊢
  intro x hx
  rcases List.mem_append.mp hx with h | h
  · exact h₁ x h
  · exact h₂ x h

theorem ops_sub : (ops : List (HloOp τ sig (Elt F))).Forall fun op => op.bufs ⊆ tcRefs τ sig :=
  forall_append' ops0_sub (forall_append' ops1_sub (forall_append' ops2_sub ops3_sub))

/-- No operation of the line is an allocation: each determines its results. -/
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.mp h with h | h
  · exact ops0_fresh op h
  rcases List.mem_append.mp h with h | h
  · exact ops1_fresh op h
  rcases List.mem_append.mp h with h | h
  · exact ops2_fresh op h
  · exact ops3_fresh op h

/-- On every device, from any memory with zero counters: every weakly fair execution of @main terminates with each
    buffer at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Run

end
-- ==== Proof.RVoc.lean ====
import proofs.«430051_j50208167690776_1_alg».proof.Proof.Gen.ReferenceIdeal
import proofs.«430051_j50208167690776_1_alg».proof.Proof.Spec

/-! The reference program's host operations grouped as functions of whole arrays: the two index rows, the parameter
    rows of each layer, the gather, the scatter-add, the column mean and variance, a vector spread over rows; and one
    layer and the last projection as the reference composes them. -/

noncomputable section

namespace Cert.ReferenceIdeal.Voc

open Cert.ReferenceIdeal Cert.ReferenceIdeal.Gen Idealize.ShloMosaic

variable {F : FTy → Type} [FloatOps F]

/-- Row 0 of the edge list: the sources. -/
abbrev srcR (ei : Vec F S2x1600000 .i32) : Vec F S1600000 .i32 :=
  shapeCast S1600000 (extractStridedSlice S1x1600000 ![0, 0] ei slices_S2x1600000_S1x1600000_0_0) shapeCasts_S1x1600000_S1600000
/-- Row 1 of the edge list: the destinations. -/
abbrev dstR (ei : Vec F S2x1600000 .i32) : Vec F S1600000 .i32 :=
  shapeCast S1600000 (extractStridedSlice S1x1600000 ![1, 0] ei slices_S2x1600000_S1x1600000_1_0) shapeCasts_S1x1600000_S1600000

/-- Layer `l`'s `[32, 64]` matrix of a `[3, 32, 64]` parameter. -/
abbrev we0 (a : Vec F S3x32x64 .f32) : Vec F S32x64 .f32 := shapeCast S32x64 (extractStridedSlice S1x32x64 ![0, 0, 0] a slices_S3x32x64_S1x32x64_0_0_0) shapeCasts_S1x32x64_S32x64
abbrev we1 (a : Vec F S3x32x64 .f32) : Vec F S32x64 .f32 := shapeCast S32x64 (extractStridedSlice S1x32x64 ![1, 0, 0] a slices_S3x32x64_S1x32x64_1_0_0) shapeCasts_S1x32x64_S32x64
abbrev we2 (a : Vec F S3x32x64 .f32) : Vec F S32x64 .f32 := shapeCast S32x64 (extractStridedSlice S1x32x64 ![2, 0, 0] a slices_S3x32x64_S1x32x64_2_0_0) shapeCasts_S1x32x64_S32x64
/-- Layer `l`'s 64-vector of a `[3, 64]` parameter. -/
abbrev vec0 (a : Vec F S3x64 .f32) : Vec F S64 .f32 := shapeCast S64 (extractStridedSlice S1x64 ![0, 0] a slices_S3x64_S1x64_0_0) shapeCasts_S1x64_S64
abbrev vec1 (a : Vec F S3x64 .f32) : Vec F S64 .f32 := shapeCast S64 (extractStridedSlice S1x64 ![1, 0] a slices_S3x64_S1x64_1_0) shapeCasts_S1x64_S64
abbrev vec2 (a : Vec F S3x64 .f32) : Vec F S64 .f32 := shapeCast S64 (extractStridedSlice S1x64 ![2, 0] a slices_S3x64_S1x64_2_0) shapeCasts_S1x64_S64
/-- Layer `l`'s `[64, 64]` matrix of a `[3, 64, 64]` parameter. -/
abbrev mat0 (a : Vec F S3x64x64 .f32) : Vec F S64x64 .f32 := shapeCast S64x64 (extractStridedSlice S1x64x64 ![0, 0, 0] a slices_S3x64x64_S1x64x64_0_0_0) shapeCasts_S1x64x64_S64x64
abbrev mat1 (a : Vec F S3x64x64 .f32) : Vec F S64x64 .f32 := shapeCast S64x64 (extractStridedSlice S1x64x64 ![1, 0, 0] a slices_S3x64x64_S1x64x64_1_0_0) shapeCasts_S1x64x64_S64x64
abbrev mat2 (a : Vec F S3x64x64 .f32) : Vec F S64x64 .f32 := shapeCast S64x64 (extractStridedSlice S1x64x64 ![2, 0, 0] a slices_S3x64x64_S1x64x64_2_0_0) shapeCasts_S1x64x64_S64x64

/-- The index column the gather reads: a negative index counted from the end, then one column. -/
abbrev idxColR (s : Vec F S1600000 .i32) : Vec F S1600000x1 .i32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The rows of `x` at the (clamped) indices. -/
abbrev gatherR (x : Vec F S100000x64 .f32) (s : Vec F S1600000 .i32) : Vec F S1600000x64 .f32 :=
  Host.gather gather_S100000x64_S1600000x1_S1600000x64_1_0_n_n_0_1_164 x (idxColR s)

/-- The messages summed into their destination rows, from zero. -/
abbrev aggR (dst : Vec F S1600000 .i32) (msg : Vec F S1600000x64 .f32) : Vec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst) msg

/-- The column means. -/
abbrev meanR (h : Vec F S100000x64 .f32) : Vec F S64 .f32 :=
  Host.divf (Host.reduceAdd h (constant S_ .f32 0x00000000#32) reducesTo_S100000x64_S64_d0 h_S_)
    (broadcastInDim S64 ![] bcast_S_S64 (constant S_ .f32 0x47C35000#32))

/-- The column variances (the mean of squared deviations, guarded by the count's sign as the source writes it). -/
abbrev varR (h : Vec F S100000x64 .f32) : Vec F S64 .f32 :=
  let dev : Vec F S100000x64 .f32 := subf h (broadcastInDim S100000x64 ![0, 1] bcast_S1x64_S100000x64_0_1
    (Host.divf (broadcastInDim S1x64 ![1] bcast_S64_S1x64_1 (Host.reduceAdd h (constant S_ .f32 0x00000000#32) reducesTo_S100000x64_S64_d0 h_S_))
      (broadcastInDim S1x64 ![] bcast_S_S1x64 (constant S_ .f32 0x47C35000#32))))
  let cnt : Vec F S_ .f32 := subf (constant S_ .f32 0x47C35000#32) (sitofp .f32 (constantI S_ 32 0#32))
  select (broadcastInDim S64 ![] bcast_S_S64 (cmpf .ogt cnt (constant S_ .f32 0x00000000#32)))
    (Host.divf (Host.reduceAdd (mulf dev dev) (constant S_ .f32 0x00000000#32) reducesTo_S100000x64_S64_d0 h_S_) (broadcastInDim S64 ![] bcast_S_S64 cnt))
    (broadcastInDim S64 ![] bcast_S_S64 (id (constant S_ .f32 0x7FC00000#32)))

/-- A 64-vector as every row of a `[100000, 64]` array, as the reference spreads a bias or a column statistic. -/
abbrev rowsN (b : Vec F S64 .f32) : Vec F S100000x64 .f32 :=
  broadcastInDim S100000x64 ![0, 1] bcast_S1x64_S100000x64_0_1 (broadcastInDim S1x64 ![1] bcast_S64_S1x64_1 b)
/-- The same over the edges. -/
abbrev rowsE (b : Vec F S64 .f32) : Vec F S1600000x64 .f32 :=
  broadcastInDim S1600000x64 ![0, 1] bcast_S1x64_S1600000x64_0_1 (broadcastInDim S1x64 ![1] bcast_S64_S1x64_1 b)
/-- Zero everywhere, over the nodes and over the edges (the rectifier's other operand). -/
abbrev zerosN : Vec F S100000x64 .f32 := broadcastInDim S100000x64 ![] bcast_S_S100000x64 (constant S_ .f32 0x00000000#32)
abbrev zerosE : Vec F S1600000x64 .f32 := broadcastInDim S1600000x64 ![] bcast_S_S1600000x64 (constant S_ .f32 0x00000000#32)

/-- The edge stage on already gathered rows: add the edge features' projection and bias, rectify. -/
abbrev edgeStageR (g : Vec F S1600000x64 .f32) (ea : Vec F S1600000x32 .f32) (we : Vec F S32x64 .f32) (be : Vec F S64 .f32) :
    Vec F S1600000x64 .f32 :=
  maximumf (addf g (addf (Host.dotGeneral dot_S1600000x32_S32x64_S1600000x64_1_0_0_1_n_n none ea we) (rowsE be))) zerosE

/-- The edge messages. -/
abbrev msgR (x : Vec F S100000x64 .f32) (src : Vec F S1600000 .i32) (ea : Vec F S1600000x32 .f32) (we : Vec F S32x64 .f32) (be : Vec F S64 .f32) :
    Vec F S1600000x64 .f32 :=
  edgeStageR (gatherR x src) ea we be

/-- The node perceptron on `x + agg`. -/
abbrev mlpR (x agg : Vec F S100000x64 .f32) (w1 : Vec F S64x64 .f32) (b1 : Vec F S64 .f32) (w2 : Vec F S64x64 .f32) (b2 : Vec F S64 .f32) :
    Vec F S100000x64 .f32 :=
  addf (Host.dotGeneral dot_S100000x64_S64x64_S100000x64_1_0_0_1_n_n none
          (maximumf (addf (Host.dotGeneral dot_S100000x64_S64x64_S100000x64_1_0_0_1_n_n none (addf x agg) w1) (rowsN b1)) zerosN) w2) (rowsN b2)

/-- The normalisation with given column statistics, then the rectifier. -/
abbrev bnR (h : Vec F S100000x64 .f32) (mean var g bt : Vec F S64 .f32) : Vec F S100000x64 .f32 :=
  maximumf (addf (mulf (mulf (subf h (rowsN mean))
      (rowsN (Host.rsqrt (addf var (broadcastInDim S64 ![] bcast_S_S64 (constant S_ .f32 0x3727C5AC#32)))))) (rowsN g)) (rowsN bt)) zerosN

/-- The last projection. -/
abbrev outR (x : Vec F S100000x64 .f32) (w : Vec F S64x64 .f32) (b : Vec F S64 .f32) : Vec F S100000x64 .f32 :=
  addf (Host.dotGeneral dot_S100000x64_S64x64_S100000x64_1_0_0_1_n_n none x w) (rowsN b)

/-- One layer of the reference. The parameters are this layer's rows. -/
def layerR (x : Vec F S100000x64 .f32) (src dst : Vec F S1600000 .i32) (ea : Vec F S1600000x32 .f32)
    (we : Vec F S32x64 .f32) (be : Vec F S64 .f32) (w1 : Vec F S64x64 .f32) (b1 : Vec F S64 .f32)
    (w2 : Vec F S64x64 .f32) (b2 : Vec F S64 .f32) (g bt : Vec F S64 .f32) : Vec F S100000x64 .f32 :=
  let h2 : Vec F S100000x64 .f32 := mlpR x (aggR dst (msgR x src ea we be)) w1 b1 w2 b2
  bnR h2 (meanR h2) (varR h2) g bt

end Cert.ReferenceIdeal.Voc

end
-- ==== Proof.RValue.lean ====
import proofs.«430051_j50208167690776_1_alg».proof.Proof.RRun
import proofs.«430051_j50208167690776_1_alg».proof.Proof.RVoc

/-! The fold of the reference's operations read at its result buffer: three layers and the last projection, as
    `Voc.layerR` and `Voc.outR` compose them, of the argument arrays; and the argument arrays are not written. -/

noncomputable section

namespace Cert.ReferenceIdeal.Value

open Cert.ReferenceIdeal Cert.ReferenceIdeal.Gen Cert.ReferenceIdeal.Ops Cert.ReferenceIdeal.Run Cert.ReferenceIdeal.Voc
open Idealize.ShloMosaic Idealize.ShloMosaic.TcCoe Idealize.SL.Sem Idealize.ShloMosaic.StableHlo

variable {F : FTy → Type} [FloatOps F]

/-- The reference's result as a function of the launch contents `V` of its argument arrays. -/
abbrev resultR (V : Valuation τ sig (Elt F)) : Vec F S100000x64 .f32 :=
  outR
    (layerR
      (layerR
        (layerR (V (Proc.devRef .tc main_arg0)) (srcR (V (Proc.devRef .tc main_arg1))) (dstR (V (Proc.devRef .tc main_arg1))) (V (Proc.devRef .tc main_arg2))
        (we0 (V (Proc.devRef .tc main_arg3))) (vec0 (V (Proc.devRef .tc main_arg4))) (mat0 (V (Proc.devRef .tc main_arg5))) (vec0 (V (Proc.devRef .tc main_arg6)))
        (mat0 (V (Proc.devRef .tc main_arg7))) (vec0 (V (Proc.devRef .tc main_arg8))) (vec0 (V (Proc.devRef .tc main_arg9))) (vec0 (V (Proc.devRef .tc main_arg10))))
        (srcR (V (Proc.devRef .tc main_arg1))) (dstR (V (Proc.devRef .tc main_arg1))) (V (Proc.devRef .tc main_arg2))
        (we1 (V (Proc.devRef .tc main_arg3))) (vec1 (V (Proc.devRef .tc main_arg4))) (mat1 (V (Proc.devRef .tc main_arg5))) (vec1 (V (Proc.devRef .tc main_arg6)))
        (mat1 (V (Proc.devRef .tc main_arg7))) (vec1 (V (Proc.devRef .tc main_arg8))) (vec1 (V (Proc.devRef .tc main_arg9))) (vec1 (V (Proc.devRef .tc main_arg10))))
      (srcR (V (Proc.devRef .tc main_arg1))) (dstR (V (Proc.devRef .tc main_arg1))) (V (Proc.devRef .tc main_arg2))
        (we2 (V (Proc.devRef .tc main_arg3))) (vec2 (V (Proc.devRef .tc main_arg4))) (mat2 (V (Proc.devRef .tc main_arg5))) (vec2 (V (Proc.devRef .tc main_arg6)))
        (mat2 (V (Proc.devRef .tc main_arg7))) (vec2 (V (Proc.devRef .tc main_arg8))) (vec2 (V (Proc.devRef .tc main_arg9))) (vec2 (V (Proc.devRef .tc main_arg10))))
    (V (Proc.devRef .tc main_arg11)) (V (Proc.devRef .tc main_arg12))

/-- A fold over a concatenation is the second list's fold of the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The argument arrays are written by no operation -/

/-- The argument arrays. -/
def argRefs : List (Ref sig .tc) :=
  [main_arg0, main_arg1, main_arg2, main_arg3, main_arg4, main_arg5, main_arg6, main_arg7, main_arg8, main_arg9, main_arg10,
    main_arg11, main_arg12]

/-- An argument array is not the one buffer an operation writes when that buffer is no argument array. -/
theorem not_written {r y : Ref sig .tc} (hr : r ∈ argRefs) (hy : y ∉ argRefs) :
    Proc.devRef (τ := τ) .tc r ∉ ({Proc.devRef .tc y} : Finset (DevRef τ sig)) := by
  rw [Finset.mem_singleton]
  exact devRef_ne_of_ne fun e => hy (e ▸ hr)

/- Each operation of a list writes one buffer, none of them an argument array: so an argument array keeps its
   contents through the list. -/
theorem ops0_keeps {r : Ref sig .tc} (hr : r ∈ argRefs) (W : Valuation τ sig (Elt F)) :
    after (ops0 (F := F)) W (Proc.devRef .tc r) = W (Proc.devRef .tc r) :=
  after_of_forall_not_mem ops0 W (by
    intro op h
    repeat (cases h with | head => exact not_written hr (by decide) | tail _ h => ?_)
    exact nomatch h)
theorem ops1_keeps {r : Ref sig .tc} (hr : r ∈ argRefs) (W : Valuation τ sig (Elt F)) :
    after (ops1 (F := F)) W (Proc.devRef .tc r) = W (Proc.devRef .tc r) :=
  after_of_forall_not_mem ops1 W (by
    intro op h
    repeat (cases h with | head => exact not_written hr (by decide) | tail _ h => ?_)
    exact nomatch h)
theorem ops2_keeps {r : Ref sig .tc} (hr : r ∈ argRefs) (W : Valuation τ sig (Elt F)) :
    after (ops2 (F := F)) W (Proc.devRef .tc r) = W (Proc.devRef .tc r) :=
  after_of_forall_not_mem ops2 W (by
    intro op h
    repeat (cases h with | head => exact not_written hr (by decide) | tail _ h => ?_)
    exact nomatch h)
theorem ops3_keeps {r : Ref sig .tc} (hr : r ∈ argRefs) (W : Valuation τ sig (Elt F)) :
    after (ops3 (F := F)) W (Proc.devRef .tc r) = W (Proc.devRef .tc r) :=
  after_of_forall_not_mem ops3 W (by
    intro op h
    repeat (cases h with | head => exact not_written hr (by decide) | tail _ h => ?_)
    exact nomatch h)

/-- An argument array keeps its contents through the whole line. -/
theorem ops_keeps {r : Ref sig .tc} (hr : r ∈ argRefs) (V : Valuation τ sig (Elt F)) :
    after (ops (F := F)) V (Proc.devRef .tc r) = V (Proc.devRef .tc r) := by
  rw [after_append, after_append, after_append, ops3_keeps hr, ops2_keeps hr, ops1_keeps hr, ops0_keeps hr]

/-! ## What the reference holds where its line is cut

The line is cut every sixty statements, not at the layers' ends: between two pieces the reference holds a layer's
half-made values. The pieces of vocabulary for them. -/

/-- The perceptron's output of one layer: on `x` plus the aggregated messages. -/
abbrev h2R (x : Vec F S100000x64 .f32) (src dst : Vec F S1600000 .i32) (ea : Vec F S1600000x32 .f32)
    (we : Vec F S32x64 .f32) (be : Vec F S64 .f32) (w1 : Vec F S64x64 .f32) (b1 : Vec F S64 .f32)
    (w2 : Vec F S64x64 .f32) (b2 : Vec F S64 .f32) : Vec F S100000x64 .f32 :=
  mlpR x (aggR dst (msgR x src ea we be)) w1 b1 w2 b2

/-- The inverse standard deviation as a one-row array, as the reference holds it between two statements. -/
abbrev isdR (var : Vec F S64 .f32) : Vec F S1x64 .f32 :=
  broadcastInDim S1x64 ![1] bcast_S64_S1x64_1 (Host.rsqrt (addf var (broadcastInDim S64 ![] bcast_S_S64 (constant S_ .f32 0x3727C5AC#32))))

/-- The rest of the normalisation from the centred array and the inverse deviation's row. -/
abbrev bnTailR (d : Vec F S100000x64 .f32) (r : Vec F S1x64 .f32) (g bt : Vec F S64 .f32) : Vec F S100000x64 .f32 :=
  maximumf (addf (mulf (mulf d (broadcastInDim S100000x64 ![0, 1] bcast_S1x64_S100000x64_0_1 r)) (rowsN g)) (rowsN bt)) zerosN

/-- The column variance with the count's correction read from a buffer `c` (the reference passes the constant 0). -/
abbrev varC (h : Vec F S100000x64 .f32) (c : Vec F S_ .i32) : Vec F S64 .f32 :=
  let dev : Vec F S100000x64 .f32 := subf h (broadcastInDim S100000x64 ![0, 1] bcast_S1x64_S100000x64_0_1
    (Host.divf (broadcastInDim S1x64 ![1] bcast_S64_S1x64_1 (Host.reduceAdd h (constant S_ .f32 0x00000000#32) reducesTo_S100000x64_S64_d0 h_S_))
      (broadcastInDim S1x64 ![] bcast_S_S1x64 (constant S_ .f32 0x47C35000#32))))
  let cnt : Vec F S_ .f32 := subf (constant S_ .f32 0x47C35000#32) (sitofp .f32 c)
  select (broadcastInDim S64 ![] bcast_S_S64 (cmpf .ogt cnt (constant S_ .f32 0x00000000#32)))
    (Host.divf (Host.reduceAdd (mulf dev dev) (constant S_ .f32 0x00000000#32) reducesTo_S100000x64_S64_d0 h_S_) (broadcastInDim S64 ![] bcast_S_S64 cnt))
    (broadcastInDim S64 ![] bcast_S_S64 (id (constant S_ .f32 0x7FC00000#32)))

/-- Layer 0's perceptron output, of the argument arrays held by `W`. -/
abbrev hid0 (W : Valuation τ sig (Elt F)) : Vec F S100000x64 .f32 :=
  h2R (W (Proc.devRef .tc main_arg0)) (srcR (W (Proc.devRef .tc main_arg1))) (dstR (W (Proc.devRef .tc main_arg1))) (W (Proc.devRef .tc main_arg2)) (we0 (W (Proc.devRef .tc main_arg3))) (vec0 (W (Proc.devRef .tc main_arg4)))
    (mat0 (W (Proc.devRef .tc main_arg5))) (vec0 (W (Proc.devRef .tc main_arg6))) (mat0 (W (Proc.devRef .tc main_arg7))) (vec0 (W (Proc.devRef .tc main_arg8)))

/-- Layer 0's output, of what the first piece leaves: the centred array and the inverse deviation's row. -/
abbrev x1c (W : Valuation τ sig (Elt F)) : Vec F S100000x64 .f32 :=
  bnTailR (W (Proc.devRef .tc main_v48)) (W (Proc.devRef .tc main_v52)) (vec0 (W (Proc.devRef .tc main_arg9))) (vec0 (W (Proc.devRef .tc main_arg10)))

/-- Layer 1's perceptron output, of what the first piece leaves. -/
abbrev hid1 (W : Valuation τ sig (Elt F)) : Vec F S100000x64 .f32 :=
  h2R (x1c W) (W (Proc.devRef .tc main_v1)) (W (Proc.devRef .tc main_v3)) (W (Proc.devRef .tc main_arg2)) (we1 (W (Proc.devRef .tc main_arg3))) (vec1 (W (Proc.devRef .tc main_arg4)))
    (mat1 (W (Proc.devRef .tc main_arg5))) (vec1 (W (Proc.devRef .tc main_arg6))) (mat1 (W (Proc.devRef .tc main_arg7))) (vec1 (W (Proc.devRef .tc main_arg8)))

/-- Layer 1's output, of what the second piece leaves: the perceptron output, its column means, the count's correction. -/
abbrev x2c (W : Valuation τ sig (Elt F)) : Vec F S100000x64 .f32 :=
  bnTailR (subf (W (Proc.devRef .tc main_v103)) (rowsN (W (Proc.devRef .tc main_v106)))) (isdR (varC (W (Proc.devRef .tc main_v103)) (W (Proc.devRef .tc main_c_10))))
    (vec1 (W (Proc.devRef .tc main_arg9))) (vec1 (W (Proc.devRef .tc main_arg10)))

/-- Layer 2's perceptron output short of its last bias, of what the second piece leaves. -/
abbrev pre2 (W : Valuation τ sig (Elt F)) : Vec F S100000x64 .f32 :=
  Host.dotGeneral dot_S100000x64_S64x64_S100000x64_1_0_0_1_n_n none
    (maximumf (addf (Host.dotGeneral dot_S100000x64_S64x64_S100000x64_1_0_0_1_n_n none
        (addf (x2c W) (aggR (W (Proc.devRef .tc main_v3)) (msgR (x2c W) (W (Proc.devRef .tc main_v1)) (W (Proc.devRef .tc main_arg2)) (we2 (W (Proc.devRef .tc main_arg3))) (vec2 (W (Proc.devRef .tc main_arg4))))))
        (mat2 (W (Proc.devRef .tc main_arg5)))) (rowsN (vec2 (W (Proc.devRef .tc main_arg6))))) zerosN)
    (mat2 (W (Proc.devRef .tc main_arg7)))

/-- Layer 2's perceptron output, of what the third piece leaves. -/
abbrev hid2c (W : Valuation τ sig (Elt F)) : Vec F S100000x64 .f32 :=
  addf (W (Proc.devRef .tc main_v160)) (rowsN (W (Proc.devRef .tc main_v162)))

/-! ## Each piece's fold at the buffers the later pieces read

Each by computation: the fold unrolled, every operation's result at its own buffer its function's value and at any
other buffer what was there. The reductions, the gather and the scatter-add stay folded meanwhile: the equations
never look inside them. -/

attribute [local irreducible] Host.reduceAdd Host.scatterAdd Host.gather in
set_option maxRecDepth 8192 in
set_option maxHeartbeats 1000000 in
theorem p0_v1 (W : Valuation τ sig (Elt F)) : after (ops0 (F := F)) W (Proc.devRef .tc main_v1) = srcR (W (Proc.devRef .tc main_arg1)) := by
  after_results_simp
  rfl

attribute [local irreducible] Host.reduceAdd Host.scatterAdd Host.gather in
set_option maxRecDepth 8192 in
set_option maxHeartbeats 1000000 in
theorem p0_v3 (W : Valuation τ sig (Elt F)) : after (ops0 (F := F)) W (Proc.devRef .tc main_v3) = dstR (W (Proc.devRef .tc main_arg1)) := by
  after_results_simp
  rfl

attribute [local irreducible] Host.reduceAdd Host.scatterAdd Host.gather in
set_option maxRecDepth 8192 in
set_option maxHeartbeats 1000000 in
theorem p0_v48 (W : Valuation τ sig (Elt F)) :
    after (ops0 (F := F)) W (Proc.devRef .tc main_v48) = subf (hid0 W) (rowsN (meanR (hid0 W))) := by
  after_results_simp
  rfl

attribute [local irreducible] Host.reduceAdd Host.scatterAdd Host.gather in
set_option maxRecDepth 8192 in
set_option maxHeartbeats 1000000 in
theorem p0_v52 (W : Valuation τ sig (Elt F)) :
    after (ops0 (F := F)) W (Proc.devRef .tc main_v52) = isdR (varR (hid0 W)) := by
  after_results_simp
  rfl

attribute [local irreducible] Host.reduceAdd Host.scatterAdd Host.gather in
set_option maxRecDepth 8192 in
set_option maxHeartbeats 1000000 in
theorem p1_v1 (W : Valuation τ sig (Elt F)) : after (ops1 (F := F)) W (Proc.devRef .tc main_v1) = (W (Proc.devRef .tc main_v1)) := by
  after_results_simp

attribute [local irreducible] Host.reduceAdd Host.scatterAdd Host.gather in
set_option maxRecDepth 8192 in
set_option maxHeartbeats 1000000 in
theorem p1_v3 (W : Valuation τ sig (Elt F)) : after (ops1 (F := F)) W (Proc.devRef .tc main_v3) = (W (Proc.devRef .tc main_v3)) := by
  after_results_simp

attribute [local irreducible] Host.reduceAdd Host.scatterAdd Host.gather in
set_option maxRecDepth 8192 in
set_option maxHeartbeats 1000000 in
theorem p1_c10 (W : Valuation τ sig (Elt F)) :
    after (ops1 (F := F)) W (Proc.devRef .tc main_c_10) = constantI S_ 32 0#32 := by
  after_results_simp

attribute [local irreducible] Host.reduceAdd Host.scatterAdd Host.gather in
set_option maxRecDepth 8192 in
set_option maxHeartbeats 1000000 in
theorem p1_v103 (W : Valuation τ sig (Elt F)) : after (ops1 (F := F)) W (Proc.devRef .tc main_v103) = hid1 W := by
  after_results_simp
  rfl

attribute [local irreducible] Host.reduceAdd Host.scatterAdd Host.gather in
set_option maxRecDepth 8192 in
set_option maxHeartbeats 1000000 in
theorem p1_v106 (W : Valuation τ sig (Elt F)) : after (ops1 (F := F)) W (Proc.devRef .tc main_v106) = meanR (hid1 W) := by
  after_results_simp
  rfl

attribute [local irreducible] Host.reduceAdd Host.scatterAdd Host.gather in
set_option maxRecDepth 8192 in
set_option maxHeartbeats 1000000 in
theorem p2_v160 (W : Valuation τ sig (Elt F)) : after (ops2 (F := F)) W (Proc.devRef .tc main_v160) = pre2 W := by
  after_results_simp
  rfl

attribute [local irreducible] Host.reduceAdd Host.scatterAdd Host.gather in
set_option maxRecDepth 8192 in
set_option maxHeartbeats 1000000 in
theorem p2_v162 (W : Valuation τ sig (Elt F)) : after (ops2 (F := F)) W (Proc.devRef .tc main_v162) = vec2 (W (Proc.devRef .tc main_arg8)) := by
  after_results_simp
  rfl

attribute [local irreducible] Host.reduceAdd Host.scatterAdd Host.gather in
set_option maxRecDepth 8192 in
set_option maxHeartbeats 1000000 in
theorem p3_v193 (W : Valuation τ sig (Elt F)) :
    after (ops3 (F := F)) W (Proc.devRef .tc main_v193)
      = outR (bnR (hid2c W) (meanR (hid2c W)) (varR (hid2c W)) (vec2 (W (Proc.devRef .tc main_arg9))) (vec2 (W (Proc.devRef .tc main_arg10))))
          (W (Proc.devRef .tc main_arg11)) (W (Proc.devRef .tc main_arg12)) := by
  after_results_simp
  rfl

/-! ## The pieces composed, a layer folded as soon as it is complete -/

/-- The three layers' outputs, of the argument arrays. -/
abbrev lay0 (V : Valuation τ sig (Elt F)) : Vec F S100000x64 .f32 :=
  layerR (V (Proc.devRef .tc main_arg0)) (srcR (V (Proc.devRef .tc main_arg1))) (dstR (V (Proc.devRef .tc main_arg1))) (V (Proc.devRef .tc main_arg2))
    (we0 (V (Proc.devRef .tc main_arg3))) (vec0 (V (Proc.devRef .tc main_arg4))) (mat0 (V (Proc.devRef .tc main_arg5))) (vec0 (V (Proc.devRef .tc main_arg6)))
    (mat0 (V (Proc.devRef .tc main_arg7))) (vec0 (V (Proc.devRef .tc main_arg8))) (vec0 (V (Proc.devRef .tc main_arg9))) (vec0 (V (Proc.devRef .tc main_arg10)))
abbrev lay1 (V : Valuation τ sig (Elt F)) : Vec F S100000x64 .f32 :=
  layerR (lay0 V) (srcR (V (Proc.devRef .tc main_arg1))) (dstR (V (Proc.devRef .tc main_arg1))) (V (Proc.devRef .tc main_arg2))
    (we1 (V (Proc.devRef .tc main_arg3))) (vec1 (V (Proc.devRef .tc main_arg4))) (mat1 (V (Proc.devRef .tc main_arg5))) (vec1 (V (Proc.devRef .tc main_arg6)))
    (mat1 (V (Proc.devRef .tc main_arg7))) (vec1 (V (Proc.devRef .tc main_arg8))) (vec1 (V (Proc.devRef .tc main_arg9))) (vec1 (V (Proc.devRef .tc main_arg10)))
abbrev lay2 (V : Valuation τ sig (Elt F)) : Vec F S100000x64 .f32 :=
  layerR (lay1 V) (srcR (V (Proc.devRef .tc main_arg1))) (dstR (V (Proc.devRef .tc main_arg1))) (V (Proc.devRef .tc main_arg2))
    (we2 (V (Proc.devRef .tc main_arg3))) (vec2 (V (Proc.devRef .tc main_arg4))) (mat2 (V (Proc.devRef .tc main_arg5))) (vec2 (V (Proc.devRef .tc main_arg6)))
    (mat2 (V (Proc.devRef .tc main_arg7))) (vec2 (V (Proc.devRef .tc main_arg8))) (vec2 (V (Proc.devRef .tc main_arg9))) (vec2 (V (Proc.devRef .tc main_arg10)))

/-- After the first piece the second reads layer 0's output. -/
theorem x1_eq (V : Valuation τ sig (Elt F)) : x1c (after (ops0 (F := F)) V) = lay0 V := by
  delta x1c
  rw [p0_v48, p0_v52, ops0_keeps (r := main_arg9) (by decide), ops0_keeps (r := main_arg10) (by decide)]
  rfl

/-- After the first piece the second computes layer 1's perceptron output. -/
theorem hid1_eq (V : Valuation τ sig (Elt F)) :
    hid1 (after (ops0 (F := F)) V)
      = h2R (lay0 V) (srcR (V (Proc.devRef .tc main_arg1))) (dstR (V (Proc.devRef .tc main_arg1))) (V (Proc.devRef .tc main_arg2)) (we1 (V (Proc.devRef .tc main_arg3))) (vec1 (V (Proc.devRef .tc main_arg4)))
          (mat1 (V (Proc.devRef .tc main_arg5))) (vec1 (V (Proc.devRef .tc main_arg6))) (mat1 (V (Proc.devRef .tc main_arg7))) (vec1 (V (Proc.devRef .tc main_arg8))) := by
  delta hid1
  rw [x1_eq, p0_v1, p0_v3, ops0_keeps (r := main_arg2) (by decide), ops0_keeps (r := main_arg3) (by decide),
    ops0_keeps (r := main_arg4) (by decide), ops0_keeps (r := main_arg5) (by decide), ops0_keeps (r := main_arg6) (by decide),
    ops0_keeps (r := main_arg7) (by decide), ops0_keeps (r := main_arg8) (by decide)]

/-- After the second piece the third reads layer 1's output. -/
theorem x2_eq (V : Valuation τ sig (Elt F)) : x2c (after (ops1 (F := F)) (after ops0 V)) = lay1 V := by
  delta x2c
  rw [p1_v103, p1_v106, p1_c10, hid1_eq, ops1_keeps (r := main_arg9) (by decide), ops1_keeps (r := main_arg10) (by decide),
    ops0_keeps (r := main_arg9) (by decide), ops0_keeps (r := main_arg10) (by decide)]
  rfl

/-- After the third piece the last reads layer 2's perceptron output. -/
theorem hid2_eq (V : Valuation τ sig (Elt F)) :
    hid2c (after (ops2 (F := F)) (after ops1 (after ops0 V)))
      = h2R (lay1 V) (srcR (V (Proc.devRef .tc main_arg1))) (dstR (V (Proc.devRef .tc main_arg1))) (V (Proc.devRef .tc main_arg2)) (we2 (V (Proc.devRef .tc main_arg3))) (vec2 (V (Proc.devRef .tc main_arg4)))
          (mat2 (V (Proc.devRef .tc main_arg5))) (vec2 (V (Proc.devRef .tc main_arg6))) (mat2 (V (Proc.devRef .tc main_arg7))) (vec2 (V (Proc.devRef .tc main_arg8))) := by
  delta hid2c
  rw [p2_v160, p2_v162]
  delta pre2
  rw [x2_eq, p1_v1, p1_v3, p0_v1, p0_v3,
    ops1_keeps (r := main_arg2) (by decide), ops1_keeps (r := main_arg3) (by decide), ops1_keeps (r := main_arg4) (by decide),
    ops1_keeps (r := main_arg5) (by decide), ops1_keeps (r := main_arg6) (by decide), ops1_keeps (r := main_arg7) (by decide),
    ops1_keeps (r := main_arg8) (by decide),
    ops0_keeps (r := main_arg2) (by decide), ops0_keeps (r := main_arg3) (by decide), ops0_keeps (r := main_arg4) (by decide),
    ops0_keeps (r := main_arg5) (by decide), ops0_keeps (r := main_arg6) (by decide), ops0_keeps (r := main_arg7) (by decide),
    ops0_keeps (r := main_arg8) (by decide)]

/-- The fold at the result buffer. -/
theorem result_eq (V : Valuation τ sig (Elt F)) :
    after (ops (F := F)) V (Proc.devRef .tc main_v193) = resultR V := by
  rw [after_append, after_append, after_append, p3_v193, hid2_eq,
    ops2_keeps (r := main_arg9) (by decide), ops2_keeps (r := main_arg10) (by decide), ops2_keeps (r := main_arg11) (by decide),
    ops2_keeps (r := main_arg12) (by decide),
    ops1_keeps (r := main_arg9) (by decide), ops1_keeps (r := main_arg10) (by decide), ops1_keeps (r := main_arg11) (by decide),
    ops1_keeps (r := main_arg12) (by decide),
    ops0_keeps (r := main_arg9) (by decide), ops0_keeps (r := main_arg10) (by decide), ops0_keeps (r := main_arg11) (by decide),
    ops0_keeps (r := main_arg12) (by decide)]
  rfl

/-- No operation writes an argument array. -/
theorem arg_kept (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2)
    ∧ after (ops (F := F)) V (Proc.devRef .tc main_arg3) = V (Proc.devRef .tc main_arg3)
    ∧ after (ops (F := F)) V (Proc.devRef .tc main_arg4) = V (Proc.devRef .tc main_arg4)
    ∧ after (ops (F := F)) V (Proc.devRef .tc main_arg5) = V (Proc.devRef .tc main_arg5)
    ∧ after (ops (F := F)) V (Proc.devRef .tc main_arg6) = V (Proc.devRef .tc main_arg6)
    ∧ after (ops (F := F)) V (Proc.devRef .tc main_arg7) = V (Proc.devRef .tc main_arg7)
    ∧ after (ops (F := F)) V (Proc.devRef .tc main_arg8) = V (Proc.devRef .tc main_arg8)
    ∧ after (ops (F := F)) V (Proc.devRef .tc main_arg9) = V (Proc.devRef .tc main_arg9)
    ∧ after (ops (F := F)) V (Proc.devRef .tc main_arg10) = V (Proc.devRef .tc main_arg10)
    ∧ after (ops (F := F)) V (Proc.devRef .tc main_arg11) = V (Proc.devRef .tc main_arg11)
    ∧ after (ops (F := F)) V (Proc.devRef .tc main_arg12) = V (Proc.devRef .tc main_arg12) := by
  exact ⟨ops_keeps (by decide) V, ops_keeps (by decide) V, ops_keeps (by decide) V, ops_keeps (by decide) V, ops_keeps (by decide) V,
    ops_keeps (by decide) V, ops_keeps (by decide) V, ops_keeps (by decide) V, ops_keeps (by decide) V, ops_keeps (by decide) V,
    ops_keeps (by decide) V, ops_keeps (by decide) V, ops_keeps (by decide) V⟩

end Cert.ReferenceIdeal.Value

end
-- ==== Proof.RStage.lean ====
import proofs.«430051_j50208167690776_1_alg».proof.Proof.RVoc
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

/-! The reference's four dense stages, each a short composition of whole-array host operations, read index by
    index at the extended reals: each is the stage function of `Spec`. -/

noncomputable section

open scoped BigOperators

namespace Cert.ReferenceIdeal.Stage

open Cert.ReferenceIdeal Cert.ReferenceIdeal.Gen Cert.ReferenceIdeal.Voc Idealize.ShloMosaic Idealize.ShloMosaic.ValueIdx

/-! ## The two contraction records are the plain matrix product's -/

/-- The node stages' record contracts the left operand's columns with the right operand's rows and has no batch
    axis: it is the plain `[100000, 64] × [64, 64]` product. -/
theorem dotN_eq_plain : dot_S100000x64_S64x64_S100000x64_1_0_0_1_n_n = DotDims.plain 100000 64 64 := rfl
/-- The edge stage's likewise: the plain `[1600000, 32] × [32, 64]` product. -/
theorem dotE_eq_plain : dot_S1600000x32_S32x64_S1600000x64_1_0_0_1_n_n = DotDims.plain 1600000 32 64 := rfl

/-- A node-stage product at `(p, q)`: the sum over the 64 contracted coordinates. -/
theorem dotN_apply (A : Vec Ideal S100000x64 .f32) (B : Vec Ideal S64x64 .f32) (p : Fin 100000) (q : Fin 64) :
    Host.dotGeneral (F := Ideal) (φ₁ := .f32) (φ₂ := .f32) dot_S100000x64_S64x64_S100000x64_1_0_0_1_n_n none A B (ix2 p q)
      = ∑ k : Fin 64, A (ix2 p k) * B (ix2 k q) := by
  rw [dotN_eq_plain]
  exact StackMember.dotGeneral_plain_apply none A B p q

/-- The edge-stage product at `(p, q)`: the sum over the 32 contracted coordinates. -/
theorem dotE_apply (A : Vec Ideal S1600000x32 .f32) (B : Vec Ideal S32x64 .f32) (p : Fin 1600000) (q : Fin 64) :
    Host.dotGeneral (F := Ideal) (φ₁ := .f32) (φ₂ := .f32) dot_S1600000x32_S32x64_S1600000x64_1_0_0_1_n_n none A B (ix2 p q)
      = ∑ k : Fin 32, A (ix2 p k) * B (ix2 k q) := by
  rw [dotE_eq_plain]
  exact StackMember.dotGeneral_plain_apply none A B p q

/-! ## A 64-vector spread over the rows, and the scalar splats, at an index -/

/-- A vector spread over the node rows reads its own entry `q` in every row. -/
theorem rowsN_apply (b : Vec Ideal S64 .f32) (p : Fin 100000) (q : Fin 64) :
    rowsN (F := Ideal) b (ix2 p q) = b (ix1 q) := by
  show broadcastInDim S100000x64 ![0, 1] bcast_S1x64_S100000x64_0_1 (broadcastInDim S1x64 ![1] bcast_S64_S1x64_1 b) (ix2 p q) = _
  rw [broadcastInDim_apply _ _ _ (ix2 p q) (ix2 (0 : Fin 1) q) (by intro a; match a with | ⟨0, _⟩ => rfl | ⟨1, _⟩ => rfl)]
  exact broadcastInDim_apply _ _ _ _ (ix1 q) (by intro a; match a with | ⟨0, _⟩ => rfl)

/-- The same over the edge rows. -/
theorem rowsE_apply (b : Vec Ideal S64 .f32) (p : Fin 1600000) (q : Fin 64) :
    rowsE (F := Ideal) b (ix2 p q) = b (ix1 q) := by
  show broadcastInDim S1600000x64 ![0, 1] bcast_S1x64_S1600000x64_0_1 (broadcastInDim S1x64 ![1] bcast_S64_S1x64_1 b) (ix2 p q) = _
  rw [broadcastInDim_apply _ _ _ (ix2 p q) (ix2 (0 : Fin 1) q) (by intro a; match a with | ⟨0, _⟩ => rfl | ⟨1, _⟩ => rfl)]
  exact broadcastInDim_apply _ _ _ _ (ix1 q) (by intro a; match a with | ⟨0, _⟩ => rfl)

/-- The zero splat over the nodes is `0` everywhere. -/
theorem zerosN_apply (i : S100000x64.Idx) : zerosN (F := Ideal) i = 0 := by
  show broadcastInDim S100000x64 ![] bcast_S_S100000x64 (constant (F := Ideal) S_ .f32 0x00000000#32) i = _
  rw [broadcastInDim_apply _ _ _ i ix0 (fun a => a.elim0), constant_apply, Ideal.ofBits_zero_f32]

/-- The zero splat over the edges is `0` everywhere. -/
theorem zerosE_apply (i : S1600000x64.Idx) : zerosE (F := Ideal) i = 0 := by
  show broadcastInDim S1600000x64 ![] bcast_S_S1600000x64 (constant (F := Ideal) S_ .f32 0x00000000#32) i = _
  rw [broadcastInDim_apply _ _ _ i ix0 (fun a => a.elim0), constant_apply, Ideal.ofBits_zero_f32]

/-- The guard's splat over the 64 columns is the guard everywhere. -/
theorem epsS_apply (i : S64.Idx) :
    broadcastInDim S64 ![] bcast_S_S64 (constant (F := Ideal) S_ .f32 0x3727C5AC#32) i = Spec.eps := by
  rw [broadcastInDim_apply _ _ _ i ix0 (fun a => a.elim0), constant_apply]

/-- The edge stage: gathered source rows plus the edge features' projection and bias, rectified. -/
theorem edge_eq (g : Vec Ideal S1600000x64 .f32) (ea : Vec Ideal S1600000x32 .f32) (w : Vec Ideal S32x64 .f32) (b : Vec Ideal S64 .f32) :
    edgeStageR (F := Ideal) g ea w b = Spec.edgeG g ea w (Spec.row b) := by
  funext i
  obtain ⟨p, q, rfl⟩ : ∃ (p : Fin 1600000) (q : Fin 64), i = ix2 p q := ⟨i 0, i 1, eq_ix2 i⟩
  show max (g (ix2 p q) + (Host.dotGeneral (F := Ideal) dot_S1600000x32_S32x64_S1600000x64_1_0_0_1_n_n none ea w (ix2 p q)
    + rowsE (F := Ideal) b (ix2 p q))) (zerosE (F := Ideal) (ix2 p q)) = _
  rw [dotE_apply, rowsE_apply, zerosE_apply]
  rfl

/-- The hidden activation of the node perceptron at node `p`, hidden feature `k`. -/
theorem hid_apply (x agg : Vec Ideal S100000x64 .f32) (w1 : Vec Ideal S64x64 .f32) (b1 : Vec Ideal S64 .f32)
    (p : Fin 100000) (k : Fin 64) :
    maximumf (addf (Host.dotGeneral (F := Ideal) (φ₁ := .f32) (φ₂ := .f32) dot_S100000x64_S64x64_S100000x64_1_0_0_1_n_n none (addf x agg) w1)
        (rowsN (F := Ideal) b1)) (zerosN (F := Ideal)) (ix2 p k)
      = Spec.mlpHid x agg w1 (Spec.row b1) p k := by
  show max (Host.dotGeneral (F := Ideal) (φ₁ := .f32) (φ₂ := .f32) dot_S100000x64_S64x64_S100000x64_1_0_0_1_n_n none (addf x agg) w1 (ix2 p k)
    + rowsN (F := Ideal) b1 (ix2 p k)) (zerosN (F := Ideal) (ix2 p k)) = _
  rw [dotN_apply, rowsN_apply, zerosN_apply]
  rfl

/-- The node perceptron. -/
theorem mlp_eq (x agg : Vec Ideal S100000x64 .f32) (w1 : Vec Ideal S64x64 .f32) (b1 : Vec Ideal S64 .f32)
    (w2 : Vec Ideal S64x64 .f32) (b2 : Vec Ideal S64 .f32) :
    mlpR (F := Ideal) x agg w1 b1 w2 b2 = Spec.mlpG x agg w1 (Spec.row b1) w2 (Spec.row b2) := by
  funext i
  obtain ⟨p, q, rfl⟩ : ∃ (p : Fin 100000) (q : Fin 64), i = ix2 p q := ⟨i 0, i 1, eq_ix2 i⟩
  show Host.dotGeneral (F := Ideal) (φ₁ := .f32) (φ₂ := .f32) dot_S100000x64_S64x64_S100000x64_1_0_0_1_n_n none
      (maximumf (addf (Host.dotGeneral (F := Ideal) (φ₁ := .f32) (φ₂ := .f32) dot_S100000x64_S64x64_S100000x64_1_0_0_1_n_n none (addf x agg) w1)
        (rowsN (F := Ideal) b1)) (zerosN (F := Ideal))) w2 (ix2 p q) + rowsN (F := Ideal) b2 (ix2 p q) = _
  rw [dotN_apply, rowsN_apply]
  refine congrArg (· + b2 (ix1 q)) (Finset.sum_congr rfl fun k _ => ?_)
  rw [hid_apply]

/-- The normalisation with given column statistics. -/
theorem bn_eq (h : Vec Ideal S100000x64 .f32) (mean var g bt : Vec Ideal S64 .f32) :
    bnR (F := Ideal) h mean var g bt = Spec.bnG h (Spec.row mean) (Spec.row var) (Spec.row g) (Spec.row bt) := by
  funext i
  obtain ⟨p, q, rfl⟩ : ∃ (p : Fin 100000) (q : Fin 64), i = ix2 p q := ⟨i 0, i 1, eq_ix2 i⟩
  show max ((h (ix2 p q) - rowsN (F := Ideal) mean (ix2 p q))
      * rowsN (F := Ideal) (Host.rsqrt (addf var (broadcastInDim S64 ![] bcast_S_S64 (constant (F := Ideal) S_ .f32 0x3727C5AC#32)))) (ix2 p q)
      * rowsN (F := Ideal) g (ix2 p q) + rowsN (F := Ideal) bt (ix2 p q)) (zerosN (F := Ideal) (ix2 p q)) = _
  rw [rowsN_apply mean, rowsN_apply g, rowsN_apply bt, rowsN_apply, zerosN_apply]
  show max ((h (ix2 p q) - mean (ix1 q))
      * Ideal.rsqrt (var (ix1 q) + broadcastInDim S64 ![] bcast_S_S64 (constant (F := Ideal) S_ .f32 0x3727C5AC#32) (ix1 q))
      * g (ix1 q) + bt (ix1 q)) 0 = _
  rw [epsS_apply]
  rfl

/-- The last projection. -/
theorem out_eq (x : Vec Ideal S100000x64 .f32) (w : Vec Ideal S64x64 .f32) (b : Vec Ideal S64 .f32) :
    outR (F := Ideal) x w b = Spec.outG x w (Spec.row b) := by
  funext i
  obtain ⟨p, q, rfl⟩ : ∃ (p : Fin 100000) (q : Fin 64), i = ix2 p q := ⟨i 0, i 1, eq_ix2 i⟩
  show Host.dotGeneral (F := Ideal) dot_S100000x64_S64x64_S100000x64_1_0_0_1_n_n none x w (ix2 p q) + rowsN (F := Ideal) b (ix2 p q) = _
  rw [dotN_apply, rowsN_apply]
  rfl

end Cert.ReferenceIdeal.Stage

end
-- ==== Proof.TakeEq.lean ====
import proofs.«430051_j50208167690776_1_alg».proof.Proof.KVoc
import Idealize.ShloMosaic.Lib.StableHlo.Predicate
import Idealize.ShloMosaic.Lib.ReduceAll
import Idealize.ShloMosaic.Lib.ValueIdx
import Idealize.ShloMosaic.Lib.ValueLayout

/-! Where every source index lies in `[0, 100000)`, the filled gather fills nothing: its range mask is all ones, so
    it is the plain gather. -/

noncomputable section

namespace Cert.KernelIdeal.Take

open Cert.KernelIdeal Cert.KernelIdeal.Gen Cert.KernelIdeal.Voc Idealize.ShloMosaic Idealize.ShloMosaic.ValueIdx

variable {F : FTy → Type} [FloatOps F]

/-- Every index, read as a signed integer, lies in `[0, 100000)`. -/
def InRange (s : Vec F S1600000 .i32) : Prop := ∀ e : S1600000.Idx, (0 : Int) ≤ (s e).toInt ∧ (s e).toInt < 100000

/-- A left fold by `and` that starts at 1 and meets only 1s ends at 1. -/
theorem foldl_andi_all_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, _, h, hl =>
    foldl_andi_all_one f l _ (IntOp.andi_eq_one.2 ⟨h, hl a List.mem_cons_self⟩)
      (fun n hn => hl n (List.mem_cons_of_mem _ hn))

/-- A reduction by `and` from 1 of a mask that is 1 everywhere is 1 everywhere. -/
theorem reduce_andi_of_all_one {s t u : Shape} {axes : List (Fin s.rank)} (x : s.Idx → BitVec 1)
    (init : u.Idx → BitVec 1) (hr : s.ReducesTo axes t) (hu : 0 < u.numel) (j : t.Idx)
    (hinit : init (Shape.Idx.first hu) = 1#1) (hx : ∀ i, x i = 1#1) :
    Host.reduce IntOp.andi x init hr hu j = 1#1 := by
  rw [Host.reduce_eq_foldl]
  exact foldl_andi_all_one x _ _ hinit (fun i _ => hx i)

/-- A word in `[0, 100000)` is not wrapped: the choice "negative, so add the extent" keeps it. -/
theorem wrap_of_inRange (v : BitVec 32) (hv : (0 : Int) ≤ v.toInt ∧ v.toInt < 100000) :
    Scalar.select (IntOp.cmpi .slt v 0#32) (IntOp.addi v 100000#32) v = v := by
  have hc : ¬ IntOp.cmpi .slt v 0#32 = 1#1 := by
    rw [IntOp.cmpi_slt, show (0#32 : BitVec 32).toInt = 0 from by decide]
    omega
  exact if_neg hc

/-- A word in `[0, 100000)` passes both range tests. -/
theorem tests_of_inRange (v : BitVec 32) (hv : (0 : Int) ≤ v.toInt ∧ v.toInt < 100000) :
    IntOp.andi (IntOp.cmpi .sge v 0#32) (IntOp.cmpi .sle v 99999#32) = 1#1 := by
  refine IntOp.andi_eq_one.2 ⟨?_, ?_⟩
  · rw [IntOp.cmpi_sge, show (0#32 : BitVec 32).toInt = 0 from by decide]
    exact hv.1
  · rw [IntOp.cmpi_sle, show (99999#32 : BitVec 32).toInt = 99999 from by decide]
    omega

/-- In range, no edge's mask bit is clear. -/
theorem inRangeK_eq_one (s : Vec F S1600000 .i32) (h : InRange s) (e : S1600000.Idx) : inRangeK s e = 1#1 := by
  refine reduce_andi_of_all_one _ _ _ _ e rfl (fun i => ?_)
  -- the column at row `i` is the (unwrapped) index of one edge `e'`
  obtain ⟨e', he'⟩ : ∃ e' : S1600000.Idx, idxColK s i
      = Scalar.select (IntOp.cmpi .slt (s e') 0#32) (IntOp.addi (s e') 100000#32) (s e') := ⟨_, rfl⟩
  show IntOp.andi (IntOp.cmpi .sge (idxColK s i) 0#32) (IntOp.cmpi .sle (idxColK s i) 99999#32) = 1#1
  rw [he', wrap_of_inRange _ (h e')]
  exact tests_of_inRange _ (h e')

/-- A choice whose bit is set is its first alternative. -/
theorem select_of_one {α : Type} (c : BitVec 1) (a b : α) (hc : c = 1#1) : Scalar.select c a b = a := if_pos hc

/-- In range, the filled gather is the gather. -/
theorem take_eq_gather (x : Vec F S100000x64 .f32) (s : Vec F S1600000 .i32) (h : InRange s) : takeK x s = gatherK x s := by
  funext i
  exact select_of_one _ _ _ (inRangeK_eq_one s h _)

end Cert.KernelIdeal.Take

end
-- ==== Proof.Bridge.lean ====
import proofs.«430051_j50208167690776_1_alg».proof.Proof.KVoc
import proofs.«430051_j50208167690776_1_alg».proof.Proof.RVoc
import proofs.«430051_j50208167690776_1_alg».proof.Proof.RStage
import proofs.«430051_j50208167690776_1_alg».proof.Proof.TakeEq
import Idealize.ShloMosaic.Lib.ValueIdx
import Idealize.ShloMosaic.Lib.ValueLayout

/-! One layer of the kernel program and one layer of the reference are the same function of the activations and the
    parameter rows, where every source index is in range: the three regions' stage functions are the reference's
    three dense stages read index by index; the gather, the scatter-add and the column statistics are the same host
    operations on both sides; in range the filled gather fills nothing. Likewise the last projection. -/

noncomputable section

namespace Cert.Bridge

open Idealize.ShloMosaic Idealize.ShloMosaic.ValueIdx

open Cert.KernelIdeal.Voc Cert.ReferenceIdeal.Voc Cert.ReferenceIdeal.Stage Cert.KernelIdeal.Take

/-- The kernel's row layout of a 64-vector is `Spec.row`. -/
theorem rowK_eq (v : Vec Ideal Cert.KernelIdeal.S64 .f32) : rowK v = Spec.row v := by
  funext i
  obtain ⟨u, q, rfl⟩ : ∃ (u : Fin 1) (q : Fin 64), i = ix2 u q := ⟨i 0, i 1, eq_ix2 i⟩
  exact shapeCast_a_1a_apply v _ u q

/-- One layer. -/
theorem layer_eq (x : Vec Ideal Cert.KernelIdeal.S100000x64 .f32) (s d : Vec Ideal Cert.KernelIdeal.S1600000 .i32)
    (ea : Vec Ideal Cert.KernelIdeal.S1600000x32 .f32) (we : Vec Ideal Cert.KernelIdeal.S32x64 .f32) (be : Vec Ideal Cert.KernelIdeal.S64 .f32)
    (w1 : Vec Ideal Cert.KernelIdeal.S64x64 .f32) (b1 : Vec Ideal Cert.KernelIdeal.S64 .f32)
    (w2 : Vec Ideal Cert.KernelIdeal.S64x64 .f32) (b2 : Vec Ideal Cert.KernelIdeal.S64 .f32) (g bt : Vec Ideal Cert.KernelIdeal.S64 .f32)
    (hs : InRange (F := Ideal) s) :
    layerK x s d ea we be w1 b1 w2 b2 g bt = layerR (F := Ideal) x s d ea we be w1 b1 w2 b2 g bt := by
  have hmsg : Spec.edgeG (takeK x s) ea we (rowK be) = msgR (F := Ideal) x s ea we be := by
    rw [take_eq_gather x s hs, rowK_eq]
    exact (edge_eq (gatherR (F := Ideal) x s) ea we be).symm
  have hh2 : Spec.mlpG x (aggK d (Spec.edgeG (takeK x s) ea we (rowK be))) w1 (rowK b1) w2 (rowK b2)
      = mlpR (F := Ideal) x (aggR d (msgR x s ea we be)) w1 b1 w2 b2 := by
    rw [hmsg, rowK_eq, rowK_eq]
    exact (mlp_eq x (aggR (F := Ideal) d (msgR x s ea we be)) w1 b1 w2 b2).symm
  unfold layerK layerR
  dsimp only
  rw [hh2, rowK_eq, rowK_eq, rowK_eq, rowK_eq]
  exact (bn_eq _ _ _ g bt).symm

/-- The last projection. -/
theorem out_eq (x : Vec Ideal Cert.KernelIdeal.S100000x64 .f32) (w : Vec Ideal Cert.KernelIdeal.S64x64 .f32) (b : Vec Ideal Cert.KernelIdeal.S64 .f32) :
    outK x w b = outR (F := Ideal) x w b := by
  unfold outK
  rw [rowK_eq]
  exact (Cert.ReferenceIdeal.Stage.out_eq x w b).symm

end Cert.Bridge

end
-- ==== Proof.PreIdx.lean ====
import proofs.«430051_j50208167690776_1_alg».proof.Defs
import proofs.«430051_j50208167690776_1_alg».proof.Proof.Gen.Pre_finite_inputs
import proofs.«430051_j50208167690776_1_alg».proof.Proof.TakeEq
import Idealize.ShloMosaic.Lib.StableHlo.Predicate
import Idealize.ShloMosaic.Lib.ReduceAll

/-! The precondition's last conjunct, decoded: every entry of row 0 of the edge list lies in `[0, 100000)`. -/

noncomputable section

namespace Cert.KernelIdeal.PreIdx

open Cert.KernelIdeal Cert.KernelIdeal.Gen Cert.KernelIdeal.Voc Cert.KernelIdeal.Take Idealize.ShloMosaic Idealize.ShloMosaic.TcCoe Idealize.SL.Sem

/-- A rank-0 array has one index. -/
instance subsingleton_scalar_idx : Subsingleton Cert.Pre_finite_inputs.S_.Idx := ⟨fun _ _ => funext fun d => d.elim0⟩

/-- Under the precondition the source row is in range, on every device. -/
theorem src_inRange (m : (ℓ : Loc nD τ sig) → Buf (Elt Ideal) ℓ) (h : Cert.Pre_KernelIdeal m) (c : Dev nD) :
    InRange (F := Ideal) (srcK (m ((c.tc : Thread nD τ).loc main_arg1))) := by
  intro e
  -- the predicate's one word is 1
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  -- its last conjunct: the conjunction over all edges of the two range tests
  have h1 := (IntOp.andi_eq_one.1 h0).2
  -- at edge `e`
  have h2 := Host.reduce_andi_all _ _ _ _ _ h1 e
  obtain ⟨ha, hb⟩ := IntOp.andi_eq_one.1 h2
  have ha' : (0#32 : BitVec 32).toInt ≤ (srcK (F := Ideal) (m ((c.tc : Thread nD τ).loc main_arg1)) e).toInt :=
    IntOp.cmpi_sge.1 ha
  have hb' : (srcK (F := Ideal) (m ((c.tc : Thread nD τ).loc main_arg1)) e).toInt < (100000#32 : BitVec 32).toInt :=
    IntOp.cmpi_slt.1 hb
  rw [show (0#32 : BitVec 32).toInt = 0 from by decide] at ha'
  rw [show (100000#32 : BitVec 32).toInt = 100000 from by decide] at hb'
  exact ⟨ha', hb'⟩

end Cert.KernelIdeal.PreIdx

end
-- ==== Proof.Assemble.lean ====
import proofs.«430051_j50208167690776_1_alg».proof.Defs
import proofs.«430051_j50208167690776_1_alg».proof.Proof.Gen.Kernel.Frame
import proofs.«430051_j50208167690776_1_alg».proof.Proof.Gen.KernelIdeal.Frame
import proofs.«430051_j50208167690776_1_alg».proof.Proof.Gen.ReferenceIdeal
import proofs.«430051_j50208167690776_1_alg».proof.Proof.Gen.Pre_finite_inputs
import proofs.«430051_j50208167690776_1_alg».proof.Proof.KRun
import proofs.«430051_j50208167690776_1_alg».proof.Proof.KChain0
import proofs.«430051_j50208167690776_1_alg».proof.Proof.KChain1
import proofs.«430051_j50208167690776_1_alg».proof.Proof.KChain2
import proofs.«430051_j50208167690776_1_alg».proof.Proof.KChainOut
import proofs.«430051_j50208167690776_1_alg».proof.Proof.RRun
import proofs.«430051_j50208167690776_1_alg».proof.Proof.RValue
import proofs.«430051_j50208167690776_1_alg».proof.Proof.Bridge
import proofs.«430051_j50208167690776_1_alg».proof.Proof.PreIdx

/-! The two programs' results as one term: the reference's three layers and last projection of the kernel program's
    own argument arrays. The kernel program's last boundary holds it (its layers are the reference's, in range); the
    reference's fold holds it from memories agreeing on the arguments. -/

noncomputable section

namespace Cert.Assemble

open Idealize.ShloMosaic Idealize.ShloMosaic.TcCoe Idealize.SL.Sem Idealize.ShloMosaic.StableHlo

local notation "R.we0" => Cert.ReferenceIdeal.Voc.we0
local notation "R.we1" => Cert.ReferenceIdeal.Voc.we1
local notation "R.we2" => Cert.ReferenceIdeal.Voc.we2
local notation "R.vec0" => Cert.ReferenceIdeal.Voc.vec0
local notation "R.vec1" => Cert.ReferenceIdeal.Voc.vec1
local notation "R.vec2" => Cert.ReferenceIdeal.Voc.vec2
local notation "R.mat0" => Cert.ReferenceIdeal.Voc.mat0
local notation "R.mat1" => Cert.ReferenceIdeal.Voc.mat1
local notation "R.mat2" => Cert.ReferenceIdeal.Voc.mat2

open Cert.ReferenceIdeal.Voc (srcR dstR layerR outR)

/-- The common result, from the kernel program's launch memory. -/
def result (m : (ℓ : Loc Cert.KernelIdeal.nD Cert.KernelIdeal.τ Cert.KernelIdeal.sig) → Buf (Elt Ideal) ℓ) (c : Dev Cert.KernelIdeal.nD) :
    Vec Ideal Cert.ReferenceIdeal.S100000x64 .f32 :=
  outR (F := Ideal)
    (layerR (F := Ideal)
      (layerR (F := Ideal)
        (layerR (F := Ideal) (m ((c.tc : Thread Cert.KernelIdeal.nD Cert.KernelIdeal.τ).loc Cert.KernelIdeal.main_arg0)) (srcR (m ((c.tc : Thread Cert.KernelIdeal.nD Cert.KernelIdeal.τ).loc Cert.KernelIdeal.main_arg1))) (dstR (m ((c.tc : Thread Cert.KernelIdeal.nD Cert.KernelIdeal.τ).loc Cert.KernelIdeal.main_arg1))) (m ((c.tc : Thread Cert.KernelIdeal.nD Cert.KernelIdeal.τ).loc Cert.KernelIdeal.main_arg2))
        (R.we0 (m ((c.tc : Thread Cert.KernelIdeal.nD Cert.KernelIdeal.τ).loc Cert.KernelIdeal.main_arg3))) (R.vec0 (m ((c.tc : Thread Cert.KernelIdeal.nD Cert.KernelIdeal.τ).loc Cert.KernelIdeal.main_arg4))) (R.mat0 (m ((c.tc : Thread Cert.KernelIdeal.nD Cert.KernelIdeal.τ).loc Cert.KernelIdeal.main_arg5))) (R.vec0 (m ((c.tc : Thread Cert.KernelIdeal.nD Cert.KernelIdeal.τ).loc Cert.KernelIdeal.main_arg6)))
        (R.mat0 (m ((c.tc : Thread Cert.KernelIdeal.nD Cert.KernelIdeal.τ).loc Cert.KernelIdeal.main_arg7))) (R.vec0 (m ((c.tc : Thread Cert.KernelIdeal.nD Cert.KernelIdeal.τ).loc Cert.KernelIdeal.main_arg8))) (R.vec0 (m ((c.tc : Thread Cert.KernelIdeal.nD Cert.KernelIdeal.τ).loc Cert.KernelIdeal.main_arg9))) (R.vec0 (m ((c.tc : Thread Cert.KernelIdeal.nD Cert.KernelIdeal.τ).loc Cert.KernelIdeal.main_arg10))))
        (srcR (m ((c.tc : Thread Cert.KernelIdeal.nD Cert.KernelIdeal.τ).loc Cert.KernelIdeal.main_arg1))) (dstR (m ((c.tc : Thread Cert.KernelIdeal.nD Cert.KernelIdeal.τ).loc Cert.KernelIdeal.main_arg1))) (m ((c.tc : Thread Cert.KernelIdeal.nD Cert.KernelIdeal.τ).loc Cert.KernelIdeal.main_arg2))
        (R.we1 (m ((c.tc : Thread Cert.KernelIdeal.nD Cert.KernelIdeal.τ).loc Cert.KernelIdeal.main_arg3))) (R.vec1 (m ((c.tc : Thread Cert.KernelIdeal.nD Cert.KernelIdeal.τ).loc Cert.KernelIdeal.main_arg4))) (R.mat1 (m ((c.tc : Thread Cert.KernelIdeal.nD Cert.KernelIdeal.τ).loc Cert.KernelIdeal.main_arg5))) (R.vec1 (m ((c.tc : Thread Cert.KernelIdeal.nD Cert.KernelIdeal.τ).loc Cert.KernelIdeal.main_arg6)))
        (R.mat1 (m ((c.tc : Thread Cert.KernelIdeal.nD Cert.KernelIdeal.τ).loc Cert.KernelIdeal.main_arg7))) (R.vec1 (m ((c.tc : Thread Cert.KernelIdeal.nD Cert.KernelIdeal.τ).loc Cert.KernelIdeal.main_arg8))) (R.vec1 (m ((c.tc : Thread Cert.KernelIdeal.nD Cert.KernelIdeal.τ).loc Cert.KernelIdeal.main_arg9))) (R.vec1 (m ((c.tc : Thread Cert.KernelIdeal.nD Cert.KernelIdeal.τ).loc Cert.KernelIdeal.main_arg10))))
      (srcR (m ((c.tc : Thread Cert.KernelIdeal.nD Cert.KernelIdeal.τ).loc Cert.KernelIdeal.main_arg1))) (dstR (m ((c.tc : Thread Cert.KernelIdeal.nD Cert.KernelIdeal.τ).loc Cert.KernelIdeal.main_arg1))) (m ((c.tc : Thread Cert.KernelIdeal.nD Cert.KernelIdeal.τ).loc Cert.KernelIdeal.main_arg2))
        (R.we2 (m ((c.tc : Thread Cert.KernelIdeal.nD Cert.KernelIdeal.τ).loc Cert.KernelIdeal.main_arg3))) (R.vec2 (m ((c.tc : Thread Cert.KernelIdeal.nD Cert.KernelIdeal.τ).loc Cert.KernelIdeal.main_arg4))) (R.mat2 (m ((c.tc : Thread Cert.KernelIdeal.nD Cert.KernelIdeal.τ).loc Cert.KernelIdeal.main_arg5))) (R.vec2 (m ((c.tc : Thread Cert.KernelIdeal.nD Cert.KernelIdeal.τ).loc Cert.KernelIdeal.main_arg6)))
        (R.mat2 (m ((c.tc : Thread Cert.KernelIdeal.nD Cert.KernelIdeal.τ).loc Cert.KernelIdeal.main_arg7))) (R.vec2 (m ((c.tc : Thread Cert.KernelIdeal.nD Cert.KernelIdeal.τ).loc Cert.KernelIdeal.main_arg8))) (R.vec2 (m ((c.tc : Thread Cert.KernelIdeal.nD Cert.KernelIdeal.τ).loc Cert.KernelIdeal.main_arg9))) (R.vec2 (m ((c.tc : Thread Cert.KernelIdeal.nD Cert.KernelIdeal.τ).loc Cert.KernelIdeal.main_arg10))))
    (m ((c.tc : Thread Cert.KernelIdeal.nD Cert.KernelIdeal.τ).loc Cert.KernelIdeal.main_arg11)) (m ((c.tc : Thread Cert.KernelIdeal.nD Cert.KernelIdeal.τ).loc Cert.KernelIdeal.main_arg12))

/-- The kernel program's last boundary holds the common result at its result array. -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W30 (F := Ideal) m ρ c (Proc.devRef .tc Cert.KernelIdeal.main_v107) = result m c := by
  have hs := Cert.KernelIdeal.PreIdx.src_inRange m hpre c
  rw [Cert.KernelIdeal.Chain.out m ρ c, Cert.KernelIdeal.Chain.layer2 m ρ c, Cert.KernelIdeal.Chain.layer1 m ρ c,
    Cert.KernelIdeal.Chain.layer0 m ρ c]
  rw [Cert.Bridge.layer_eq _ _ _ _ _ _ _ _ _ _ _ _ hs, Cert.Bridge.layer_eq _ _ _ _ _ _ _ _ _ _ _ _ hs,
    Cert.Bridge.layer_eq _ _ _ _ _ _ _ _ _ _ _ _ hs, Cert.Bridge.out_eq]
  rfl

/-- The reference's fold holds the common result, from a memory agreeing with the kernel program's on the arguments. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.resultR (F := Ideal) (launchContents m' c) = result m c := by
  unfold Cert.ReferenceIdeal.Value.resultR result
  rw [show launchContents m' c (Proc.devRef .tc Cert.ReferenceIdeal.main_arg0) = m ((c.tc : Thread Cert.KernelIdeal.nD Cert.KernelIdeal.τ).loc Cert.KernelIdeal.main_arg0) from h0]
  rw [show launchContents m' c (Proc.devRef .tc Cert.ReferenceIdeal.main_arg1) = m ((c.tc : Thread Cert.KernelIdeal.nD Cert.KernelIdeal.τ).loc Cert.KernelIdeal.main_arg1) from h1]
  rw [show launchContents m' c (Proc.devRef .tc Cert.ReferenceIdeal.main_arg2) = m ((c.tc : Thread Cert.KernelIdeal.nD Cert.KernelIdeal.τ).loc Cert.KernelIdeal.main_arg2) from h2]
  rw [show launchContents m' c (Proc.devRef .tc Cert.ReferenceIdeal.main_arg3) = m ((c.tc : Thread Cert.KernelIdeal.nD Cert.KernelIdeal.τ).loc Cert.KernelIdeal.main_arg3) from h3]
  rw [show launchContents m' c (Proc.devRef .tc Cert.ReferenceIdeal.main_arg4) = m ((c.tc : Thread Cert.KernelIdeal.nD Cert.KernelIdeal.τ).loc Cert.KernelIdeal.main_arg4) from h4]
  rw [show launchContents m' c (Proc.devRef .tc Cert.ReferenceIdeal.main_arg5) = m ((c.tc : Thread Cert.KernelIdeal.nD Cert.KernelIdeal.τ).loc Cert.KernelIdeal.main_arg5) from h5]
  rw [show launchContents m' c (Proc.devRef .tc Cert.ReferenceIdeal.main_arg6) = m ((c.tc : Thread Cert.KernelIdeal.nD Cert.KernelIdeal.τ).loc Cert.KernelIdeal.main_arg6) from h6]
  rw [show launchContents m' c (Proc.devRef .tc Cert.ReferenceIdeal.main_arg7) = m ((c.tc : Thread Cert.KernelIdeal.nD Cert.KernelIdeal.τ).loc Cert.KernelIdeal.main_arg7) from h7]
  rw [show launchContents m' c (Proc.devRef .tc Cert.ReferenceIdeal.main_arg8) = m ((c.tc : Thread Cert.KernelIdeal.nD Cert.KernelIdeal.τ).loc Cert.KernelIdeal.main_arg8) from h8]
  rw [show launchContents m' c (Proc.devRef .tc Cert.ReferenceIdeal.main_arg9) = m ((c.tc : Thread Cert.KernelIdeal.nD Cert.KernelIdeal.τ).loc Cert.KernelIdeal.main_arg9) from h9]
  rw [show launchContents m' c (Proc.devRef .tc Cert.ReferenceIdeal.main_arg10) = m ((c.tc : Thread Cert.KernelIdeal.nD Cert.KernelIdeal.τ).loc Cert.KernelIdeal.main_arg10) from h10]
  rw [show launchContents m' c (Proc.devRef .tc Cert.ReferenceIdeal.main_arg11) = m ((c.tc : Thread Cert.KernelIdeal.nD Cert.KernelIdeal.τ).loc Cert.KernelIdeal.main_arg11) from h11]
  rw [show launchContents m' c (Proc.devRef .tc Cert.ReferenceIdeal.main_arg12) = m ((c.tc : Thread Cert.KernelIdeal.nD Cert.KernelIdeal.τ).loc Cert.KernelIdeal.main_arg12) from h12]

end Cert.Assemble

end
-- ==== Proof.lean ====
import proofs.«430051_j50208167690776_1_alg».proof.Defs
import proofs.«430051_j50208167690776_1_alg».proof.Proof.Gen.Kernel
import proofs.«430051_j50208167690776_1_alg».proof.Proof.Gen.Kernel.Skeleton
import proofs.«430051_j50208167690776_1_alg».proof.Proof.Gen.Kernel.Launch
import proofs.«430051_j50208167690776_1_alg».proof.Proof.Gen.Kernel.Points
import proofs.«430051_j50208167690776_1_alg».proof.Proof.Gen.Kernel.Frame
import proofs.«430051_j50208167690776_1_alg».proof.Proof.Gen.KernelIdeal
import proofs.«430051_j50208167690776_1_alg».proof.Proof.Gen.KernelIdeal.Skeleton
import proofs.«430051_j50208167690776_1_alg».proof.Proof.Gen.KernelIdeal.Launch
import proofs.«430051_j50208167690776_1_alg».proof.Proof.Gen.KernelIdeal.Points
import proofs.«430051_j50208167690776_1_alg».proof.Proof.Gen.KernelIdeal.Frame
import proofs.«430051_j50208167690776_1_alg».proof.Proof.Gen.ReferenceIdeal
import proofs.«430051_j50208167690776_1_alg».proof.Proof.Gen.Pre_finite_inputs
import proofs.«430051_j50208167690776_1_alg».proof.Proof.Assemble
import Idealize.ShloMosaic.Adequacy
import Idealize.ShloMosaic.Init

/-! A three-layer edge-aware message-passing network: per layer, gather the source rows, add the projected edge
    features and rectify (tiled over edges), scatter-add into the destination rows, a two-layer perceptron on
    `x + agg` (tiled over nodes), column mean and variance, normalise and rectify; then one last projection.
    The kernel program does the four dense stages in ten tiled regions and everything else on the host; the
    reference does all of it on the host. Over the extended reals each region's output array is the reference's
    stage read index by index, the host operations around the regions are the reference's own, and where every
    source index is in range the kernel program's filled gather fills nothing; so the results agree. The frames
    of the two kernel programs are the generated ones; the reference is a straight line of host operations. -/

noncomputable section

namespace Cert.Proof

open Idealize.ShloMosaic Idealize.ShloMosaic.TcCoe Idealize.SL.Sem Idealize.ShloMosaic.StableHlo

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun r h c =>
      have k := Cert.ReferenceIdeal.Value.arg_kept (F := Ideal) (launchContents m c)
      ⟨(h c _).trans k.1,
        (h c _).trans k.2.1,
        (h c _).trans k.2.2.1,
        (h c _).trans k.2.2.2.1,
        (h c _).trans k.2.2.2.2.1,
        (h c _).trans k.2.2.2.2.2.1,
        (h c _).trans k.2.2.2.2.2.2.1,
        (h c _).trans k.2.2.2.2.2.2.2.1,
        (h c _).trans k.2.2.2.2.2.2.2.2.1,
        (h c _).trans k.2.2.2.2.2.2.2.2.2.1,
        (h c _).trans k.2.2.2.2.2.2.2.2.2.2.1,
        (h c _).trans k.2.2.2.2.2.2.2.2.2.2.2.1,
        (h c _).trans k.2.2.2.2.2.2.2.2.2.2.2.2⟩)
    (Cert.ReferenceIdeal.Run.run (F := Ideal) m ρ),
  trivial,
  fun m ρ m' ρ' hpre hagree => ⟨fun c => Cert.Assemble.result m c,
    (θ_run Cert.KernelIdeal.defs _ _).mono (fun r h c => ⟨(h c).1.trans (Cert.Assemble.kernel_value m ρ hpre c), (h c).2⟩)
      (Cert.KernelIdeal.Gen.run_val (F := Ideal) m ρ),
    (θ_run Cert.ReferenceIdeal.defs _ _).mono (fun r h c =>
      have k := Cert.ReferenceIdeal.Value.arg_kept (F := Ideal) (launchContents m' c)
      ⟨((h c _).trans (Cert.ReferenceIdeal.Value.result_eq (F := Ideal) (launchContents m' c))).trans
          (Cert.Assemble.reference_value m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2),
        (h c _).trans k.1,
        (h c _).trans k.2.1,
        (h c _).trans k.2.2.1,
        (h c _).trans k.2.2.2.1,
        (h c _).trans k.2.2.2.2.1,
        (h c _).trans k.2.2.2.2.2.1,
        (h c _).trans k.2.2.2.2.2.2.1,
        (h c _).trans k.2.2.2.2.2.2.2.1,
        (h c _).trans k.2.2.2.2.2.2.2.2.1,
        (h c _).trans k.2.2.2.2.2.2.2.2.2.1,
        (h c _).trans k.2.2.2.2.2.2.2.2.2.2.1,
        (h c _).trans k.2.2.2.2.2.2.2.2.2.2.2.1,
        (h c _).trans k.2.2.2.2.2.2.2.2.2.2.2.2⟩)
      (Cert.ReferenceIdeal.Run.run (F := Ideal) m' ρ')⟩⟩

end Cert.Proof

end
